-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x32 : Shape := ⟨2, ![600000, 32]⟩
abbrev S3x32x128 : Shape := ⟨3, ![3, 32, 128]⟩
abbrev S3x128 : Shape := ⟨2, ![3, 128]⟩
abbrev S3x128x128 : Shape := ⟨3, ![3, 128, 128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x32 : S_.BroadcastsInDim S600000x32 (![] : Fin 0 → Fin S600000x32.rank)
  reducesTo_S600000x32_S_d0_1 : S600000x32.ReducesTo [0, 1] S_
  bcast_S_S3x32x128 : S_.BroadcastsInDim S3x32x128 (![] : Fin 0 → Fin S3x32x128.rank)
  reducesTo_S3x32x128_S_d0_1_2 : S3x32x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_arg1 : IVec S2x600000 32) (main_v48 : IVec S_ 1) (main_v50 : IVec S600000 32) (main_c_18 : IVec S_ 32) : IVec S_ 1 :=
  let main_v51 : IVec S600000 32 := broadcastInDim S600000 ![] bcast_S_S600000 main_c_18
  let main_v52 : IVec S600000 1 := cmpi .sge main_v50 main_v51
  let main_v53 : IVec S1x600000 32 := (extractStridedSlice S1x600000 ![0, 0] · slices_S2x600000_S1x600000_0_0) main_arg1
  let main_v54 : IVec S600000 32 := shapeCast S600000 main_v53 shapeCasts_S1x600000_S600000
  let main_c_19 : IVec S_ 32 := constantI S_ 32 50000#32
  let main_v55 : IVec S600000 32 := broadcastInDim S600000 ![] bcast_S_S600000 main_c_19
  let main_v56 : IVec S600000 1 := cmpi .slt main_v54 main_v55
  let main_v57 : IVec S600000 1 := andi main_v52 main_v56
  let main_c_20 : IVec S_ 1 := constantI S_ 1 1#1
  let main_v58 : IVec S_ 1 := (fun x v => Host.reduce IntOp.andi x v reducesTo_S600000_S_d0 h_S_) main_v57 main_c_20
  let main_v59 : IVec S_ 1 := andi main_v48 main_v58
  main_v59

def fn_part2 {F : FTy → Type} [FloatOps F] (main_arg1 : IVec S2x600000 32) (main_arg8 : FVec F S3x128 .f32) (main_arg9 : FVec F S3x128 .f32) (main_arg10 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : IVec S1x600000 32 := (extractStridedSlice S1x600000 ![0, 0] · slices_S2x600000_S1x600000_0_0) main_arg1
  let main_v50 : IVec S600000 32 := shapeCast S600000 main_v49 shapeCasts_S1x600000_S600000
  let main_c_18 : IVec S_ 32 := constantI S_ 32 0#32
  fn_part3 (F := F) main_arg1 main_v48 main_v50 main_c_18

def fn_part1 {F : FTy → Type} [FloatOps F] (main_arg1 : IVec S2x600000 32) (main_arg5 : FVec F S3x128x128 .f32) (main_arg6 : FVec F S3x128 .f32) (main_arg7 : FVec F S3x128x128 .f32) (main_arg8 : FVec F S3x128 .f32) (main_arg9 : FVec F S3x128 .f32) (main_arg10 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x600000 32) (main_arg2 : FVec F S600000x32 .f32) (main_arg3 : FVec F S3x32x128 .f32) (main_arg4 : FVec F S3x128 .f32) (main_arg5 : FVec F S3x128x128 .f32) (main_arg6 : FVec F S3x128 .f32) (main_arg7 : FVec F S3x128x128 .f32) (main_arg8 : FVec F S3x128 .f32) (main_arg9 : FVec F S3x128 .f32) (main_arg10 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x32 .f32 := Host.absf main_arg2
  let main_cst_0 : FVec F S_ .f32 := constant S_ .f32 0x7F800000#32
  let main_v5 : FVec F S600000x32 .f32 := broadcastInDim S600000x32 ![] bcast_S_S600000x32 main_cst_0
  let main_v6 : IVec S600000x32 1 := cmpf .olt main_v4 main_v5
  let main_c_1 : IVec S_ 1 := constantI S_ 1 1#1
  let main_v7 : IVec S_ 1 := (fun x v => Host.reduce IntOp.andi x v reducesTo_S600000x32_S_d0_1 h_S_) main_v6 main_c_1
  let main_v8 : IVec S_ 1 := andi main_v3 main_v7
  let main_v9 : FVec F S3x32x128 .f32 := Host.absf main_arg3
  let main_cst_2 : FVec F S_ .f32 := constant S_ .f32 0x7F800000#32
  let main_v10 : FVec F S3x32x128 .f32 := broadcastInDim S3x32x128 ![] bcast_S_S3x32x128 main_cst_2
  let main_v11 : IVec S3x32x128 1 := cmpf .olt main_v9 main_v10
  let main_c_3 : IVec S_ 1 := constantI S_ 1 1#1
  let main_v12 : IVec S_ 1 := (fun x v => Host.reduce IntOp.andi x v reducesTo_S3x32x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S600000x32 : Shape := ⟨2, ![600000, 32]⟩
abbrev S3x32x128 : Shape := ⟨3, ![3, 32, 128]⟩
abbrev S3x128 : Shape := ⟨2, ![3, 128]⟩
abbrev S3x128x128 : Shape := ⟨3, ![3, 128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x32x128 : Shape := ⟨3, ![1, 32, 128]⟩
abbrev S32x128 : Shape := ⟨2, ![32, 128]⟩
abbrev S1x128 : Shape := ⟨2, ![1, 128]⟩
abbrev S128 : Shape := ⟨1, ![128]⟩
abbrev S600000x128 : Shape := ⟨2, ![600000, 128]⟩
abbrev S8000x32 : Shape := ⟨2, ![8000, 32]⟩
abbrev S8000x128 : Shape := ⟨2, ![8000, 128]⟩
abbrev S1 : Shape := ⟨1, ![1]⟩
abbrev S1x1 : Shape := ⟨2, ![1, 1]⟩
abbrev S1x128x128 : Shape := ⟨3, ![1, 128, 128]⟩
abbrev S128x128 : Shape := ⟨2, ![128, 128]⟩
abbrev S5000x128 : Shape := ⟨2, ![5000, 128]⟩

abbrev nBuf : Space → Nat
  | .hbm => 315
  | .vmem => 72
  | .smem => 0
  | _ => 0

abbrev hbmTy0_0 (i : Nat) : BufTy := match i % 128 with
  | 0 => ⟨S50000x128, .f32⟩
  | 1 => ⟨S2x600000, .i32⟩
  | 2 => ⟨S600000x32, .f32⟩
  | 3 => ⟨S3x32x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S1x600000, .i32⟩
  | 12 => ⟨S600000, .i32⟩
  | 13 => ⟨S1x600000, .i32⟩
  | 14 => ⟨S600000, .i32⟩
  | 15 => ⟨S600000, .i32⟩
  | 16 => ⟨S600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000, .i32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000, .i32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x32, .f32⟩
  | 45 => ⟨S1x32x128, .f32⟩
  | 46 => ⟨S32x128, .f32⟩
  | 47 => ⟨S1x128, .f32⟩
  | 48 => ⟨S128, .f32⟩
  | 49 => ⟨S1x128, .f32⟩
  | 50 => ⟨S600000x128, .bf16⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S1, .i32⟩
  | 60 => ⟨S_, .i32⟩
  | 61 => ⟨S600000x1, .i32⟩
  | 62 => ⟨S600000x1, .i1⟩
  | 63 => ⟨S1x1, .i32⟩
  | 64 => ⟨S600000x1, .i32⟩
  | 65 => ⟨S600000x1, .i1⟩
  | 66 => ⟨S600000x1, .i1⟩
  | 67 => ⟨S_, .i1⟩
  | 68 => ⟨S600000, .i1⟩
  | 69 => ⟨S600000x128, .f32⟩
  | 70 => ⟨S600000x128, .i1⟩
  | 71 => ⟨S_, .f32⟩
  | 72 => ⟨S600000x128, .f32⟩
  | 73 => ⟨S600000x128, .f32⟩
  | 74 => ⟨S600000x128, .f32⟩
  | 75 => ⟨S600000x128, .f32⟩
  | 76 => ⟨S_, .f32⟩
  | 77 => ⟨S600000x128, .f32⟩
  | 78 => ⟨S600000x128, .f32⟩
  | 79 => ⟨S_, .f32⟩
  | 80 => ⟨S50000x128, .f32⟩
  | 81 => ⟨S600000x1, .i32⟩
  | 82 => ⟨S50000x128, .f32⟩
  | 83 => ⟨S1x128x128, .f32⟩
  | 84 => ⟨S128x128, .f32⟩
  | 85 => ⟨S1x128, .f32⟩
  | 86 => ⟨S128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S1x128, .f32⟩
  | 93 => ⟨S50000x128, .f32⟩
  | 94 => ⟨S_, .f32⟩
  | 95 => ⟨S128, .f32⟩
  | 96 => ⟨S_, .f32⟩
  | 97 => ⟨S128, .f32⟩
  | 98 => ⟨S128, .f32⟩
  | 99 => ⟨S_, .i32⟩
  | 100 => ⟨S_, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S50000x128, .f32⟩
  | 107 => ⟨S50000x128, .f32⟩
  | 108 => ⟨S50000x128, .f32⟩
  | 109 => ⟨S_, .f32⟩
  | 110 => ⟨S_, .f32⟩
  | 111 => ⟨S_, .f32⟩
  | 112 => ⟨S_, .f32⟩
  | 113 => ⟨S128, .f32⟩
  | 114 => ⟨S128, .f32⟩
  | 115 => ⟨S128, .f32⟩
  | 116 => ⟨S_, .f32⟩
  | 117 => ⟨S_, .i1⟩
  | 118 => ⟨S_, .f32⟩
  | 119 => ⟨S_, .f32⟩
  | 120 => ⟨S128, .f32⟩
  | 121 => ⟨S128, .f32⟩
  | 122 => ⟨S_, .f32⟩
  | 123 => ⟨S128, .f32⟩
  | 124 => ⟨S128, .f32⟩
  | 125 => ⟨S128, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S128, .f32⟩
  | 5 => ⟨S1x128, .f32⟩
  | 6 => ⟨S50000x128, .f32⟩
  | 7 => ⟨S1x32x128, .f32⟩
  | 8 => ⟨S32x128, .f32⟩
  | 9 => ⟨S1x128, .f32⟩
  | 10 => ⟨S128, .f32⟩
  | 11 => ⟨S1x128, .f32⟩
  | 12 => ⟨S600000x128, .bf16⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S1, .i32⟩
  | 22 => ⟨S_, .i32⟩
  | 23 => ⟨S600000x1, .i32⟩
  | 24 => ⟨S600000x1, .i1⟩
  | 25 => ⟨S1x1, .i32⟩
  | 26 => ⟨S600000x1, .i32⟩
  | 27 => ⟨S600000x1, .i1⟩
  | 28 => ⟨S600000x1, .i1⟩
  | 29 => ⟨S_, .i1⟩
  | 30 => ⟨S600000, .i1⟩
  | 31 => ⟨S600000x128, .f32⟩
  | 32 => ⟨S600000x128, .i1⟩
  | 33 => ⟨S_, .f32⟩
  | 34 => ⟨S600000x128, .f32⟩
  | 35 => ⟨S600000x128, .f32⟩
  | 36 => ⟨S600000x128, .f32⟩
  | 37 => ⟨S600000x128, .f32⟩
  | 38 => ⟨S_, .f32⟩
  | 39 => ⟨S600000x128, .f32⟩
  | 40 => ⟨S600000x128, .f32⟩
  | 41 => ⟨S_, .f32⟩
  | 42 => ⟨S50000x128, .f32⟩
  | 43 => ⟨S600000x1, .i32⟩
  | 44 => ⟨S50000x128, .f32⟩
  | 45 => ⟨S1x128x128, .f32⟩
  | 46 => ⟨S128x128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S1x128, .f32⟩
  | 54 => ⟨S1x128, .f32⟩
  | 55 => ⟨S50000x128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S50000x128, .f32⟩
  | 69 => ⟨S50000x128, .f32⟩
  | 70 => ⟨S50000x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S_, .f32⟩
  | 85 => ⟨S128, .f32⟩
  | 86 => ⟨S128, .f32⟩
  | 87 => ⟨S128, .f32⟩
  | 88 => ⟨S1x128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S50000x128, .f32⟩
  | 97 => ⟨S1x32x128, .f32⟩
  | 98 => ⟨S32x128, .f32⟩
  | 99 => ⟨S1x128, .f32⟩
  | 100 => ⟨S128, .f32⟩
  | 101 => ⟨S1x128, .f32⟩
  | 102 => ⟨S600000x128, .bf16⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S1, .i32⟩
  | 112 => ⟨S_, .i32⟩
  | 113 => ⟨S600000x1, .i32⟩
  | 114 => ⟨S600000x1, .i1⟩
  | 115 => ⟨S1x1, .i32⟩
  | 116 => ⟨S600000x1, .i32⟩
  | 117 => ⟨S600000x1, .i1⟩
  | 118 => ⟨S600000x1, .i1⟩
  | 119 => ⟨S_, .i1⟩
  | 120 => ⟨S600000, .i1⟩
  | 121 => ⟨S600000x128, .f32⟩
  | 122 => ⟨S600000x128, .i1⟩
  | 123 => ⟨S_, .f32⟩
  | 124 => ⟨S600000x128, .f32⟩
  | 125 => ⟨S600000x128, .f32⟩
  | 126 => ⟨S600000x128, .f32⟩
  | 127 => ⟨S600000x128, .f32⟩
  | _ => ⟨S50000x128, .f32⟩

abbrev hbmTy0_2 (i : Nat) : BufTy := match i % 128 with
  | 0 => ⟨S_, .f32⟩
  | 1 => ⟨S600000x128, .f32⟩
  | 2 => ⟨S600000x128, .f32⟩
  | 3 => ⟨S_, .f32⟩
  | 4 => ⟨S50000x128, .f32⟩
  | 5 => ⟨S600000x1, .i32⟩
  | 6 => ⟨S50000x128, .f32⟩
  | 7 => ⟨S1x128x128, .f32⟩
  | 8 => ⟨S128x128, .f32⟩
  | 9 => ⟨S1x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S1x128, .f32⟩
  | 17 => ⟨S50000x128, .f32⟩
  | 18 => ⟨S_, .f32⟩
  | 19 => ⟨S128, .f32⟩
  | 20 => ⟨S_, .f32⟩
  | 21 => ⟨S128, .f32⟩
  | 22 => ⟨S128, .f32⟩
  | 23 => ⟨S_, .i32⟩
  | 24 => ⟨S_, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S50000x128, .f32⟩
  | 31 => ⟨S50000x128, .f32⟩
  | 32 => ⟨S50000x128, .f32⟩
  | 33 => ⟨S_, .f32⟩
  | 34 => ⟨S_, .f32⟩
  | 35 => ⟨S_, .f32⟩
  | 36 => ⟨S_, .f32⟩
  | 37 => ⟨S128, .f32⟩
  | 38 => ⟨S128, .f32⟩
  | 39 => ⟨S128, .f32⟩
  | 40 => ⟨S_, .f32⟩
  | 41 => ⟨S_, .i1⟩
  | 42 => ⟨S_, .f32⟩
  | 43 => ⟨S_, .f32⟩
  | 44 => ⟨S128, .f32⟩
  | 45 => ⟨S128, .f32⟩
  | 46 => ⟨S_, .f32⟩
  | 47 => ⟨S128, .f32⟩
  | 48 => ⟨S128, .f32⟩
  | 49 => ⟨S128, .f32⟩
  | 50 => ⟨S1x128, .f32⟩
  | 51 => ⟨S1x128, .f32⟩
  | 52 => ⟨S1x128, .f32⟩
  | 53 => ⟨S128, .f32⟩
  | 54 => ⟨S1x128, .f32⟩
  | 55 => ⟨S1x128, .f32⟩
  | 56 => ⟨S128, .f32⟩
  | 57 => ⟨S1x128, .f32⟩
  | 58 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S8000x32, .f32⟩
  | .local _ .vmem, ⟨1, _⟩ => ⟨S8000x32, .f32⟩
  | .local _ .vmem, ⟨2, _⟩ => ⟨S32x128, .f32⟩
  | .local _ .vmem, ⟨3, _⟩ => ⟨S1x128, .f32⟩
  | .local _ .vmem, ⟨4, _⟩ => ⟨S8000x128, .bf16⟩
  | .local _ .vmem, ⟨5, _⟩ => ⟨S8000x128, .bf16⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S8000x32, .f32⟩
  | .local _ .vmem, ⟨25, _⟩ => ⟨S8000x32, .f32⟩
  | .local _ .vmem, ⟨26, _⟩ => ⟨S32x128, .f32⟩
  | .local _ .vmem, ⟨27, _⟩ => ⟨S1x128, .f32⟩
  | .local _ .vmem, ⟨28, _⟩ => ⟨S8000x128, .bf16⟩
  | .local _ .vmem, ⟨29, _⟩ => ⟨S8000x128, .bf16⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S8000x32, .f32⟩
  | .local _ .vmem, ⟨49, _⟩ => ⟨S8000x32, .f32⟩
  | .local _ .vmem, ⟨50, _⟩ => ⟨S32x128, .f32⟩
  | .local _ .vmem, ⟨51, _⟩ => ⟨S1x128, .f32⟩
  | .local _ .vmem, ⟨52, _⟩ => ⟨S8000x128, .bf16⟩
  | .local _ .vmem, ⟨53, _⟩ => ⟨S8000x128, .bf16⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S1x128, .f32⟩
  | .local _ .vmem, ⟨60, _⟩ => ⟨S128x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1_0 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_call2_cst : Ref sig .tc := ⟨.hbm, 76, rfl⟩
abbrev main_call2_v0 : Ref sig .tc := ⟨.hbm, 77, rfl⟩
abbrev main_v35 : Ref sig .tc := ⟨.hbm, 78, rfl⟩
abbrev main_cst : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_5 : Ref sig .tc := ⟨.hbm, 94, rfl⟩
abbrev main_v50 : Ref sig .tc := ⟨.hbm, 95, rfl⟩
abbrev main_cst_6 : Ref sig .tc := ⟨.hbm, 96, rfl⟩
abbrev main_v51 : Ref sig .tc := ⟨.hbm, 97, rfl⟩
abbrev main_v52 : Ref sig .tc := ⟨.hbm, 98, rfl⟩
abbrev main_c_7 : Ref sig .tc := ⟨.hbm, 99, rfl⟩
abbrev main_call3_cst : Ref sig .tc := ⟨.hbm, 100, rfl⟩
abbrev main_call3_v0 : Ref sig .tc := ⟨.hbm, 101, rfl⟩
abbrev main_call3_v1 : Ref sig .tc := ⟨.hbm, 102, rfl⟩
abbrev main_call3_cst_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_v6 : Ref sig .tc := ⟨.hbm, 108, rfl⟩
abbrev main_call3_v7 : Ref sig .tc := ⟨.hbm, 109, rfl⟩
abbrev main_call3_cst_1 : Ref sig .tc := ⟨.hbm, 110, rfl⟩
abbrev main_call3_v8 : Ref sig .tc := ⟨.hbm, 111, rfl⟩
abbrev main_call3_cst_2 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_cst_3 : Ref sig .tc := ⟨.hbm, 116, rfl⟩
abbrev main_call3_v12 : Ref sig .tc := ⟨.hbm, 117, rfl⟩
abbrev main_call3_cst_4 : Ref sig .tc := ⟨.hbm, 118, rfl⟩
abbrev main_call3_call0_v0 : Ref sig .tc := ⟨.hbm, 119, rfl⟩
abbrev main_call3_call0_v1 : Ref sig .tc := ⟨.hbm, 120, rfl⟩
abbrev main_v53 : Ref sig .tc := ⟨.hbm, 121, rfl⟩
abbrev main_cst_8 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_call4_c : Ref sig .tc := ⟨.hbm, 141, rfl⟩
abbrev main_call4_v0 : Ref sig .tc := ⟨.hbm, 142, rfl⟩
abbrev main_call4_v1 : Ref sig .tc := ⟨.hbm, 143, rfl⟩
abbrev main_call4_c_0 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_c_1 : Ref sig .tc := ⟨.hbm, 149, rfl⟩
abbrev main_call4_c_2 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_v9 : Ref sig .tc := ⟨.hbm, 154, rfl⟩
abbrev main_call4_v10 : Ref sig .tc := ⟨.hbm, 155, rfl⟩
abbrev main_call4_v11 : Ref sig .tc := ⟨.hbm, 156, rfl⟩
abbrev main_call4_c_3 : Ref sig .tc := ⟨.hbm, 157, rfl⟩
abbrev main_call4_v12 : Ref sig .tc := ⟨.hbm, 158, rfl⟩
abbrev main_call4_v13 : Ref sig .tc := ⟨.hbm, 159, rfl⟩
abbrev main_call4_v14 : Ref sig .tc := ⟨.hbm, 160, rfl⟩
abbrev main_call4_cst : Ref sig .tc := ⟨.hbm, 161, rfl⟩
abbrev main_call4_v15 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_call5_cst : Ref sig .tc := ⟨.hbm, 166, rfl⟩
abbrev main_call5_v0 : Ref sig .tc := ⟨.hbm, 167, rfl⟩
abbrev main_v75 : Ref sig .tc := ⟨.hbm, 168, rfl⟩
abbrev main_cst_9 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_cst_10 : Ref sig .tc := ⟨.hbm, 184, rfl⟩
abbrev main_v90 : Ref sig .tc := ⟨.hbm, 185, rfl⟩
abbrev main_cst_11 : Ref sig .tc := ⟨.hbm, 186, rfl⟩
abbrev main_v91 : Ref sig .tc := ⟨.hbm, 187, rfl⟩
abbrev main_v92 : Ref sig .tc := ⟨.hbm, 188, rfl⟩
abbrev main_c_12 : Ref sig .tc := ⟨.hbm, 189, rfl⟩
abbrev main_call6_cst : Ref sig .tc := ⟨.hbm, 190, rfl⟩
abbrev main_call6_v0 : Ref sig .tc := ⟨.hbm, 191, rfl⟩
abbrev main_call6_v1 : Ref sig .tc := ⟨.hbm, 192, rfl⟩
abbrev main_call6_cst_0 : Ref sig .tc := ⟨.hbm, 193, rfl⟩
abbrev main_call6_v2 : Ref sig .tc := ⟨.hbm, 194, rfl⟩
abbrev main_call6_v3 : Ref sig .tc := ⟨.hbm, 195, rfl⟩
abbrev main_call6_v4 : Ref sig .tc := ⟨.hbm, 196, rfl⟩
abbrev main_call6_v5 : Ref sig .tc := ⟨.hbm, 197, rfl⟩
abbrev main_call6_v6 : Ref sig .tc := ⟨.hbm, 198, rfl⟩
abbrev main_call6_v7 : Ref sig .tc := ⟨.hbm, 199, rfl⟩
abbrev main_call6_cst_1 : Ref sig .tc := ⟨.hbm, 200, rfl⟩
abbrev main_call6_v8 : Ref sig .tc := ⟨.hbm, 201, rfl⟩
abbrev main_call6_cst_2 : Ref sig .tc := ⟨.hbm, 202, rfl⟩
abbrev main_call6_v9 : Ref sig .tc := ⟨.hbm, 203, rfl⟩
abbrev main_call6_v10 : Ref sig .tc := ⟨.hbm, 204, rfl⟩
abbrev main_call6_v11 : Ref sig .tc := ⟨.hbm, 205, rfl⟩
abbrev main_call6_cst_3 : Ref sig .tc := ⟨.hbm, 206, rfl⟩
abbrev main_call6_v12 : Ref sig .tc := ⟨.hbm, 207, rfl⟩
abbrev main_call6_cst_4 : Ref sig .tc := ⟨.hbm, 208, rfl⟩
abbrev main_call6_call0_v0 : Ref sig .tc := ⟨.hbm, 209, rfl⟩
abbrev main_call6_call0_v1 : Ref sig .tc := ⟨.hbm, 210, rfl⟩
abbrev main_v93 : Ref sig .tc := ⟨.hbm, 211, rfl⟩
abbrev main_cst_13 : Ref sig .tc := ⟨.hbm, 212, rfl⟩
abbrev main_v94 : Ref sig .tc := ⟨.hbm, 213, rfl⟩
abbrev main_v95 : Ref sig .tc := ⟨.hbm, 214, rfl⟩
abbrev main_v96 : Ref sig .tc := ⟨.hbm, 215, rfl⟩
abbrev main_v97 : Ref sig .tc := ⟨.hbm, 216, rfl⟩
abbrev main_v98 : Ref sig .tc := ⟨.hbm, 217, rfl⟩
abbrev main_v99 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_call7_c : Ref sig .tc := ⟨.hbm, 231, rfl⟩
abbrev main_call7_v0 : Ref sig .tc := ⟨.hbm, 232, rfl⟩
abbrev main_call7_v1 : Ref sig .tc := ⟨.hbm, 233, rfl⟩
abbrev main_call7_c_0 : Ref sig .tc := ⟨.hbm, 234, rfl⟩
abbrev main_call7_v2 : Ref sig .tc := ⟨.hbm, 235, rfl⟩
abbrev main_call7_v3 : Ref sig .tc := ⟨.hbm, 236, rfl⟩
abbrev main_call7_v4 : Ref sig .tc := ⟨.hbm, 237, rfl⟩
abbrev main_call7_v5 : Ref sig .tc := ⟨.hbm, 238, rfl⟩
abbrev main_call7_c_1 : Ref sig .tc := ⟨.hbm, 239, rfl⟩
abbrev main_call7_c_2 : Ref sig .tc := ⟨.hbm, 240, rfl⟩
abbrev main_call7_v6 : Ref sig .tc := ⟨.hbm, 241, rfl⟩
abbrev main_call7_v7 : Ref sig .tc := ⟨.hbm, 242, rfl⟩
abbrev main_call7_v8 : Ref sig .tc := ⟨.hbm, 243, rfl⟩
abbrev main_call7_v9 : Ref sig .tc := ⟨.hbm, 244, rfl⟩
abbrev main_call7_v10 : Ref sig .tc := ⟨.hbm, 245, rfl⟩
abbrev main_call7_v11 : Ref sig .tc := ⟨.hbm, 246, rfl⟩
abbrev main_call7_c_3 : Ref sig .tc := ⟨.hbm, 247, rfl⟩
abbrev main_call7_v12 : Ref sig .tc := ⟨.hbm, 248, rfl⟩
abbrev main_call7_v13 : Ref sig .tc := ⟨.hbm, 249, rfl⟩
abbrev main_call7_v14 : Ref sig .tc := ⟨.hbm, 250, rfl⟩
abbrev main_call7_cst : Ref sig .tc := ⟨.hbm, 251, rfl⟩
abbrev main_call7_v15 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_call8_cst : Ref sig .tc := ⟨.hbm, 256, rfl⟩
abbrev main_call8_v0 : Ref sig .tc := ⟨.hbm, 257, rfl⟩
abbrev main_v115 : Ref sig .tc := ⟨.hbm, 258, rfl⟩
abbrev main_cst_14 : Ref sig .tc := ⟨.hbm, 259, rfl⟩
abbrev main_v116 : Ref sig .tc := ⟨.hbm, 260, rfl⟩
abbrev main_v117 : Ref sig .tc := ⟨.hbm, 261, rfl⟩
abbrev main_v118 : Ref sig .tc := ⟨.hbm, 262, rfl⟩
abbrev main_v119 : Ref sig .tc := ⟨.hbm, 263, rfl⟩
abbrev main_v120 : Ref sig .tc := ⟨.hbm, 264, rfl⟩
abbrev main_v121 : Ref sig .tc := ⟨.hbm, 265, rfl⟩
abbrev main_v122 : Ref sig .tc := ⟨.hbm, 266, rfl⟩
abbrev main_v123 : Ref sig .tc := ⟨.hbm, 267, rfl⟩
abbrev main_v124 : Ref sig .tc := ⟨.hbm, 268, rfl⟩
abbrev main_v125 : Ref sig .tc := ⟨.hbm, 269, rfl⟩
abbrev main_v126 : Ref sig .tc := ⟨.hbm, 270, rfl⟩
abbrev main_v127 : Ref sig .tc := ⟨.hbm, 271, rfl⟩
abbrev main_v128 : Ref sig .tc := ⟨.hbm, 272, rfl⟩
abbrev main_v129 : Ref sig .tc := ⟨.hbm, 273, rfl⟩
abbrev main_cst_15 : Ref sig .tc := ⟨.hbm, 274, rfl⟩
abbrev main_v130 : Ref sig .tc := ⟨.hbm, 275, rfl⟩
abbrev main_cst_16 : Ref sig .tc := ⟨.hbm, 276, rfl⟩
abbrev main_v131 : Ref sig .tc := ⟨.hbm, 277, rfl⟩
abbrev main_v132 : Ref sig .tc := ⟨.hbm, 278, rfl⟩
abbrev main_c_17 : Ref sig .tc := ⟨.hbm, 279, rfl⟩
abbrev main_call9_cst : Ref sig .tc := ⟨.hbm, 280, rfl⟩
abbrev main_call9_v0 : Ref sig .tc := ⟨.hbm, 281, rfl⟩
abbrev main_call9_v1 : Ref sig .tc := ⟨.hbm, 282, rfl⟩
abbrev main_call9_cst_0 : Ref sig .tc := ⟨.hbm, 283, rfl⟩
abbrev main_call9_v2 : Ref sig .tc := ⟨.hbm, 284, rfl⟩
abbrev main_call9_v3 : Ref sig .tc := ⟨.hbm, 285, rfl⟩
abbrev main_call9_v4 : Ref sig .tc := ⟨.hbm, 286, rfl⟩
abbrev main_call9_v5 : Ref sig .tc := ⟨.hbm, 287, rfl⟩
abbrev main_call9_v6 : Ref sig .tc := ⟨.hbm, 288, rfl⟩
abbrev main_call9_v7 : Ref sig .tc := ⟨.hbm, 289, rfl⟩
abbrev main_call9_cst_1 : Ref sig .tc := ⟨.hbm, 290, rfl⟩
abbrev main_call9_v8 : Ref sig .tc := ⟨.hbm, 291, rfl⟩
abbrev main_call9_cst_2 : Ref sig .tc := ⟨.hbm, 292, rfl⟩
abbrev main_call9_v9 : Ref sig .tc := ⟨.hbm, 293, rfl⟩
abbrev main_call9_v10 : Ref sig .tc := ⟨.hbm, 294, rfl⟩
abbrev main_call9_v11 : Ref sig .tc := ⟨.hbm, 295, rfl⟩
abbrev main_call9_cst_3 : Ref sig .tc := ⟨.hbm, 296, rfl⟩
abbrev main_call9_v12 : Ref sig .tc := ⟨.hbm, 297, rfl⟩
abbrev main_call9_cst_4 : Ref sig .tc := ⟨.hbm, 298, rfl⟩
abbrev main_call9_call0_v0 : Ref sig .tc := ⟨.hbm, 299, rfl⟩
abbrev main_call9_call0_v1 : Ref sig .tc := ⟨.hbm, 300, rfl⟩
abbrev main_v133 : Ref sig .tc := ⟨.hbm, 301, rfl⟩
abbrev main_cst_18 : Ref sig .tc := ⟨.hbm, 302, rfl⟩
abbrev main_v134 : Ref sig .tc := ⟨.hbm, 303, rfl⟩
abbrev main_v135 : Ref sig .tc := ⟨.hbm, 304, rfl⟩
abbrev main_v136 : Ref sig .tc := ⟨.hbm, 305, rfl⟩
abbrev main_v137 : Ref sig .tc := ⟨.hbm, 306, rfl⟩
abbrev main_v138 : Ref sig .tc := ⟨.hbm, 307, rfl⟩
abbrev main_v139 : Ref sig .tc := ⟨.hbm, 308, rfl⟩
abbrev main_v140 : Ref sig .tc := ⟨.hbm, 309, rfl⟩
abbrev main_v141 : Ref sig .tc := ⟨.hbm, 310, rfl⟩
abbrev main_v142 : Ref sig .tc := ⟨.hbm, 311, rfl⟩
abbrev main_v143 : Ref sig .tc := ⟨.hbm, 312, rfl⟩
abbrev main_v144 : Ref sig .tc := ⟨.hbm, 313, rfl⟩
abbrev main_v145 : Ref sig .tc := ⟨.hbm, 314, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg5_0 : Ref sig .tc := ⟨.vmem, 61, rfl⟩
abbrev cc7_stg6_0 : Ref sig .tc := ⟨.vmem, 62, rfl⟩
abbrev cc7_stg6_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem6_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![75], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![75], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S8000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S3x32x128_S1x32x128_0_0_0 : S3x32x128.Slices ![0, 0, 0] S1x32x128
  shapeCasts_S1x32x128_S32x128 : S1x32x128.ShapeCasts S32x128
  slices_S3x128_S1x128_0_0 : S3x128.Slices ![0, 0] S1x128
  shapeCasts_S1x128_S128 : S1x128.ShapeCasts S128
  shapeCasts_S128_S1x128 : S128.ShapeCasts S1x128
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S3x32x128_S1x32x128_1_0_0 : S3x32x128.Slices ![1, 0, 0] S1x32x128
  slices_S3x128_S1x128_1_0 : S3x128.Slices ![1, 0] S1x128
  slices_S3x128x128_S1x128x128_1_0_0 : S3x128x128.Slices ![1, 0, 0] S1x128x128
  slices_S3x32x128_S1x32x128_2_0_0 : S3x32x128.Slices ![2, 0, 0] S1x32x128
  slices_S3x128_S1x128_2_0 : S3x128.Slices ![2, 0] S1x128
  slices_S3x128x128_S1x128x128_2_0_0 : S3x128x128.Slices ![2, 0, 0] S1x128x128
  gather_S600000_S600000x1_S600000_n_0_n_n_0_1_1_wf : GatherDims.WF S600000 S600000x1 S600000 [] [0] [] [0] [] 1 ![1]
  gather_S600000x32_S600000x1_S600000x32_1_0_n_n_0_1_132_wf : GatherDims.WF S600000x32 S600000x1 S600000x32 [1] [0] [] [0] [] 1 ![1, 32]
  dot_S8000x32_S32x128_S8000x128_1_0_0_1_n_n_wf : DotDims.WF S8000x32 S32x128 S8000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S600000x32.size a
  hwx0_0 : ∀ i : grid0.Coords, EltTy.bits .f32 = 32 ∨ (Rect.block (s := S600000x32) S8000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S600000x128.size a
  hwx0_3 : ∀ i : grid0.Coords, EltTy.bits .bf16 = 32 ∨ (Rect.block (s := S600000x128) S8000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x32.size a ≤ S600000x32.size a
  hwx3_0 : ∀ i : grid3.Coords, EltTy.bits .f32 = 32 ∨ (Rect.block (s := S600000x32) S8000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x128.size a ≤ S32x128.size a
  hwx3_1 : ∀ i : grid3.Coords, EltTy.bits .f32 = 32 ∨ (Rect.block (s := S32x128) S32x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x128.size a ≤ S600000x128.size a
  hwx3_3 : ∀ i : grid3.Coords, EltTy.bits .bf16 = 32 ∨ (Rect.block (s := S600000x128) S8000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x32.size a ≤ S600000x32.size a
  hwx6_0 : ∀ i : grid6.Coords, EltTy.bits .f32 = 32 ∨ (Rect.block (s := S600000x32) S8000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x128.size a ≤ S32x128.size a
  hwx6_1 : ∀ i : grid6.Coords, EltTy.bits .f32 = 32 ∨ (Rect.block (s := S32x128) S32x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8000x128.size a ≤ S600000x128.size a
  hwx6_3 : ∀ i : grid6.Coords, EltTy.bits .bf16 = 32 ∨ (Rect.block (s := S600000x128) S8000x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S50000x128.size a
  hwx7_6 : ∀ i : grid7.Coords, EltTy.bits .f32 = 32 ∨ (Rect.block (s := S50000x128) S5000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S600000_S600000x1_S600000_n_0_n_n_0_1_1 : GatherDims S600000 S600000x1 S600000 where
  offsetDims := []
  collapsedSliceDims := [0]
  operandBatchingDims := []
  startIndicesBatchingDims := []
  startIndexMap := [0]
  indexVectorDim := 1
  sliceSizes := ![1]
  wf := gather_S600000_S600000x1_S600000_n_0_n_n_0_1_1_wf
def gather_S600000x32_S600000x1_S600000x32_1_0_n_n_0_1_132 : GatherDims S600000x32 S600000x1 S600000x32 where
  offsetDims := [1]
  collapsedSliceDims := [0]
  operandBatchingDims := []
  startIndicesBatchingDims := []
  startIndexMap := [0]
  indexVectorDim := 1
  sliceSizes := ![1, 32]
  wf := gather_S600000x32_S600000x1_S600000x32_1_0_n_n_0_1_132_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v25) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v25) S8000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S32x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S8000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v89) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v101) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v25) S8000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v107) S32x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v110) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v111) S8000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v105) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v118) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v120) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v127) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v124) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v128) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v129) S5000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v129) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v137) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v138) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v141) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v144) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v145) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x32 : Shape := ⟨2, ![600000, 32]⟩
abbrev S3x32x128 : Shape := ⟨3, ![3, 32, 128]⟩
abbrev S3x128 : Shape := ⟨2, ![3, 128]⟩
abbrev S3x128x128 : Shape := ⟨3, ![3, 128, 128]⟩
abbrev S1x600000 : Shape := ⟨2, ![1, 600000]⟩
abbrev S600000 : Shape := ⟨1, ![600000]⟩
abbrev S1x32x128 : Shape := ⟨3, ![1, 32, 128]⟩
abbrev S32x128 : Shape := ⟨2, ![32, 128]⟩
abbrev S600000x128 : Shape := ⟨2, ![600000, 128]⟩
abbrev S1x128 : Shape := ⟨2, ![1, 128]⟩
abbrev S128 : Shape := ⟨1, ![128]⟩
abbrev S_ : Shape := ⟨0, ![]⟩
abbrev S600000x1 : Shape := ⟨2, ![600000, 1]⟩
abbrev S1x128x128 : Shape := ⟨3, ![1, 128, 128]⟩
abbrev S128x128 : Shape := ⟨2, ![128, 128]⟩

abbrev nBuf : Space → Nat
  | .hbm => 303
  | .vmem => 0
  | .smem => 0
  | _ => 0

abbrev hbmTy0_0 (i : Nat) : BufTy := match i % 128 with
  | 0 => ⟨S50000x128, .f32⟩
  | 1 => ⟨S2x600000, .i32⟩
  | 2 => ⟨S600000x32, .f32⟩
  | 3 => ⟨S3x32x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S1x600000, .i32⟩
  | 12 => ⟨S600000, .i32⟩
  | 13 => ⟨S1x600000, .i32⟩
  | 14 => ⟨S600000, .i32⟩
  | 15 => ⟨S1x32x128, .f32⟩
  | 16 => ⟨S32x128, .f32⟩
  | 17 => ⟨S600000x128, .f32⟩
  | 18 => ⟨S1x128, .f32⟩
  | 19 => ⟨S128, .f32⟩
  | 20 => ⟨S1x128, .f32⟩
  | 21 => ⟨S600000x128, .f32⟩
  | 22 => ⟨S600000x128, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S600000x128, .f32⟩
  | 33 => ⟨S_, .f32⟩
  | 34 => ⟨S600000x128, .f32⟩
  | 35 => ⟨S600000x128, .f32⟩
  | 36 => ⟨S_, .f32⟩
  | 37 => ⟨S50000x128, .f32⟩
  | 38 => ⟨S600000x1, .i32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S1x32x128, .f32⟩
  | 112 => ⟨S32x128, .f32⟩
  | 113 => ⟨S600000x128, .f32⟩
  | 114 => ⟨S1x128, .f32⟩
  | 115 => ⟨S128, .f32⟩
  | 116 => ⟨S1x128, .f32⟩
  | 117 => ⟨S600000x128, .f32⟩
  | 118 => ⟨S600000x128, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x128, .f32⟩
  | _ => ⟨S50000x128, .f32⟩

abbrev hbmTy0_1 (i : Nat) : BufTy := match i % 128 with
  | 0 => ⟨S600000x128, .f32⟩
  | 1 => ⟨S_, .f32⟩
  | 2 => ⟨S600000x128, .f32⟩
  | 3 => ⟨S600000x128, .f32⟩
  | 4 => ⟨S_, .f32⟩
  | 5 => ⟨S50000x128, .f32⟩
  | 6 => ⟨S600000x1, .i32⟩
  | 7 => ⟨S50000x128, .f32⟩
  | 8 => ⟨S50000x128, .f32⟩
  | 9 => ⟨S1x128x128, .f32⟩
  | 10 => ⟨S128x128, .f32⟩
  | 11 => ⟨S50000x128, .f32⟩
  | 12 => ⟨S1x128, .f32⟩
  | 13 => ⟨S128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S1x128x128, .f32⟩
  | 21 => ⟨S128x128, .f32⟩
  | 22 => ⟨S50000x128, .f32⟩
  | 23 => ⟨S1x128, .f32⟩
  | 24 => ⟨S128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S50000x128, .f32⟩
  | 41 => ⟨S50000x128, .f32⟩
  | 42 => ⟨S50000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S_, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S1x32x128, .f32⟩
  | 80 => ⟨S32x128, .f32⟩
  | 81 => ⟨S600000x128, .f32⟩
  | 82 => ⟨S1x128, .f32⟩
  | 83 => ⟨S128, .f32⟩
  | 84 => ⟨S1x128, .f32⟩
  | 85 => ⟨S600000x128, .f32⟩
  | 86 => ⟨S600000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x128, .f32⟩
  | 96 => ⟨S600000x128, .f32⟩
  | 97 => ⟨S_, .f32⟩
  | 98 => ⟨S600000x128, .f32⟩
  | 99 => ⟨S600000x128, .f32⟩
  | 100 => ⟨S_, .f32⟩
  | 101 => ⟨S50000x128, .f32⟩
  | 102 => ⟨S600000x1, .i32⟩
  | 103 => ⟨S50000x128, .f32⟩
  | 104 => ⟨S50000x128, .f32⟩
  | 105 => ⟨S1x128x128, .f32⟩
  | 106 => ⟨S128x128, .f32⟩
  | 107 => ⟨S50000x128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S128, .f32⟩
  | 126 => ⟨S_, .f32⟩
  | 127 => ⟨S128, .f32⟩
  | _ => ⟨S50000x128, .f32⟩

abbrev hbmTy0_2 (i : Nat) : BufTy := match i % 128 with
  | 0 => ⟨S128, .f32⟩
  | 1 => ⟨S_, .i32⟩
  | 2 => ⟨S_, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S50000x128, .f32⟩
  | 9 => ⟨S50000x128, .f32⟩
  | 10 => ⟨S50000x128, .f32⟩
  | 11 => ⟨S_, .f32⟩
  | 12 => ⟨S_, .f32⟩
  | 13 => ⟨S_, .f32⟩
  | 14 => ⟨S_, .f32⟩
  | 15 => ⟨S128, .f32⟩
  | 16 => ⟨S128, .f32⟩
  | 17 => ⟨S128, .f32⟩
  | 18 => ⟨S_, .f32⟩
  | 19 => ⟨S_, .i1⟩
  | 20 => ⟨S_, .f32⟩
  | 21 => ⟨S_, .f32⟩
  | 22 => ⟨S128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S128, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_1 : Ref sig .tc := ⟨.hbm, 60, rfl⟩
abbrev main_v42 : Ref sig .tc := ⟨.hbm, 61, rfl⟩
abbrev main_cst_2 : Ref sig .tc := ⟨.hbm, 62, rfl⟩
abbrev main_v43 : Ref sig .tc := ⟨.hbm, 63, rfl⟩
abbrev main_v44 : Ref sig .tc := ⟨.hbm, 64, rfl⟩
abbrev main_c_3 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_cst_3 : Ref sig .tc := ⟨.hbm, 82, rfl⟩
abbrev main_call2_v12 : Ref sig .tc := ⟨.hbm, 83, rfl⟩
abbrev main_call2_cst_4 : Ref sig .tc := ⟨.hbm, 84, rfl⟩
abbrev main_call2_call0_v0 : Ref sig .tc := ⟨.hbm, 85, rfl⟩
abbrev main_call2_call0_v1 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_4 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_call3_cst : Ref sig .tc := ⟨.hbm, 108, rfl⟩
abbrev main_call3_v0 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_c_5 : Ref sig .tc := ⟨.hbm, 119, rfl⟩
abbrev main_v74 : Ref sig .tc := ⟨.hbm, 120, rfl⟩
abbrev main_v75 : Ref sig .tc := ⟨.hbm, 121, rfl⟩
abbrev main_c_6 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_call4_cst : Ref sig .tc := ⟨.hbm, 129, rfl⟩
abbrev main_call4_v0 : Ref sig .tc := ⟨.hbm, 130, rfl⟩
abbrev main_v82 : Ref sig .tc := ⟨.hbm, 131, rfl⟩
abbrev main_cst_7 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_call5_cst : Ref sig .tc := ⟨.hbm, 145, rfl⟩
abbrev main_call5_v0 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_8 : Ref sig .tc := ⟨.hbm, 156, rfl⟩
abbrev main_v104 : Ref sig .tc := ⟨.hbm, 157, rfl⟩
abbrev main_cst_9 : Ref sig .tc := ⟨.hbm, 158, rfl⟩
abbrev main_v105 : Ref sig .tc := ⟨.hbm, 159, rfl⟩
abbrev main_v106 : Ref sig .tc := ⟨.hbm, 160, rfl⟩
abbrev main_c_10 : Ref sig .tc := ⟨.hbm, 161, rfl⟩
abbrev main_call6_cst : Ref sig .tc := ⟨.hbm, 162, rfl⟩
abbrev main_call6_v0 : Ref sig .tc := ⟨.hbm, 163, rfl⟩
abbrev main_call6_v1 : Ref sig .tc := ⟨.hbm, 164, rfl⟩
abbrev main_call6_cst_0 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_call6_v5 : Ref sig .tc := ⟨.hbm, 169, rfl⟩
abbrev main_call6_v6 : Ref sig .tc := ⟨.hbm, 170, rfl⟩
abbrev main_call6_v7 : Ref sig .tc := ⟨.hbm, 171, rfl⟩
abbrev main_call6_cst_1 : Ref sig .tc := ⟨.hbm, 172, rfl⟩
abbrev main_call6_v8 : Ref sig .tc := ⟨.hbm, 173, rfl⟩
abbrev main_call6_cst_2 : Ref sig .tc := ⟨.hbm, 174, rfl⟩
abbrev main_call6_v9 : Ref sig .tc := ⟨.hbm, 175, rfl⟩
abbrev main_call6_v10 : Ref sig .tc := ⟨.hbm, 176, rfl⟩
abbrev main_call6_v11 : Ref sig .tc := ⟨.hbm, 177, rfl⟩
abbrev main_call6_cst_3 : Ref sig .tc := ⟨.hbm, 178, rfl⟩
abbrev main_call6_v12 : Ref sig .tc := ⟨.hbm, 179, rfl⟩
abbrev main_call6_cst_4 : Ref sig .tc := ⟨.hbm, 180, rfl⟩
abbrev main_call6_call0_v0 : Ref sig .tc := ⟨.hbm, 181, rfl⟩
abbrev main_call6_call0_v1 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_cst_11 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_call7_cst : Ref sig .tc := ⟨.hbm, 204, rfl⟩
abbrev main_call7_v0 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_c_12 : Ref sig .tc := ⟨.hbm, 215, rfl⟩
abbrev main_v136 : Ref sig .tc := ⟨.hbm, 216, rfl⟩
abbrev main_v137 : Ref sig .tc := ⟨.hbm, 217, rfl⟩
abbrev main_c_13 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_call8_cst : Ref sig .tc := ⟨.hbm, 225, rfl⟩
abbrev main_call8_v0 : Ref sig .tc := ⟨.hbm, 226, rfl⟩
abbrev main_v144 : Ref sig .tc := ⟨.hbm, 227, rfl⟩
abbrev main_cst_14 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_call9_cst : Ref sig .tc := ⟨.hbm, 241, rfl⟩
abbrev main_call9_v0 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_cst_15 : Ref sig .tc := ⟨.hbm, 252, rfl⟩
abbrev main_v166 : Ref sig .tc := ⟨.hbm, 253, rfl⟩
abbrev main_cst_16 : Ref sig .tc := ⟨.hbm, 254, rfl⟩
abbrev main_v167 : Ref sig .tc := ⟨.hbm, 255, rfl⟩
abbrev main_v168 : Ref sig .tc := ⟨.hbm, 256, rfl⟩
abbrev main_c_17 : Ref sig .tc := ⟨.hbm, 257, rfl⟩
abbrev main_call10_cst : Ref sig .tc := ⟨.hbm, 258, rfl⟩
abbrev main_call10_v0 : Ref sig .tc := ⟨.hbm, 259, rfl⟩
abbrev main_call10_v1 : Ref sig .tc := ⟨.hbm, 260, rfl⟩
abbrev main_call10_cst_0 : Ref sig .tc := ⟨.hbm, 261, rfl⟩
abbrev main_call10_v2 : Ref sig .tc := ⟨.hbm, 262, rfl⟩
abbrev main_call10_v3 : Ref sig .tc := ⟨.hbm, 263, rfl⟩
abbrev main_call10_v4 : Ref sig .tc := ⟨.hbm, 264, rfl⟩
abbrev main_call10_v5 : Ref sig .tc := ⟨.hbm, 265, rfl⟩
abbrev main_call10_v6 : Ref sig .tc := ⟨.hbm, 266, rfl⟩
abbrev main_call10_v7 : Ref sig .tc := ⟨.hbm, 267, rfl⟩
abbrev main_call10_cst_1 : Ref sig .tc := ⟨.hbm, 268, rfl⟩
abbrev main_call10_v8 : Ref sig .tc := ⟨.hbm, 269, rfl⟩
abbrev main_call10_cst_2 : Ref sig .tc := ⟨.hbm, 270, rfl⟩
abbrev main_call10_v9 : Ref sig .tc := ⟨.hbm, 271, rfl⟩
abbrev main_call10_v10 : Ref sig .tc := ⟨.hbm, 272, rfl⟩
abbrev main_call10_v11 : Ref sig .tc := ⟨.hbm, 273, rfl⟩
abbrev main_call10_cst_3 : Ref sig .tc := ⟨.hbm, 274, rfl⟩
abbrev main_call10_v12 : Ref sig .tc := ⟨.hbm, 275, rfl⟩
abbrev main_call10_cst_4 : Ref sig .tc := ⟨.hbm, 276, rfl⟩
abbrev main_call10_call0_v0 : Ref sig .tc := ⟨.hbm, 277, rfl⟩
abbrev main_call10_call0_v1 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_cst_18 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_call11_cst : Ref sig .tc := ⟨.hbm, 300, rfl⟩
abbrev main_call11_v0 : Ref sig .tc := ⟨.hbm, 301, rfl⟩
abbrev main_v189 : Ref sig .tc := ⟨.hbm, 302, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S3x32x128_S1x32x128_0_0_0 : S3x32x128.Slices ![0, 0, 0] S1x32x128
  shapeCasts_S1x32x128_S32x128 : S1x32x128.ShapeCasts S32x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x32x128_S1x32x128_1_0_0 : S3x32x128.Slices ![1, 0, 0] S1x32x128
  slices_S3x128_S1x128_1_0 : S3x128.Slices ![1, 0] S1x128
  slices_S3x128x128_S1x128x128_1_0_0 : S3x128x128.Slices ![1, 0, 0] S1x128x128
  slices_S3x32x128_S1x32x128_2_0_0 : S3x32x128.Slices ![2, 0, 0] S1x32x128
  slices_S3x128_S1x128_2_0 : S3x128.Slices ![2, 0] S1x128
  slices_S3x128x128_S1x128x128_2_0_0 : S3x128x128.Slices ![2, 0, 0] S1x128x128
  dot_S600000x32_S32x128_S600000x128_1_0_0_1_n_n_wf : DotDims.WF S600000x32 S32x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def dot_S600000x32_S32x128_S600000x128_1_0_0_1_n_n : DotDims S600000x32 S32x128 S600000x128 where
  lhsContracting := [1]
  rhsContracting := [0]
  lhsNonContracting := [0]
  rhsNonContracting := [1]
  lhsBatch := []
  rhsBatch := []
  wf := dot_S600000x32_S32x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The specification shared by both sides of the algebraic claim: one message-passing layer as a function of whole
  arrays, built from the same whole-array operations the reference applies, and the three-layer network as its
  threefold composition on the per-layer slices of the stacked weights.

  One layer, for node features X : [50000,128], edge endpoints src, dst : [600000], edge features ea : [600000,32]:
    e    = ea · Wl + bl                       (one row per edge)
    msg  = max (X[src] + e, 0)
    agg  = the scatter-sum of msg's rows at dst (rows whose dst is outside [0,50000) are dropped)
    h    = max ((X + agg) · W1 + b1, 0) · W2 + b2
    out  = max ((h - mean h) · rsqrt (var h + eps) · g + bt, 0)   (mean and variance over the node axis)
-/
import proofs.«418803_j51642686767905_2_alg».proof.ReferenceIdeal
import Idealize.ShloMosaic.PureOps.Ideal

noncomputable section

namespace Cert.Spec

open Idealize.ShloMosaic Cert.ReferenceIdeal
open Cert.ReferenceIdeal.Facts₀ Cert.ReferenceIdeal.Facts

variable {F : FTy → Type} [FloatOps F] [Cert.ReferenceIdeal.Facts]

/-- max(x, 0) on an edge-sized array. -/
def reluE (x : FVec F S600000x128 .f32) : FVec F S600000x128 .f32 :=
  maximumf x (broadcastInDim S600000x128 ![] bcast_S_S600000x128 (constant S_ .f32 0x00000000#32))

/-- max(x, 0) on a node-sized array. -/
def reluN (x : FVec F S50000x128 .f32) : FVec F S50000x128 .f32 :=
  maximumf x (broadcastInDim S50000x128 ![] bcast_S_S50000x128 (constant S_ .f32 0x00000000#32))

/-- A length-128 vector as a one-row matrix. -/
def asRow (b : FVec F S128 .f32) : FVec F S1x128 .f32 := broadcastInDim S1x128 ![1] bcast_S128_S1x128_1 b

/-- A one-row matrix repeated down the edge axis. -/
def rowsE (b : FVec F S1x128 .f32) : FVec F S600000x128 .f32 :=
  broadcastInDim S600000x128 ![0, 1] bcast_S1x128_S600000x128_0_1 b

/-- A one-row matrix repeated down the node axis. -/
def rowsN (b : FVec F S1x128 .f32) : FVec F S50000x128 .f32 :=
  broadcastInDim S50000x128 ![0, 1] bcast_S1x128_S50000x128_0_1 b

/-- A node index vector as gather start indices: a negative entry is taken from the end (n + 50000). -/
def srcIdx (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

/-- A node index vector as scatter indices (a column). -/
def dstIdx (v : IVec S600000 32) : IVec S600000x1 32 :=
  broadcastInDim S600000x1 ![0] bcast_S600000_S600000x1_0 v

/-- The edge lift: ea · Wl plus the bias row on every edge. -/
def edgeLin (ea : FVec F S600000x32 .f32) (Wl : FVec F S32x128 .f32) (b : FVec F S1x128 .f32) : FVec F S600000x128 .f32 :=
  addf (Host.dotGeneral dot_S600000x32_S32x128_S600000x128_1_0_0_1_n_n none ea Wl) (rowsE b)

/-- The messages: max (X[src] + e, 0). -/
def msgs (X : FVec F S50000x128 .f32) (src : IVec S600000 32) (e : FVec F S600000x128 .f32) : FVec F S600000x128 .f32 :=
  reluE (addf (Host.gather gather_S50000x128_S600000x1_S600000x128_1_0_n_n_0_1_1128 X (srcIdx src)) e)

/-- The aggregation: message rows summed into the node rows their dst names. -/
def aggr (dst : IVec S600000 32) (msg : FVec F S600000x128 .f32) : FVec F S50000x128 .f32 :=
  Host.scatterAdd scatter_S50000x128_S600000x1_S600000x128_1_0_0_1
    (broadcastInDim S50000x128 ![] bcast_S_S50000x128 (constant S_ .f32 0x00000000#32)) (dstIdx dst) msg

/-- The two-layer node network on X + agg, biases given as rows. -/
def mlp (X agg : FVec F S50000x128 .f32) (W1 : FVec F S128x128 .f32) (b1 : FVec F S1x128 .f32)
    (W2 : FVec F S128x128 .f32) (b2 : FVec F S1x128 .f32) : FVec F S50000x128 .f32 :=
  addf (Host.dotGeneral dot_S50000x128_S128x128_S50000x128_1_0_0_1_n_n none
      (reluN (addf (Host.dotGeneral dot_S50000x128_S128x128_S50000x128_1_0_0_1_n_n none (addf X agg) W1) (rowsN b1))) W2)
    (rowsN b2)

/-- The column sums of a node-sized array. -/
def colSum (h : FVec F S50000x128 .f32) : FVec F S128 .f32 :=
  Host.reduceAdd h (constant S_ .f32 0x00000000#32) reducesTo_S50000x128_S128_d0 h_S_

/-- The column means: column sums over 50000. -/
def meanOf (h : FVec F S50000x128 .f32) : FVec F S128 .f32 :=
  Host.divf (colSum h) (broadcastInDim S128 ![] bcast_S_S128 (constant S_ .f32 0x47435000#32))

/-- The column variances (no degrees-of-freedom correction): the mean of squared deviations from the column mean,
    with the degrees-of-freedom guard the source function carries (50000 - 0 > 0 selects the quotient). -/
def varOf (h : FVec F S50000x128 .f32) : FVec F S128 .f32 :=
  let dev : FVec F S50000x128 .f32 :=
    subf h (rowsN (Host.divf (asRow (colSum h)) (broadcastInDim S1x128 ![] bcast_S_S1x128 (constant S_ .f32 0x47435000#32))))
  let n : FVec F S_ .f32 := subf (constant S_ .f32 0x47435000#32) (sitofp .f32 (constantI S_ 32 0#32))
  select (broadcastInDim S128 ![] bcast_S_S128 (cmpf .ogt n (constant S_ .f32 0x00000000#32)))
    (Host.divf (colSum (mulf dev dev)) (broadcastInDim S128 ![] bcast_S_S128 n))
    (broadcastInDim S128 ![] bcast_S_S128 (id (constant S_ .f32 0x7FC00000#32)))

/-- 1 / sqrt (variance + eps), per column. -/
def invStd (h : FVec F S50000x128 .f32) : FVec F S128 .f32 :=
  Host.rsqrt (addf (varOf h) (broadcastInDim S128 ![] bcast_S_S128 (constant S_ .f32 0x3727C5AC#32)))

/-- Normalise, scale, shift, clip at zero; all four per-column vectors given as rows. -/
def bnRelu (h : FVec F S50000x128 .f32) (mu inv g bt : FVec F S1x128 .f32) : FVec F S50000x128 .f32 :=
  reluN (addf (mulf (mulf (subf h (rowsN mu)) (rowsN inv)) (rowsN g)) (rowsN bt))

/-- The pre-normalisation activations of one layer. -/
def hidden (X : FVec F S50000x128 .f32) (src dst : IVec S600000 32) (ea : FVec F S600000x32 .f32)
    (Wl : FVec F S32x128 .f32) (bl : FVec F S128 .f32) (W1 : FVec F S128x128 .f32) (b1 : FVec F S128 .f32)
    (W2 : FVec F S128x128 .f32) (b2 : FVec F S128 .f32) : FVec F S50000x128 .f32 :=
  mlp X (aggr dst (msgs X src (edgeLin ea Wl (asRow bl)))) W1 (asRow b1) W2 (asRow b2)

/-- One layer. -/
def layer (X : FVec F S50000x128 .f32) (src dst : IVec S600000 32) (ea : FVec F S600000x32 .f32)
    (Wl : FVec F S32x128 .f32) (bl : FVec F S128 .f32) (W1 : FVec F S128x128 .f32) (b1 : FVec F S128 .f32)
    (W2 : FVec F S128x128 .f32) (b2 : FVec F S128 .f32) (g bt : FVec F S128 .f32) : FVec F S50000x128 .f32 :=
  bnRelu (hidden X src dst ea Wl bl W1 b1 W2 b2) (asRow (meanOf (hidden X src dst ea Wl bl W1 b1 W2 b2)))
    (asRow (invStd (hidden X src dst ea Wl bl W1 b1 W2 b2))) (asRow g) (asRow bt)

/-! ## The per-layer slices of the stacked inputs -/

def srcOf (ei : IVec S2x600000 32) : IVec S600000 32 :=
  shapeCast S600000 (extractStridedSlice S1x600000 ![0, 0] ei slices_S2x600000_S1x600000_0_0) shapeCasts_S1x600000_S600000
def dstOf (ei : IVec S2x600000 32) : IVec S600000 32 :=
  shapeCast S600000 (extractStridedSlice S1x600000 ![1, 0] ei slices_S2x600000_S1x600000_1_0) shapeCasts_S1x600000_S600000

/-- Layer 0 on the stacked weights: slice 0 of each, the unit axis dropped. -/
def layerAt0 (X : FVec F S50000x128 .f32) (ei : IVec S2x600000 32) (ea : FVec F S600000x32 .f32)
    (a3 : FVec F S3x32x128 .f32) (a4 : FVec F S3x128 .f32) (a5 : FVec F S3x128x128 .f32) (a6 : FVec F S3x128 .f32)
    (a7 : FVec F S3x128x128 .f32) (a8 a9 a10 : FVec F S3x128 .f32) : FVec F S50000x128 .f32 :=
  layer X (srcOf ei) (dstOf ei) ea
    (shapeCast S32x128 (extractStridedSlice S1x32x128 ![0, 0, 0] a3 slices_S3x32x128_S1x32x128_0_0_0) shapeCasts_S1x32x128_S32x128)
    (shapeCast S128 (extractStridedSlice S1x128 ![0, 0] a4 slices_S3x128_S1x128_0_0) shapeCasts_S1x128_S128)
    (shapeCast S128x128 (extractStridedSlice S1x128x128 ![0, 0, 0] a5 slices_S3x128x128_S1x128x128_0_0_0) shapeCasts_S1x128x128_S128x128)
    (shapeCast S128 (extractStridedSlice S1x128 ![0, 0] a6 slices_S3x128_S1x128_0_0) shapeCasts_S1x128_S128)
    (shapeCast S128x128 (extractStridedSlice S1x128x128 ![0, 0, 0] a7 slices_S3x128x128_S1x128x128_0_0_0) shapeCasts_S1x128x128_S128x128)
    (shapeCast S128 (extractStridedSlice S1x128 ![0, 0] a8 slices_S3x128_S1x128_0_0) shapeCasts_S1x128_S128)
    (shapeCast S128 (extractStridedSlice S1x128 ![0, 0] a9 slices_S3x128_S1x128_0_0) shapeCasts_S1x128_S128)
    (shapeCast S128 (extractStridedSlice S1x128 ![0, 0] a10 slices_S3x128_S1x128_0_0) shapeCasts_S1x128_S128)

/-- Layer 1: slice 1 of each stacked weight. -/
def layerAt1 (X : FVec F S50000x128 .f32) (ei : IVec S2x600000 32) (ea : FVec F S600000x32 .f32)
    (a3 : FVec F S3x32x128 .f32) (a4 : FVec F S3x128 .f32) (a5 : FVec F S3x128x128 .f32) (a6 : FVec F S3x128 .f32)
    (a7 : FVec F S3x128x128 .f32) (a8 a9 a10 : FVec F S3x128 .f32) : FVec F S50000x128 .f32 :=
  layer X (srcOf ei) (dstOf ei) ea
    (shapeCast S32x128 (extractStridedSlice S1x32x128 ![1, 0, 0] a3 slices_S3x32x128_S1x32x128_1_0_0) shapeCasts_S1x32x128_S32x128)
    (shapeCast S128 (extractStridedSlice S1x128 ![1, 0] a4 slices_S3x128_S1x128_1_0) shapeCasts_S1x128_S128)
    (shapeCast S128x128 (extractStridedSlice S1x128x128 ![1, 0, 0] a5 slices_S3x128x128_S1x128x128_1_0_0) shapeCasts_S1x128x128_S128x128)
    (shapeCast S128 (extractStridedSlice S1x128 ![1, 0] a6 slices_S3x128_S1x128_1_0) shapeCasts_S1x128_S128)
    (shapeCast S128x128 (extractStridedSlice S1x128x128 ![1, 0, 0] a7 slices_S3x128x128_S1x128x128_1_0_0) shapeCasts_S1x128x128_S128x128)
    (shapeCast S128 (extractStridedSlice S1x128 ![1, 0] a8 slices_S3x128_S1x128_1_0) shapeCasts_S1x128_S128)
    (shapeCast S128 (extractStridedSlice S1x128 ![1, 0] a9 slices_S3x128_S1x128_1_0) shapeCasts_S1x128_S128)
    (shapeCast S128 (extractStridedSlice S1x128 ![1, 0] a10 slices_S3x128_S1x128_1_0) shapeCasts_S1x128_S128)

/-- Layer 2: slice 2 of each stacked weight. -/
def layerAt2 (X : FVec F S50000x128 .f32) (ei : IVec S2x600000 32) (ea : FVec F S600000x32 .f32)
    (a3 : FVec F S3x32x128 .f32) (a4 : FVec F S3x128 .f32) (a5 : FVec F S3x128x128 .f32) (a6 : FVec F S3x128 .f32)
    (a7 : FVec F S3x128x128 .f32) (a8 a9 a10 : FVec F S3x128 .f32) : FVec F S50000x128 .f32 :=
  layer X (srcOf ei) (dstOf ei) ea
    (shapeCast S32x128 (extractStridedSlice S1x32x128 ![2, 0, 0] a3 slices_S3x32x128_S1x32x128_2_0_0) shapeCasts_S1x32x128_S32x128)
    (shapeCast S128 (extractStridedSlice S1x128 ![2, 0] a4 slices_S3x128_S1x128_2_0) shapeCasts_S1x128_S128)
    (shapeCast S128x128 (extractStridedSlice S1x128x128 ![2, 0, 0] a5 slices_S3x128x128_S1x128x128_2_0_0) shapeCasts_S1x128x128_S128x128)
    (shapeCast S128 (extractStridedSlice S1x128 ![2, 0] a6 slices_S3x128_S1x128_2_0) shapeCasts_S1x128_S128)
    (shapeCast S128x128 (extractStridedSlice S1x128x128 ![2, 0, 0] a7 slices_S3x128x128_S1x128x128_2_0_0) shapeCasts_S1x128x128_S128x128)
    (shapeCast S128 (extractStridedSlice S1x128 ![2, 0] a8 slices_S3x128_S1x128_2_0) shapeCasts_S1x128_S128)
    (shapeCast S128 (extractStridedSlice S1x128 ![2, 0] a9 slices_S3x128_S1x128_2_0) shapeCasts_S1x128_S128)
    (shapeCast S128 (extractStridedSlice S1x128 ![2, 0] a10 slices_S3x128_S1x128_2_0) shapeCasts_S1x128_S128)

/-- The network: three layers, each on the previous one's output. -/
def result (a0 : FVec F S50000x128 .f32) (ei : IVec S2x600000 32) (ea : FVec F S600000x32 .f32)
    (a3 : FVec F S3x32x128 .f32) (a4 : FVec F S3x128 .f32) (a5 : FVec F S3x128x128 .f32) (a6 : FVec F S3x128 .f32)
    (a7 : FVec F S3x128x128 .f32) (a8 a9 a10 : FVec F S3x128 .f32) : FVec F S50000x128 .f32 :=
  layerAt2 (layerAt1 (layerAt0 a0 ei ea a3 a4 a5 a6 a7 a8 a9 a10) ei ea a3 a4 a5 a6 a7 a8 a9 a10) ei ea a3 a4 a5 a6 a7 a8 a9 a10

end Cert.Spec

end
-- ==== Proof.Bridge.lean ====
/-
  The kernel's edge pipeline in sorted order against the specification's in the given order.

  The kernel sorts the edges by destination once: with p the stable argsort of dst (a permutation of the 600000 edge
  positions), it works on src∘p, dst∘p and the rows of ea permuted by p. Per layer it lifts the permuted edge features,
  reads X at src∘p (a row outside [0,50000) would be filled, which never happens when src is in range), clips at zero
  and scatter-sums at dst∘p. A scatter-sum is a finite sum over the edges landing on each node, so permuting the edges
  of all three operands alike does not change it: the aggregate equals the specification's.
-/
import proofs.«418803_j51642686767905_2_alg».proof.KernelIdeal
import proofs.«418803_j51642686767905_2_alg».proof.Proof.Spec

import Idealize.ShloMosaic.Lib.StableHlo.Predicate
import Idealize.ShloMosaic.Lib.SortFacts
import Idealize.ShloMosaic.Lib.ValueIdx
import Idealize.ShloMosaic.Lib.ValueLayout
import Idealize.ShloMosaic.PureOps.Ideal.Laws

noncomputable section

namespace Cert.Bridge

open Idealize.ShloMosaic Cert.KernelIdeal
open Cert.KernelIdeal.Facts₀ Cert.KernelIdeal.Facts

variable [Cert.KernelIdeal.Facts] [Cert.ReferenceIdeal.Facts]

/-- The stable argsort of the destinations: entry k is the edge position that lands at k. -/
def permOf (dst : IVec S600000 32) : IVec S600000 32 :=
  (Host.sort2 S600000 0 comparator_i32_i32_d0 dst (iotaInDim S600000 32 0)).2

/-- Edge positions as gather start indices (a negative entry would be taken from the end). -/
def posIdx (p : IVec S600000 32) : IVec S600000x1 32 :=
  broadcastInDim S600000x1 ![0] bcast_S600000_S600000x1_0
    (select (cmpi .slt p (broadcastInDim S600000 ![] bcast_S_S600000 (constantI S_ 32 0#32)))
      (addi p (broadcastInDim S600000 ![] bcast_S_S600000 (constantI S_ 32 600000#32))) p)

/-- A per-edge integer vector in sorted order. -/
def sortI (v dst : IVec S600000 32) : IVec S600000 32 :=
  Host.gather gather_S600000_S600000x1_S600000_n_0_n_n_0_1_1 v (posIdx (permOf dst))

/-- The edge features' rows in sorted order. -/
def sortEa (ea : FVec Ideal S600000x32 .f32) (dst : IVec S600000 32) : FVec Ideal S600000x32 .f32 :=
  Host.gather gather_S600000x32_S600000x1_S600000x32_1_0_n_n_0_1_132 ea (posIdx (permOf dst))

/-- Node indices as gather start indices, a negative entry taken from the end (the kernel's own spelling). -/
def nodeIdx (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The rows of X at the given node indices, a row whose index is outside [0, 49999] filled instead. -/
def takeRows (X : FVec Ideal S50000x128 .f32) (s : IVec S600000 32) : FVec Ideal S600000x128 .f32 :=
  select
    (broadcastInDim S600000x128 ![0] bcast_S600000_S600000x128_0
      (Host.reduce IntOp.andi
        (andi (cmpi .sge (nodeIdx s) (broadcastInDim S600000x1 ![] bcast_S_S600000x1 (constantI S_ 32 0#32)))
          (cmpi .sle (nodeIdx s)
            (broadcastInDim S600000x1 ![0, 1] bcast_S1x1_S600000x1_0_1
              (broadcastInDim S1x1 ![1] bcast_S1_S1x1_1 (constantI S1 32 49999#32)))))
        (constantI S_ 1 1#1) reducesTo_S600000x1_S600000_d1 h_S_))
    (Host.gather gather_S50000x128_S600000x1_S600000x128_1_0_n_n_0_1_1128 X (nodeIdx s))
    (broadcastInDim S600000x128 ![] bcast_S_S600000x128 (constant S_ .f32 0x7FC00000#32))

/-- The kernel's aggregate of one layer, from the sorted edge data and the lifted (sorted) edge features E. -/
def aggSorted (X : FVec Ideal S50000x128 .f32) (sS dS : IVec S600000 32) (E : FVec Ideal S600000x128 .f32) :
    FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dS)
    (maximumf (addf (takeRows X sS) E)
      (broadcastInDim S600000x128 ![] bcast_S_S600000x128 (constant S_ .f32 0x00000000#32)))

section Lemmas

open Idealize.ShloMosaic.StableHlo.Predicate

/-! ## Words -/

theorem slt_zero_of_nonneg (s : BitVec 32) (h : 0 ≤ s.toInt) : IntOp.cmpi .slt s 0#32 = 0#1 := by
  unfold IntOp.cmpi
  have : s.slt 0#32 = false := by
    simp only [BitVec.slt]
    simpa using h
  simp [this]

theorem sge_zero_of_nonneg (s : BitVec 32) (h : 0 ≤ s.toInt) : IntOp.cmpi .sge s 0#32 = 1#1 := by
  unfold IntOp.cmpi
  have : (0#32 : BitVec 32).sle s = true := by
    simp only [BitVec.sle]
    simpa using h
  simp [this]

theorem sle_of_le (s c : BitVec 32) (h : s.toInt ≤ c.toInt) : IntOp.cmpi .sle s c = 1#1 := by
  unfold IntOp.cmpi
  have : s.sle c = true := by
    simp only [BitVec.sle]
    simpa using h
  simp [this]

/-! ## The scatter's landing index as a function of start plus window -/

/-- Where an update lands, given on every operand axis the start plus the window coordinate: that index when it is
    inside the operand on every axis, nowhere otherwise. -/
def landing {s : Shape} (F : Fin s.rank → Int) : Option s.Idx :=
  if h : ∀ a, 0 ≤ F a ∧ F a < s.size a then some fun a => ⟨(F a).toNat, by have := h a; omega⟩ else none

theorem resultIdx?_eq_landing {s si u : Shape} {w : Nat} (d : ScatterDims s si u) (j : u.Idx) (idx : IVec si w) :
    d.resultIdx? j idx = landing (fun a => d.start j idx a + d.window j a) := by
  unfold ScatterDims.resultIdx? landing
  by_cases h : ∀ a, 0 ≤ d.start j idx a + (d.window j a : Int) ∧ d.start j idx a + (d.window j a : Int) < s.size a
  · rw [dif_pos h, dif_pos h]
  · rw [dif_neg h, dif_neg h]

/-! ## A gather of whole rows, read at an element -/

/-- Any entry of a one-element list is that element. -/
theorem getElem_of_eq_singleton {β : Type} (l : List β) (b : β) (h : l = [b]) (i : Nat) (hi : i < l.length) : l[i] = b := by
  subst h
  have : i = 0 := by simpa using hi
  subst this
  rfl

/-- A gather that takes whole rows of an [N × C] table at an [n × 1] column of start indices (axis 0 collapsed and
    start-indexed, axis 1 the offset axis) reads, at (p, q), the table at row `p`'s start index (read signed, clamped
    into the table) and column `q`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ij p q) = x (ij ⟨min (idx (ixP p)).toInt.toNat (N - 1), by omega⟩ q) := by
  have hsl : d.sliceSizes 0 = 1 := d.slice_collapsed 0 (by rw [hcoll]; exact List.mem_singleton.mpr rfl)
  have hb : ∀ a : Fin 2, a ∉ d.operandBatchingDims := by rw [hob]; exact fun _ => List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  unfold Host.gather
  congr 1
  funext a
  match a with
  | ⟨0, _⟩ =>
    refine Fin.ext ?_
    show d.start (ij p q) idx 0 + d.batchCoord (ij p q) 0 + d.offCoord (ij p q) 0 = min (idx (ixP p)).toInt.toNat (N - 1)
    rw [GatherDims.batchCoord_eq_zero _ _ _ (hb 0), GatherDims.offCoord_eq_zero _ _ _ hk0, Nat.add_zero]
    unfold GatherDims.start
    rw [dif_pos hm0]
    show min (idx _).toInt.toNat (N - d.sliceSizes 0) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    refine Fin.ext ?_
    show d.start (ij p q) idx 1 + d.batchCoord (ij p q) 1 + d.offCoord (ij p q) 1 = q.val
    rw [GatherDims.batchCoord_eq_zero _ _ _ (hb 1)]
    unfold GatherDims.start
    rw [dif_neg hm1]
    unfold GatherDims.offCoord
    rw [dif_pos hk1, getElem_of_eq_singleton d.offsetDims 1 hoff]
    show 0 + 0 + q.val = q.val
    omega

/-! ## A scatter of whole rows: where update (p, q) lands -/

/-- A scatter of the rows of an [n × C] update array into an [N × C] operand at an [n × 1] column of row indices (axis 0
    inserted and index-mapped, axis 1 the window axis): update (p, q) lands at row `p`'s index (read signed, not
    clamped) and column `q`, so where it lands depends on `p` only through that one index word. -/
theorem scatter_rows_landing {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1) (idx : IVec ⟨2, ![n, 1]⟩ w) (p : Fin n) (q : Fin C) :
    d.resultIdx? (ij p q) idx
      = landing (s := ⟨2, ![N, C]⟩) (fun a => match a with | ⟨0, _⟩ => (idx (ixP p)).toInt | ⟨1, _⟩ => (q.val : Int)) := by
  have hsk : d.sKept = [1] := by
    show Shape.kept _ d.insertedWindowDims = _
    rw [hiw]; rfl
  have hus : d.uScatter = [0] := by
    show Shape.kept _ d.updateWindowDims = _
    rw [huw]; rfl
  have hk0 : (0 : Fin 2) ∉ d.sKept := by rw [hsk]; simp
  have hk1 : (1 : Fin 2) ∈ d.sKept := by rw [hsk]; simp
  have hm0 : (0 : Fin 2) ∈ d.scatterDimsToOperandDims := by rw [hsd]; exact List.mem_singleton.mpr rfl
  have hm1 : (1 : Fin 2) ∉ d.scatterDimsToOperandDims := by rw [hsd]; simp
  rw [resultIdx?_eq_landing]
  congr 1
  funext a
  match a with
  | ⟨0, _⟩ =>
    show d.start (ij p q) idx 0 + (d.window (ij p q) 0 : Int) = (idx (ixP p)).toInt
    unfold ScatterDims.window
    rw [dif_neg hk0]
    unfold ScatterDims.start
    rw [dif_pos hm0]
    simp only [Nat.cast_zero, add_zero]
    congr 2
    funext b
    match b with
    | ⟨0, _⟩ =>
      unfold ScatterDims.siIdx
      rw [dif_neg (by rw [hiv]; simp)]
      unfold ScatterDims.siCoord
      apply Fin.ext
      simp only [Fin.val_cast]
      rw [getElem_of_eq_singleton d.uScatter 0 hus]
      rfl
    | ⟨1, _⟩ =>
      unfold ScatterDims.siIdx
      rw [dif_pos (by rw [hiv])]
      apply Fin.ext
      show List.idxOf (0 : Fin 2) d.scatterDimsToOperandDims = 0
      rw [hsd]; simp
  | ⟨1, _⟩ =>
    show d.start (ij p q) idx 1 + (d.window (ij p q) 1 : Int) = (q.val : Int)
    unfold ScatterDims.start
    rw [dif_neg hm1]
    unfold ScatterDims.window
    rw [dif_pos hk1, getElem_of_eq_singleton d.updateWindowDims 1 huw]
    show (0 : Int) + ((q.val : Nat) : Int) = _
    omega

/-! ## The sort read as one permutation of the edge positions -/

/-- On a rank-1 shape the second component of a two-operand sort along axis 0 reads its second operand through ONE
    self-map of the positions: the stable sorting permutation of the comparator on the pairs at two positions. -/
theorem sort2_rank1_snd {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The edge position the sort by destination puts at sorted position `e`. -/
def srt (dst : IVec S600000 32) : Fin 600000 → Fin 600000 :=
  sortedFrom (fun k k' => comparator_i32_i32_d0 (dst (Shape.Idx.ofFin k), iotaInDim S600000 32 0 (Shape.Idx.ofFin k))
    (dst (Shape.Idx.ofFin k'), iotaInDim S600000 32 0 (Shape.Idx.ofFin k')) == 1#1)

theorem srt_bijective (dst : IVec S600000 32) : Function.Bijective (srt dst) :=
  ⟨sortedFrom_injective _, sortedFrom_surjective _⟩

/-- The argsort's entry at `e` is the word of the position `srt dst e`. -/
theorem permOf_apply (dst : IVec S600000 32) (e : Fin 600000) :
    permOf dst (Shape.Idx.ofFin e) = BitVec.ofNat 32 (srt dst e).val := by
  unfold permOf
  rw [sort2_rank1_snd, Shape.Idx.ofFin_zero]
  exact iota_apply (srt dst e)

/-! ## Index words -/

/-- A position below 2³¹ read back from its word: signed, as a natural number, clamped below `N`. -/
theorem clamp_ofNat (k N : Nat) (hk : k < N) (hN : N ≤ 2 ^ 31) : min (BitVec.ofNat 32 k).toInt.toNat (N - 1) = k := by
  rw [toInt_ofNat_small k (by omega)]
  simp only [Int.toNat_natCast]
  omega

/-- An [n × 1] index is its row. -/
theorem ixP_eta {n : Nat} (i : (⟨2, ![n, 1]⟩ : Shape).Idx) : ixP (i 0) = i := by
  funext b
  match b with
  | ⟨0, _⟩ => rfl
  | ⟨1, h⟩ =>
    have hlt : (i ⟨1, h⟩).val < 1 := (i ⟨1, h⟩).isLt
    exact Fin.ext (by show 0 = (i ⟨1, h⟩).val; omega)

/-- "A negative index counts from the end", as a column of start indices: on a non-negative entry it is the entry. -/
theorem wrap_apply (h0 : S600000.BroadcastsInDim S600000x1 ![0]) (h1 : S_.BroadcastsInDim S600000 ![]) (v : IVec S600000 32)
    (c : BitVec 32) (e : Fin 600000) (hv : 0 ≤ (v (Shape.Idx.ofFin e)).toInt) :
    broadcastInDim S600000x1 ![0] h0
      (select (cmpi .slt v (broadcastInDim S600000 ![] h1 (constantI S_ 32 0#32)))
        (addi v (broadcastInDim S600000 ![] h1 (constantI S_ 32 c))) v) (ixP e) = v (Shape.Idx.ofFin e) := by
  rw [bcast_col1]
  show Scalar.select (IntOp.cmpi .slt (v (Shape.Idx.ofFin e)) 0#32) _ (v (Shape.Idx.ofFin e)) = _
  rw [slt_zero_of_nonneg _ hv]
  exact ValueIdx.select_zero _ _

theorem posIdx_permOf (dst : IVec S600000 32) (e : Fin 600000) :
    posIdx (permOf dst) (ixP e) = BitVec.ofNat 32 (srt dst e).val := by
  have hlt := (srt dst e).isLt
  unfold posIdx
  rw [wrap_apply _ _ _ _ _ (by rw [permOf_apply, toInt_ofNat_small _ (by omega)]; omega), permOf_apply]

/-! ## The three gathers at an element -/

theorem sortI_apply (v dst : IVec S600000 32) (e : Fin 600000) :
    sortI v dst (Shape.Idx.ofFin e) = v (Shape.Idx.ofFin (srt dst e)) := by
  have hN : (600000 : Nat) ≤ 2 ^ 31 := by norm_num
  have h := gather_take (N := 600000) (n := 600000) (w := 32) gather_S600000_S600000x1_S600000_n_0_n_n_0_1_1 rfl rfl rfl rfl v
    (posIdx (permOf dst)) e (by norm_num)
  refine h.trans (congrArg v (congrArg Shape.Idx.ofFin (Fin.ext ?_)))
  show min (posIdx (permOf dst) (ixP e)).toInt.toNat (600000 - 1) = (srt dst e).val
  rw [posIdx_permOf]
  exact clamp_ofNat _ _ (srt dst e).isLt hN

theorem sortEa_apply (ea : FVec Ideal S600000x32 .f32) (dst : IVec S600000 32) (e : Fin 600000) (c : Fin 32) :
    sortEa ea dst (ij e c) = ea (ij (srt dst e) c) := by
  have hN : (600000 : Nat) ≤ 2 ^ 31 := by norm_num
  have h := gather_rows (N := 600000) (C := 32) (n := 600000) (w := 32) gather_S600000x32_S600000x1_S600000x32_1_0_n_n_0_1_132
    rfl rfl rfl rfl rfl ea (posIdx (permOf dst)) e c (by norm_num)
  refine h.trans (congrArg ea (congrArg (fun r => ij r c) (Fin.ext ?_)))
  show min (posIdx (permOf dst) (ixP e)).toInt.toNat (600000 - 1) = (srt dst e).val
  rw [posIdx_permOf]
  exact clamp_ofNat _ _ (srt dst e).isLt hN

/-! ## The rows of X at in-range node indices: nothing is filled -/

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self ..)]
    have h11 : IntOp.andi (1#1 : BitVec 1) 1#1 = 1#1 := by decide
    rw [h11]
    exact ih fun n hn => h n (List.mem_cons_of_mem _ hn)

/-- A reduce by `and` from 1 of an array of ones is 1 everywhere. -/
theorem reduce_andi_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ fun n _ => hx n

/-- With the node index in range, the kernel's start index for the row read is the node index itself. -/
theorem nodeIdx_apply (s : IVec S600000 32) (e : Fin 600000) (h0 : 0 ≤ (s (Shape.Idx.ofFin e)).toInt) :
    nodeIdx s (ixP e) = s (Shape.Idx.ofFin e) := by
  unfold nodeIdx
  exact wrap_apply _ _ _ _ _ h0

/-- The same for the specification's spelling over the other program's facts. -/
theorem srcIdx_apply (s : IVec S600000 32) (e : Fin 600000) (h0 : 0 ≤ (s (Shape.Idx.ofFin e)).toInt) :
    Cert.Spec.srcIdx s (ixP e) = s (Shape.Idx.ofFin e) := by
  unfold Cert.Spec.srcIdx
  exact wrap_apply _ _ _ _ _ h0

/-- Column `k` of the row of X that an index word names (read signed, clamped into the table). -/
def rowAt (X : FVec Ideal S50000x128 .f32) (s : BitVec 32) (k : Fin 128) : Ideal .f32 :=
  X (ij ⟨min s.toInt.toNat (50000 - 1), by omega⟩ k)

/-- With every node index in [0, 50000) no row is filled: `takeRows` reads X at the node index's row. -/
theorem takeRows_apply (X : FVec Ideal S50000x128 .f32) (s : IVec S600000 32)
    (hs : ∀ e : Fin 600000, 0 ≤ (s (Shape.Idx.ofFin e)).toInt ∧ (s (Shape.Idx.ofFin e)).toInt < 50000) (e : Fin 600000) (k : Fin 128) :
    takeRows X s (ij e k) = rowAt X (s (Shape.Idx.ofFin e)) k := by
  have hmask : ∀ i : S600000x1.Idx,
      andi (cmpi .sge (nodeIdx s) (broadcastInDim S600000x1 ![] bcast_S_S600000x1 (constantI S_ 32 0#32)))
        (cmpi .sle (nodeIdx s)
          (broadcastInDim S600000x1 ![0, 1] bcast_S1x1_S600000x1_0_1
            (broadcastInDim S1x1 ![1] bcast_S1_S1x1_1 (constantI S1 32 49999#32)))) i = 1#1 := by
    intro i
    rw [← ixP_eta i]
    show IntOp.andi (IntOp.cmpi .sge (nodeIdx s (ixP (i 0))) 0#32) (IntOp.cmpi .sle (nodeIdx s (ixP (i 0))) 49999#32) = 1#1
    rw [nodeIdx_apply s (i 0) (hs (i 0)).1, sge_zero_of_nonneg _ (hs (i 0)).1,
      sle_of_le _ _ (by have := (hs (i 0)).2; have h9 : (49999#32 : BitVec 32).toInt = 49999 := by decide
                        omega)]
    decide
  have h := gather_rows (N := 50000) (C := 128) (n := 600000) (w := 32) gather_S50000x128_S600000x1_S600000x128_1_0_n_n_0_1_1128
    rfl rfl rfl rfl rfl X (nodeIdx s) e k (by norm_num)
  unfold takeRows
  rw [ValueIdx.select_apply]
  have hm : broadcastInDim S600000x128 ![0] bcast_S600000_S600000x128_0
      (Host.reduce IntOp.andi
        (andi (cmpi .sge (nodeIdx s) (broadcastInDim S600000x1 ![] bcast_S_S600000x1 (constantI S_ 32 0#32)))
          (cmpi .sle (nodeIdx s)
            (broadcastInDim S600000x1 ![0, 1] bcast_S1x1_S600000x1_0_1
              (broadcastInDim S1x1 ![1] bcast_S1_S1x1_1 (constantI S1 32 49999#32)))))
        (constantI S_ 1 1#1) reducesTo_S600000x1_S600000_d1 h_S_) (ij e k) = 1#1 :=
    reduce_andi_all_one _ _ _ _ hmask rfl _
  rw [hm, ValueIdx.select_one, h]
  show rowAt X (nodeIdx s (ixP e)) k = _
  rw [nodeIdx_apply s e (hs e).1]

/-! ## The edge lift commutes with a re-reading of the rows -/

/-- The left operand's index of the lift's contraction: the output's row, and a column that does not depend on the
    output index. -/
theorem lhs_rows (p p' : Fin 600000) (q q' : Fin 128)
    (k : Cert.ReferenceIdeal.dot_S600000x32_S32x128_S600000x128_1_0_0_1_n_n.contr.Idx) :
    Cert.ReferenceIdeal.dot_S600000x32_S32x128_S600000x128_1_0_0_1_n_n.lhsIdx (ij p q) k
      = ij p (Cert.ReferenceIdeal.dot_S600000x32_S32x128_S600000x128_1_0_0_1_n_n.lhsIdx (ij p' q') k 1) := by
  funext a
  match a with
  | ⟨0, _⟩ => exact Fin.ext rfl
  | ⟨1, _⟩ => exact Fin.ext rfl

/-- The right operand's index does not depend on the output's row. -/
theorem rhs_rows (p p' : Fin 600000) (q : Fin 128)
    (k : Cert.ReferenceIdeal.dot_S600000x32_S32x128_S600000x128_1_0_0_1_n_n.contr.Idx) :
    Cert.ReferenceIdeal.dot_S600000x32_S32x128_S600000x128_1_0_0_1_n_n.rhsIdx (ij p q) k
      = Cert.ReferenceIdeal.dot_S600000x32_S32x128_S600000x128_1_0_0_1_n_n.rhsIdx (ij p' q) k := by
  funext a
  match a with
  | ⟨0, _⟩ => exact Fin.ext rfl
  | ⟨1, _⟩ => exact Fin.ext rfl

/-- If row `p` of `ea'` is row `p'` of `ea`, then row `p` of the lift of `ea'` is row `p'` of the lift of `ea`: the
    contraction reads one row of the left operand, and the bias is the same on every row. -/
theorem edgeLin_rows (ea ea' : FVec Ideal S600000x32 .f32) (Wl : FVec Ideal S32x128 .f32) (b : FVec Ideal S1x128 .f32)
    (p p' : Fin 600000) (h : ∀ c : Fin 32, ea' (ij p c) = ea (ij p' c)) (q : Fin 128) :
    Cert.Spec.edgeLin ea' Wl b (ij p q) = Cert.Spec.edgeLin ea Wl b (ij p' q) := by
  unfold Cert.Spec.edgeLin Cert.Spec.rowsE
  show FloatOps.dotGeneral Cert.ReferenceIdeal.dot_S600000x32_S32x128_S600000x128_1_0_0_1_n_n none .single ea' Wl (ij p q)
        + broadcastInDim _ _ _ b (ij p q)
      = FloatOps.dotGeneral Cert.ReferenceIdeal.dot_S600000x32_S32x128_S600000x128_1_0_0_1_n_n none .single ea Wl (ij p' q)
        + broadcastInDim _ _ _ b (ij p' q)
  rw [bcast_of_row, bcast_of_row, Ideal.dotGeneral_apply, Ideal.dotGeneral_apply]
  refine congrArg (· + b (i1q q)) (Finset.sum_congr rfl fun k _ => ?_)
  have e1 : ea' (Cert.ReferenceIdeal.dot_S600000x32_S32x128_S600000x128_1_0_0_1_n_n.lhsIdx (ij p q) k)
      = ea (Cert.ReferenceIdeal.dot_S600000x32_S32x128_S600000x128_1_0_0_1_n_n.lhsIdx (ij p' q) k) :=
    (congrArg ea' (lhs_rows p p' q q k)).trans ((h _).trans (congrArg ea (lhs_rows p' p' q q k).symm))
  rw [e1, rhs_rows p p' q k]

/-! ## The sorted messages are the given ones with the rows permuted -/

/-- A constant splat reads the constant at every index. -/
theorem splat_apply {s0 t : Shape} (dims : Fin s0.rank → Fin t.rank) (h : s0.BroadcastsInDim t dims) (φ : FTy) (c : BitVec φ.bits)
    (j : t.Idx) : broadcastInDim t dims h (constant (F := Ideal) s0 φ c) j = Ideal.ofBits φ c := rfl

/-- Entry (p, q) of the kernel's message array over the sorted edges is entry (srt dst p, q) of the specification's:
    the same row of X, the same lifted edge row, clipped at the same zero. -/
theorem msg_sorted (X : FVec Ideal S50000x128 .f32) (src dst : IVec S600000 32) (ea : FVec Ideal S600000x32 .f32)
    (Wl : FVec Ideal S32x128 .f32) (b : FVec Ideal S1x128 .f32)
    (hsrc : ∀ e : S600000.Idx, 0 ≤ (src e).toInt ∧ (src e).toInt < 50000) (p : Fin 600000) (q : Fin 128) :
    maximumf (addf (takeRows X (sortI src dst)) (Cert.Spec.edgeLin (sortEa ea dst) Wl b))
        (broadcastInDim S600000x128 ![] bcast_S_S600000x128 (constant S_ .f32 0x00000000#32)) (ij p q)
      = Cert.Spec.msgs X src (Cert.Spec.edgeLin ea Wl b) (ij (srt dst p) q) := by
  have hg : Host.gather Cert.ReferenceIdeal.gather_S50000x128_S600000x1_S600000x128_1_0_n_n_0_1_1128 X (Cert.Spec.srcIdx src)
      (ij (srt dst p) q) = rowAt X (Cert.Spec.srcIdx src (ixP (srt dst p))) q :=
    gather_rows (N := 50000) (C := 128) (n := 600000) (w := 32)
      Cert.ReferenceIdeal.gather_S50000x128_S600000x1_S600000x128_1_0_n_n_0_1_1128 rfl rfl rfl rfl rfl X (Cert.Spec.srcIdx src)
      (srt dst p) q (by norm_num)
  have hs : ∀ e : Fin 600000, 0 ≤ (sortI src dst (Shape.Idx.ofFin e)).toInt ∧ (sortI src dst (Shape.Idx.ofFin e)).toInt < 50000 :=
    fun e => by rw [sortI_apply]; exact hsrc _
  unfold Cert.Spec.msgs Cert.Spec.reluE
  rw [ValueIdx.maximumf_apply, ValueIdx.maximumf_apply, ValueIdx.addf_apply, ValueIdx.addf_apply, splat_apply, splat_apply,
    takeRows_apply X _ hs, hg, edgeLin_rows ea (sortEa ea dst) Wl b p (srt dst p) (fun c => sortEa_apply ea dst p c) q,
    sortI_apply, srcIdx_apply src (srt dst p) (hsrc _).1]

/-! ## The row permutation as an equivalence of the update indices -/

/-- A bijection of the rows, acting on the indices of an [n × m] array. -/
def rowEquiv {n m : Nat} (π : Fin n ≃ Fin n) : (⟨2, ![n, m]⟩ : Shape).Idx ≃ (⟨2, ![n, m]⟩ : Shape).Idx where
  toFun j := ij (π (j 0)) (j 1)
  invFun j := ij (π.symm (j 0)) (j 1)
  left_inv j := by
    exact (congrArg (fun r => ij r (j 1)) (π.symm_apply_apply (j 0))).trans (ij_eta j)
  right_inv j := by
    exact (congrArg (fun r => ij r (j 1)) (π.apply_symm_apply (j 0))).trans (ij_eta j)

/-- The sort's permutation of the edge positions is an equivalence. -/
theorem exists_srtEquiv (dst : IVec S600000 32) : ∃ π : Fin 600000 ≃ Fin 600000, ∀ p, π p = srt dst p :=
  ⟨Equiv.ofBijective (srt dst) (srt_bijective dst), fun p => Equiv.ofBijective_apply (srt dst) (srt_bijective dst) p⟩

theorem rowEquiv_apply {n m : Nat} (π : Fin n ≃ Fin n) (p : Fin n) (q : Fin m) : rowEquiv π (ij p q) = ij (π p) q := rfl

/-- The sorted destination column at row `p` is the given one at row `srt dst p`. -/
theorem dstCol_sorted (dst : IVec S600000 32) (p : Fin 600000) :
    broadcastInDim S600000x1 ![0] bcast_S600000_S600000x1_0 (sortI dst dst) (ixP p) = Cert.Spec.dstIdx dst (ixP (srt dst p)) := by
  unfold Cert.Spec.dstIdx
  rw [bcast_col1, bcast_col1, sortI_apply]

/-! ## A scatter-sum is unchanged by a re-indexing of the updates -/

/-- If an equivalence σ of the update indices carries each update to one that lands at the same place and has the same
    value, the two scatter-sums agree: each node's sum is re-indexed along σ, sums of extended reals being commutative
    and associative. -/
theorem hostScatterAdd_reindex {s si su : Shape} {w : Nat} (d d' : ScatterDims s si su) (x : s.Idx → EReal)
    (idx idx' : IVec si w) (upd upd' : su.Idx → EReal) (σ : su.Idx ≃ su.Idx)
    (hidx : ∀ j, d.resultIdx? j idx = d'.resultIdx? (σ j) idx') (hupd : ∀ j, upd j = upd' (σ j)) :
    Ideal.hostScatterAdd d x idx upd = Ideal.hostScatterAdd d' x idx' upd' := by
  funext i
  unfold Ideal.hostScatterAdd
  refine congrArg (x i + ·) (Finset.sum_equiv σ (fun j => ?_) (fun j _ => hupd j))
  simp only [Finset.mem_filter, Finset.mem_univ, true_and, hidx j]

/-- Update (p, q) of the sorted scatter lands where update (π p, q) of the given one does. -/
theorem landing_sorted (dst : IVec S600000 32) (π : Fin 600000 ≃ Fin 600000) (hπ : ∀ p, π p = srt dst p) (j : S600000x128.Idx) :
    scatter_S50000x128_S600000x1_S600000x128_1_0_0_1.resultIdx? j
        (broadcastInDim S600000x1 ![0] bcast_S600000_S600000x1_0 (sortI dst dst))
      = Cert.ReferenceIdeal.scatter_S50000x128_S600000x1_S600000x128_1_0_0_1.resultIdx? (rowEquiv π j) (Cert.Spec.dstIdx dst) := by
  obtain ⟨p, q, rfl⟩ : ∃ p q, j = ij p q := ⟨j 0, j 1, (ij_eta j).symm⟩
  rw [rowEquiv_apply, scatter_rows_landing scatter_S50000x128_S600000x1_S600000x128_1_0_0_1 rfl rfl rfl rfl,
    scatter_rows_landing Cert.ReferenceIdeal.scatter_S50000x128_S600000x1_S600000x128_1_0_0_1 rfl rfl rfl rfl,
    dstCol_sorted, hπ]

end Lemmas

/-- THE LAW: with every source index in [0, 50000), the aggregate over the sorted edges (features lifted after
    sorting) is the specification's aggregate over the edges as given. -/
theorem aggSorted_eq (X : FVec Ideal S50000x128 .f32) (src dst : IVec S600000 32) (ea : FVec Ideal S600000x32 .f32)
    (Wl : FVec Ideal S32x128 .f32) (b : FVec Ideal S1x128 .f32)
    (hsrc : ∀ e : S600000.Idx, 0 ≤ (src e).toInt ∧ (src e).toInt < 50000) :
    aggSorted X (sortI src dst) (sortI dst dst) (Cert.Spec.edgeLin (sortEa ea dst) Wl b)
      = Cert.Spec.aggr dst (Cert.Spec.msgs X src (Cert.Spec.edgeLin ea Wl b)) := by
  obtain ⟨π, hπ⟩ := exists_srtEquiv dst
  unfold aggSorted Cert.Spec.aggr Host.scatterAdd
  rw [Ideal.hostScatterAdd_def, Ideal.hostScatterAdd_def]
  refine hostScatterAdd_reindex _ _ _ _ _ _ _ (rowEquiv π) (landing_sorted dst π hπ) fun j => ?_
  obtain ⟨p, q, rfl⟩ : ∃ p q, j = StableHlo.Predicate.ij p q := ⟨j 0, j 1, (StableHlo.Predicate.ij_eta j).symm⟩
  rw [rowEquiv_apply, hπ]
  exact msg_sorted X src dst ea Wl b hsrc p q

/-- One layer as the kernel computes it from the sorted edge data: lift the sorted edge features, aggregate in sorted
    order, then the node network and the normalisation of the specification. -/
def layerSorted (X : FVec Ideal S50000x128 .f32) (sS dS : IVec S600000 32) (eS : FVec Ideal S600000x32 .f32)
    (Wl : FVec Ideal S32x128 .f32) (bl : FVec Ideal S128 .f32) (W1 : FVec Ideal S128x128 .f32) (b1 : FVec Ideal S128 .f32)
    (W2 : FVec Ideal S128x128 .f32) (b2 : FVec Ideal S128 .f32) (g bt : FVec Ideal S128 .f32) : FVec Ideal S50000x128 .f32 :=
  Cert.Spec.bnRelu
    (Cert.Spec.mlp X (aggSorted X sS dS (Cert.Spec.edgeLin eS Wl (Cert.Spec.asRow bl))) W1 (Cert.Spec.asRow b1) W2 (Cert.Spec.asRow b2))
    (Cert.Spec.asRow (Cert.Spec.meanOf
      (Cert.Spec.mlp X (aggSorted X sS dS (Cert.Spec.edgeLin eS Wl (Cert.Spec.asRow bl))) W1 (Cert.Spec.asRow b1) W2 (Cert.Spec.asRow b2))))
    (Cert.Spec.asRow (Cert.Spec.invStd
      (Cert.Spec.mlp X (aggSorted X sS dS (Cert.Spec.edgeLin eS Wl (Cert.Spec.asRow bl))) W1 (Cert.Spec.asRow b1) W2 (Cert.Spec.asRow b2))))
    (Cert.Spec.asRow g) (Cert.Spec.asRow bt)

/-- With every source index in range, the kernel's layer from the sorted data is the specification's layer. -/
theorem layerSorted_eq (X : FVec Ideal S50000x128 .f32) (src dst : IVec S600000 32) (ea : FVec Ideal S600000x32 .f32)
    (Wl : FVec Ideal S32x128 .f32) (bl : FVec Ideal S128 .f32) (W1 : FVec Ideal S128x128 .f32) (b1 : FVec Ideal S128 .f32)
    (W2 : FVec Ideal S128x128 .f32) (b2 : FVec Ideal S128 .f32) (g bt : FVec Ideal S128 .f32)
    (hsrc : ∀ e : S600000.Idx, 0 ≤ (src e).toInt ∧ (src e).toInt < 50000) :
    layerSorted X (sortI src dst) (sortI dst dst) (sortEa ea dst) Wl bl W1 b1 W2 b2 g bt
      = Cert.Spec.layer X src dst ea Wl bl W1 b1 W2 b2 g bt := by
  unfold layerSorted Cert.Spec.layer Cert.Spec.hidden
  rw [aggSorted_eq X src dst ea Wl (Cert.Spec.asRow bl) hsrc]

/-- A length-128 vector reshaped to one row is that vector as a row. -/
theorem row_eq (v : FVec Ideal S128 .f32) (h : S128.ShapeCasts S1x128) : shapeCast S1x128 v h = Cert.Spec.asRow v := by
  funext j
  rw [ValueIdx.eq_ix2 j]
  refine (ValueIdx.shapeCast_a_1a_apply v h (j 0) (j 1)).trans ?_
  unfold Cert.Spec.asRow
  simp only [broadcastInDim]
  refine congrArg v (funext fun a => ?_)
  have ha : a = 0 := Subsingleton.elim _ _
  subst ha
  apply Fin.ext
  split
  · next h1 => exact absurd h1 (by decide)
  · rfl

end Cert.Bridge

end
-- ==== Proof.RegEdge.lean ====
/-
  What an edge-linear region leaves in its output array: every block of 8000 edge rows is the product of that block of the (sorted) edge features with the 32x128 weight plus the bias row, and the 75 blocks tile the 600000 rows; so the whole array is the whole-array product plus the bias row on every edge.
-/
import proofs.«418803_j51642686767905_2_alg».proof.Proof.Gen.KernelIdeal.Frame
import proofs.«418803_j51642686767905_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx
open Cert.KernelIdeal Cert.KernelIdeal.Gen
open Idealize.ShloMosaic.Pipeline (Dat Cfg Window)

variable [Cert.ReferenceIdeal.Facts]
variable (V : (c : Dev nD) → (b : Ref sig .tc) → Buf (Elt Ideal) ((c : Thread nD τ).loc b))

/-! ## The product's operand indices, axis by axis

For a rows-by-columns product with one contracted axis, the left operand is read at (row of the result, contraction
position) and the right at (contraction position, column of the result). -/

theorem lhsK_0 (i : S8000x128.Idx) (q : dot_S8000x32_S32x128_S8000x128_1_0_0_1_n_n.contr.Idx) :
    (dot_S8000x32_S32x128_S8000x128_1_0_0_1_n_n.lhsIdx i q 0).val = (i 0).val := by
  unfold DotDims.lhsIdx
  rw [dif_neg (show ¬(0 : Fin S8000x32.rank) ∈ dot_S8000x32_S32x128_S8000x128_1_0_0_1_n_n.lhsBatch by decide),
    dif_pos (show (0 : Fin S8000x32.rank) ∈ dot_S8000x32_S32x128_S8000x128_1_0_0_1_n_n.lhsNonContracting by decide)]
  rfl

theorem lhsK_1 (i : S8000x128.Idx) (q : dot_S8000x32_S32x128_S8000x128_1_0_0_1_n_n.contr.Idx) :
    (dot_S8000x32_S32x128_S8000x128_1_0_0_1_n_n.lhsIdx i q 1).val = (q ⟨0, by decide⟩).val :=
  dot_S8000x32_S32x128_S8000x128_1_0_0_1_n_n.lhsIdx_val_of_single rfl i q

theorem rhsK_0 (i : S8000x128.Idx) (q : dot_S8000x32_S32x128_S8000x128_1_0_0_1_n_n.contr.Idx) :
    (dot_S8000x32_S32x128_S8000x128_1_0_0_1_n_n.rhsIdx i q 0).val = (q ⟨0, by decide⟩).val :=
  dot_S8000x32_S32x128_S8000x128_1_0_0_1_n_n.rhsIdx_val_of_single rfl i q

theorem rhsK_1 (i : S8000x128.Idx) (q : dot_S8000x32_S32x128_S8000x128_1_0_0_1_n_n.contr.Idx) :
    (dot_S8000x32_S32x128_S8000x128_1_0_0_1_n_n.rhsIdx i q 1).val = (i 1).val := by
  unfold DotDims.rhsIdx
  rw [dif_neg (show ¬(1 : Fin S32x128.rank) ∈ dot_S8000x32_S32x128_S8000x128_1_0_0_1_n_n.rhsBatch by decide),
    dif_pos (show (1 : Fin S32x128.rank) ∈ dot_S8000x32_S32x128_S8000x128_1_0_0_1_n_n.rhsNonContracting by decide)]
  rfl

theorem lhsR_0 (i : Cert.ReferenceIdeal.S600000x128.Idx) (q : Cert.ReferenceIdeal.dot_S600000x32_S32x128_S600000x128_1_0_0_1_n_n.contr.Idx) :
    (Cert.ReferenceIdeal.dot_S600000x32_S32x128_S600000x128_1_0_0_1_n_n.lhsIdx i q 0).val = (i 0).val := by
  unfold DotDims.lhsIdx
  rw [dif_neg (show ¬(0 : Fin Cert.ReferenceIdeal.S600000x32.rank) ∈ Cert.ReferenceIdeal.dot_S600000x32_S32x128_S600000x128_1_0_0_1_n_n.lhsBatch from List.not_mem_nil),
    dif_pos (show (0 : Fin Cert.ReferenceIdeal.S600000x32.rank) ∈ Cert.ReferenceIdeal.dot_S600000x32_S32x128_S600000x128_1_0_0_1_n_n.lhsNonContracting from List.mem_singleton.mpr rfl)]
  rfl

theorem lhsR_1 (i : Cert.ReferenceIdeal.S600000x128.Idx) (q : Cert.ReferenceIdeal.dot_S600000x32_S32x128_S600000x128_1_0_0_1_n_n.contr.Idx) :
    (Cert.ReferenceIdeal.dot_S600000x32_S32x128_S600000x128_1_0_0_1_n_n.lhsIdx i q 1).val = (q ⟨0, Nat.one_pos⟩).val :=
  Cert.ReferenceIdeal.dot_S600000x32_S32x128_S600000x128_1_0_0_1_n_n.lhsIdx_val_of_single rfl i q

theorem rhsR_0 (i : Cert.ReferenceIdeal.S600000x128.Idx) (q : Cert.ReferenceIdeal.dot_S600000x32_S32x128_S600000x128_1_0_0_1_n_n.contr.Idx) :
    (Cert.ReferenceIdeal.dot_S600000x32_S32x128_S600000x128_1_0_0_1_n_n.rhsIdx i q 0).val = (q ⟨0, Nat.one_pos⟩).val :=
  Cert.ReferenceIdeal.dot_S600000x32_S32x128_S600000x128_1_0_0_1_n_n.rhsIdx_val_of_single rfl i q

theorem rhsR_1 (i : Cert.ReferenceIdeal.S600000x128.Idx) (q : Cert.ReferenceIdeal.dot_S600000x32_S32x128_S600000x128_1_0_0_1_n_n.contr.Idx) :
    (Cert.ReferenceIdeal.dot_S600000x32_S32x128_S600000x128_1_0_0_1_n_n.rhsIdx i q 1).val = (i 1).val := by
  unfold DotDims.rhsIdx
  rw [dif_neg (show ¬(1 : Fin Cert.ReferenceIdeal.S32x128.rank) ∈ Cert.ReferenceIdeal.dot_S600000x32_S32x128_S600000x128_1_0_0_1_n_n.rhsBatch from List.not_mem_nil),
    dif_pos (show (1 : Fin Cert.ReferenceIdeal.S32x128.rank) ∈ Cert.ReferenceIdeal.dot_S600000x32_S32x128_S600000x128_1_0_0_1_n_n.rhsNonContracting from List.mem_singleton.mpr rfl)]
  rfl

/-! ## One block of the kernel, and the whole-array expression, at an index -/

/-- A block's product at (p, q): the sum over the 32 feature columns of the block's row p times the weight's column q. -/
theorem blockDot_apply (a : FVec Ideal S8000x32 .bf16) (w : FVec Ideal S32x128 .bf16) (p : Fin 8000) (q : Fin 128) :
    FloatOps.matmul dot_S8000x32_S32x128_S8000x128_1_0_0_1_n_n none a w (constant (F := Ideal) S8000x128 .f32 0x00000000#32) (ix2 p q)
      = ∑ k : Fin 32, a (ix2 p k) * w (ix2 k q) := by
  rw [Ideal.matmul_constant_zero_apply,
    ← Equiv.sum_comp (contrEquiv1 dot_S8000x32_S32x128_S8000x128_1_0_0_1_n_n 32 rfl rfl).symm]
  refine Finset.sum_congr rfl fun k _ => ?_
  have hk := contrEquiv1_symm_val dot_S8000x32_S32x128_S8000x128_1_0_0_1_n_n 32 rfl rfl k
  have el : dot_S8000x32_S32x128_S8000x128_1_0_0_1_n_n.lhsIdx (ix2 p q)
      ((contrEquiv1 dot_S8000x32_S32x128_S8000x128_1_0_0_1_n_n 32 rfl rfl).symm k) = ix2 p k := funext fun a => Fin.ext (by
    match a with
    | ⟨0, _⟩ => exact lhsK_0 _ _
    | ⟨1, _⟩ => exact (lhsK_1 _ _).trans hk)
  have er : dot_S8000x32_S32x128_S8000x128_1_0_0_1_n_n.rhsIdx (ix2 p q)
      ((contrEquiv1 dot_S8000x32_S32x128_S8000x128_1_0_0_1_n_n 32 rfl rfl).symm k) = ix2 k q := funext fun a => Fin.ext (by
    match a with
    | ⟨0, _⟩ => exact (rhsK_0 _ _).trans hk
    | ⟨1, _⟩ => exact rhsK_1 _ _)
  rw [el, er]

/-- The whole-array product at (r, q): the same sum over the whole feature array's row r. -/
theorem wholeDot_apply (ea : FVec Ideal Cert.ReferenceIdeal.S600000x32 .f32) (Wl : FVec Ideal Cert.ReferenceIdeal.S32x128 .f32)
    (r : Fin 600000) (q : Fin 128) :
    Host.dotGeneral (F := Ideal) Cert.ReferenceIdeal.dot_S600000x32_S32x128_S600000x128_1_0_0_1_n_n none ea Wl (ix2 r q)
      = ∑ k : Fin 32, ea (ix2 r k) * Wl (ix2 k q) := by
  simp only [Host.dotGeneral]
  rw [Ideal.dotGeneral_apply,
    ← Equiv.sum_comp (contrEquiv1 Cert.ReferenceIdeal.dot_S600000x32_S32x128_S600000x128_1_0_0_1_n_n 32 rfl rfl).symm]
  refine Finset.sum_congr rfl fun k _ => ?_
  have hk := contrEquiv1_symm_val Cert.ReferenceIdeal.dot_S600000x32_S32x128_S600000x128_1_0_0_1_n_n 32 rfl rfl k
  have el : Cert.ReferenceIdeal.dot_S600000x32_S32x128_S600000x128_1_0_0_1_n_n.lhsIdx (ix2 r q)
      ((contrEquiv1 Cert.ReferenceIdeal.dot_S600000x32_S32x128_S600000x128_1_0_0_1_n_n 32 rfl rfl).symm k) = ix2 r k := funext fun a => Fin.ext (by
    match a with
    | ⟨0, _⟩ => exact lhsR_0 _ _
    | ⟨1, _⟩ => exact (lhsR_1 _ _).trans hk)
  have er : Cert.ReferenceIdeal.dot_S600000x32_S32x128_S600000x128_1_0_0_1_n_n.rhsIdx (ix2 r q)
      ((contrEquiv1 Cert.ReferenceIdeal.dot_S600000x32_S32x128_S600000x128_1_0_0_1_n_n 32 rfl rfl).symm k) = ix2 k q := funext fun a => Fin.ext (by
    match a with
    | ⟨0, _⟩ => exact (rhsR_0 _ _).trans hk
    | ⟨1, _⟩ => exact rhsR_1 _ _)
  rw [el, er]

/-- The bias row repeated down a block, at (p, q): the row's entry q. -/
theorem blockBias_apply (b : FVec Ideal S1x128 .f32) (h : S1x128.Broadcasts S8000x128) (p : Fin 8000) (q : Fin 128) :
    broadcastTo S8000x128 b h (ix2 p q) = b (ix2 0 q) :=
  broadcastTo_apply b h (ix2 p q) (ix2 0 q) fun a => by
    match a with
    | ⟨0, _⟩ => rfl
    | ⟨1, _⟩ => rfl

/-- The bias row repeated down the whole edge axis, at (r, q): the row's entry q. -/
theorem wholeBias_apply (b : FVec Ideal Cert.ReferenceIdeal.S1x128 .f32) (r : Fin 600000) (q : Fin 128) :
    Cert.Spec.rowsE (F := Ideal) b (ix2 r q) = b (ix2 0 q) := by
  unfold Cert.Spec.rowsE
  exact broadcastInDim_apply _ _ b (ix2 r q) (ix2 0 q) fun a => by
    match a with
    | ⟨0, _⟩ => rfl
    | ⟨1, _⟩ => rfl

/-- The whole-array expression at (r, q). -/
theorem edgeLin_apply (ea : FVec Ideal Cert.ReferenceIdeal.S600000x32 .f32) (Wl : FVec Ideal Cert.ReferenceIdeal.S32x128 .f32)
    (b : FVec Ideal Cert.ReferenceIdeal.S1x128 .f32) (r : Fin 600000) (q : Fin 128) :
    Cert.Spec.edgeLin (F := Ideal) ea Wl b (ix2 r q) = (∑ k : Fin 32, ea (ix2 r k) * Wl (ix2 k q)) + b (ix2 0 q) := by
  unfold Cert.Spec.edgeLin
  rw [addf_apply, wholeDot_apply, wholeBias_apply]

/-- A block's product plus bias at (p, q) is the whole-array expression at (r, q) once the block's row p is the array's
    row r and the weight and the bias row are the same on both sides. -/
theorem blockLin_eq_edgeLin (x0 : FVec Ideal S8000x32 .f32) (x1 : FVec Ideal S32x128 .f32) (x2 : FVec Ideal S1x128 .f32)
    (ea : FVec Ideal Cert.ReferenceIdeal.S600000x32 .f32) (Wl : FVec Ideal Cert.ReferenceIdeal.S32x128 .f32)
    (b : FVec Ideal Cert.ReferenceIdeal.S1x128 .f32) (p : Fin 8000) (q : Fin 128) (r : Fin 600000)
    (h0 : ∀ k : Fin 32, x0 (ix2 p k) = ea (ix2 r k)) (h1 : ∀ k : Fin 32, x1 (ix2 k q) = Wl (ix2 k q))
    (h2 : x2 (ix2 0 q) = b (ix2 0 q)) :
    (∑ k : Fin 32, x0 (ix2 p k) * x1 (ix2 k q)) + x2 (ix2 0 q) = Cert.Spec.edgeLin (F := Ideal) ea Wl b (ix2 r q) := by
  rw [edgeLin_apply, h2]
  exact congrArg (· + b (ix2 0 q)) (Finset.sum_congr rfl fun k _ => by rw [h0 k, h1 k])

/-- The zero offsets of a whole staging buffer's load or store. -/
theorem hz : (![0, 0] : Fin 2 → Nat) = fun _ => 0 := funext fun a => by fin_cases a <;> rfl

/-! ## Region 0 (layer 0): from the 75 blocks to the array -/

/-- Region 0's payload at (p, q) of a block: the casts are the identity on the extended reals. -/
theorem pay0_apply (x0 : FVec Ideal S8000x32 .f32) (x1 : FVec Ideal S32x128 .f32) (x2 : FVec Ideal S1x128 .f32) (p : Fin 8000) (q : Fin 128) :
    k0_pay1 (F := Ideal) x0 x1 x2 (ix2 p q) = (∑ k : Fin 32, x0 (ix2 p k) * x1 (ix2 k q)) + x2 (ix2 0 q) := by
  unfold k0_pay1
  simp only [matmul, shapeCast_self]
  rw [truncf_apply, addf_apply, blockDot_apply, blockBias_apply]
  rfl

/-- The index maps over the 75 points: the feature block and the result block are block t along the rows; the weight
    and the bias row are held whole. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the feature block at point t is row 8000 t + p of the feature array. -/
theorem feat_blk0 (c : Dev nD) (t : Fin cfg0.N) (p : Fin 8000) (k : Fin 32) (r : Fin 600000) (hr : r.val = 8000 * t.val + p.val) :
    (iblk0 V c 0 t : FVec Ideal S8000x32 .f32) (ix2 p k) = (V c main_v25 : FVec Ideal S600000x32 .f32) (ix2 r k) := by
  obtain ⟨e0, e1, -⟩ := idx0 t
  unfold iblk0
  rw [View.read_apply]
  show (V c main_v25 : FVec Ideal S600000x32 .f32) _ = _
  congr 1
  funext a; apply Fin.ext
  match a with
  | ⟨0, _⟩ => show win0_0.index t (0 : Fin 2) * 8000 + 1 * p.val = r.val; rw [e0, hr]; omega
  | ⟨1, _⟩ => show win0_0.index t (1 : Fin 2) * 32 + 1 * k.val = k.val; rw [e1]; omega

/-- The weight block at every point is the weight array. -/
theorem weight_blk0 (c : Dev nD) (t : Fin cfg0.N) (k : Fin 32) (q : Fin 128) :
    (iblk0 V c 1 t : FVec Ideal S32x128 .f32) (ix2 k q) = (V c main_v27 : FVec Ideal S32x128 .f32) (ix2 k q) := by
  obtain ⟨-, -, e2, e3, -⟩ := idx0 t
  unfold iblk0
  rw [View.read_apply]
  show (V c main_v27 : FVec Ideal S32x128 .f32) _ = _
  congr 1
  funext a; apply Fin.ext
  match a with
  | ⟨0, _⟩ => show win0_1.index t (0 : Fin 2) * 32 + 1 * k.val = k.val; rw [e2]; omega
  | ⟨1, _⟩ => show win0_1.index t (1 : Fin 2) * 128 + 1 * q.val = q.val; rw [e3]; omega

/-- The bias block at every point is the bias row. -/
theorem bias_blk0 (c : Dev nD) (t : Fin cfg0.N) (q : Fin 128) :
    (iblk0 V c 2 t : FVec Ideal S1x128 .f32) (ix2 0 q) = (V c main_v30 : FVec Ideal S1x128 .f32) (ix2 0 q) := by
  obtain ⟨-, -, -, -, e4, e5, -⟩ := idx0 t
  unfold iblk0
  rw [View.read_apply]
  show (V c main_v30 : FVec Ideal S1x128 .f32) _ = _
  congr 1
  funext a; apply Fin.ext
  match a with
  | ⟨0, _⟩ => show win0_2.index t (0 : Fin 2) * 1 + 1 * (0 : Fin 1).val = (0 : Fin 1).val; rw [e4]; omega
  | ⟨1, _⟩ => show win0_2.index t (1 : Fin 2) * 128 + 1 * q.val = q.val; rw [e5]; omega

/-- What point t's body leaves at block index x is the whole-array expression at the array index i that x sits at:
    row 8000 t + x₀, column x₁. -/
theorem point0 (c : Dev nD) (t : Fin cfg0.N) (x : S8000x128.Idx) (i : S600000x128.Idx)
    (hi0 : (i 0).val = 8000 * t.val + (x 0).val) (hi1 : (i 1).val = (x 1).val) :
    k0_pay1 (F := Ideal) (iblk0 V c 0 t) (iblk0 V c 1 t) (iblk0 V c 2 t) x
      = Cert.Spec.edgeLin (F := Ideal) (V c main_v25) (V c main_v27) (V c main_v30) i := by
  obtain ⟨p, q, rfl⟩ : ∃ (p : Fin 8000) (q : Fin 128), x = ix2 p q := ⟨x 0, x 1, eq_ix2 x⟩
  obtain ⟨r, s, rfl⟩ : ∃ (r : Fin 600000) (s : Fin 128), i = ix2 r s := ⟨i 0, i 1, eq_ix2 i⟩
  obtain rfl : s = q := Fin.ext hi1
  refine (pay0_apply _ _ _ p s).trans ?_
  exact blockLin_eq_edgeLin _ _ _ _ _ _ p s r (fun k => feat_blk0 V c t p k r hi0) (fun k => weight_blk0 V c t k s) (bias_blk0 V c t s)

/-- What point t writes back is block t of the whole-array expression. -/
theorem flushed0_eq (c : Dev nD) (t : Fin cfg0.N) :
    (dat0 (F := Ideal) V c).flushed 3 t
      = ((cfg0.win 3).blk t).view.read (Elt Ideal)
          (fun i => Cert.Spec.edgeLin (F := Ideal) (V c main_v25) (V c main_v27) (V c main_v30) i) := by
  show (cfg0.win 3).cut (grid0.coords t) ((dat0 (F := Ideal) V c).after 3 t) = _
  rw [after0_3]
  unfold out0_3
  rw [View.canon_unit_zero hz]
  simp only [View.ld_unit_zero (S := S8000x32) hz, View.ld_unit_zero (S := S32x128) hz, View.ld_unit_zero (S := S1x128) hz]
  obtain ⟨-, -, -, -, -, -, e6, e7⟩ := idx0 t
  funext j
  refine point0 V c t ((cfg0.win 3).xinj (grid0.coords t) j) (((cfg0.win 3).blk t).view.emb j) ?_ ?_
  · show win0_3.index t (0 : Fin 2) * 8000 + 1 * (j 0).val = 8000 * t.val + (j 0).val
    rw [e6]; omega
  · show win0_3.index t (1 : Fin 2) * 128 + 1 * (j 1).val = (j 1).val
    rw [e7]; omega

/-- An index of the array is in point t's block iff each coordinate is in the block's range on its axis. -/
theorem mem_blk0 (t : Fin cfg0.N) (i : S600000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v31).slice (win0_3.rect t)).set ↔ _
  rw [View.set_slice_whole, Rect.mem_set_unit]
  exact Iff.rfl

/-- The 75 blocks of 8000 rows tile the 600000 rows: row r is in block r / 8000. -/
theorem cover0 (i : S600000x128.Idx) :
    ∃ t : Fin cfg0.N, (cfg0.win 3).flush t = true ∧ i ∈ ((cfg0.win 3).blk t).view.set := by
  have hi0 : (i 0).val < 600000 := (i 0).isLt
  have hi1 : (i 1).val < 128 := (i 1).isLt
  have hlt : (i 0).val / 8000 < cfg0.N := by rw [show cfg0.N = 75 from N_0]; omega
  obtain ⟨-, -, -, -, -, -, e6, e7⟩ := idx0 ⟨(i 0).val / 8000, hlt⟩
  refine ⟨⟨(i 0).val / 8000, hlt⟩, flush0_3 _, ?_⟩
  rw [mem_blk0]
  intro a
  match a with
  | ⟨0, _⟩ =>
    show win0_3.index ⟨(i 0).val / 8000, hlt⟩ (0 : Fin 2) * 8000 ≤ (i 0).val ∧ (i 0).val < win0_3.index ⟨(i 0).val / 8000, hlt⟩ (0 : Fin 2) * 8000 + 8000
    rw [e6]
    show (i 0).val / 8000 * 8000 ≤ (i 0).val ∧ (i 0).val < (i 0).val / 8000 * 8000 + 8000
    omega
  | ⟨1, _⟩ =>
    show win0_3.index ⟨(i 0).val / 8000, hlt⟩ (1 : Fin 2) * 128 ≤ (i 1).val ∧ (i 1).val < win0_3.index ⟨(i 0).val / 8000, hlt⟩ (1 : Fin 2) * 128 + 128
    rw [e7]; omega

/-- Region 0 (layer 0's edge lift). -/
theorem edge0 (c : Dev nD) :
    (dat0 (F := Ideal) V c).arrAt 3 cfg0.N
      = fun i => Cert.Spec.edgeLin (F := Ideal) (V c main_v25) (V c main_v27) (V c main_v30) i :=
  (dat0 (F := Ideal) V c).arrAt_eq_of_cover 3 _ (fun t _ => flushed0_eq V c t) cover0

/-! ## Region 3 (layer 1): from the 75 blocks to the array -/

/-- Region 3's payload at (p, q) of a block: the casts are the identity on the extended reals. -/
theorem pay3_apply (x0 : FVec Ideal S8000x32 .f32) (x1 : FVec Ideal S32x128 .f32) (x2 : FVec Ideal S1x128 .f32) (p : Fin 8000) (q : Fin 128) :
    k3_pay1 (F := Ideal) x0 x1 x2 (ix2 p q) = (∑ k : Fin 32, x0 (ix2 p k) * x1 (ix2 k q)) + x2 (ix2 0 q) := by
  unfold k3_pay1
  simp only [matmul, shapeCast_self]
  rw [truncf_apply, addf_apply, blockDot_apply, blockBias_apply]
  rfl

/-- The index maps over the 75 points: the feature block and the result block are block t along the rows; the weight
    and the bias row are held whole. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of the feature block at point t is row 8000 t + p of the feature array. -/
theorem feat_blk3 (c : Dev nD) (t : Fin cfg3.N) (p : Fin 8000) (k : Fin 32) (r : Fin 600000) (hr : r.val = 8000 * t.val + p.val) :
    (iblk3 V c 0 t : FVec Ideal S8000x32 .f32) (ix2 p k) = (V c main_v25 : FVec Ideal S600000x32 .f32) (ix2 r k) := by
  obtain ⟨e0, e1, -⟩ := idx3 t
  unfold iblk3
  rw [View.read_apply]
  show (V c main_v25 : FVec Ideal S600000x32 .f32) _ = _
  congr 1
  funext a; apply Fin.ext
  match a with
  | ⟨0, _⟩ => show win3_0.index t (0 : Fin 2) * 8000 + 1 * p.val = r.val; rw [e0, hr]; omega
  | ⟨1, _⟩ => show win3_0.index t (1 : Fin 2) * 32 + 1 * k.val = k.val; rw [e1]; omega

/-- The weight block at every point is the weight array. -/
theorem weight_blk3 (c : Dev nD) (t : Fin cfg3.N) (k : Fin 32) (q : Fin 128) :
    (iblk3 V c 1 t : FVec Ideal S32x128 .f32) (ix2 k q) = (V c main_v67 : FVec Ideal S32x128 .f32) (ix2 k q) := by
  obtain ⟨-, -, e2, e3, -⟩ := idx3 t
  unfold iblk3
  rw [View.read_apply]
  show (V c main_v67 : FVec Ideal S32x128 .f32) _ = _
  congr 1
  funext a; apply Fin.ext
  match a with
  | ⟨0, _⟩ => show win3_1.index t (0 : Fin 2) * 32 + 1 * k.val = k.val; rw [e2]; omega
  | ⟨1, _⟩ => show win3_1.index t (1 : Fin 2) * 128 + 1 * q.val = q.val; rw [e3]; omega

/-- The bias block at every point is the bias row. -/
theorem bias_blk3 (c : Dev nD) (t : Fin cfg3.N) (q : Fin 128) :
    (iblk3 V c 2 t : FVec Ideal S1x128 .f32) (ix2 0 q) = (V c main_v70 : FVec Ideal S1x128 .f32) (ix2 0 q) := by
  obtain ⟨-, -, -, -, e4, e5, -⟩ := idx3 t
  unfold iblk3
  rw [View.read_apply]
  show (V c main_v70 : FVec Ideal S1x128 .f32) _ = _
  congr 1
  funext a; apply Fin.ext
  match a with
  | ⟨0, _⟩ => show win3_2.index t (0 : Fin 2) * 1 + 1 * (0 : Fin 1).val = (0 : Fin 1).val; rw [e4]; omega
  | ⟨1, _⟩ => show win3_2.index t (1 : Fin 2) * 128 + 1 * q.val = q.val; rw [e5]; omega

/-- What point t's body leaves at block index x is the whole-array expression at the array index i that x sits at:
    row 8000 t + x₀, column x₁. -/
theorem point3 (c : Dev nD) (t : Fin cfg3.N) (x : S8000x128.Idx) (i : S600000x128.Idx)
    (hi0 : (i 0).val = 8000 * t.val + (x 0).val) (hi1 : (i 1).val = (x 1).val) :
    k3_pay1 (F := Ideal) (iblk3 V c 0 t) (iblk3 V c 1 t) (iblk3 V c 2 t) x
      = Cert.Spec.edgeLin (F := Ideal) (V c main_v25) (V c main_v67) (V c main_v70) i := by
  obtain ⟨p, q, rfl⟩ : ∃ (p : Fin 8000) (q : Fin 128), x = ix2 p q := ⟨x 0, x 1, eq_ix2 x⟩
  obtain ⟨r, s, rfl⟩ : ∃ (r : Fin 600000) (s : Fin 128), i = ix2 r s := ⟨i 0, i 1, eq_ix2 i⟩
  obtain rfl : s = q := Fin.ext hi1
  refine (pay3_apply _ _ _ p s).trans ?_
  exact blockLin_eq_edgeLin _ _ _ _ _ _ p s r (fun k => feat_blk3 V c t p k r hi0) (fun k => weight_blk3 V c t k s) (bias_blk3 V c t s)

/-- What point t writes back is block t of the whole-array expression. -/
theorem flushed3_eq (c : Dev nD) (t : Fin cfg3.N) :
    (dat3 (F := Ideal) V c).flushed 3 t
      = ((cfg3.win 3).blk t).view.read (Elt Ideal)
          (fun i => Cert.Spec.edgeLin (F := Ideal) (V c main_v25) (V c main_v67) (V c main_v70) i) := by
  show (cfg3.win 3).cut (grid3.coords t) ((dat3 (F := Ideal) V c).after 3 t) = _
  rw [after3_3]
  unfold out3_3
  rw [View.canon_unit_zero hz]
  simp only [View.ld_unit_zero (S := S8000x32) hz, View.ld_unit_zero (S := S32x128) hz, View.ld_unit_zero (S := S1x128) hz]
  obtain ⟨-, -, -, -, -, -, e6, e7⟩ := idx3 t
  funext j
  refine point3 V c t ((cfg3.win 3).xinj (grid3.coords t) j) (((cfg3.win 3).blk t).view.emb j) ?_ ?_
  · show win3_3.index t (0 : Fin 2) * 8000 + 1 * (j 0).val = 8000 * t.val + (j 0).val
    rw [e6]; omega
  · show win3_3.index t (1 : Fin 2) * 128 + 1 * (j 1).val = (j 1).val
    rw [e7]; omega

/-- An index of the array is in point t's block iff each coordinate is in the block's range on its axis. -/
theorem mem_blk3 (t : Fin cfg3.N) (i : S600000x128.Idx) :
    i ∈ ((cfg3.win 3).blk t).view.set ↔ ∀ a : Fin 2, win3_3.index t a * S8000x128.size a ≤ (i a).val ∧ (i a).val < win3_3.index t a * S8000x128.size a + S8000x128.size a := by
  show i ∈ ((View.whole main_v71).slice (win3_3.rect t)).set ↔ _
  rw [View.set_slice_whole, Rect.mem_set_unit]
  exact Iff.rfl

/-- The 75 blocks of 8000 rows tile the 600000 rows: row r is in block r / 8000. -/
theorem cover3 (i : S600000x128.Idx) :
    ∃ t : Fin cfg3.N, (cfg3.win 3).flush t = true ∧ i ∈ ((cfg3.win 3).blk t).view.set := by
  have hi0 : (i 0).val < 600000 := (i 0).isLt
  have hi1 : (i 1).val < 128 := (i 1).isLt
  have hlt : (i 0).val / 8000 < cfg3.N := by rw [show cfg3.N = 75 from N_3]; omega
  obtain ⟨-, -, -, -, -, -, e6, e7⟩ := idx3 ⟨(i 0).val / 8000, hlt⟩
  refine ⟨⟨(i 0).val / 8000, hlt⟩, flush3_3 _, ?_⟩
  rw [mem_blk3]
  intro a
  match a with
  | ⟨0, _⟩ =>
    show win3_3.index ⟨(i 0).val / 8000, hlt⟩ (0 : Fin 2) * 8000 ≤ (i 0).val ∧ (i 0).val < win3_3.index ⟨(i 0).val / 8000, hlt⟩ (0 : Fin 2) * 8000 + 8000
    rw [e6]
    show (i 0).val / 8000 * 8000 ≤ (i 0).val ∧ (i 0).val < (i 0).val / 8000 * 8000 + 8000
    omega
  | ⟨1, _⟩ =>
    show win3_3.index ⟨(i 0).val / 8000, hlt⟩ (1 : Fin 2) * 128 ≤ (i 1).val ∧ (i 1).val < win3_3.index ⟨(i 0).val / 8000, hlt⟩ (1 : Fin 2) * 128 + 128
    rw [e7]; omega

/-- Region 3 (layer 1's edge lift). -/
theorem edge3 (c : Dev nD) :
    (dat3 (F := Ideal) V c).arrAt 3 cfg3.N
      = fun i => Cert.Spec.edgeLin (F := Ideal) (V c main_v25) (V c main_v67) (V c main_v70) i :=
  (dat3 (F := Ideal) V c).arrAt_eq_of_cover 3 _ (fun t _ => flushed3_eq V c t) cover3

/-! ## Region 6 (layer 2): from the 75 blocks to the array -/

/-- Region 6's payload at (p, q) of a block: the casts are the identity on the extended reals. -/
theorem pay6_apply (x0 : FVec Ideal S8000x32 .f32) (x1 : FVec Ideal S32x128 .f32) (x2 : FVec Ideal S1x128 .f32) (p : Fin 8000) (q : Fin 128) :
    k6_pay1 (F := Ideal) x0 x1 x2 (ix2 p q) = (∑ k : Fin 32, x0 (ix2 p k) * x1 (ix2 k q)) + x2 (ix2 0 q) := by
  unfold k6_pay1
  simp only [matmul, shapeCast_self]
  rw [truncf_apply, addf_apply, blockDot_apply, blockBias_apply]
  rfl

/-- The index maps over the 75 points: the feature block and the result block are block t along the rows; the weight
    and the bias row are held whole. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row p of the feature block at point t is row 8000 t + p of the feature array. -/
theorem feat_blk6 (c : Dev nD) (t : Fin cfg6.N) (p : Fin 8000) (k : Fin 32) (r : Fin 600000) (hr : r.val = 8000 * t.val + p.val) :
    (iblk6 V c 0 t : FVec Ideal S8000x32 .f32) (ix2 p k) = (V c main_v25 : FVec Ideal S600000x32 .f32) (ix2 r k) := by
  obtain ⟨e0, e1, -⟩ := idx6 t
  unfold iblk6
  rw [View.read_apply]
  show (V c main_v25 : FVec Ideal S600000x32 .f32) _ = _
  congr 1
  funext a; apply Fin.ext
  match a with
  | ⟨0, _⟩ => show win6_0.index t (0 : Fin 2) * 8000 + 1 * p.val = r.val; rw [e0, hr]; omega
  | ⟨1, _⟩ => show win6_0.index t (1 : Fin 2) * 32 + 1 * k.val = k.val; rw [e1]; omega

/-- The weight block at every point is the weight array. -/
theorem weight_blk6 (c : Dev nD) (t : Fin cfg6.N) (k : Fin 32) (q : Fin 128) :
    (iblk6 V c 1 t : FVec Ideal S32x128 .f32) (ix2 k q) = (V c main_v107 : FVec Ideal S32x128 .f32) (ix2 k q) := by
  obtain ⟨-, -, e2, e3, -⟩ := idx6 t
  unfold iblk6
  rw [View.read_apply]
  show (V c main_v107 : FVec Ideal S32x128 .f32) _ = _
  congr 1
  funext a; apply Fin.ext
  match a with
  | ⟨0, _⟩ => show win6_1.index t (0 : Fin 2) * 32 + 1 * k.val = k.val; rw [e2]; omega
  | ⟨1, _⟩ => show win6_1.index t (1 : Fin 2) * 128 + 1 * q.val = q.val; rw [e3]; omega

/-- The bias block at every point is the bias row. -/
theorem bias_blk6 (c : Dev nD) (t : Fin cfg6.N) (q : Fin 128) :
    (iblk6 V c 2 t : FVec Ideal S1x128 .f32) (ix2 0 q) = (V c main_v110 : FVec Ideal S1x128 .f32) (ix2 0 q) := by
  obtain ⟨-, -, -, -, e4, e5, -⟩ := idx6 t
  unfold iblk6
  rw [View.read_apply]
  show (V c main_v110 : FVec Ideal S1x128 .f32) _ = _
  congr 1
  funext a; apply Fin.ext
  match a with
  | ⟨0, _⟩ => show win6_2.index t (0 : Fin 2) * 1 + 1 * (0 : Fin 1).val = (0 : Fin 1).val; rw [e4]; omega
  | ⟨1, _⟩ => show win6_2.index t (1 : Fin 2) * 128 + 1 * q.val = q.val; rw [e5]; omega

/-- What point t's body leaves at block index x is the whole-array expression at the array index i that x sits at:
    row 8000 t + x₀, column x₁. -/
theorem point6 (c : Dev nD) (t : Fin cfg6.N) (x : S8000x128.Idx) (i : S600000x128.Idx)
    (hi0 : (i 0).val = 8000 * t.val + (x 0).val) (hi1 : (i 1).val = (x 1).val) :
    k6_pay1 (F := Ideal) (iblk6 V c 0 t) (iblk6 V c 1 t) (iblk6 V c 2 t) x
      = Cert.Spec.edgeLin (F := Ideal) (V c main_v25) (V c main_v107) (V c main_v110) i := by
  obtain ⟨p, q, rfl⟩ : ∃ (p : Fin 8000) (q : Fin 128), x = ix2 p q := ⟨x 0, x 1, eq_ix2 x⟩
  obtain ⟨r, s, rfl⟩ : ∃ (r : Fin 600000) (s : Fin 128), i = ix2 r s := ⟨i 0, i 1, eq_ix2 i⟩
  obtain rfl : s = q := Fin.ext hi1
  refine (pay6_apply _ _ _ p s).trans ?_
  exact blockLin_eq_edgeLin _ _ _ _ _ _ p s r (fun k => feat_blk6 V c t p k r hi0) (fun k => weight_blk6 V c t k s) (bias_blk6 V c t s)

/-- What point t writes back is block t of the whole-array expression. -/
theorem flushed6_eq (c : Dev nD) (t : Fin cfg6.N) :
    (dat6 (F := Ideal) V c).flushed 3 t
      = ((cfg6.win 3).blk t).view.read (Elt Ideal)
          (fun i => Cert.Spec.edgeLin (F := Ideal) (V c main_v25) (V c main_v107) (V c main_v110) i) := by
  show (cfg6.win 3).cut (grid6.coords t) ((dat6 (F := Ideal) V c).after 3 t) = _
  rw [after6_3]
  unfold out6_3
  rw [View.canon_unit_zero hz]
  simp only [View.ld_unit_zero (S := S8000x32) hz, View.ld_unit_zero (S := S32x128) hz, View.ld_unit_zero (S := S1x128) hz]
  obtain ⟨-, -, -, -, -, -, e6, e7⟩ := idx6 t
  funext j
  refine point6 V c t ((cfg6.win 3).xinj (grid6.coords t) j) (((cfg6.win 3).blk t).view.emb j) ?_ ?_
  · show win6_3.index t (0 : Fin 2) * 8000 + 1 * (j 0).val = 8000 * t.val + (j 0).val
    rw [e6]; omega
  · show win6_3.index t (1 : Fin 2) * 128 + 1 * (j 1).val = (j 1).val
    rw [e7]; omega

/-- An index of the array is in point t's block iff each coordinate is in the block's range on its axis. -/
theorem mem_blk6 (t : Fin cfg6.N) (i : S600000x128.Idx) :
    i ∈ ((cfg6.win 3).blk t).view.set ↔ ∀ a : Fin 2, win6_3.index t a * S8000x128.size a ≤ (i a).val ∧ (i a).val < win6_3.index t a * S8000x128.size a + S8000x128.size a := by
  show i ∈ ((View.whole main_v111).slice (win6_3.rect t)).set ↔ _
  rw [View.set_slice_whole, Rect.mem_set_unit]
  exact Iff.rfl

/-- The 75 blocks of 8000 rows tile the 600000 rows: row r is in block r / 8000. -/
theorem cover6 (i : S600000x128.Idx) :
    ∃ t : Fin cfg6.N, (cfg6.win 3).flush t = true ∧ i ∈ ((cfg6.win 3).blk t).view.set := by
  have hi0 : (i 0).val < 600000 := (i 0).isLt
  have hi1 : (i 1).val < 128 := (i 1).isLt
  have hlt : (i 0).val / 8000 < cfg6.N := by rw [show cfg6.N = 75 from N_6]; omega
  obtain ⟨-, -, -, -, -, -, e6, e7⟩ := idx6 ⟨(i 0).val / 8000, hlt⟩
  refine ⟨⟨(i 0).val / 8000, hlt⟩, flush6_3 _, ?_⟩
  rw [mem_blk6]
  intro a
  match a with
  | ⟨0, _⟩ =>
    show win6_3.index ⟨(i 0).val / 8000, hlt⟩ (0 : Fin 2) * 8000 ≤ (i 0).val ∧ (i 0).val < win6_3.index ⟨(i 0).val / 8000, hlt⟩ (0 : Fin 2) * 8000 + 8000
    rw [e6]
    show (i 0).val / 8000 * 8000 ≤ (i 0).val ∧ (i 0).val < (i 0).val / 8000 * 8000 + 8000
    omega
  | ⟨1, _⟩ =>
    show win6_3.index ⟨(i 0).val / 8000, hlt⟩ (1 : Fin 2) * 128 ≤ (i 1).val ∧ (i 1).val < win6_3.index ⟨(i 0).val / 8000, hlt⟩ (1 : Fin 2) * 128 + 128
    rw [e7]; omega

/-- Region 6 (layer 2's edge lift). -/
theorem edge6 (c : Dev nD) :
    (dat6 (F := Ideal) V c).arrAt 3 cfg6.N
      = fun i => Cert.Spec.edgeLin (F := Ideal) (V c main_v25) (V c main_v107) (V c main_v110) i :=
  (dat6 (F := Ideal) V c).arrAt_eq_of_cover 3 _ (fun t _ => flushed6_eq V c t) cover6

end Cert.KernelIdeal.RegVal

end
-- ==== Proof.RegMlp.lean ====
/-
  What a node-network region leaves in its output array: every block of 5000 node rows is the two-layer network of that block of X + agg, and the 10 blocks tile the 50000 rows; so the whole array is the whole-array network.
-/
import proofs.«418803_j51642686767905_2_alg».proof.Proof.Gen.KernelIdeal.Frame
import proofs.«418803_j51642686767905_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx
open Cert.KernelIdeal Cert.KernelIdeal.Gen
open Idealize.ShloMosaic.Pipeline (Dat Cfg Window)

variable [Cert.ReferenceIdeal.Facts]
variable (V : (c : Dev nD) → (b : Ref sig .tc) → Buf (Elt Ideal) ((c : Thread nD τ).loc b))

theorem hzNode : (![0, 0] : Fin 2 → Nat) = fun _ => 0 := funext fun a => by fin_cases a <;> rfl

/-! ## One entry of the two-layer network -/

/-- Entry of the network from one row of X, the same row of agg, the first weight matrix and bias, one column of the second weight
    matrix and its bias entry: (∑ j, max ((∑ i, (x i + a i) * W1 i j) + b1 j, 0) * w2 j) + b2. -/
def entry (x a : Fin 128 → EReal) (W1 : Fin 128 → Fin 128 → EReal) (b1 : Fin 128 → EReal) (w2 : Fin 128 → EReal) (b2 : EReal) : EReal :=
  (∑ j : Fin 128, max ((∑ i : Fin 128, (x i + a i) * W1 i j) + b1 j) (Ideal.ofBits .f32 0x00000000#32) * w2 j) + b2

/-! ## The block product's operand indices -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into the zero accumulator, at (r, k): the sum over the 128 inner indices. -/
theorem matmul_blk_apply {φ₁ φ₂ : FTy} (A : FVec Ideal S5000x128 φ₁) (B : FVec Ideal S128x128 φ₂) (r : Fin 5000) (k : Fin 128) :
    matmul dot_S5000x128_S128x128_S5000x128_1_0_0_1_n_n none A B (constant (F := Ideal) S5000x128 .f32 0x00000000#32) (ix2 r k)
      = ∑ i : Fin 128, A (ix2 r i) * B (ix2 i k) := by
  show FloatOps.matmul dot_S5000x128_S128x128_S5000x128_1_0_0_1_n_n none A B (constant (F := Ideal) S5000x128 .f32 0x00000000#32) (ix2 r k) = _
  rw [Ideal.matmul_constant_zero_apply, ← Equiv.sum_comp (contrEquiv1 dot_S5000x128_S128x128_S5000x128_1_0_0_1_n_n 128 rfl rfl).symm]
  refine Finset.sum_congr rfl fun i _ => ?_
  have hk := contrEquiv1_symm_val dot_S5000x128_S128x128_S5000x128_1_0_0_1_n_n 128 rfl rfl i
  have el : dot_S5000x128_S128x128_S5000x128_1_0_0_1_n_n.lhsIdx (ix2 r k) ((contrEquiv1 dot_S5000x128_S128x128_S5000x128_1_0_0_1_n_n 128 rfl rfl).symm i) = ix2 r i :=
    funext fun a => Fin.ext (by
      match a with
      | ⟨0, _⟩ => exact lhs_blk_0 _ _
      | ⟨1, _⟩ => exact (lhs_blk_1 _ _).trans hk)
  have er : dot_S5000x128_S128x128_S5000x128_1_0_0_1_n_n.rhsIdx (ix2 r k) ((contrEquiv1 dot_S5000x128_S128x128_S5000x128_1_0_0_1_n_n 128 rfl rfl).symm i) = ix2 i k :=
    funext fun a => Fin.ext (by
      match a with
      | ⟨0, _⟩ => exact (rhs_blk_0 _ _).trans hk
      | ⟨1, _⟩ => exact rhs_blk_1 _ _)
  rw [el, er]

/-! ## The whole-array product's operand indices -/

theorem lhs_node_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch from List.not_mem_nil),
    dif_pos (show (0 : Fin Cert.ReferenceIdeal.S50000x128.rank) ∈ Cert.ReferenceIdeal.dot_S50000x128_S128x128_S50000x128_1_0_0_1_n_n.lhsNonContracting from List.mem_singleton.mpr rfl)]
  rfl
theorem lhs_node_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, Nat.one_pos⟩).val :=
  Cert.ReferenceIdeal.dot_S50000x128_S128x128_S50000x128_1_0_0_1_n_n.lhsIdx_val_of_single rfl i q
theorem rhs_node_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, Nat.one_pos⟩).val :=
  Cert.ReferenceIdeal.dot_S50000x128_S128x128_S50000x128_1_0_0_1_n_n.rhsIdx_val_of_single rfl i q
theorem rhs_node_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch from List.not_mem_nil),
    dif_pos (show (1 : Fin Cert.ReferenceIdeal.S128x128.rank) ∈ Cert.ReferenceIdeal.dot_S50000x128_S128x128_S50000x128_1_0_0_1_n_n.rhsNonContracting from List.mem_singleton.mpr rfl)]
  rfl

/-- The whole-array product at (r, k): the sum over the 128 inner indices. -/
theorem dot_node_apply {φ₁ φ₂ : FTy} (A : FVec Ideal Cert.ReferenceIdeal.S50000x128 φ₁) (B : FVec Ideal Cert.ReferenceIdeal.S128x128 φ₂)
    (r : Fin 50000) (k : Fin 128) :
    Host.dotGeneral Cert.ReferenceIdeal.dot_S50000x128_S128x128_S50000x128_1_0_0_1_n_n none A B (ix2 r k)
      = ∑ i : Fin 128, A (ix2 r i) * B (ix2 i k) := by
  show FloatOps.dotGeneral Cert.ReferenceIdeal.dot_S50000x128_S128x128_S50000x128_1_0_0_1_n_n none .single A B (ix2 r k) = _
  rw [Ideal.dotGeneral_apply, ← Equiv.sum_comp (contrEquiv1 Cert.ReferenceIdeal.dot_S50000x128_S128x128_S50000x128_1_0_0_1_n_n 128 rfl rfl).symm]
  refine Finset.sum_congr rfl fun i _ => ?_
  have hk := contrEquiv1_symm_val Cert.ReferenceIdeal.dot_S50000x128_S128x128_S50000x128_1_0_0_1_n_n 128 rfl rfl i
  have el : Cert.ReferenceIdeal.dot_S50000x128_S128x128_S50000x128_1_0_0_1_n_n.lhsIdx (ix2 r k)
      ((contrEquiv1 Cert.ReferenceIdeal.dot_S50000x128_S128x128_S50000x128_1_0_0_1_n_n 128 rfl rfl).symm i) = ix2 r i :=
    funext fun a => Fin.ext (by
      match a with
      | ⟨0, _⟩ => exact lhs_node_0 _ _
      | ⟨1, _⟩ => exact (lhs_node_1 _ _).trans hk)
  have er : Cert.ReferenceIdeal.dot_S50000x128_S128x128_S50000x128_1_0_0_1_n_n.rhsIdx (ix2 r k)
      ((contrEquiv1 Cert.ReferenceIdeal.dot_S50000x128_S128x128_S50000x128_1_0_0_1_n_n 128 rfl rfl).symm i) = ix2 i k :=
    funext fun a => Fin.ext (by
      match a with
      | ⟨0, _⟩ => exact (rhs_node_0 _ _).trans hk
      | ⟨1, _⟩ => exact rhs_node_1 _ _)
  rw [el, er]

/-- A one-row matrix repeated down the node axis reads, at (r, k), the row's entry k. -/
theorem rowsNode_apply (b : FVec Ideal Cert.ReferenceIdeal.S1x128 .f32) (r : Fin 50000) (k : Fin 128) :
    Cert.Spec.rowsN b (ix2 r k) = b (ix2 (0 : Fin 1) k) := by
  unfold Cert.Spec.rowsN
  refine broadcastInDim_apply _ _ b (ix2 r k) (ix2 (0 : Fin 1) k) fun ax => ?_
  match ax with
  | ⟨0, _⟩ => rfl
  | ⟨1, _⟩ =>
    show k.val = if (128 : ℕ) = 1 then 0 else k.val
    rw [if_neg (by decide)]

/-- The clip at zero on a node-sized array, at an index. -/
theorem reluN_apply (x : FVec Ideal Cert.ReferenceIdeal.S50000x128 .f32) (j : Cert.ReferenceIdeal.S50000x128.Idx) :
    Cert.Spec.reluN x j = max (x j) (Ideal.ofBits .f32 0x00000000#32) := rfl

/-- The whole-array network at (r, k) is the network's entry from row r of X and of agg, the weights, and column k. -/
theorem mlp_apply (X agg : FVec Ideal Cert.ReferenceIdeal.S50000x128 .f32) (W1 : FVec Ideal Cert.ReferenceIdeal.S128x128 .f32)
    (b1 : FVec Ideal Cert.ReferenceIdeal.S1x128 .f32) (W2 : FVec Ideal Cert.ReferenceIdeal.S128x128 .f32)
    (b2 : FVec Ideal Cert.ReferenceIdeal.S1x128 .f32) (r : Fin 50000) (k : Fin 128) :
    Cert.Spec.mlp X agg W1 b1 W2 b2 (ix2 r k)
      = entry (fun i => X (ix2 r i)) (fun i => agg (ix2 r i)) (fun i j => W1 (ix2 i j)) (fun j => b1 (ix2 0 j))
          (fun j => W2 (ix2 j k)) (b2 (ix2 0 k)) := by
  unfold Cert.Spec.mlp entry
  simp only [addf_apply, dot_node_apply, reluN_apply, rowsNode_apply]

/-! ## A block of the network is the block of the whole-array network -/

/-- If the two row blocks are rows 5000 T … of X and of agg and the weight blocks are the weights, the network's entry from row
    y 0 of the blocks and column y 1 is the whole-array network at the array index 5000 T rows further down. -/
theorem block_entry (X agg : FVec Ideal Cert.ReferenceIdeal.S50000x128 .f32) (W1 : FVec Ideal Cert.ReferenceIdeal.S128x128 .f32)
    (B1 : FVec Ideal Cert.ReferenceIdeal.S1x128 .f32) (W2 : FVec Ideal Cert.ReferenceIdeal.S128x128 .f32)
    (B2 : FVec Ideal Cert.ReferenceIdeal.S1x128 .f32)
    (x0 x1 : Vec Ideal S5000x128 .f32) (w1 : Vec Ideal S128x128 .f32) (b1 : Vec Ideal S1x128 .f32)
    (w2 : Vec Ideal S128x128 .f32) (b2 : Vec Ideal S1x128 .f32) (T : ℕ)
    (h0 : ∀ (y : S5000x128.Idx) (i : S50000x128.Idx), (i 0).val = T * 5000 + (y 0).val → (i 1).val = (y 1).val → x0 y = X i)
    (h1 : ∀ (y : S5000x128.Idx) (i : S50000x128.Idx), (i 0).val = T * 5000 + (y 0).val → (i 1).val = (y 1).val → x1 y = agg i)
    (hw1 : w1 = W1) (hb1 : b1 = B1) (hw2 : w2 = W2) (hb2 : b2 = B2)
    (y : S5000x128.Idx) (i : S50000x128.Idx) (hi0 : (i 0).val = T * 5000 + (y 0).val) (hi1 : (i 1).val = (y 1).val) :
    entry (fun q => x0 (ix2 (y 0) q)) (fun q => x1 (ix2 (y 0) q)) (fun p q => w1 (ix2 p q)) (fun q => b1 (ix2 0 q))
        (fun q => w2 (ix2 q (y 1))) (b2 (ix2 0 (y 1)))
      = Cert.Spec.mlp (F := Ideal) X agg W1 B1 W2 B2 i := by
  subst hw1 hb1 hw2 hb2
  obtain ⟨r, k, rfl⟩ : ∃ (r : Fin 5000) (k : Fin 128), y = ix2 r k := ⟨y 0, y 1, eq_ix2 y⟩
  obtain ⟨R, k', rfl⟩ : ∃ (R : Fin 50000) (k' : Fin 128), i = ix2 R k' := ⟨i 0, i 1, eq_ix2 i⟩
  obtain rfl : k = k' := (Fin.ext hi1).symm
  rw [mlp_apply]
  have e0 : (fun q : Fin 128 => x0 (ix2 r q)) = fun q => X (ix2 R q) := funext fun q => h0 _ _ hi0 rfl
  have e1 : (fun q : Fin 128 => x1 (ix2 r q)) = fun q => agg (ix2 R q) := funext fun q => h1 _ _ hi0 rfl
  exact congrArg₂ (fun a b => entry a b (fun p q => w1 (ix2 p q)) (fun q => b1 (ix2 0 q)) (fun q => w2 (ix2 q k)) (b2 (ix2 0 k))) e0 e1

/-! # Region 1 (layer 0) -/

/-- The windows' index maps over the 10 grid points: the two row-blocked inputs move with the output (block t of rows), the four
    weight windows stay at block 0. -/
theorem idx_facts1 : ∀ t : Fin cfg1.N,
      win1_0.index t (0 : Fin 2) = win1_6.index t (0 : Fin 2) ∧ win1_0.index t (1 : Fin 2) = win1_6.index t (1 : Fin 2)
    ∧ win1_1.index t (0 : Fin 2) = win1_6.index t (0 : Fin 2) ∧ win1_1.index t (1 : Fin 2) = win1_6.index t (1 : Fin 2)
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Region 1's payload at a block index is the network's entry from that row of the two row blocks, the weights, and that column. -/
theorem pay1_apply (x0 x1 : Vec Ideal S5000x128 .f32) (w1 : Vec Ideal S128x128 .f32) (b1 : Vec Ideal S1x128 .f32)
    (w2 : Vec Ideal S128x128 .f32) (b2 : Vec Ideal S1x128 .f32) (y : S5000x128.Idx) :
    k1_pay1 (F := Ideal) x0 x1 w1 b1 w2 b2 y
      = entry (fun q => x0 (ix2 (y 0) q)) (fun q => x1 (ix2 (y 0) q)) (fun p q => w1 (ix2 p q)) (fun q => b1 (ix2 0 q))
          (fun q => w2 (ix2 q (y 1))) (b2 (ix2 0 (y 1))) := by
  obtain ⟨r, k, rfl⟩ : ∃ (r : Fin 5000) (k : Fin 128), y = ix2 r k := ⟨y 0, y 1, eq_ix2 y⟩
  unfold k1_pay1 entry
  simp only [shapeCast_self, addf_apply, matmul_blk_apply, truncf_apply, maximumf_apply, broadcast_apply, broadcastTo_1b_ab_apply]
  rfl

/-! ## Region 1: the input blocks at a point, read off the arrays -/

/-- Block t of X is rows 5000 t … 5000 t + 4999. -/
theorem iblk1_0_apply (c : Dev nD) (t : Fin cfg1.N) (y : S5000x128.Idx) (i : S50000x128.Idx)
    (h0 : (i 0).val = t.val * 5000 + (y 0).val) (h1 : (i 1).val = (y 1).val) :
    (iblk1 (F := Ideal) V c 0 t : Vec Ideal S5000x128 .f32) y = (V c main_arg0 : S50000x128.Idx → Elt Ideal .f32) i := by
  obtain ⟨e00, e01, e10, e11, e20, e21, e30, e31, e40, e41, e50, e51, e60, e61⟩ := idx_facts1 t
  unfold iblk1
  rw [View.read_apply]
  show V c main_arg0 _ = V c main_arg0 _
  congr 1
  funext a
  apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Block t of agg is the same rows. -/
theorem iblk1_1_apply (c : Dev nD) (t : Fin cfg1.N) (y : S5000x128.Idx) (i : S50000x128.Idx)
    (h0 : (i 0).val = t.val * 5000 + (y 0).val) (h1 : (i 1).val = (y 1).val) :
    (iblk1 (F := Ideal) V c 1 t : Vec Ideal S5000x128 .f32) y = (V c main_v38 : S50000x128.Idx → Elt Ideal .f32) i := by
  obtain ⟨e00, e01, e10, e11, e20, e21, e30, e31, e40, e41, e50, e51, e60, e61⟩ := idx_facts1 t
  unfold iblk1
  rw [View.read_apply]
  show V c main_v38 _ = V c main_v38 _
  congr 1
  funext a
  apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The first weight matrix's one block is the whole matrix. -/
theorem iblk1_2_eq (c : Dev nD) (t : Fin cfg1.N) :
    (iblk1 (F := Ideal) V c 2 t : Vec Ideal S128x128 .f32) = (V c main_v40 : S128x128.Idx → Elt Ideal .f32) := by
  obtain ⟨e00, e01, e10, e11, e20, e21, e30, e31, e40, e41, e50, e51, e60, e61⟩ := idx_facts1 t
  funext y
  unfold iblk1
  rw [View.read_apply]
  show V c main_v40 _ = V c main_v40 _
  congr 1
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias row's one block is the whole row. -/
theorem iblk1_3_eq (c : Dev nD) (t : Fin cfg1.N) :
    (iblk1 (F := Ideal) V c 3 t : Vec Ideal S1x128 .f32) = (V c main_v47 : S1x128.Idx → Elt Ideal .f32) := by
  obtain ⟨e00, e01, e10, e11, e20, e21, e30, e31, e40, e41, e50, e51, e60, e61⟩ := idx_facts1 t
  funext y
  unfold iblk1
  rw [View.read_apply]
  show V c main_v47 _ = V c main_v47 _
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weight matrix's one block is the whole matrix. -/
theorem iblk1_4_eq (c : Dev nD) (t : Fin cfg1.N) :
    (iblk1 (F := Ideal) V c 4 t : Vec Ideal S128x128 .f32) = (V c main_v44 : S128x128.Idx → Elt Ideal .f32) := by
  obtain ⟨e00, e01, e10, e11, e20, e21, e30, e31, e40, e41, e50, e51, e60, e61⟩ := idx_facts1 t
  funext y
  unfold iblk1
  rw [View.read_apply]
  show V c main_v44 _ = V c main_v44 _
  congr 1
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias row's one block is the whole row. -/
theorem iblk1_5_eq (c : Dev nD) (t : Fin cfg1.N) :
    (iblk1 (F := Ideal) V c 5 t : Vec Ideal S1x128 .f32) = (V c main_v48 : S1x128.Idx → Elt Ideal .f32) := by
  obtain ⟨e00, e01, e10, e11, e20, e21, e30, e31, e40, e41, e50, e51, e60, e61⟩ := idx_facts1 t
  funext y
  unfold iblk1
  rw [View.read_apply]
  show V c main_v48 _ = V c main_v48 _
  congr 1
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-! ## Region 1: what each point writes back, and the array -/

/-- What point t writes back is block t of the whole-array network of the arrays as the region finds them. -/
theorem flushed1_eq (c : Dev nD) (t : Fin cfg1.N) :
    (dat1 (F := Ideal) V c).flushed 6 t = ((cfg1.win 6).blk t).view.read (Elt Ideal)
      (fun i => Cert.Spec.mlp (F := Ideal) (V c main_arg0) (V c main_v38) (V c main_v40) (V c main_v47) (V c main_v44) (V c main_v48) i) := by
  show (cfg1.win 6).cut (grid1.coords t) ((dat1 V c).after 6 t) = _
  rw [after1_6]
  unfold out1_6
  rw [View.canon_unit_zero hzNode]
  simp only [View.ld_unit_zero (S := S5000x128) hzNode, View.ld_unit_zero (S := S128x128) hzNode, View.ld_unit_zero (S := S1x128) hzNode]
  obtain ⟨e00, e01, e10, e11, e20, e21, e30, e31, e40, e41, e50, e51, e60, e61⟩ := idx_facts1 t
  funext j
  refine (pay1_apply _ _ _ _ _ _ j).trans
    (block_entry _ _ _ _ _ _ _ _ _ _ _ _ t.val (iblk1_0_apply V c t) (iblk1_1_apply V c t)
      (iblk1_2_eq V c t) (iblk1_3_eq V c t) (iblk1_4_eq V c t) (iblk1_5_eq V c t) j _ ?_ ?_)
  · show win1_6.index t (0 : Fin 2) * 5000 + 1 * (j 0).val = t.val * 5000 + (j 0).val; omega
  · show win1_6.index t (1 : Fin 2) * 128 + 1 * (j 1).val = (j 1).val; omega

/-- An index of the array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v49).slice (win1_6.rect t)).set ↔ _
  rw [View.set_slice_whole, Rect.mem_set_unit]
  exact Iff.rfl

/-- Every row r of the array is in the block of point r / 5000: the 10 blocks tile the 50000 rows. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨e00, e01, e10, e11, e20, e21, e30, e31, e40, e41, e50, e51, e60, e61⟩ := idx_facts1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- Region 1 (layer 0's node network). -/
theorem mlp1 (c : Dev nD) :
    (dat1 (F := Ideal) V c).arrAt 6 cfg1.N
      = fun i => Cert.Spec.mlp (F := Ideal) (V c main_arg0) (V c main_v38) (V c main_v40) (V c main_v47) (V c main_v44) (V c main_v48) i :=
  (dat1 (F := Ideal) V c).arrAt_eq_of_cover 6
    (fun i => Cert.Spec.mlp (F := Ideal) (V c main_arg0) (V c main_v38) (V c main_v40) (V c main_v47) (V c main_v44) (V c main_v48) i)
    (fun t _ => flushed1_eq V c t) cover1

/-! # Region 4 (layer 1) -/

/-- The windows' index maps over the 10 grid points: the two row-blocked inputs move with the output (block t of rows), the four
    weight windows stay at block 0. -/
theorem idx_facts4 : ∀ t : Fin cfg4.N,
      win4_0.index t (0 : Fin 2) = win4_6.index t (0 : Fin 2) ∧ win4_0.index t (1 : Fin 2) = win4_6.index t (1 : Fin 2)
    ∧ win4_1.index t (0 : Fin 2) = win4_6.index t (0 : Fin 2) ∧ win4_1.index t (1 : Fin 2) = win4_6.index t (1 : Fin 2)
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Region 4's payload at a block index is the network's entry from that row of the two row blocks, the weights, and that column. -/
theorem pay4_apply (x0 x1 : Vec Ideal S5000x128 .f32) (w1 : Vec Ideal S128x128 .f32) (b1 : Vec Ideal S1x128 .f32)
    (w2 : Vec Ideal S128x128 .f32) (b2 : Vec Ideal S1x128 .f32) (y : S5000x128.Idx) :
    k4_pay1 (F := Ideal) x0 x1 w1 b1 w2 b2 y
      = entry (fun q => x0 (ix2 (y 0) q)) (fun q => x1 (ix2 (y 0) q)) (fun p q => w1 (ix2 p q)) (fun q => b1 (ix2 0 q))
          (fun q => w2 (ix2 q (y 1))) (b2 (ix2 0 (y 1))) := by
  obtain ⟨r, k, rfl⟩ : ∃ (r : Fin 5000) (k : Fin 128), y = ix2 r k := ⟨y 0, y 1, eq_ix2 y⟩
  unfold k4_pay1 entry
  simp only [shapeCast_self, addf_apply, matmul_blk_apply, truncf_apply, maximumf_apply, broadcast_apply, broadcastTo_1b_ab_apply]
  rfl

/-! ## Region 4: the input blocks at a point, read off the arrays -/

/-- Block t of X is rows 5000 t … 5000 t + 4999. -/
theorem iblk4_0_apply (c : Dev nD) (t : Fin cfg4.N) (y : S5000x128.Idx) (i : S50000x128.Idx)
    (h0 : (i 0).val = t.val * 5000 + (y 0).val) (h1 : (i 1).val = (y 1).val) :
    (iblk4 (F := Ideal) V c 0 t : Vec Ideal S5000x128 .f32) y = (V c main_v65 : S50000x128.Idx → Elt Ideal .f32) i := by
  obtain ⟨e00, e01, e10, e11, e20, e21, e30, e31, e40, e41, e50, e51, e60, e61⟩ := idx_facts4 t
  unfold iblk4
  rw [View.read_apply]
  show V c main_v65 _ = V c main_v65 _
  congr 1
  funext a
  apply Fin.ext
  match a with
  | ⟨0, _⟩ => show win4_0.index t (0 : Fin 2) * 5000 + 1 * (y 0).val = (i 0).val; omega
  | ⟨1, _⟩ => show win4_0.index t (1 : Fin 2) * 128 + 1 * (y 1).val = (i 1).val; omega

/-- Block t of agg is the same rows. -/
theorem iblk4_1_apply (c : Dev nD) (t : Fin cfg4.N) (y : S5000x128.Idx) (i : S50000x128.Idx)
    (h0 : (i 0).val = t.val * 5000 + (y 0).val) (h1 : (i 1).val = (y 1).val) :
    (iblk4 (F := Ideal) V c 1 t : Vec Ideal S5000x128 .f32) y = (V c main_v78 : S50000x128.Idx → Elt Ideal .f32) i := by
  obtain ⟨e00, e01, e10, e11, e20, e21, e30, e31, e40, e41, e50, e51, e60, e61⟩ := idx_facts4 t
  unfold iblk4
  rw [View.read_apply]
  show V c main_v78 _ = V c main_v78 _
  congr 1
  funext a
  apply Fin.ext
  match a with
  | ⟨0, _⟩ => show win4_1.index t (0 : Fin 2) * 5000 + 1 * (y 0).val = (i 0).val; omega
  | ⟨1, _⟩ => show win4_1.index t (1 : Fin 2) * 128 + 1 * (y 1).val = (i 1).val; omega

/-- The first weight matrix's one block is the whole matrix. -/
theorem iblk4_2_eq (c : Dev nD) (t : Fin cfg4.N) :
    (iblk4 (F := Ideal) V c 2 t : Vec Ideal S128x128 .f32) = (V c main_v80 : S128x128.Idx → Elt Ideal .f32) := by
  obtain ⟨e00, e01, e10, e11, e20, e21, e30, e31, e40, e41, e50, e51, e60, e61⟩ := idx_facts4 t
  funext y
  unfold iblk4
  rw [View.read_apply]
  show V c main_v80 _ = V c main_v80 _
  congr 1
  funext a
  apply Fin.ext
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The first bias row's one block is the whole row. -/
theorem iblk4_3_eq (c : Dev nD) (t : Fin cfg4.N) :
    (iblk4 (F := Ideal) V c 3 t : Vec Ideal S1x128 .f32) = (V c main_v87 : S1x128.Idx → Elt Ideal .f32) := by
  obtain ⟨e00, e01, e10, e11, e20, e21, e30, e31, e40, e41, e50, e51, e60, e61⟩ := idx_facts4 t
  funext y
  unfold iblk4
  rw [View.read_apply]
  show V c main_v87 _ = V c main_v87 _
  congr 1
  funext a
  apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- The second weight matrix's one block is the whole matrix. -/
theorem iblk4_4_eq (c : Dev nD) (t : Fin cfg4.N) :
    (iblk4 (F := Ideal) V c 4 t : Vec Ideal S128x128 .f32) = (V c main_v84 : S128x128.Idx → Elt Ideal .f32) := by
  obtain ⟨e00, e01, e10, e11, e20, e21, e30, e31, e40, e41, e50, e51, e60, e61⟩ := idx_facts4 t
  funext y
  unfold iblk4
  rw [View.read_apply]
  show V c main_v84 _ = V c main_v84 _
  congr 1
  funext a
  apply Fin.ext
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- The second bias row's one block is the whole row. -/
theorem iblk4_5_eq (c : Dev nD) (t : Fin cfg4.N) :
    (iblk4 (F := Ideal) V c 5 t : Vec Ideal S1x128 .f32) = (V c main_v88 : S1x128.Idx → Elt Ideal .f32) := by
  obtain ⟨e00, e01, e10, e11, e20, e21, e30, e31, e40, e41, e50, e51, e60, e61⟩ := idx_facts4 t
  funext y
  unfold iblk4
  rw [View.read_apply]
  show V c main_v88 _ = V c main_v88 _
  congr 1
  funext a
  apply Fin.ext
  match a with
  | ⟨0, _⟩ => show win4_5.index t (0 : Fin 2) * 1 + 1 * (y 0).val = (y 0).val; omega
  | ⟨1, _⟩ => show win4_5.index t (1 : Fin 2) * 128 + 1 * (y 1).val = (y 1).val; omega

/-! ## Region 4: what each point writes back, and the array -/

/-- What point t writes back is block t of the whole-array network of the arrays as the region finds them. -/
theorem flushed4_eq (c : Dev nD) (t : Fin cfg4.N) :
    (dat4 (F := Ideal) V c).flushed 6 t = ((cfg4.win 6).blk t).view.read (Elt Ideal)
      (fun i => Cert.Spec.mlp (F := Ideal) (V c main_v65) (V c main_v78) (V c main_v80) (V c main_v87) (V c main_v84) (V c main_v88) i) := by
  show (cfg4.win 6).cut (grid4.coords t) ((dat4 V c).after 6 t) = _
  rw [after4_6]
  unfold out4_6
  rw [View.canon_unit_zero hzNode]
  simp only [View.ld_unit_zero (S := S5000x128) hzNode, View.ld_unit_zero (S := S128x128) hzNode, View.ld_unit_zero (S := S1x128) hzNode]
  obtain ⟨e00, e01, e10, e11, e20, e21, e30, e31, e40, e41, e50, e51, e60, e61⟩ := idx_facts4 t
  funext j
  refine (pay4_apply _ _ _ _ _ _ j).trans
    (block_entry _ _ _ _ _ _ _ _ _ _ _ _ t.val (iblk4_0_apply V c t) (iblk4_1_apply V c t)
      (iblk4_2_eq V c t) (iblk4_3_eq V c t) (iblk4_4_eq V c t) (iblk4_5_eq V c t) j _ ?_ ?_)
  · show win4_6.index t (0 : Fin 2) * 5000 + 1 * (j 0).val = t.val * 5000 + (j 0).val; omega
  · show win4_6.index t (1 : Fin 2) * 128 + 1 * (j 1).val = (j 1).val; omega

/-- An index of the array is in point t's block iff each coordinate is in the block's range on its axis. -/
theorem mem_blk4 (t : Fin cfg4.N) (i : S50000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v89).slice (win4_6.rect t)).set ↔ _
  rw [View.set_slice_whole, Rect.mem_set_unit]
  exact Iff.rfl

/-- Every row r of the array is in the block of point r / 5000: the 10 blocks tile the 50000 rows. -/
theorem cover4 (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have hN : grid4.N = 10 := N_4
  obtain ⟨t, ht⟩ : ∃ t : Fin cfg4.N, t.val = (i 0).val / 5000 :=
    ⟨⟨(i 0).val / 5000, by show (i 0).val / 5000 < grid4.N; rw [hN]; omega⟩, rfl⟩
  obtain ⟨e00, e01, e10, e11, e20, e21, e30, e31, e40, e41, e50, e51, e60, e61⟩ := idx_facts4 t
  refine ⟨t, flush4_6 t, ?_⟩
  rw [mem_blk4]
  intro a
  match a with
  | ⟨0, _⟩ =>
    show win4_6.index t (0 : Fin 2) * 5000 ≤ (i 0).val ∧ (i 0).val < win4_6.index t (0 : Fin 2) * 5000 + 5000
    omega
  | ⟨1, _⟩ =>
    show win4_6.index t (1 : Fin 2) * 128 ≤ (i 1).val ∧ (i 1).val < win4_6.index t (1 : Fin 2) * 128 + 128
    omega

/-- Region 4 (layer 1's node network). -/
theorem mlp4 (c : Dev nD) :
    (dat4 (F := Ideal) V c).arrAt 6 cfg4.N
      = fun i => Cert.Spec.mlp (F := Ideal) (V c main_v65) (V c main_v78) (V c main_v80) (V c main_v87) (V c main_v84) (V c main_v88) i :=
  (dat4 (F := Ideal) V c).arrAt_eq_of_cover 6
    (fun i => Cert.Spec.mlp (F := Ideal) (V c main_v65) (V c main_v78) (V c main_v80) (V c main_v87) (V c main_v84) (V c main_v88) i)
    (fun t _ => flushed4_eq V c t) cover4

/-! # Region 7 (layer 2) -/

/-- The windows' index maps over the 10 grid points: the two row-blocked inputs move with the output (block t of rows), the four
    weight windows stay at block 0. -/
theorem idx_facts7 : ∀ t : Fin cfg7.N,
      win7_0.index t (0 : Fin 2) = win7_6.index t (0 : Fin 2) ∧ win7_0.index t (1 : Fin 2) = win7_6.index t (1 : Fin 2)
    ∧ win7_1.index t (0 : Fin 2) = win7_6.index t (0 : Fin 2) ∧ win7_1.index t (1 : Fin 2) = win7_6.index t (1 : Fin 2)
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- Region 7's payload at a block index is the network's entry from that row of the two row blocks, the weights, and that column. -/
theorem pay7_apply (x0 x1 : Vec Ideal S5000x128 .f32) (w1 : Vec Ideal S128x128 .f32) (b1 : Vec Ideal S1x128 .f32)
    (w2 : Vec Ideal S128x128 .f32) (b2 : Vec Ideal S1x128 .f32) (y : S5000x128.Idx) :
    k7_pay1 (F := Ideal) x0 x1 w1 b1 w2 b2 y
      = entry (fun q => x0 (ix2 (y 0) q)) (fun q => x1 (ix2 (y 0) q)) (fun p q => w1 (ix2 p q)) (fun q => b1 (ix2 0 q))
          (fun q => w2 (ix2 q (y 1))) (b2 (ix2 0 (y 1))) := by
  obtain ⟨r, k, rfl⟩ : ∃ (r : Fin 5000) (k : Fin 128), y = ix2 r k := ⟨y 0, y 1, eq_ix2 y⟩
  unfold k7_pay1 entry
  simp only [shapeCast_self, addf_apply, matmul_blk_apply, truncf_apply, maximumf_apply, broadcast_apply, broadcastTo_1b_ab_apply]
  rfl

/-! ## Region 7: the input blocks at a point, read off the arrays -/

/-- Block t of X is rows 5000 t … 5000 t + 4999. -/
theorem iblk7_0_apply (c : Dev nD) (t : Fin cfg7.N) (y : S5000x128.Idx) (i : S50000x128.Idx)
    (h0 : (i 0).val = t.val * 5000 + (y 0).val) (h1 : (i 1).val = (y 1).val) :
    (iblk7 (F := Ideal) V c 0 t : Vec Ideal S5000x128 .f32) y = (V c main_v105 : S50000x128.Idx → Elt Ideal .f32) i := by
  obtain ⟨e00, e01, e10, e11, e20, e21, e30, e31, e40, e41, e50, e51, e60, e61⟩ := idx_facts7 t
  unfold iblk7
  rw [View.read_apply]
  show V c main_v105 _ = V c main_v105 _
  congr 1
  funext a
  apply Fin.ext
  match a with
  | ⟨0, _⟩ => show win7_0.index t (0 : Fin 2) * 5000 + 1 * (y 0).val = (i 0).val; omega
  | ⟨1, _⟩ => show win7_0.index t (1 : Fin 2) * 128 + 1 * (y 1).val = (i 1).val; omega

/-- Block t of agg is the same rows. -/
theorem iblk7_1_apply (c : Dev nD) (t : Fin cfg7.N) (y : S5000x128.Idx) (i : S50000x128.Idx)
    (h0 : (i 0).val = t.val * 5000 + (y 0).val) (h1 : (i 1).val = (y 1).val) :
    (iblk7 (F := Ideal) V c 1 t : Vec Ideal S5000x128 .f32) y = (V c main_v118 : S50000x128.Idx → Elt Ideal .f32) i := by
  obtain ⟨e00, e01, e10, e11, e20, e21, e30, e31, e40, e41, e50, e51, e60, e61⟩ := idx_facts7 t
  unfold iblk7
  rw [View.read_apply]
  show V c main_v118 _ = V c main_v118 _
  congr 1
  funext a
  apply Fin.ext
  match a with
  | ⟨0, _⟩ => show win7_1.index t (0 : Fin 2) * 5000 + 1 * (y 0).val = (i 0).val; omega
  | ⟨1, _⟩ => show win7_1.index t (1 : Fin 2) * 128 + 1 * (y 1).val = (i 1).val; omega

/-- The first weight matrix's one block is the whole matrix. -/
theorem iblk7_2_eq (c : Dev nD) (t : Fin cfg7.N) :
    (iblk7 (F := Ideal) V c 2 t : Vec Ideal S128x128 .f32) = (V c main_v120 : S128x128.Idx → Elt Ideal .f32) := by
  obtain ⟨e00, e01, e10, e11, e20, e21, e30, e31, e40, e41, e50, e51, e60, e61⟩ := idx_facts7 t
  funext y
  unfold iblk7
  rw [View.read_apply]
  show V c main_v120 _ = V c main_v120 _
  congr 1
  funext a
  apply Fin.ext
  match a with
  | ⟨0, _⟩ => show win7_2.index t (0 : Fin 2) * 128 + 1 * (y 0).val = (y 0).val; omega
  | ⟨1, _⟩ => show win7_2.index t (1 : Fin 2) * 128 + 1 * (y 1).val = (y 1).val; omega

/-- The first bias row's one block is the whole row. -/
theorem iblk7_3_eq (c : Dev nD) (t : Fin cfg7.N) :
    (iblk7 (F := Ideal) V c 3 t : Vec Ideal S1x128 .f32) = (V c main_v127 : S1x128.Idx → Elt Ideal .f32) := by
  obtain ⟨e00, e01, e10, e11, e20, e21, e30, e31, e40, e41, e50, e51, e60, e61⟩ := idx_facts7 t
  funext y
  unfold iblk7
  rw [View.read_apply]
  show V c main_v127 _ = V c main_v127 _
  congr 1
  funext a
  apply Fin.ext
  match a with
  | ⟨0, _⟩ => show win7_3.index t (0 : Fin 2) * 1 + 1 * (y 0).val = (y 0).val; omega
  | ⟨1, _⟩ => show win7_3.index t (1 : Fin 2) * 128 + 1 * (y 1).val = (y 1).val; omega

/-- The second weight matrix's one block is the whole matrix. -/
theorem iblk7_4_eq (c : Dev nD) (t : Fin cfg7.N) :
    (iblk7 (F := Ideal) V c 4 t : Vec Ideal S128x128 .f32) = (V c main_v124 : S128x128.Idx → Elt Ideal .f32) := by
  obtain ⟨e00, e01, e10, e11, e20, e21, e30, e31, e40, e41, e50, e51, e60, e61⟩ := idx_facts7 t
  funext y
  unfold iblk7
  rw [View.read_apply]
  show V c main_v124 _ = V c main_v124 _
  congr 1
  funext a
  apply Fin.ext
  match a with
  | ⟨0, _⟩ => show win7_4.index t (0 : Fin 2) * 128 + 1 * (y 0).val = (y 0).val; omega
  | ⟨1, _⟩ => show win7_4.index t (1 : Fin 2) * 128 + 1 * (y 1).val = (y 1).val; omega

/-- The second bias row's one block is the whole row. -/
theorem iblk7_5_eq (c : Dev nD) (t : Fin cfg7.N) :
    (iblk7 (F := Ideal) V c 5 t : Vec Ideal S1x128 .f32) = (V c main_v128 : S1x128.Idx → Elt Ideal .f32) := by
  obtain ⟨e00, e01, e10, e11, e20, e21, e30, e31, e40, e41, e50, e51, e60, e61⟩ := idx_facts7 t
  funext y
  unfold iblk7
  rw [View.read_apply]
  show V c main_v128 _ = V c main_v128 _
  congr 1
  funext a
  apply Fin.ext
  match a with
  | ⟨0, _⟩ => show win7_5.index t (0 : Fin 2) * 1 + 1 * (y 0).val = (y 0).val; omega
  | ⟨1, _⟩ => show win7_5.index t (1 : Fin 2) * 128 + 1 * (y 1).val = (y 1).val; omega

/-! ## Region 7: what each point writes back, and the array -/

/-- What point t writes back is block t of the whole-array network of the arrays as the region finds them. -/
theorem flushed7_eq (c : Dev nD) (t : Fin cfg7.N) :
    (dat7 (F := Ideal) V c).flushed 6 t = ((cfg7.win 6).blk t).view.read (Elt Ideal)
      (fun i => Cert.Spec.mlp (F := Ideal) (V c main_v105) (V c main_v118) (V c main_v120) (V c main_v127) (V c main_v124) (V c main_v128) i) := by
  show (cfg7.win 6).cut (grid7.coords t) ((dat7 V c).after 6 t) = _
  rw [after7_6]
  unfold out7_6
  rw [View.canon_unit_zero hzNode]
  simp only [View.ld_unit_zero (S := S5000x128) hzNode, View.ld_unit_zero (S := S128x128) hzNode, View.ld_unit_zero (S := S1x128) hzNode]
  obtain ⟨e00, e01, e10, e11, e20, e21, e30, e31, e40, e41, e50, e51, e60, e61⟩ := idx_facts7 t
  funext j
  refine (pay7_apply _ _ _ _ _ _ j).trans
    (block_entry _ _ _ _ _ _ _ _ _ _ _ _ t.val (iblk7_0_apply V c t) (iblk7_1_apply V c t)
      (iblk7_2_eq V c t) (iblk7_3_eq V c t) (iblk7_4_eq V c t) (iblk7_5_eq V c t) j _ ?_ ?_)
  · show win7_6.index t (0 : Fin 2) * 5000 + 1 * (j 0).val = t.val * 5000 + (j 0).val; omega
  · show win7_6.index t (1 : Fin 2) * 128 + 1 * (j 1).val = (j 1).val; omega

/-- An index of the array is in point t's block iff each coordinate is in the block's range on its axis. -/
theorem mem_blk7 (t : Fin cfg7.N) (i : S50000x128.Idx) :
    i ∈ ((cfg7.win 6).blk t).view.set ↔ ∀ a : Fin 2, win7_6.index t a * S5000x128.size a ≤ (i a).val
      ∧ (i a).val < win7_6.index t a * S5000x128.size a + S5000x128.size a := by
  show i ∈ ((View.whole main_v129).slice (win7_6.rect t)).set ↔ _
  rw [View.set_slice_whole, Rect.mem_set_unit]
  exact Iff.rfl

/-- Every row r of the array is in the block of point r / 5000: the 10 blocks tile the 50000 rows. -/
theorem cover7 (i : S50000x128.Idx) :
    ∃ t : Fin cfg7.N, (cfg7.win 6).flush t = true ∧ i ∈ ((cfg7.win 6).blk t).view.set := by
  have hi0 : (i 0).val < 50000 := (i 0).isLt
  have hi1 : (i 1).val < 128 := (i 1).isLt
  have hN : grid7.N = 10 := N_7
  obtain ⟨t, ht⟩ : ∃ t : Fin cfg7.N, t.val = (i 0).val / 5000 :=
    ⟨⟨(i 0).val / 5000, by show (i 0).val / 5000 < grid7.N; rw [hN]; omega⟩, rfl⟩
  obtain ⟨e00, e01, e10, e11, e20, e21, e30, e31, e40, e41, e50, e51, e60, e61⟩ := idx_facts7 t
  refine ⟨t, flush7_6 t, ?_⟩
  rw [mem_blk7]
  intro a
  match a with
  | ⟨0, _⟩ =>
    show win7_6.index t (0 : Fin 2) * 5000 ≤ (i 0).val ∧ (i 0).val < win7_6.index t (0 : Fin 2) * 5000 + 5000
    omega
  | ⟨1, _⟩ =>
    show win7_6.index t (1 : Fin 2) * 128 ≤ (i 1).val ∧ (i 1).val < win7_6.index t (1 : Fin 2) * 128 + 128
    omega

/-- Region 7 (layer 2's node network). -/
theorem mlp7 (c : Dev nD) :
    (dat7 (F := Ideal) V c).arrAt 6 cfg7.N
      = fun i => Cert.Spec.mlp (F := Ideal) (V c main_v105) (V c main_v118) (V c main_v120) (V c main_v127) (V c main_v124) (V c main_v128) i :=
  (dat7 (F := Ideal) V c).arrAt_eq_of_cover 6
    (fun i => Cert.Spec.mlp (F := Ideal) (V c main_v105) (V c main_v118) (V c main_v120) (V c main_v127) (V c main_v124) (V c main_v128) i)
    (fun t _ => flushed7_eq V c t) cover7

end Cert.KernelIdeal.RegVal

end
-- ==== Proof.RegBn.lean ====
/-
  What a normalise-and-clip region leaves in its output array: every block of 5000 node rows is (h - mu) * inv * g + bt clipped at zero on that block, the four rows the same at every block, and the 10 blocks tile the 50000 rows; so the whole array is the whole-array expression.
-/
import proofs.«418803_j51642686767905_2_alg».proof.Proof.Gen.KernelIdeal.Frame
import proofs.«418803_j51642686767905_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx
open Cert.KernelIdeal Cert.KernelIdeal.Gen
open Idealize.ShloMosaic.Pipeline (Dat Cfg Window)

variable [Cert.ReferenceIdeal.Facts]
variable (V : (c : Dev nD) → (b : Ref sig .tc) → Buf (Elt Ideal) ((c : Thread nD τ).loc b))

/-! ## Both sides at an index -/

/-- The zero offsets of a whole-buffer access, however spelt. -/
theorem zeroOff : (![0, 0] : Fin 2 → Nat) = fun _ => 0 := funext fun a => by fin_cases a <;> rfl

/-- A row repeated down the node axis, read at (r, k), is the row at (0, k). -/
theorem rowsN_apply (b : FVec Ideal Cert.ReferenceIdeal.S1x128 .f32) (i : Cert.ReferenceIdeal.S50000x128.Idx)
    (k : Cert.ReferenceIdeal.S1x128.Idx) (hk0 : (k 0).val = 0) (hk1 : (k 1).val = (i 1).val) :
    Cert.Spec.rowsN b i = b k := by
  unfold Cert.Spec.rowsN
  refine broadcastInDim_apply _ _ b i k fun a => ?_
  match a with
  | ⟨0, _⟩ => exact hk0.trans (if_pos rfl).symm
  | ⟨1, _⟩ => exact hk1.trans (if_neg (show ¬((128 : ℕ) = 1) by decide)).symm

/-- The whole-array expression at (r, k): ((h (r,k) - mu (0,k)) * inv (0,k)) * g (0,k) + bt (0,k), clipped at zero. -/
theorem bnRelu_apply (h : FVec Ideal Cert.ReferenceIdeal.S50000x128 .f32) (mu inv g bt : FVec Ideal Cert.ReferenceIdeal.S1x128 .f32)
    (i : Cert.ReferenceIdeal.S50000x128.Idx) (k : Cert.ReferenceIdeal.S1x128.Idx) (hk0 : (k 0).val = 0) (hk1 : (k 1).val = (i 1).val) :
    Cert.Spec.bnRelu h mu inv g bt i = max ((h i - mu k) * inv k * g k + bt k) (Ideal.ofBits .f32 0x00000000#32) := by
  unfold Cert.Spec.bnRelu Cert.Spec.reluN
  rw [maximumf_apply, addf_apply, mulf_apply, mulf_apply, subf_apply,
    rowsN_apply mu i k hk0 hk1, rowsN_apply inv i k hk0 hk1, rowsN_apply g i k hk0 hk1, rowsN_apply bt i k hk0 hk1]
  rfl

/-- The body's payload at (r, k) of its block: the same expression of the loaded block and the four loaded rows. -/
theorem pay_apply (x0 : FVec Ideal S5000x128 .f32) (x1 x2 x3 x4 : FVec Ideal S1x128 .f32) (y : S5000x128.Idx) (k : S1x128.Idx)
    (hk0 : (k 0).val = 0) (hk1 : (k 1).val = (y 1).val) :
    k2_pay1 (F := Ideal) x0 x1 x2 x3 x4 y = max ((x0 y - x1 k) * x2 k * x3 k + x4 k) (Ideal.ofBits .f32 0x00000000#32) := by
  have hb : ∀ b : FVec Ideal S1x128 .f32, broadcastTo S5000x128 b broadcasts_S1x128_S5000x128 y = b k := fun b =>
    broadcastTo_apply b _ y k fun a => by
      match a with
      | ⟨0, _⟩ => exact hk0.trans (if_pos rfl).symm
      | ⟨1, _⟩ => exact hk1.trans (if_neg (show ¬((128 : ℕ) = 1) by decide)).symm
  unfold k2_pay1
  simp only [shapeCast_self]
  rw [maximumf_apply, addf_apply, mulf_apply, mulf_apply, subf_apply, hb, hb, hb, hb]
  rfl

/-- One block of a region: if the loaded block is h read through an index map e that keeps the column, the payload
    on the block is the whole-array expression read through e. -/
theorem blockExpr (h : FVec Ideal Cert.ReferenceIdeal.S50000x128 .f32) (mu inv g bt : FVec Ideal Cert.ReferenceIdeal.S1x128 .f32)
    (x0 : FVec Ideal S5000x128 .f32) (e : S5000x128.Idx → Cert.ReferenceIdeal.S50000x128.Idx)
    (hx0 : ∀ y, x0 y = h (e y)) (he : ∀ y, ((e y) 1).val = (y 1).val) (y : S5000x128.Idx) :
    k2_pay1 (F := Ideal) x0 mu inv g bt y = Cert.Spec.bnRelu (F := Ideal) h mu inv g bt (e y) := by
  rw [pay_apply x0 mu inv g bt y (ix2 0 (y 1)) rfl rfl, bnRelu_apply h mu inv g bt (e y) (ix2 0 (y 1)) rfl (he y).symm, hx0]

/-- The three normalisation regions run one body: their payloads are the same expression. -/
theorem pay5_eq (x0 : FVec Ideal S5000x128 .f32) (x1 x2 x3 x4 : FVec Ideal S1x128 .f32) :
    k5_pay1 (F := Ideal) x0 x1 x2 x3 x4 = k2_pay1 (F := Ideal) x0 x1 x2 x3 x4 := rfl

theorem pay8_eq (x0 : FVec Ideal S5000x128 .f32) (x1 x2 x3 x4 : FVec Ideal S1x128 .f32) :
    k8_pay1 (F := Ideal) x0 x1 x2 x3 x4 = k2_pay1 (F := Ideal) x0 x1 x2 x3 x4 := rfl

/-! ## Region 2: layer 0's normalisation (activations main_v49, rows main_v57 main_v58 main_v61 main_v64, output main_v65) -/

/-- The index maps over the 10 grid points: the activations' window and the output's window sit at block (t, 0),
    the four rows' windows at block (0, 0). -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The activations' block at point t is read at the indices the output's block is written at. -/
theorem actBlock2 (t : Fin cfg2.N) (y : S5000x128.Idx) :
    ((cfg2.win 0).blk t).view.emb y = ((cfg2.win 5).blk t).view.emb y := by
  obtain ⟨a0, a1, -, -, -, -, -, -, -, -, o0, o1⟩ := blockIdx2 t
  funext a; apply Fin.ext
  match a with
  | ⟨0, _⟩ => show win2_0.index t (0 : Fin 2) * 5000 + 1 * (y 0).val = win2_5.index t (0 : Fin 2) * 5000 + 1 * (y 0).val; rw [a0, o0]
  | ⟨1, _⟩ => show win2_0.index t (1 : Fin 2) * 128 + 1 * (y 1).val = win2_5.index t (1 : Fin 2) * 128 + 1 * (y 1).val; rw [a1, o1]

/-- An element of the output's block keeps its column. -/
theorem outCol2 (t : Fin cfg2.N) (y : S5000x128.Idx) :
    (((((cfg2.win 5).blk t).view.emb y : S50000x128.Idx)) 1).val = (y 1).val := by
  obtain ⟨-, -, -, -, -, -, -, -, -, -, -, o1⟩ := blockIdx2 t
  show win2_5.index t (1 : Fin 2) * 128 + 1 * (y 1).val = (y 1).val
  rw [o1]; omega

/-- Each of the four rows' windows holds its whole row at every point. -/
theorem rowBlock2_1 (c : Dev nD) (t : Fin cfg2.N) : iblk2 (F := Ideal) V c 1 t = V c main_v57 := by
  obtain ⟨-, -, b0, b1, -, -, -, -, -, -, -, -⟩ := blockIdx2 t
  funext k
  unfold iblk2
  rw [View.read_apply]
  show V c main_v57 _ = V c main_v57 k
  congr 1
  funext a; apply Fin.ext
  match a with
  | ⟨0, _⟩ => show win2_1.index t (0 : Fin 2) * 1 + 1 * (k 0).val = (k 0).val; rw [b0]; omega
  | ⟨1, _⟩ => show win2_1.index t (1 : Fin 2) * 128 + 1 * (k 1).val = (k 1).val; rw [b1]; omega

theorem rowBlock2_2 (c : Dev nD) (t : Fin cfg2.N) : iblk2 (F := Ideal) V c 2 t = V c main_v58 := by
  obtain ⟨-, -, -, -, b0, b1, -, -, -, -, -, -⟩ := blockIdx2 t
  funext k
  unfold iblk2
  rw [View.read_apply]
  show V c main_v58 _ = V c main_v58 k
  congr 1
  funext a; apply Fin.ext
  match a with
  | ⟨0, _⟩ => show win2_2.index t (0 : Fin 2) * 1 + 1 * (k 0).val = (k 0).val; rw [b0]; omega
  | ⟨1, _⟩ => show win2_2.index t (1 : Fin 2) * 128 + 1 * (k 1).val = (k 1).val; rw [b1]; omega

theorem rowBlock2_3 (c : Dev nD) (t : Fin cfg2.N) : iblk2 (F := Ideal) V c 3 t = V c main_v61 := by
  obtain ⟨-, -, -, -, -, -, b0, b1, -, -, -, -⟩ := blockIdx2 t
  funext k
  unfold iblk2
  rw [View.read_apply]
  show V c main_v61 _ = V c main_v61 k
  congr 1
  funext a; apply Fin.ext
  match a with
  | ⟨0, _⟩ => show win2_3.index t (0 : Fin 2) * 1 + 1 * (k 0).val = (k 0).val; rw [b0]; omega
  | ⟨1, _⟩ => show win2_3.index t (1 : Fin 2) * 128 + 1 * (k 1).val = (k 1).val; rw [b1]; omega

theorem rowBlock2_4 (c : Dev nD) (t : Fin cfg2.N) : iblk2 (F := Ideal) V c 4 t = V c main_v64 := by
  obtain ⟨-, -, -, -, -, -, -, -, b0, b1, -, -⟩ := blockIdx2 t
  funext k
  unfold iblk2
  rw [View.read_apply]
  show V c main_v64 _ = V c main_v64 k
  congr 1
  funext a; apply Fin.ext
  match a with
  | ⟨0, _⟩ => show win2_4.index t (0 : Fin 2) * 1 + 1 * (k 0).val = (k 0).val; rw [b0]; omega
  | ⟨1, _⟩ => show win2_4.index t (1 : Fin 2) * 128 + 1 * (k 1).val = (k 1).val; rw [b1]; omega

/-- The activations' block at point t, element by element, is the activations' array at the output block's indices. -/
theorem actRead2 (c : Dev nD) (t : Fin cfg2.N) (y : S5000x128.Idx) :
    iblk2 (F := Ideal) V c 0 t y = V c main_v49 (((cfg2.win 5).blk t).view.emb y) := by
  unfold iblk2
  rw [View.read_apply, actBlock2 t y]
  rfl

/-- What point t writes back is block t of the whole-array expression of the arrays as the region finds them. -/
theorem wrote2 (c : Dev nD) (t : Fin cfg2.N) :
    (dat2 (F := Ideal) V c).flushed 5 t
      = ((cfg2.win 5).blk t).view.read (Elt Ideal)
          (fun i => Cert.Spec.bnRelu (F := Ideal) (V c main_v49) (V c main_v57) (V c main_v58) (V c main_v61) (V c main_v64) i) := by
  show (cfg2.win 5).cut (grid2.coords t) ((dat2 (F := Ideal) V c).after 5 t) = _
  rw [after2_5]
  unfold out2_5
  rw [View.canon_unit_zero zeroOff]
  simp only [View.ld_unit_zero (S := S5000x128) zeroOff, View.ld_unit_zero (S := S1x128) zeroOff]
  rw [rowBlock2_1 V c t, rowBlock2_2 V c t, rowBlock2_3 V c t, rowBlock2_4 V c t]
  funext j
  rw [View.read_apply]
  exact blockExpr (V c main_v49) (V c main_v57) (V c main_v58) (V c main_v61) (V c main_v64) (iblk2 (F := Ideal) V c 0 t)
    (fun y => ((cfg2.win 5).blk t).view.emb y) (fun y => actRead2 V c t y) (fun y => outCol2 t y) j

/-- An index of the output array is in point t's block iff each coordinate is in the block's range on its axis. -/
theorem mem_outBlock2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v65).slice (win2_5.rect t)).set ↔ _
  rw [View.set_slice_whole, Rect.mem_set_unit]
  exact Iff.rfl

/-- Region 2 (layer 0's normalisation): row r lies in block r / 5000, so the 10 blocks cover the array. -/
theorem bn2 (c : Dev nD) :
    (dat2 (F := Ideal) V c).arrAt 5 cfg2.N
      = fun i => Cert.Spec.bnRelu (F := Ideal) (V c main_v49) (V c main_v57) (V c main_v58) (V c main_v61) (V c main_v64) i :=
  (dat2 (F := Ideal) V c).arrAt_eq_of_cover 5 _ (fun t _ => wrote2 V c t) fun i => by
    have hi0 : (i 0).val < 50000 := (i 0).isLt
    have hi1 : (i 1).val < 128 := (i 1).isLt
    have hN : cfg2.N = 10 := N_2
    have hq : (i 0).val / 5000 < cfg2.N := by rw [hN]; omega
    obtain ⟨-, -, -, -, -, -, -, -, -, -, o0, o1⟩ := blockIdx2 ⟨(i 0).val / 5000, hq⟩
    refine ⟨⟨(i 0).val / 5000, hq⟩, flush2_5 _, ?_⟩
    rw [mem_outBlock2]
    intro a
    match a with
    | ⟨0, _⟩ =>
      show win2_5.index ⟨(i 0).val / 5000, hq⟩ (0 : Fin 2) * 5000 ≤ (i 0).val ∧ (i 0).val < win2_5.index ⟨(i 0).val / 5000, hq⟩ (0 : Fin 2) * 5000 + 5000
      rw [o0]; show (i 0).val / 5000 * 5000 ≤ (i 0).val ∧ (i 0).val < (i 0).val / 5000 * 5000 + 5000; omega
    | ⟨1, _⟩ =>
      show win2_5.index ⟨(i 0).val / 5000, hq⟩ (1 : Fin 2) * 128 ≤ (i 1).val ∧ (i 1).val < win2_5.index ⟨(i 0).val / 5000, hq⟩ (1 : Fin 2) * 128 + 128
      rw [o1]; omega

/-! ## Region 5: layer 1's normalisation (activations main_v89, rows main_v97 main_v98 main_v101 main_v104, output main_v105) -/

/-- The index maps over the 10 grid points: the activations' window and the output's window sit at block (t, 0),
    the four rows' windows at block (0, 0). -/
theorem blockIdx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The activations' block at point t is read at the indices the output's block is written at. -/
theorem actBlock5 (t : Fin cfg5.N) (y : S5000x128.Idx) :
    ((cfg5.win 0).blk t).view.emb y = ((cfg5.win 5).blk t).view.emb y := by
  obtain ⟨a0, a1, -, -, -, -, -, -, -, -, o0, o1⟩ := blockIdx5 t
  funext a; apply Fin.ext
  match a with
  | ⟨0, _⟩ => show win5_0.index t (0 : Fin 2) * 5000 + 1 * (y 0).val = win5_5.index t (0 : Fin 2) * 5000 + 1 * (y 0).val; rw [a0, o0]
  | ⟨1, _⟩ => show win5_0.index t (1 : Fin 2) * 128 + 1 * (y 1).val = win5_5.index t (1 : Fin 2) * 128 + 1 * (y 1).val; rw [a1, o1]

/-- An element of the output's block keeps its column. -/
theorem outCol5 (t : Fin cfg5.N) (y : S5000x128.Idx) :
    (((((cfg5.win 5).blk t).view.emb y : S50000x128.Idx)) 1).val = (y 1).val := by
  obtain ⟨-, -, -, -, -, -, -, -, -, -, -, o1⟩ := blockIdx5 t
  show win5_5.index t (1 : Fin 2) * 128 + 1 * (y 1).val = (y 1).val
  rw [o1]; omega

/-- Each of the four rows' windows holds its whole row at every point. -/
theorem rowBlock5_1 (c : Dev nD) (t : Fin cfg5.N) : iblk5 (F := Ideal) V c 1 t = V c main_v97 := by
  obtain ⟨-, -, b0, b1, -, -, -, -, -, -, -, -⟩ := blockIdx5 t
  funext k
  unfold iblk5
  rw [View.read_apply]
  show V c main_v97 _ = V c main_v97 k
  congr 1
  funext a; apply Fin.ext
  match a with
  | ⟨0, _⟩ => show win5_1.index t (0 : Fin 2) * 1 + 1 * (k 0).val = (k 0).val; rw [b0]; omega
  | ⟨1, _⟩ => show win5_1.index t (1 : Fin 2) * 128 + 1 * (k 1).val = (k 1).val; rw [b1]; omega

theorem rowBlock5_2 (c : Dev nD) (t : Fin cfg5.N) : iblk5 (F := Ideal) V c 2 t = V c main_v98 := by
  obtain ⟨-, -, -, -, b0, b1, -, -, -, -, -, -⟩ := blockIdx5 t
  funext k
  unfold iblk5
  rw [View.read_apply]
  show V c main_v98 _ = V c main_v98 k
  congr 1
  funext a; apply Fin.ext
  match a with
  | ⟨0, _⟩ => show win5_2.index t (0 : Fin 2) * 1 + 1 * (k 0).val = (k 0).val; rw [b0]; omega
  | ⟨1, _⟩ => show win5_2.index t (1 : Fin 2) * 128 + 1 * (k 1).val = (k 1).val; rw [b1]; omega

theorem rowBlock5_3 (c : Dev nD) (t : Fin cfg5.N) : iblk5 (F := Ideal) V c 3 t = V c main_v101 := by
  obtain ⟨-, -, -, -, -, -, b0, b1, -, -, -, -⟩ := blockIdx5 t
  funext k
  unfold iblk5
  rw [View.read_apply]
  show V c main_v101 _ = V c main_v101 k
  congr 1
  funext a; apply Fin.ext
  match a with
  | ⟨0, _⟩ => show win5_3.index t (0 : Fin 2) * 1 + 1 * (k 0).val = (k 0).val; rw [b0]; omega
  | ⟨1, _⟩ => show win5_3.index t (1 : Fin 2) * 128 + 1 * (k 1).val = (k 1).val; rw [b1]; omega

theorem rowBlock5_4 (c : Dev nD) (t : Fin cfg5.N) : iblk5 (F := Ideal) V c 4 t = V c main_v104 := by
  obtain ⟨-, -, -, -, -, -, -, -, b0, b1, -, -⟩ := blockIdx5 t
  funext k
  unfold iblk5
  rw [View.read_apply]
  show V c main_v104 _ = V c main_v104 k
  congr 1
  funext a; apply Fin.ext
  match a with
  | ⟨0, _⟩ => show win5_4.index t (0 : Fin 2) * 1 + 1 * (k 0).val = (k 0).val; rw [b0]; omega
  | ⟨1, _⟩ => show win5_4.index t (1 : Fin 2) * 128 + 1 * (k 1).val = (k 1).val; rw [b1]; omega

/-- The activations' block at point t, element by element, is the activations' array at the output block's indices. -/
theorem actRead5 (c : Dev nD) (t : Fin cfg5.N) (y : S5000x128.Idx) :
    iblk5 (F := Ideal) V c 0 t y = V c main_v89 (((cfg5.win 5).blk t).view.emb y) := by
  unfold iblk5
  rw [View.read_apply, actBlock5 t y]
  rfl

/-- What point t writes back is block t of the whole-array expression of the arrays as the region finds them. -/
theorem wrote5 (c : Dev nD) (t : Fin cfg5.N) :
    (dat5 (F := Ideal) V c).flushed 5 t
      = ((cfg5.win 5).blk t).view.read (Elt Ideal)
          (fun i => Cert.Spec.bnRelu (F := Ideal) (V c main_v89) (V c main_v97) (V c main_v98) (V c main_v101) (V c main_v104) i) := by
  show (cfg5.win 5).cut (grid5.coords t) ((dat5 (F := Ideal) V c).after 5 t) = _
  rw [after5_5]
  unfold out5_5
  rw [View.canon_unit_zero zeroOff]
  simp only [View.ld_unit_zero (S := S5000x128) zeroOff, View.ld_unit_zero (S := S1x128) zeroOff]
  rw [rowBlock5_1 V c t, rowBlock5_2 V c t, rowBlock5_3 V c t, rowBlock5_4 V c t, pay5_eq]
  funext j
  rw [View.read_apply]
  exact blockExpr (V c main_v89) (V c main_v97) (V c main_v98) (V c main_v101) (V c main_v104) (iblk5 (F := Ideal) V c 0 t)
    (fun y => ((cfg5.win 5).blk t).view.emb y) (fun y => actRead5 V c t y) (fun y => outCol5 t y) j

/-- An index of the output array is in point t's block iff each coordinate is in the block's range on its axis. -/
theorem mem_outBlock5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v105).slice (win5_5.rect t)).set ↔ _
  rw [View.set_slice_whole, Rect.mem_set_unit]
  exact Iff.rfl

/-- Region 5 (layer 1's normalisation): row r lies in block r / 5000, so the 10 blocks cover the array. -/
theorem bn5 (c : Dev nD) :
    (dat5 (F := Ideal) V c).arrAt 5 cfg5.N
      = fun i => Cert.Spec.bnRelu (F := Ideal) (V c main_v89) (V c main_v97) (V c main_v98) (V c main_v101) (V c main_v104) i :=
  (dat5 (F := Ideal) V c).arrAt_eq_of_cover 5 _ (fun t _ => wrote5 V c t) fun i => by
    have hi0 : (i 0).val < 50000 := (i 0).isLt
    have hi1 : (i 1).val < 128 := (i 1).isLt
    have hN : cfg5.N = 10 := N_5
    have hq : (i 0).val / 5000 < cfg5.N := by rw [hN]; omega
    obtain ⟨-, -, -, -, -, -, -, -, -, -, o0, o1⟩ := blockIdx5 ⟨(i 0).val / 5000, hq⟩
    refine ⟨⟨(i 0).val / 5000, hq⟩, flush5_5 _, ?_⟩
    rw [mem_outBlock5]
    intro a
    match a with
    | ⟨0, _⟩ =>
      show win5_5.index ⟨(i 0).val / 5000, hq⟩ (0 : Fin 2) * 5000 ≤ (i 0).val ∧ (i 0).val < win5_5.index ⟨(i 0).val / 5000, hq⟩ (0 : Fin 2) * 5000 + 5000
      rw [o0]; show (i 0).val / 5000 * 5000 ≤ (i 0).val ∧ (i 0).val < (i 0).val / 5000 * 5000 + 5000; omega
    | ⟨1, _⟩ =>
      show win5_5.index ⟨(i 0).val / 5000, hq⟩ (1 : Fin 2) * 128 ≤ (i 1).val ∧ (i 1).val < win5_5.index ⟨(i 0).val / 5000, hq⟩ (1 : Fin 2) * 128 + 128
      rw [o1]; omega

/-! ## Region 8: layer 2's normalisation (activations main_v129, rows main_v137 main_v138 main_v141 main_v144, output main_v145) -/

/-- The index maps over the 10 grid points: the activations' window and the output's window sit at block (t, 0),
    the four rows' windows at block (0, 0). -/
theorem blockIdx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The activations' block at point t is read at the indices the output's block is written at. -/
theorem actBlock8 (t : Fin cfg8.N) (y : S5000x128.Idx) :
    ((cfg8.win 0).blk t).view.emb y = ((cfg8.win 5).blk t).view.emb y := by
  obtain ⟨a0, a1, -, -, -, -, -, -, -, -, o0, o1⟩ := blockIdx8 t
  funext a; apply Fin.ext
  match a with
  | ⟨0, _⟩ => show win8_0.index t (0 : Fin 2) * 5000 + 1 * (y 0).val = win8_5.index t (0 : Fin 2) * 5000 + 1 * (y 0).val; rw [a0, o0]
  | ⟨1, _⟩ => show win8_0.index t (1 : Fin 2) * 128 + 1 * (y 1).val = win8_5.index t (1 : Fin 2) * 128 + 1 * (y 1).val; rw [a1, o1]

/-- An element of the output's block keeps its column. -/
theorem outCol8 (t : Fin cfg8.N) (y : S5000x128.Idx) :
    (((((cfg8.win 5).blk t).view.emb y : S50000x128.Idx)) 1).val = (y 1).val := by
  obtain ⟨-, -, -, -, -, -, -, -, -, -, -, o1⟩ := blockIdx8 t
  show win8_5.index t (1 : Fin 2) * 128 + 1 * (y 1).val = (y 1).val
  rw [o1]; omega

/-- Each of the four rows' windows holds its whole row at every point. -/
theorem rowBlock8_1 (c : Dev nD) (t : Fin cfg8.N) : iblk8 (F := Ideal) V c 1 t = V c main_v137 := by
  obtain ⟨-, -, b0, b1, -, -, -, -, -, -, -, -⟩ := blockIdx8 t
  funext k
  unfold iblk8
  rw [View.read_apply]
  show V c main_v137 _ = V c main_v137 k
  congr 1
  funext a; apply Fin.ext
  match a with
  | ⟨0, _⟩ => show win8_1.index t (0 : Fin 2) * 1 + 1 * (k 0).val = (k 0).val; rw [b0]; omega
  | ⟨1, _⟩ => show win8_1.index t (1 : Fin 2) * 128 + 1 * (k 1).val = (k 1).val; rw [b1]; omega

theorem rowBlock8_2 (c : Dev nD) (t : Fin cfg8.N) : iblk8 (F := Ideal) V c 2 t = V c main_v138 := by
  obtain ⟨-, -, -, -, b0, b1, -, -, -, -, -, -⟩ := blockIdx8 t
  funext k
  unfold iblk8
  rw [View.read_apply]
  show V c main_v138 _ = V c main_v138 k
  congr 1
  funext a; apply Fin.ext
  match a with
  | ⟨0, _⟩ => show win8_2.index t (0 : Fin 2) * 1 + 1 * (k 0).val = (k 0).val; rw [b0]; omega
  | ⟨1, _⟩ => show win8_2.index t (1 : Fin 2) * 128 + 1 * (k 1).val = (k 1).val; rw [b1]; omega

theorem rowBlock8_3 (c : Dev nD) (t : Fin cfg8.N) : iblk8 (F := Ideal) V c 3 t = V c main_v141 := by
  obtain ⟨-, -, -, -, -, -, b0, b1, -, -, -, -⟩ := blockIdx8 t
  funext k
  unfold iblk8
  rw [View.read_apply]
  show V c main_v141 _ = V c main_v141 k
  congr 1
  funext a; apply Fin.ext
  match a with
  | ⟨0, _⟩ => show win8_3.index t (0 : Fin 2) * 1 + 1 * (k 0).val = (k 0).val; rw [b0]; omega
  | ⟨1, _⟩ => show win8_3.index t (1 : Fin 2) * 128 + 1 * (k 1).val = (k 1).val; rw [b1]; omega

theorem rowBlock8_4 (c : Dev nD) (t : Fin cfg8.N) : iblk8 (F := Ideal) V c 4 t = V c main_v144 := by
  obtain ⟨-, -, -, -, -, -, -, -, b0, b1, -, -⟩ := blockIdx8 t
  funext k
  unfold iblk8
  rw [View.read_apply]
  show V c main_v144 _ = V c main_v144 k
  congr 1
  funext a; apply Fin.ext
  match a with
  | ⟨0, _⟩ => show win8_4.index t (0 : Fin 2) * 1 + 1 * (k 0).val = (k 0).val; rw [b0]; omega
  | ⟨1, _⟩ => show win8_4.index t (1 : Fin 2) * 128 + 1 * (k 1).val = (k 1).val; rw [b1]; omega

/-- The activations' block at point t, element by element, is the activations' array at the output block's indices. -/
theorem actRead8 (c : Dev nD) (t : Fin cfg8.N) (y : S5000x128.Idx) :
    iblk8 (F := Ideal) V c 0 t y = V c main_v129 (((cfg8.win 5).blk t).view.emb y) := by
  unfold iblk8
  rw [View.read_apply, actBlock8 t y]
  rfl

/-- What point t writes back is block t of the whole-array expression of the arrays as the region finds them. -/
theorem wrote8 (c : Dev nD) (t : Fin cfg8.N) :
    (dat8 (F := Ideal) V c).flushed 5 t
      = ((cfg8.win 5).blk t).view.read (Elt Ideal)
          (fun i => Cert.Spec.bnRelu (F := Ideal) (V c main_v129) (V c main_v137) (V c main_v138) (V c main_v141) (V c main_v144) i) := by
  show (cfg8.win 5).cut (grid8.coords t) ((dat8 (F := Ideal) V c).after 5 t) = _
  rw [after8_5]
  unfold out8_5
  rw [View.canon_unit_zero zeroOff]
  simp only [View.ld_unit_zero (S := S5000x128) zeroOff, View.ld_unit_zero (S := S1x128) zeroOff]
  rw [rowBlock8_1 V c t, rowBlock8_2 V c t, rowBlock8_3 V c t, rowBlock8_4 V c t, pay8_eq]
  funext j
  rw [View.read_apply]
  exact blockExpr (V c main_v129) (V c main_v137) (V c main_v138) (V c main_v141) (V c main_v144) (iblk8 (F := Ideal) V c 0 t)
    (fun y => ((cfg8.win 5).blk t).view.emb y) (fun y => actRead8 V c t y) (fun y => outCol8 t y) j

/-- An index of the output array is in point t's block iff each coordinate is in the block's range on its axis. -/
theorem mem_outBlock8 (t : Fin cfg8.N) (i : S50000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v145).slice (win8_5.rect t)).set ↔ _
  rw [View.set_slice_whole, Rect.mem_set_unit]
  exact Iff.rfl

/-- Region 8 (layer 2's normalisation): row r lies in block r / 5000, so the 10 blocks cover the array. -/
theorem bn8 (c : Dev nD) :
    (dat8 (F := Ideal) V c).arrAt 5 cfg8.N
      = fun i => Cert.Spec.bnRelu (F := Ideal) (V c main_v129) (V c main_v137) (V c main_v138) (V c main_v141) (V c main_v144) i :=
  (dat8 (F := Ideal) V c).arrAt_eq_of_cover 5 _ (fun t _ => wrote8 V c t) fun i => by
    have hi0 : (i 0).val < 50000 := (i 0).isLt
    have hi1 : (i 1).val < 128 := (i 1).isLt
    have hN : cfg8.N = 10 := N_8
    have hq : (i 0).val / 5000 < cfg8.N := by rw [hN]; omega
    obtain ⟨-, -, -, -, -, -, -, -, -, -, o0, o1⟩ := blockIdx8 ⟨(i 0).val / 5000, hq⟩
    refine ⟨⟨(i 0).val / 5000, hq⟩, flush8_5 _, ?_⟩
    rw [mem_outBlock8]
    intro a
    match a with
    | ⟨0, _⟩ =>
      show win8_5.index ⟨(i 0).val / 5000, hq⟩ (0 : Fin 2) * 5000 ≤ (i 0).val ∧ (i 0).val < win8_5.index ⟨(i 0).val / 5000, hq⟩ (0 : Fin 2) * 5000 + 5000
      rw [o0]; show (i 0).val / 5000 * 5000 ≤ (i 0).val ∧ (i 0).val < (i 0).val / 5000 * 5000 + 5000; omega
    | ⟨1, _⟩ =>
      show win8_5.index ⟨(i 0).val / 5000, hq⟩ (1 : Fin 2) * 128 ≤ (i 1).val ∧ (i 1).val < win8_5.index ⟨(i 0).val / 5000, hq⟩ (1 : Fin 2) * 128 + 128
      rw [o1]; omega

end Cert.KernelIdeal.RegVal

end
-- ==== Proof.KL0.lean ====
/-
  Layer 0 of the kernel, read off the run's boundary contents: the edges are sorted by destination once (the sorted source, destination and edge-feature arrays are functions of the arguments alone), and the layer's output is the kernel's layer function of the arguments and those sorted arrays. The sorted arrays and the arguments are not written again inside the layer.
-/
import proofs.«418803_j51642686767905_2_alg».proof.Proof.Gen.KernelIdeal.Frame
import proofs.«418803_j51642686767905_2_alg».proof.Proof.Bridge
import proofs.«418803_j51642686767905_2_alg».proof.Proof.RegEdge
import proofs.«418803_j51642686767905_2_alg».proof.Proof.RegMlp
import proofs.«418803_j51642686767905_2_alg».proof.Proof.RegBn
import proofs.«418803_j51642686767905_2_alg».proof.Proof.Gen.ReferenceIdeal
import Idealize.ShloMosaic.Lib.StableHlo.Run

set_option maxRecDepth 16384

noncomputable section

namespace Cert.KernelIdeal.KL

open Idealize.ShloMosaic Idealize.ShloMosaic.TcCoe
open Cert.KernelIdeal Cert.KernelIdeal.Gen

variable (m : (ℓ : Loc nD τ sig) → Buf (Elt Ideal) ℓ) (ρ : Dev nD → PrngReg)

/-- The source and destination rows of the edge list. -/
abbrev srcK (c : Dev nD) : IVec S600000 32 := (shapeCast S600000 (extractStridedSlice S1x600000 ![0, 0] (m ((c : Thread nD τ).loc main_arg1)) Facts₀.slices_S2x600000_S1x600000_0_0) Facts₀.shapeCasts_S1x600000_S600000)
abbrev dstK (c : Dev nD) : IVec S600000 32 := (shapeCast S600000 (extractStridedSlice S1x600000 ![1, 0] (m ((c : Thread nD τ).loc main_arg1)) Facts₀.slices_S2x600000_S1x600000_1_0) Facts₀.shapeCasts_S1x600000_S600000)

attribute [local irreducible] Host.gather Host.scatterAdd Host.reduceAdd Host.reduce Host.sort2 Host.divf Host.rsqrt

local notation:max "⟪" b "⟫" => Proc.devRef Proc.tc b

/-! ## Steps back along the run, for a buffer the step does not write -/

local macro "bk13" : tactic => `(tactic| refine Eq.trans (W13_of_ne _ _ _ _ (by decide)) ?_)
local macro "bk9" : tactic => `(tactic| refine Eq.trans (W9_of_ne _ _ _ _ (by decide)) ?_)
local macro "bk4" : tactic => `(tactic| refine Eq.trans (W4_of_ne _ _ _ _ (by decide)) ?_)
local macro "bkh" : tactic =>
  `(tactic| refine Eq.trans (StableHlo.after_of_forall_not_mem _ _ (List.forall_iff_forall_mem.mp (by
      simp only [hostOps0, hostOps0_1, hostOps0_2, hostOps1, hostOps1_1, hostOps1_2, hostOps1_3, hostOps2, hostOps2_1, hostOps2_2,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))) ?_)
local macro "bkh3" : tactic => `(tactic| (bkh; bkh; bkh))
local macro "bkh4" : tactic => `(tactic| (bkh; bkh; bkh; bkh))
local macro "bk13to3" : tactic => `(tactic| (bk13; bkh3; bk9; bkh4; bk4))

namespace L0

/-! ## What each host stretch leaves in the buffers that matter, from any contents `V` before it -/

section Stretches
variable (V : Valuation τ sig (Elt Ideal))

theorem st0_v1 : StableHlo.after hostOps0 V ⟪main_v1⟫
    = shapeCast S600000 (extractStridedSlice S1x600000 ![0, 0] (V ⟪main_arg1⟫) Facts₀.slices_S2x600000_S1x600000_0_0) Facts₀.shapeCasts_S1x600000_S600000 := by
  after_results_simp <;> rfl
theorem st0_v3 : StableHlo.after hostOps0 V ⟪main_v3⟫
    = shapeCast S600000 (extractStridedSlice S1x600000 ![1, 0] (V ⟪main_arg1⟫) Facts₀.slices_S2x600000_S1x600000_1_0) Facts₀.shapeCasts_S1x600000_S600000 := by
  after_results_simp <;> rfl

/-- The argsort's second result is the stable sorting permutation of the destinations. -/
theorem st01_v4 : StableHlo.after hostOps0_1 V ⟪main_v4⟫ = Cert.Bridge.permOf (V ⟪main_v3⟫) := by
  after_results_simp <;> rfl

/-- The three gathers at the sorting permutation. -/
theorem st02_v11 : StableHlo.after hostOps0_2 V ⟪main_v11⟫
    = Host.gather gather_S600000_S600000x1_S600000_n_0_n_n_0_1_1 (V ⟪main_v1⟫) (Cert.Bridge.posIdx (V ⟪main_v4⟫)) := by
  after_results_simp <;> rfl
theorem st02_v18 : StableHlo.after hostOps0_2 V ⟪main_v18⟫
    = Host.gather gather_S600000_S600000x1_S600000_n_0_n_n_0_1_1 (V ⟪main_v3⟫) (Cert.Bridge.posIdx (V ⟪main_v4⟫)) := by
  after_results_simp <;> rfl
theorem st02_v25 : StableHlo.after hostOps0_2 V ⟪main_v25⟫
    = Host.gather gather_S600000x32_S600000x1_S600000x32_1_0_n_n_0_1_132 (V ⟪main_arg2⟫) (Cert.Bridge.posIdx (V ⟪main_v4⟫)) := by
  after_results_simp <;> rfl
/-- Layer 0's edge weight and its bias as a row. -/
theorem st02_v27 : StableHlo.after hostOps0_2 V ⟪main_v27⟫
    = shapeCast S32x128 (extractStridedSlice S1x32x128 ![0, 0, 0] (V ⟪main_arg3⟫) Facts₀.slices_S3x32x128_S1x32x128_0_0_0) Facts₀.shapeCasts_S1x32x128_S32x128 := by
  after_results_simp <;> rfl
theorem st02_v30 : StableHlo.after hostOps0_2 V ⟪main_v30⟫
    = shapeCast S1x128 (shapeCast S128 (extractStridedSlice S1x128 ![0, 0] (V ⟪main_arg4⟫) Facts₀.slices_S3x128_S1x128_0_0) Facts₀.shapeCasts_S1x128_S128) Facts₀.shapeCasts_S128_S1x128 := by
  after_results_simp <;> rfl

/-- The take: the rows of the node features at the sorted sources. -/
theorem st1_v32 : StableHlo.after hostOps1 V ⟪main_v32⟫ = Cert.Bridge.takeRows (V ⟪main_arg0⟫) (V ⟪main_v11⟫) := by
  after_results_simp <;> rfl

/-- The taken rows plus the edge lift (its widening is the identity on extended reals). -/
theorem st11_v34 : StableHlo.after hostOps1_1 V ⟪main_v34⟫
    = (addf (V ⟪main_v32⟫ : FVec Ideal S600000x128 .f32) (V ⟪main_v31⟫ : FVec Ideal S600000x128 .f32) : FVec Ideal S600000x128 .f32) := by
  after_results_simp <;> rfl

/-- Clipped at zero. -/
theorem st12_v35 : StableHlo.after hostOps1_2 V ⟪main_v35⟫
    = (maximumf (V ⟪main_v34⟫ : FVec Ideal S600000x128 .f32)
        (broadcastInDim S600000x128 ![] Facts₀.bcast_S_S600000x128 (constant S_ .f32 0x00000000#32)) : FVec Ideal S600000x128 .f32) := by
  after_results_simp <;> rfl

/-- The scatter-sum at the sorted destinations into zeros. -/
theorem st13_v38 : StableHlo.after hostOps1_3 V ⟪main_v38⟫
    = (Host.scatterAdd scatter_S50000x128_S600000x1_S600000x128_1_0_0_1
        (broadcastInDim S50000x128 ![] Facts₀.bcast_S_S50000x128 (constant S_ .f32 0x00000000#32))
        (broadcastInDim S600000x1 ![0] Facts₀.bcast_S600000_S600000x1_0 (V ⟪main_v18⟫ : IVec S600000 32))
        (V ⟪main_v35⟫ : FVec Ideal S600000x128 .f32) : FVec Ideal S50000x128 .f32) := by
  after_results_simp <;> rfl
/-- Layer 0's two node weights and their biases as rows. -/
theorem st13_v40 : StableHlo.after hostOps1_3 V ⟪main_v40⟫
    = shapeCast S128x128 (extractStridedSlice S1x128x128 ![0, 0, 0] (V ⟪main_arg5⟫) Facts₀.slices_S3x128x128_S1x128x128_0_0_0) Facts₀.shapeCasts_S1x128x128_S128x128 := by
  after_results_simp <;> rfl
theorem st13_v44 : StableHlo.after hostOps1_3 V ⟪main_v44⟫
    = shapeCast S128x128 (extractStridedSlice S1x128x128 ![0, 0, 0] (V ⟪main_arg7⟫) Facts₀.slices_S3x128x128_S1x128x128_0_0_0) Facts₀.shapeCasts_S1x128x128_S128x128 := by
  after_results_simp <;> rfl
theorem st13_v47 : StableHlo.after hostOps1_3 V ⟪main_v47⟫
    = shapeCast S1x128 (shapeCast S128 (extractStridedSlice S1x128 ![0, 0] (V ⟪main_arg6⟫) Facts₀.slices_S3x128_S1x128_0_0) Facts₀.shapeCasts_S1x128_S128) Facts₀.shapeCasts_S128_S1x128 := by
  after_results_simp <;> rfl
theorem st13_v48 : StableHlo.after hostOps1_3 V ⟪main_v48⟫
    = shapeCast S1x128 (shapeCast S128 (extractStridedSlice S1x128 ![0, 0] (V ⟪main_arg8⟫) Facts₀.slices_S3x128_S1x128_0_0) Facts₀.shapeCasts_S1x128_S128) Facts₀.shapeCasts_S128_S1x128 := by
  after_results_simp <;> rfl

/-- The column means. -/
theorem st2_v52 : StableHlo.after hostOps2 V ⟪main_v52⟫ = Cert.Spec.meanOf (F := Ideal) (V ⟪main_v49⟫) := by
  after_results_simp <;> rfl
theorem st2_c7 : StableHlo.after hostOps2 V ⟪main_c_7⟫ = constantI S_ 32 0#32 := by
  after_results_simp <;> rfl

/-- The column variances, the degrees-of-freedom constant being zero. -/
theorem st21_v53 (hc : V ⟪main_c_7⟫ = constantI S_ 32 0#32) :
    StableHlo.after hostOps2_1 V ⟪main_v53⟫ = Cert.Spec.varOf (F := Ideal) (V ⟪main_v49⟫) := by
  after_results_simp; rw [hc]; rfl

/-- The inverse deviations, and the four rows of the normalisation. -/
theorem st22_v56 : StableHlo.after hostOps2_2 V ⟪main_v56⟫
    = (Host.rsqrt (addf (V ⟪main_v53⟫ : FVec Ideal S128 .f32)
        (broadcastInDim S128 ![] Facts₀.bcast_S_S128 (constant S_ .f32 0x3727C5AC#32))) : FVec Ideal S128 .f32) := by
  after_results_simp <;> rfl
theorem st22_v57 : StableHlo.after hostOps2_2 V ⟪main_v57⟫
    = shapeCast S1x128 (V ⟪main_v52⟫ : FVec Ideal S128 .f32) Facts₀.shapeCasts_S128_S1x128 := by
  after_results_simp <;> rfl
theorem st22_v58 : StableHlo.after hostOps2_2 V ⟪main_v58⟫
    = shapeCast S1x128 (Host.rsqrt (addf (V ⟪main_v53⟫ : FVec Ideal S128 .f32)
        (broadcastInDim S128 ![] Facts₀.bcast_S_S128 (constant S_ .f32 0x3727C5AC#32))) : FVec Ideal S128 .f32) Facts₀.shapeCasts_S128_S1x128 := by
  after_results_simp <;> rfl
theorem st22_v61 : StableHlo.after hostOps2_2 V ⟪main_v61⟫
    = shapeCast S1x128 (shapeCast S128 (extractStridedSlice S1x128 ![0, 0] (V ⟪main_arg9⟫) Facts₀.slices_S3x128_S1x128_0_0) Facts₀.shapeCasts_S1x128_S128) Facts₀.shapeCasts_S128_S1x128 := by
  after_results_simp <;> rfl
theorem st22_v64 : StableHlo.after hostOps2_2 V ⟪main_v64⟫
    = shapeCast S1x128 (shapeCast S128 (extractStridedSlice S1x128 ![0, 0] (V ⟪main_arg10⟫) Facts₀.slices_S3x128_S1x128_0_0) Facts₀.shapeCasts_S1x128_S128) Facts₀.shapeCasts_S128_S1x128 := by
  after_results_simp <;> rfl

end Stretches

/-! ## The layer's named values -/

abbrev kX (c : Dev nD) : FVec Ideal S50000x128 .f32 := m ((c : Thread nD τ).loc main_arg0)
abbrev kSs (c : Dev nD) : IVec S600000 32 := Cert.Bridge.sortI (srcK m c) (dstK m c)
abbrev kDs (c : Dev nD) : IVec S600000 32 := Cert.Bridge.sortI (dstK m c) (dstK m c)
abbrev kEs (c : Dev nD) : FVec Ideal S600000x32 .f32 := Cert.Bridge.sortEa (m ((c : Thread nD τ).loc main_arg2)) (dstK m c)
abbrev kWl (c : Dev nD) : FVec Ideal S32x128 .f32 :=
  shapeCast S32x128 (extractStridedSlice S1x32x128 ![0, 0, 0] (m ((c : Thread nD τ).loc main_arg3)) Facts₀.slices_S3x32x128_S1x32x128_0_0_0) Facts₀.shapeCasts_S1x32x128_S32x128
abbrev kBl (c : Dev nD) : FVec Ideal S128 .f32 :=
  shapeCast S128 (extractStridedSlice S1x128 ![0, 0] (m ((c : Thread nD τ).loc main_arg4)) Facts₀.slices_S3x128_S1x128_0_0) Facts₀.shapeCasts_S1x128_S128
abbrev kW1 (c : Dev nD) : FVec Ideal S128x128 .f32 :=
  shapeCast S128x128 (extractStridedSlice S1x128x128 ![0, 0, 0] (m ((c : Thread nD τ).loc main_arg5)) Facts₀.slices_S3x128x128_S1x128x128_0_0_0) Facts₀.shapeCasts_S1x128x128_S128x128
abbrev kB1 (c : Dev nD) : FVec Ideal S128 .f32 :=
  shapeCast S128 (extractStridedSlice S1x128 ![0, 0] (m ((c : Thread nD τ).loc main_arg6)) Facts₀.slices_S3x128_S1x128_0_0) Facts₀.shapeCasts_S1x128_S128
abbrev kW2 (c : Dev nD) : FVec Ideal S128x128 .f32 :=
  shapeCast S128x128 (extractStridedSlice S1x128x128 ![0, 0, 0] (m ((c : Thread nD τ).loc main_arg7)) Facts₀.slices_S3x128x128_S1x128x128_0_0_0) Facts₀.shapeCasts_S1x128x128_S128x128
abbrev kB2 (c : Dev nD) : FVec Ideal S128 .f32 :=
  shapeCast S128 (extractStridedSlice S1x128 ![0, 0] (m ((c : Thread nD τ).loc main_arg8)) Facts₀.slices_S3x128_S1x128_0_0) Facts₀.shapeCasts_S1x128_S128
abbrev kG (c : Dev nD) : FVec Ideal S128 .f32 :=
  shapeCast S128 (extractStridedSlice S1x128 ![0, 0] (m ((c : Thread nD τ).loc main_arg9)) Facts₀.slices_S3x128_S1x128_0_0) Facts₀.shapeCasts_S1x128_S128
abbrev kBt (c : Dev nD) : FVec Ideal S128 .f32 :=
  shapeCast S128 (extractStridedSlice S1x128 ![0, 0] (m ((c : Thread nD τ).loc main_arg10)) Facts₀.slices_S3x128_S1x128_0_0) Facts₀.shapeCasts_S1x128_S128
/-- The lifted sorted edge features. -/
abbrev kE (c : Dev nD) : FVec Ideal S600000x128 .f32 := Cert.Spec.edgeLin (kEs m c) (kWl m c) (Cert.Spec.asRow (kBl m c))
/-- The messages before the clip. -/
abbrev kM (c : Dev nD) : FVec Ideal S600000x128 .f32 := addf (Cert.Bridge.takeRows (kX m c) (kSs m c)) (kE m c)
/-- The aggregate. -/
abbrev kA (c : Dev nD) : FVec Ideal S50000x128 .f32 := Cert.Bridge.aggSorted (kX m c) (kSs m c) (kDs m c) (kE m c)
/-- The activations before the normalisation. -/
abbrev kH (c : Dev nD) : FVec Ideal S50000x128 .f32 :=
  Cert.Spec.mlp (kX m c) (kA m c) (kW1 m c) (Cert.Spec.asRow (kB1 m c)) (kW2 m c) (Cert.Spec.asRow (kB2 m c))

/-! ## The buffers at the boundaries -/

section Boundaries
variable (c : Dev nD)

/-! ### The sorted edge data (once, before region 0) -/

theorem w1_v1 : W1 m ρ c ⟪main_v1⟫ = srcK m c := st0_v1 (W0 m ρ c)
theorem w1_v3 : W1 m ρ c ⟪main_v3⟫ = dstK m c := st0_v3 (W0 m ρ c)
theorem w2_v1 : W2 m ρ c ⟪main_v1⟫ = srcK m c := by bkh; exact w1_v1 m ρ c
theorem w2_v3 : W2 m ρ c ⟪main_v3⟫ = dstK m c := by bkh; exact w1_v3 m ρ c
theorem w2_v4 : W2 m ρ c ⟪main_v4⟫ = Cert.Bridge.permOf (dstK m c) := by
  refine (st01_v4 (W1 m ρ c)).trans ?_
  rw [w1_v3 m ρ c]
theorem w2_arg2 : W2 m ρ c ⟪main_arg2⟫ = m ((c : Thread nD τ).loc main_arg2) := by bkh; bkh; rfl
theorem w2_arg3 : W2 m ρ c ⟪main_arg3⟫ = m ((c : Thread nD τ).loc main_arg3) := by bkh; bkh; rfl
theorem w2_arg4 : W2 m ρ c ⟪main_arg4⟫ = m ((c : Thread nD τ).loc main_arg4) := by bkh; bkh; rfl
theorem w3_v11 : W3 m ρ c ⟪main_v11⟫ = kSs m c := by
  refine (st02_v11 (W2 m ρ c)).trans ?_
  rw [w2_v1 m ρ c, w2_v4 m ρ c]; rfl
theorem w3_v18 : W3 m ρ c ⟪main_v18⟫ = kDs m c := by
  refine (st02_v18 (W2 m ρ c)).trans ?_
  rw [w2_v3 m ρ c, w2_v4 m ρ c]; rfl
theorem w3_v25 : W3 m ρ c ⟪main_v25⟫ = kEs m c := by
  refine (st02_v25 (W2 m ρ c)).trans ?_
  rw [w2_arg2 m ρ c, w2_v4 m ρ c]; rfl
theorem w3_v27 : W3 m ρ c ⟪main_v27⟫ = kWl m c := by
  refine (st02_v27 (W2 m ρ c)).trans ?_
  rw [w2_arg3 m ρ c]
theorem w3_v30 : W3 m ρ c ⟪main_v30⟫ = Cert.Spec.asRow (kBl m c) := by
  refine (st02_v30 (W2 m ρ c)).trans ?_
  rw [w2_arg4 m ρ c]; exact Cert.Bridge.row_eq _ _

end Boundaries

section Layer
variable (c : Dev nD)

/-! ### Region 0: the edge lift -/

theorem w4_v31 : W4 m ρ c ⟪main_v31⟫ = kE m c := by
  refine ((W4_arr m ρ c 3).trans (Cert.KernelIdeal.RegVal.edge0 (V3 m ρ) c)).trans ?_
  show Cert.Spec.edgeLin (F := Ideal) (W3 m ρ c ⟪main_v25⟫) (W3 m ρ c ⟪main_v27⟫) (W3 m ρ c ⟪main_v30⟫) = _
  rw [w3_v25 m ρ c, w3_v27 m ρ c, w3_v30 m ρ c]
theorem w4_arg0 : W4 m ρ c ⟪main_arg0⟫ = kX m c := by bk4; bkh3; rfl
theorem w4_v11 : W4 m ρ c ⟪main_v11⟫ = kSs m c := by bk4; exact w3_v11 m ρ c

/-! ### The take, the sum with the edge lift, the clip, the scatter-sum -/

theorem w5_v32 : W5 m ρ c ⟪main_v32⟫ = Cert.Bridge.takeRows (kX m c) (kSs m c) := by
  refine (st1_v32 (W4 m ρ c)).trans ?_
  rw [w4_arg0 m ρ c, w4_v11 m ρ c]
theorem w5_v31 : W5 m ρ c ⟪main_v31⟫ = kE m c := by bkh; exact w4_v31 m ρ c
theorem w6_v34 : W6 m ρ c ⟪main_v34⟫ = kM m c := by
  refine (st11_v34 (W5 m ρ c)).trans ?_
  rw [w5_v32 m ρ c, w5_v31 m ρ c]
theorem w7_v35 : W7 m ρ c ⟪main_v35⟫
    = maximumf (kM m c) (broadcastInDim S600000x128 ![] Facts₀.bcast_S_S600000x128 (constant S_ .f32 0x00000000#32)) := by
  refine (st12_v35 (W6 m ρ c)).trans ?_
  rw [w6_v34 m ρ c]
theorem w7_v18 : W7 m ρ c ⟪main_v18⟫ = kDs m c := by bkh3; bk4; exact w3_v18 m ρ c
theorem w7_arg5 : W7 m ρ c ⟪main_arg5⟫ = m ((c : Thread nD τ).loc main_arg5) := by bkh3; bk4; bkh3; rfl
theorem w7_arg6 : W7 m ρ c ⟪main_arg6⟫ = m ((c : Thread nD τ).loc main_arg6) := by bkh3; bk4; bkh3; rfl
theorem w7_arg7 : W7 m ρ c ⟪main_arg7⟫ = m ((c : Thread nD τ).loc main_arg7) := by bkh3; bk4; bkh3; rfl
theorem w7_arg8 : W7 m ρ c ⟪main_arg8⟫ = m ((c : Thread nD τ).loc main_arg8) := by bkh3; bk4; bkh3; rfl
theorem w8_v38 : W8 m ρ c ⟪main_v38⟫ = kA m c := by
  refine (st13_v38 (W7 m ρ c)).trans ?_
  rw [w7_v18 m ρ c, w7_v35 m ρ c]; rfl
theorem w8_v40 : W8 m ρ c ⟪main_v40⟫ = kW1 m c := by
  refine (st13_v40 (W7 m ρ c)).trans ?_
  rw [w7_arg5 m ρ c]
theorem w8_v44 : W8 m ρ c ⟪main_v44⟫ = kW2 m c := by
  refine (st13_v44 (W7 m ρ c)).trans ?_
  rw [w7_arg7 m ρ c]
theorem w8_v47 : W8 m ρ c ⟪main_v47⟫ = Cert.Spec.asRow (kB1 m c) := by
  refine (st13_v47 (W7 m ρ c)).trans ?_
  rw [w7_arg6 m ρ c]; exact Cert.Bridge.row_eq _ _
theorem w8_v48 : W8 m ρ c ⟪main_v48⟫ = Cert.Spec.asRow (kB2 m c) := by
  refine (st13_v48 (W7 m ρ c)).trans ?_
  rw [w7_arg8 m ρ c]; exact Cert.Bridge.row_eq _ _
theorem w8_arg0 : W8 m ρ c ⟪main_arg0⟫ = kX m c := by bkh4; exact w4_arg0 m ρ c

/-! ### Region 1: the node network -/

theorem w9_v49 : W9 m ρ c ⟪main_v49⟫ = kH m c := by
  refine ((W9_arr m ρ c 6).trans (Cert.KernelIdeal.RegVal.mlp1 (V8 m ρ) c)).trans ?_
  show Cert.Spec.mlp (F := Ideal) (W8 m ρ c ⟪main_arg0⟫) (W8 m ρ c ⟪main_v38⟫) (W8 m ρ c ⟪main_v40⟫) (W8 m ρ c ⟪main_v47⟫)
    (W8 m ρ c ⟪main_v44⟫) (W8 m ρ c ⟪main_v48⟫) = _
  rw [w8_arg0 m ρ c, w8_v38 m ρ c, w8_v40 m ρ c, w8_v47 m ρ c, w8_v44 m ρ c, w8_v48 m ρ c]

/-! ### The statistics and the four rows -/

theorem w10_v52 : W10 m ρ c ⟪main_v52⟫ = Cert.Spec.meanOf (kH m c) := by
  refine (st2_v52 (W9 m ρ c)).trans ?_
  rw [w9_v49 m ρ c]
theorem w10_c7 : W10 m ρ c ⟪main_c_7⟫ = constantI S_ 32 0#32 := st2_c7 (W9 m ρ c)
theorem w10_v49 : W10 m ρ c ⟪main_v49⟫ = kH m c := by bkh; exact w9_v49 m ρ c
theorem w11_v53 : W11 m ρ c ⟪main_v53⟫ = Cert.Spec.varOf (kH m c) := by
  refine (st21_v53 (W10 m ρ c) (w10_c7 m ρ c)).trans ?_
  rw [w10_v49 m ρ c]
theorem w11_v52 : W11 m ρ c ⟪main_v52⟫ = Cert.Spec.meanOf (kH m c) := by bkh; exact w10_v52 m ρ c
theorem w11_v49 : W11 m ρ c ⟪main_v49⟫ = kH m c := by bkh; exact w10_v49 m ρ c
theorem w11_arg9 : W11 m ρ c ⟪main_arg9⟫ = m ((c : Thread nD τ).loc main_arg9) := by bkh; bkh; bk9; bkh4; bk4; bkh3; rfl
theorem w11_arg10 : W11 m ρ c ⟪main_arg10⟫ = m ((c : Thread nD τ).loc main_arg10) := by bkh; bkh; bk9; bkh4; bk4; bkh3; rfl
theorem w12_v49 : W12 m ρ c ⟪main_v49⟫ = kH m c := by bkh; exact w11_v49 m ρ c
theorem w12_v57 : W12 m ρ c ⟪main_v57⟫ = Cert.Spec.asRow (Cert.Spec.meanOf (kH m c)) := by
  refine (st22_v57 (W11 m ρ c)).trans ?_
  rw [w11_v52 m ρ c]; exact Cert.Bridge.row_eq _ _
theorem w12_v58 : W12 m ρ c ⟪main_v58⟫ = Cert.Spec.asRow (Cert.Spec.invStd (kH m c)) := by
  refine (st22_v58 (W11 m ρ c)).trans ?_
  rw [w11_v53 m ρ c]; exact Cert.Bridge.row_eq _ _
theorem w12_v61 : W12 m ρ c ⟪main_v61⟫ = Cert.Spec.asRow (kG m c) := by
  refine (st22_v61 (W11 m ρ c)).trans ?_
  rw [w11_arg9 m ρ c]; exact Cert.Bridge.row_eq _ _
theorem w12_v64 : W12 m ρ c ⟪main_v64⟫ = Cert.Spec.asRow (kBt m c) := by
  refine (st22_v64 (W11 m ρ c)).trans ?_
  rw [w11_arg10 m ρ c]; exact Cert.Bridge.row_eq _ _

/-! ### Region 2: the normalisation -/

theorem w13_v65 : W13 m ρ c ⟪main_v65⟫
    = Cert.Spec.bnRelu (kH m c) (Cert.Spec.asRow (Cert.Spec.meanOf (kH m c))) (Cert.Spec.asRow (Cert.Spec.invStd (kH m c)))
        (Cert.Spec.asRow (kG m c)) (Cert.Spec.asRow (kBt m c)) := by
  refine ((W13_arr m ρ c 5).trans (Cert.KernelIdeal.RegVal.bn2 (V12 m ρ) c)).trans ?_
  show Cert.Spec.bnRelu (F := Ideal) (W12 m ρ c ⟪main_v49⟫) (W12 m ρ c ⟪main_v57⟫) (W12 m ρ c ⟪main_v58⟫) (W12 m ρ c ⟪main_v61⟫)
    (W12 m ρ c ⟪main_v64⟫) = _
  rw [w12_v49 m ρ c, w12_v57 m ρ c, w12_v58 m ρ c, w12_v61 m ρ c, w12_v64 m ρ c]

end Layer
end L0

open L0

/-- The sorted source indices, as layer 0's end boundary still holds them. -/
theorem keep0_v11 (c : Dev nD) : W13 m ρ c (Proc.devRef .tc main_v11) = Cert.Bridge.sortI (srcK m c) (dstK m c) := by
  bk13to3; exact w3_v11 m ρ c
/-- The sorted destination indices. -/
theorem keep0_v18 (c : Dev nD) : W13 m ρ c (Proc.devRef .tc main_v18) = Cert.Bridge.sortI (dstK m c) (dstK m c) := by
  bk13to3; exact w3_v18 m ρ c
/-- The sorted edge features. -/
theorem keep0_v25 (c : Dev nD) : W13 m ρ c (Proc.devRef .tc main_v25) = Cert.Bridge.sortEa (m ((c : Thread nD τ).loc main_arg2)) (dstK m c) := by
  bk13; bkh3; bk9; bkh4
  refine Eq.trans ((W4_arr m ρ c 0).trans (((dat0 (V3 m ρ) c).arrAt_in 0 rfl _).trans (A_eq0 (V3 m ρ) c 0))) ?_
  exact w3_v25 m ρ c
/-- Argument 3 is as launched at layer 0's end. -/
theorem keep0_arg3 (c : Dev nD) : W13 m ρ c (Proc.devRef .tc main_arg3) = (m ((c : Thread nD τ).loc main_arg3)) := by
  bk13to3; bkh3; rfl
/-- Argument 4 is as launched at layer 0's end. -/
theorem keep0_arg4 (c : Dev nD) : W13 m ρ c (Proc.devRef .tc main_arg4) = (m ((c : Thread nD τ).loc main_arg4)) := by
  bk13to3; bkh3; rfl
/-- Argument 5 is as launched at layer 0's end. -/
theorem keep0_arg5 (c : Dev nD) : W13 m ρ c (Proc.devRef .tc main_arg5) = (m ((c : Thread nD τ).loc main_arg5)) := by
  bk13to3; bkh3; rfl
/-- Argument 6 is as launched at layer 0's end. -/
theorem keep0_arg6 (c : Dev nD) : W13 m ρ c (Proc.devRef .tc main_arg6) = (m ((c : Thread nD τ).loc main_arg6)) := by
  bk13to3; bkh3; rfl
/-- Argument 7 is as launched at layer 0's end. -/
theorem keep0_arg7 (c : Dev nD) : W13 m ρ c (Proc.devRef .tc main_arg7) = (m ((c : Thread nD τ).loc main_arg7)) := by
  bk13to3; bkh3; rfl
/-- Argument 8 is as launched at layer 0's end. -/
theorem keep0_arg8 (c : Dev nD) : W13 m ρ c (Proc.devRef .tc main_arg8) = (m ((c : Thread nD τ).loc main_arg8)) := by
  bk13to3; bkh3; rfl
/-- Argument 9 is as launched at layer 0's end. -/
theorem keep0_arg9 (c : Dev nD) : W13 m ρ c (Proc.devRef .tc main_arg9) = (m ((c : Thread nD τ).loc main_arg9)) := by
  bk13to3; bkh3; rfl
/-- Argument 10 is as launched at layer 0's end. -/
theorem keep0_arg10 (c : Dev nD) : W13 m ρ c (Proc.devRef .tc main_arg10) = (m ((c : Thread nD τ).loc main_arg10)) := by
  bk13to3; bkh3; rfl

/-- Layer 0's output. -/
theorem layer0 (c : Dev nD) :
    W13 m ρ c (Proc.devRef .tc main_v65)
      = Cert.Bridge.layerSorted (m ((c : Thread nD τ).loc main_arg0)) (Cert.Bridge.sortI (srcK m c) (dstK m c)) (Cert.Bridge.sortI (dstK m c) (dstK m c))
        (Cert.Bridge.sortEa (m ((c : Thread nD τ).loc main_arg2)) (dstK m c))
        (shapeCast S32x128 (extractStridedSlice S1x32x128 ![0, 0, 0] (m ((c : Thread nD τ).loc main_arg3)) Facts₀.slices_S3x32x128_S1x32x128_0_0_0) Facts₀.shapeCasts_S1x32x128_S32x128)
        (shapeCast S128 (extractStridedSlice S1x128 ![0, 0] (m ((c : Thread nD τ).loc main_arg4)) Facts₀.slices_S3x128_S1x128_0_0) Facts₀.shapeCasts_S1x128_S128)
        (shapeCast S128x128 (extractStridedSlice S1x128x128 ![0, 0, 0] (m ((c : Thread nD τ).loc main_arg5)) Facts₀.slices_S3x128x128_S1x128x128_0_0_0) Facts₀.shapeCasts_S1x128x128_S128x128)
        (shapeCast S128 (extractStridedSlice S1x128 ![0, 0] (m ((c : Thread nD τ).loc main_arg6)) Facts₀.slices_S3x128_S1x128_0_0) Facts₀.shapeCasts_S1x128_S128)
        (shapeCast S128x128 (extractStridedSlice S1x128x128 ![0, 0, 0] (m ((c : Thread nD τ).loc main_arg7)) Facts₀.slices_S3x128x128_S1x128x128_0_0_0) Facts₀.shapeCasts_S1x128x128_S128x128)
        (shapeCast S128 (extractStridedSlice S1x128 ![0, 0] (m ((c : Thread nD τ).loc main_arg8)) Facts₀.slices_S3x128_S1x128_0_0) Facts₀.shapeCasts_S1x128_S128)
        (shapeCast S128 (extractStridedSlice S1x128 ![0, 0] (m ((c : Thread nD τ).loc main_arg9)) Facts₀.slices_S3x128_S1x128_0_0) Facts₀.shapeCasts_S1x128_S128)
        (shapeCast S128 (extractStridedSlice S1x128 ![0, 0] (m ((c : Thread nD τ).loc main_arg10)) Facts₀.slices_S3x128_S1x128_0_0) Facts₀.shapeCasts_S1x128_S128) :=
  w13_v65 m ρ c

end Cert.KernelIdeal.KL

end
-- ==== Proof.KL1.lean ====
/-
  Layer 1 of the kernel, read off the run's boundary contents: its output at its end boundary is the kernel's layer function of what its start boundary holds (the previous layer's output, the sorted edge arrays, the stacked weights), and it writes none of the sorted arrays or arguments.
-/
import proofs.«418803_j51642686767905_2_alg».proof.Proof.Gen.KernelIdeal.Frame
import proofs.«418803_j51642686767905_2_alg».proof.Proof.Bridge
import proofs.«418803_j51642686767905_2_alg».proof.Proof.RegEdge
import proofs.«418803_j51642686767905_2_alg».proof.Proof.RegMlp
import proofs.«418803_j51642686767905_2_alg».proof.Proof.RegBn
import proofs.«418803_j51642686767905_2_alg».proof.Proof.Gen.ReferenceIdeal
import Idealize.ShloMosaic.Lib.StableHlo.Run

set_option maxRecDepth 16384

noncomputable section

namespace Cert.KernelIdeal.KL

open Idealize.ShloMosaic Idealize.ShloMosaic.TcCoe
open Cert.KernelIdeal Cert.KernelIdeal.Gen

variable (m : (ℓ : Loc nD τ sig) → Buf (Elt Ideal) ℓ) (ρ : Dev nD → PrngReg)

/-! # The auxiliary facts of the layer, apart from the other layers' -/

namespace L1

/-! ## Buffers the layer leaves alone -/

/-- One step back over a stretch of host operations, for a buffer none of them writes. -/
local macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! One step back per segment of the layer (a region, or a stretch of host operations), for a buffer the segment does not write. -/
local macro "s24" m:term:max r:term:max c:term:max b:term:max : term =>
  `(W24_of_ne $m $r $c $b (by decide))
local macro "s23" m:term:max r:term:max c:term:max b:term:max : term =>
  `((by host_keep hostOps5_2 : W23 $m $r $c (Proc.devRef .tc $b) = W22 $m $r $c (Proc.devRef .tc $b)))
local macro "s22" m:term:max r:term:max c:term:max b:term:max : term =>
  `((by host_keep hostOps5_1 : W22 $m $r $c (Proc.devRef .tc $b) = W21 $m $r $c (Proc.devRef .tc $b)))
local macro "s21" m:term:max r:term:max c:term:max b:term:max : term =>
  `((by host_keep hostOps5 : W21 $m $r $c (Proc.devRef .tc $b) = W20 $m $r $c (Proc.devRef .tc $b)))
local macro "s20" m:term:max r:term:max c:term:max b:term:max : term =>
  `(W20_of_ne $m $r $c $b (by decide))
local macro "s19" m:term:max r:term:max c:term:max b:term:max : term =>
  `((by host_keep hostOps4_3 : W19 $m $r $c (Proc.devRef .tc $b) = W18 $m $r $c (Proc.devRef .tc $b)))
local macro "s18" m:term:max r:term:max c:term:max b:term:max : term =>
  `((by host_keep hostOps4_2 : W18 $m $r $c (Proc.devRef .tc $b) = W17 $m $r $c (Proc.devRef .tc $b)))
local macro "s17" m:term:max r:term:max c:term:max b:term:max : term =>
  `((by host_keep hostOps4_1 : W17 $m $r $c (Proc.devRef .tc $b) = W16 $m $r $c (Proc.devRef .tc $b)))
local macro "s16" m:term:max r:term:max c:term:max b:term:max : term =>
  `((by host_keep hostOps4 : W16 $m $r $c (Proc.devRef .tc $b) = W15 $m $r $c (Proc.devRef .tc $b)))
local macro "s15" m:term:max r:term:max c:term:max b:term:max : term =>
  `(W15_of_ne $m $r $c $b (by decide))
local macro "s14" m:term:max r:term:max c:term:max b:term:max : term =>
  `((by host_keep hostOps3 : W14 $m $r $c (Proc.devRef .tc $b) = W13 $m $r $c (Proc.devRef .tc $b)))

/-! The steps composed: from a later boundary back to an earlier one. -/
local macro "back_15_13" m:term:max r:term:max c:term:max b:term:max : term =>
  `((s15 $m $r $c $b).trans (s14 $m $r $c $b))
local macro "back_18_15" m:term:max r:term:max c:term:max b:term:max : term =>
  `((s18 $m $r $c $b).trans ((s17 $m $r $c $b).trans (s16 $m $r $c $b)))
local macro "back_22_18" m:term:max r:term:max c:term:max b:term:max : term =>
  `((s22 $m $r $c $b).trans ((s21 $m $r $c $b).trans ((s20 $m $r $c $b).trans (s19 $m $r $c $b))))
local macro "back_24_22" m:term:max r:term:max c:term:max b:term:max : term =>
  `((s24 $m $r $c $b).trans (s23 $m $r $c $b))
local macro "back_18_13" m:term:max r:term:max c:term:max b:term:max : term =>
  `((back_18_15 $m $r $c $b).trans (back_15_13 $m $r $c $b))
local macro "back_19_13" m:term:max r:term:max c:term:max b:term:max : term =>
  `((s19 $m $r $c $b).trans (back_18_13 $m $r $c $b))
local macro "back_22_13" m:term:max r:term:max c:term:max b:term:max : term =>
  `((back_22_18 $m $r $c $b).trans (back_18_13 $m $r $c $b))
local macro "back_24_13" m:term:max r:term:max c:term:max b:term:max : term =>
  `((back_24_22 $m $r $c $b).trans (back_22_13 $m $r $c $b))

/-- Region 3 reads the sorted edge features (its first array) and leaves them as they were. -/
theorem in15_v25 (c : Dev nD) : W15 m ρ c (Proc.devRef .tc main_v25) = W14 m ρ c (Proc.devRef .tc main_v25) :=
  (W15_arr m ρ c 0).trans (((dat3 (V14 m ρ) c).arrAt_in 0 rfl _).trans (A_eq3 (V14 m ρ) c 0))

/-- The layer does not write main_v11. -/
theorem keep_v11 (c : Dev nD) : W24 m ρ c (Proc.devRef .tc main_v11) = W13 m ρ c (Proc.devRef .tc main_v11) :=
  back_24_13 m ρ c main_v11
/-- The layer does not write main_v18. -/
theorem keep_v18 (c : Dev nD) : W24 m ρ c (Proc.devRef .tc main_v18) = W13 m ρ c (Proc.devRef .tc main_v18) :=
  back_24_13 m ρ c main_v18
/-- The layer does not write main_v25. -/
theorem keep_v25 (c : Dev nD) : W24 m ρ c (Proc.devRef .tc main_v25) = W13 m ρ c (Proc.devRef .tc main_v25) :=
  (back_24_22 m ρ c main_v25).trans ((back_22_18 m ρ c main_v25).trans ((back_18_15 m ρ c main_v25).trans
    ((in15_v25 m ρ c).trans (s14 m ρ c main_v25))))
/-- The layer does not write main_arg3. -/
theorem keep_arg3 (c : Dev nD) : W24 m ρ c (Proc.devRef .tc main_arg3) = W13 m ρ c (Proc.devRef .tc main_arg3) :=
  back_24_13 m ρ c main_arg3
/-- The layer does not write main_arg4. -/
theorem keep_arg4 (c : Dev nD) : W24 m ρ c (Proc.devRef .tc main_arg4) = W13 m ρ c (Proc.devRef .tc main_arg4) :=
  back_24_13 m ρ c main_arg4
/-- The layer does not write main_arg5. -/
theorem keep_arg5 (c : Dev nD) : W24 m ρ c (Proc.devRef .tc main_arg5) = W13 m ρ c (Proc.devRef .tc main_arg5) :=
  back_24_13 m ρ c main_arg5
/-- The layer does not write main_arg6. -/
theorem keep_arg6 (c : Dev nD) : W24 m ρ c (Proc.devRef .tc main_arg6) = W13 m ρ c (Proc.devRef .tc main_arg6) :=
  back_24_13 m ρ c main_arg6
/-- The layer does not write main_arg7. -/
theorem keep_arg7 (c : Dev nD) : W24 m ρ c (Proc.devRef .tc main_arg7) = W13 m ρ c (Proc.devRef .tc main_arg7) :=
  back_24_13 m ρ c main_arg7
/-- The layer does not write main_arg8. -/
theorem keep_arg8 (c : Dev nD) : W24 m ρ c (Proc.devRef .tc main_arg8) = W13 m ρ c (Proc.devRef .tc main_arg8) :=
  back_24_13 m ρ c main_arg8
/-- The layer does not write main_arg9. -/
theorem keep_arg9 (c : Dev nD) : W24 m ρ c (Proc.devRef .tc main_arg9) = W13 m ρ c (Proc.devRef .tc main_arg9) :=
  back_24_13 m ρ c main_arg9
/-- The layer does not write main_arg10. -/
theorem keep_arg10 (c : Dev nD) : W24 m ρ c (Proc.devRef .tc main_arg10) = W13 m ρ c (Proc.devRef .tc main_arg10) :=
  back_24_13 m ρ c main_arg10

/-! ## The layer's inputs, as its start boundary holds them -/

set_option hygiene false in
local notation "X₁" => W13 m ρ c (Proc.devRef .tc main_v65)
set_option hygiene false in
local notation "sS₁" => W13 m ρ c (Proc.devRef .tc main_v11)
set_option hygiene false in
local notation "dS₁" => W13 m ρ c (Proc.devRef .tc main_v18)
set_option hygiene false in
local notation "eS₁" => W13 m ρ c (Proc.devRef .tc main_v25)
set_option hygiene false in
local notation "Wl₁" => (shapeCast S32x128 (extractStridedSlice S1x32x128 ![1, 0, 0] (W13 m ρ c (Proc.devRef .tc main_arg3)) Facts₀.slices_S3x32x128_S1x32x128_1_0_0) Facts₀.shapeCasts_S1x32x128_S32x128)
set_option hygiene false in
local notation "bl₁" => (shapeCast S128 (extractStridedSlice S1x128 ![1, 0] (W13 m ρ c (Proc.devRef .tc main_arg4)) Facts₀.slices_S3x128_S1x128_1_0) Facts₀.shapeCasts_S1x128_S128)
set_option hygiene false in
local notation "W1₁" => (shapeCast S128x128 (extractStridedSlice S1x128x128 ![1, 0, 0] (W13 m ρ c (Proc.devRef .tc main_arg5)) Facts₀.slices_S3x128x128_S1x128x128_1_0_0) Facts₀.shapeCasts_S1x128x128_S128x128)
set_option hygiene false in
local notation "b1₁" => (shapeCast S128 (extractStridedSlice S1x128 ![1, 0] (W13 m ρ c (Proc.devRef .tc main_arg6)) Facts₀.slices_S3x128_S1x128_1_0) Facts₀.shapeCasts_S1x128_S128)
set_option hygiene false in
local notation "W2₁" => (shapeCast S128x128 (extractStridedSlice S1x128x128 ![1, 0, 0] (W13 m ρ c (Proc.devRef .tc main_arg7)) Facts₀.slices_S3x128x128_S1x128x128_1_0_0) Facts₀.shapeCasts_S1x128x128_S128x128)
set_option hygiene false in
local notation "b2₁" => (shapeCast S128 (extractStridedSlice S1x128 ![1, 0] (W13 m ρ c (Proc.devRef .tc main_arg8)) Facts₀.slices_S3x128_S1x128_1_0) Facts₀.shapeCasts_S1x128_S128)
set_option hygiene false in
local notation "g₁" => (shapeCast S128 (extractStridedSlice S1x128 ![1, 0] (W13 m ρ c (Proc.devRef .tc main_arg9)) Facts₀.slices_S3x128_S1x128_1_0) Facts₀.shapeCasts_S1x128_S128)
set_option hygiene false in
local notation "bt₁" => (shapeCast S128 (extractStridedSlice S1x128 ![1, 0] (W13 m ρ c (Proc.devRef .tc main_arg10)) Facts₀.slices_S3x128_S1x128_1_0) Facts₀.shapeCasts_S1x128_S128)

/-! The edge lift E, the aggregate A and the pre-normalisation activations H of the layer, as functions of those. -/
set_option hygiene false in
local notation "E₁" => Cert.Spec.edgeLin (F := Ideal) eS₁ Wl₁ (Cert.Spec.asRow (F := Ideal) bl₁)
set_option hygiene false in
local notation "A₁" => Cert.Bridge.aggSorted X₁ sS₁ dS₁ E₁
set_option hygiene false in
local notation "H₁" => Cert.Spec.mlp (F := Ideal) X₁ A₁ W1₁ (Cert.Spec.asRow (F := Ideal) b1₁) W2₁ (Cert.Spec.asRow (F := Ideal) b2₁)

/-- Widening a reduced-precision array is the identity on extended reals. -/
theorem extf_ideal {s : Shape} (x : FVec Ideal s .bf16) (h : FTy.bf16.bits < FTy.f32.bits) :
    (extf (F := Ideal) .f32 x h : FVec Ideal s .f32) = x := rfl

/-- Reading a typed reference's contents back at the type it carries undoes storing them there. -/
theorem ofBuf_toBuf {T : BufTy} (x : StableHlo.TRef sig T) (v : T.Contents (Elt Ideal)) :
    x.ofBuf (x.toBuf v) = v := by
  obtain ⟨r, h, _, _⟩ := x
  subst h
  rfl

/-! ## What each stretch of host operations computes, from any contents V at its start -/

section Stretches

variable (V : Valuation τ sig (Elt Ideal))

/-- The edge weight: slice 1 of the stacked edge weights. -/
theorem v67_of : StableHlo.after hostOps3 V (Proc.devRef .tc main_v67)
    = shapeCast S32x128 (extractStridedSlice S1x32x128 ![1, 0, 0] (V (Proc.devRef .tc main_arg3)) Facts₀.slices_S3x32x128_S1x32x128_1_0_0) Facts₀.shapeCasts_S1x32x128_S32x128 := by
  simp only [hostOps3]
  after_results
  rfl

/-- The edge bias: slice 1 of the stacked edge biases, as a row. -/
theorem v70_of : StableHlo.after hostOps3 V (Proc.devRef .tc main_v70)
    = Cert.Spec.asRow (F := Ideal) (shapeCast S128 (extractStridedSlice S1x128 ![1, 0] (V (Proc.devRef .tc main_arg4)) Facts₀.slices_S3x128_S1x128_1_0) Facts₀.shapeCasts_S1x128_S128) := by
  simp only [hostOps3]
  after_results
  exact Cert.Bridge.row_eq _ _

/-- The row lookup: the rows of the node features at the given node indices. -/
theorem v72_of : StableHlo.after hostOps4 V (Proc.devRef .tc main_v72)
    = Cert.Bridge.takeRows (V (Proc.devRef .tc main_v65)) (V (Proc.devRef .tc main_v11)) := by
  simp only [hostOps4]
  after_results_simp
  simp only [ofBuf_toBuf]
  simp only [StableHlo.TRef.ofBuf, StableHlo.TRef.toBuf, cast_eq]
  rfl

/-- The looked-up rows plus the edge lift (widened, which changes nothing here). -/
theorem v74_of : StableHlo.after hostOps4_1 V (Proc.devRef .tc main_v74)
    = addf (F := Ideal) (s := S600000x128) (φ := .f32) (V (Proc.devRef .tc main_v72)) (V (Proc.devRef .tc main_v71)) := by
  simp only [hostOps4_1]
  after_results
  rw [extf_ideal]

/-- The clip at zero. -/
theorem v75_of : StableHlo.after hostOps4_2 V (Proc.devRef .tc main_v75)
    = maximumf (F := Ideal) (V (Proc.devRef .tc main_v74))
        (broadcastInDim S600000x128 ![] Facts₀.bcast_S_S600000x128 (constant S_ .f32 0x00000000#32)) := by
  simp only [hostOps4_2]
  after_results
  rfl

/-- The scatter-sum of the messages at the destinations, into zeros. -/
theorem v78_of : StableHlo.after hostOps4_3 V (Proc.devRef .tc main_v78)
    = Host.scatterAdd (F := Ideal) scatter_S50000x128_S600000x1_S600000x128_1_0_0_1
        (broadcastInDim S50000x128 ![] Facts₀.bcast_S_S50000x128 (constant S_ .f32 0x00000000#32))
        (broadcastInDim S600000x1 ![0] Facts₀.bcast_S600000_S600000x1_0 (V (Proc.devRef .tc main_v18)))
        (V (Proc.devRef .tc main_v75)) := by
  simp only [hostOps4_3]
  after_results

/-- The first node weight: slice 1 of the stacked ones. -/
theorem v80_of : StableHlo.after hostOps4_3 V (Proc.devRef .tc main_v80)
    = shapeCast S128x128 (extractStridedSlice S1x128x128 ![1, 0, 0] (V (Proc.devRef .tc main_arg5)) Facts₀.slices_S3x128x128_S1x128x128_1_0_0) Facts₀.shapeCasts_S1x128x128_S128x128 := by
  simp only [hostOps4_3]
  after_results
  rfl

/-- The first node bias, as a row. -/
theorem v87_of : StableHlo.after hostOps4_3 V (Proc.devRef .tc main_v87)
    = Cert.Spec.asRow (F := Ideal) (shapeCast S128 (extractStridedSlice S1x128 ![1, 0] (V (Proc.devRef .tc main_arg6)) Facts₀.slices_S3x128_S1x128_1_0) Facts₀.shapeCasts_S1x128_S128) := by
  simp only [hostOps4_3]
  after_results
  exact Cert.Bridge.row_eq _ _

/-- The second node weight. -/
theorem v84_of : StableHlo.after hostOps4_3 V (Proc.devRef .tc main_v84)
    = shapeCast S128x128 (extractStridedSlice S1x128x128 ![1, 0, 0] (V (Proc.devRef .tc main_arg7)) Facts₀.slices_S3x128x128_S1x128x128_1_0_0) Facts₀.shapeCasts_S1x128x128_S128x128 := by
  simp only [hostOps4_3]
  after_results
  rfl

/-- The second node bias, as a row. -/
theorem v88_of : StableHlo.after hostOps4_3 V (Proc.devRef .tc main_v88)
    = Cert.Spec.asRow (F := Ideal) (shapeCast S128 (extractStridedSlice S1x128 ![1, 0] (V (Proc.devRef .tc main_arg8)) Facts₀.slices_S3x128_S1x128_1_0) Facts₀.shapeCasts_S1x128_S128) := by
  simp only [hostOps4_3]
  after_results
  exact Cert.Bridge.row_eq _ _

/-- The column means. -/
theorem v92_of : StableHlo.after hostOps5 V (Proc.devRef .tc main_v92)
    = Cert.Spec.meanOf (F := Ideal) (V (Proc.devRef .tc main_v89)) := by
  simp only [hostOps5]
  after_results
  rfl

/-- The integer zero the variance's degrees-of-freedom guard reads. -/
theorem c12_of : StableHlo.after hostOps5 V (Proc.devRef .tc main_c_12) = constantI S_ 32 0#32 := by
  simp only [hostOps5]
  after_results

/-- The column variances, the guard's integer being zero. -/
theorem v93_of (h12 : V (Proc.devRef .tc main_c_12) = constantI S_ 32 0#32) :
    StableHlo.after hostOps5_1 V (Proc.devRef .tc main_v93)
      = Cert.Spec.varOf (F := Ideal) (V (Proc.devRef .tc main_v89)) := by
  simp only [hostOps5_1]
  after_results_simp
  rw [h12]
  rfl

/-- One over the root of the variance plus eps. -/
theorem v96_of : StableHlo.after hostOps5_2 V (Proc.devRef .tc main_v96)
    = Host.rsqrt (F := Ideal) (addf (F := Ideal) (V (Proc.devRef .tc main_v93))
        (broadcastInDim S128 ![] Facts₀.bcast_S_S128 (constant S_ .f32 0x3727C5AC#32))) := by
  simp only [hostOps5_2]
  after_results

/-- The means as a row. -/
theorem v97_of : StableHlo.after hostOps5_2 V (Proc.devRef .tc main_v97)
    = Cert.Spec.asRow (F := Ideal) (V (Proc.devRef .tc main_v92)) := by
  simp only [hostOps5_2]
  after_results
  exact Cert.Bridge.row_eq _ _

/-- The inverse deviations as a row. -/
theorem v98_of : StableHlo.after hostOps5_2 V (Proc.devRef .tc main_v98)
    = Cert.Spec.asRow (F := Ideal) (Host.rsqrt (F := Ideal) (addf (F := Ideal) (V (Proc.devRef .tc main_v93))
        (broadcastInDim S128 ![] Facts₀.bcast_S_S128 (constant S_ .f32 0x3727C5AC#32)))) := by
  simp only [hostOps5_2]
  after_results
  exact Cert.Bridge.row_eq _ _

/-- The scale, as a row. -/
theorem v101_of : StableHlo.after hostOps5_2 V (Proc.devRef .tc main_v101)
    = Cert.Spec.asRow (F := Ideal) (shapeCast S128 (extractStridedSlice S1x128 ![1, 0] (V (Proc.devRef .tc main_arg9)) Facts₀.slices_S3x128_S1x128_1_0) Facts₀.shapeCasts_S1x128_S128) := by
  simp only [hostOps5_2]
  after_results
  exact Cert.Bridge.row_eq _ _

/-- The shift, as a row. -/
theorem v104_of : StableHlo.after hostOps5_2 V (Proc.devRef .tc main_v104)
    = Cert.Spec.asRow (F := Ideal) (shapeCast S128 (extractStridedSlice S1x128 ![1, 0] (V (Proc.devRef .tc main_arg10)) Facts₀.slices_S3x128_S1x128_1_0) Facts₀.shapeCasts_S1x128_S128) := by
  simp only [hostOps5_2]
  after_results
  exact Cert.Bridge.row_eq _ _

end Stretches

/-! ## The edge lift (region 3) -/

/-- Region 3 leaves the edge lift of the sorted edge features. -/
theorem h71 (c : Dev nD) : W15 m ρ c (Proc.devRef .tc main_v71) = E₁ := by
  have h : W15 m ρ c (Proc.devRef .tc main_v71)
      = Cert.Spec.edgeLin (F := Ideal) (W14 m ρ c (Proc.devRef .tc main_v25)) (W14 m ρ c (Proc.devRef .tc main_v67))
          (W14 m ρ c (Proc.devRef .tc main_v70)) := by
    have h := W15_arr m ρ c 3
    rw [Cert.KernelIdeal.RegVal.edge3 (V := V14 m ρ) c] at h
    exact h
  have h67 : W14 m ρ c (Proc.devRef .tc main_v67) = Wl₁ := v67_of (W13 m ρ c)
  have h70 : W14 m ρ c (Proc.devRef .tc main_v70) = Cert.Spec.asRow (F := Ideal) bl₁ := v70_of (W13 m ρ c)
  rw [h, s14 m ρ c main_v25, h67, h70]

/-! ## The messages and the aggregate -/

/-- The rows of the previous layer's output at the sorted sources. -/
theorem h72 (c : Dev nD) : W16 m ρ c (Proc.devRef .tc main_v72) = Cert.Bridge.takeRows X₁ sS₁ := by
  have h : W16 m ρ c (Proc.devRef .tc main_v72) = _ := v72_of (W15 m ρ c)
  rw [h, back_15_13 m ρ c main_v65, back_15_13 m ρ c main_v11]

/-- Those rows plus the edge lift. -/
theorem h74 (c : Dev nD) : W17 m ρ c (Proc.devRef .tc main_v74) = addf (F := Ideal) (Cert.Bridge.takeRows X₁ sS₁) E₁ := by
  have h : W17 m ρ c (Proc.devRef .tc main_v74) = _ := v74_of (W16 m ρ c)
  rw [h, h72 m ρ c, s16 m ρ c main_v71, h71 m ρ c]

/-- The messages: that sum clipped at zero. -/
theorem h75 (c : Dev nD) : W18 m ρ c (Proc.devRef .tc main_v75)
    = maximumf (F := Ideal) (addf (F := Ideal) (Cert.Bridge.takeRows X₁ sS₁) E₁)
        (broadcastInDim S600000x128 ![] Facts₀.bcast_S_S600000x128 (constant S_ .f32 0x00000000#32)) := by
  have h : W18 m ρ c (Proc.devRef .tc main_v75) = _ := v75_of (W17 m ρ c)
  rw [h, h74 m ρ c]

/-- The aggregate: the messages summed into the rows the sorted destinations name. -/
theorem h78 (c : Dev nD) : W19 m ρ c (Proc.devRef .tc main_v78) = A₁ := by
  have h : W19 m ρ c (Proc.devRef .tc main_v78) = _ := v78_of (W18 m ρ c)
  rw [h, h75 m ρ c, back_18_13 m ρ c main_v18]
  rfl

/-! ## The node network (region 4) -/

/-- Region 4 leaves the node network of the previous layer's output plus the aggregate. -/
theorem h89 (c : Dev nD) : W20 m ρ c (Proc.devRef .tc main_v89) = H₁ := by
  have h : W20 m ρ c (Proc.devRef .tc main_v89)
      = Cert.Spec.mlp (F := Ideal) (W19 m ρ c (Proc.devRef .tc main_v65)) (W19 m ρ c (Proc.devRef .tc main_v78))
          (W19 m ρ c (Proc.devRef .tc main_v80)) (W19 m ρ c (Proc.devRef .tc main_v87))
          (W19 m ρ c (Proc.devRef .tc main_v84)) (W19 m ρ c (Proc.devRef .tc main_v88)) := by
    have h := W20_arr m ρ c 6
    rw [Cert.KernelIdeal.RegVal.mlp4 (V := V19 m ρ) c] at h
    exact h
  have h80 : W19 m ρ c (Proc.devRef .tc main_v80) = _ := v80_of (W18 m ρ c)
  have h87 : W19 m ρ c (Proc.devRef .tc main_v87) = _ := v87_of (W18 m ρ c)
  have h84 : W19 m ρ c (Proc.devRef .tc main_v84) = _ := v84_of (W18 m ρ c)
  have h88 : W19 m ρ c (Proc.devRef .tc main_v88) = _ := v88_of (W18 m ρ c)
  rw [h, back_19_13 m ρ c main_v65, h78 m ρ c, h80, h87, h84, h88,
    back_18_13 m ρ c main_arg5, back_18_13 m ρ c main_arg6, back_18_13 m ρ c main_arg7, back_18_13 m ρ c main_arg8]

/-! ## The column statistics and the normalisation (region 5) -/

/-- The column means of the activations. -/
theorem h92 (c : Dev nD) : W21 m ρ c (Proc.devRef .tc main_v92) = Cert.Spec.meanOf (F := Ideal) H₁ := by
  have h : W21 m ρ c (Proc.devRef .tc main_v92) = _ := v92_of (W20 m ρ c)
  rw [h, h89 m ρ c]

/-- The column variances of the activations. -/
theorem h93 (c : Dev nD) : W22 m ρ c (Proc.devRef .tc main_v93) = Cert.Spec.varOf (F := Ideal) H₁ := by
  have h : W22 m ρ c (Proc.devRef .tc main_v93) = _ := v93_of (W21 m ρ c) (c12_of (W20 m ρ c))
  rw [h, s21 m ρ c main_v89, h89 m ρ c]

/-- The statistics' operations leave the activations alone. -/
theorem h89' (c : Dev nD) : W23 m ρ c (Proc.devRef .tc main_v89) = H₁ :=
  ((s23 m ρ c main_v89).trans ((s22 m ρ c main_v89).trans (s21 m ρ c main_v89))).trans (h89 m ρ c)

/-- The means as a row. -/
theorem h97 (c : Dev nD) : W23 m ρ c (Proc.devRef .tc main_v97)
    = Cert.Spec.asRow (F := Ideal) (Cert.Spec.meanOf (F := Ideal) H₁) := by
  have h : W23 m ρ c (Proc.devRef .tc main_v97) = _ := v97_of (W22 m ρ c)
  rw [h, s22 m ρ c main_v92, h92 m ρ c]

/-- The inverse deviations as a row. -/
theorem h98 (c : Dev nD) : W23 m ρ c (Proc.devRef .tc main_v98)
    = Cert.Spec.asRow (F := Ideal) (Cert.Spec.invStd (F := Ideal) H₁) := by
  have h : W23 m ρ c (Proc.devRef .tc main_v98) = _ := v98_of (W22 m ρ c)
  rw [h, h93 m ρ c]
  rfl

/-- The scale of layer 1 as a row. -/
theorem h101 (c : Dev nD) : W23 m ρ c (Proc.devRef .tc main_v101) = Cert.Spec.asRow (F := Ideal) g₁ := by
  have h : W23 m ρ c (Proc.devRef .tc main_v101) = _ := v101_of (W22 m ρ c)
  rw [h, back_22_13 m ρ c main_arg9]

/-- The shift of layer 1 as a row. -/
theorem h104 (c : Dev nD) : W23 m ρ c (Proc.devRef .tc main_v104) = Cert.Spec.asRow (F := Ideal) bt₁ := by
  have h : W23 m ρ c (Proc.devRef .tc main_v104) = _ := v104_of (W22 m ρ c)
  rw [h, back_22_13 m ρ c main_arg10]

/-- The layer's output. -/
theorem layer (c : Dev nD) :
    W24 m ρ c (Proc.devRef .tc main_v105)
      = Cert.Bridge.layerSorted (W13 m ρ c (Proc.devRef .tc main_v65)) (W13 m ρ c (Proc.devRef .tc main_v11)) (W13 m ρ c (Proc.devRef .tc main_v18)) (W13 m ρ c (Proc.devRef .tc main_v25))
        (shapeCast S32x128 (extractStridedSlice S1x32x128 ![1, 0, 0] (W13 m ρ c (Proc.devRef .tc main_arg3)) Facts₀.slices_S3x32x128_S1x32x128_1_0_0) Facts₀.shapeCasts_S1x32x128_S32x128)
        (shapeCast S128 (extractStridedSlice S1x128 ![1, 0] (W13 m ρ c (Proc.devRef .tc main_arg4)) Facts₀.slices_S3x128_S1x128_1_0) Facts₀.shapeCasts_S1x128_S128)
        (shapeCast S128x128 (extractStridedSlice S1x128x128 ![1, 0, 0] (W13 m ρ c (Proc.devRef .tc main_arg5)) Facts₀.slices_S3x128x128_S1x128x128_1_0_0) Facts₀.shapeCasts_S1x128x128_S128x128)
        (shapeCast S128 (extractStridedSlice S1x128 ![1, 0] (W13 m ρ c (Proc.devRef .tc main_arg6)) Facts₀.slices_S3x128_S1x128_1_0) Facts₀.shapeCasts_S1x128_S128)
        (shapeCast S128x128 (extractStridedSlice S1x128x128 ![1, 0, 0] (W13 m ρ c (Proc.devRef .tc main_arg7)) Facts₀.slices_S3x128x128_S1x128x128_1_0_0) Facts₀.shapeCasts_S1x128x128_S128x128)
        (shapeCast S128 (extractStridedSlice S1x128 ![1, 0] (W13 m ρ c (Proc.devRef .tc main_arg8)) Facts₀.slices_S3x128_S1x128_1_0) Facts₀.shapeCasts_S1x128_S128)
        (shapeCast S128 (extractStridedSlice S1x128 ![1, 0] (W13 m ρ c (Proc.devRef .tc main_arg9)) Facts₀.slices_S3x128_S1x128_1_0) Facts₀.shapeCasts_S1x128_S128)
        (shapeCast S128 (extractStridedSlice S1x128 ![1, 0] (W13 m ρ c (Proc.devRef .tc main_arg10)) Facts₀.slices_S3x128_S1x128_1_0) Facts₀.shapeCasts_S1x128_S128) := by
  have h : W24 m ρ c (Proc.devRef .tc main_v105)
      = Cert.Spec.bnRelu (F := Ideal) (W23 m ρ c (Proc.devRef .tc main_v89)) (W23 m ρ c (Proc.devRef .tc main_v97))
          (W23 m ρ c (Proc.devRef .tc main_v98)) (W23 m ρ c (Proc.devRef .tc main_v101))
          (W23 m ρ c (Proc.devRef .tc main_v104)) := by
    have h := W24_arr m ρ c 5
    rw [Cert.KernelIdeal.RegVal.bn5 (V := V23 m ρ) c] at h
    exact h
  rw [h, h89' m ρ c, h97 m ρ c, h98 m ρ c, h101 m ρ c, h104 m ρ c]
  rfl

end L1

/-! # The layer's facts -/

/-- Layer 1 does not write main_v11. -/
theorem keep1_v11 (c : Dev nD) : W24 m ρ c (Proc.devRef .tc main_v11) = W13 m ρ c (Proc.devRef .tc main_v11) :=
  L1.keep_v11 m ρ c
/-- Layer 1 does not write main_v18. -/
theorem keep1_v18 (c : Dev nD) : W24 m ρ c (Proc.devRef .tc main_v18) = W13 m ρ c (Proc.devRef .tc main_v18) :=
  L1.keep_v18 m ρ c
/-- Layer 1 does not write main_v25. -/
theorem keep1_v25 (c : Dev nD) : W24 m ρ c (Proc.devRef .tc main_v25) = W13 m ρ c (Proc.devRef .tc main_v25) :=
  L1.keep_v25 m ρ c
/-- Layer 1 does not write main_arg3. -/
theorem keep1_arg3 (c : Dev nD) : W24 m ρ c (Proc.devRef .tc main_arg3) = W13 m ρ c (Proc.devRef .tc main_arg3) :=
  L1.keep_arg3 m ρ c
/-- Layer 1 does not write main_arg4. -/
theorem keep1_arg4 (c : Dev nD) : W24 m ρ c (Proc.devRef .tc main_arg4) = W13 m ρ c (Proc.devRef .tc main_arg4) :=
  L1.keep_arg4 m ρ c
/-- Layer 1 does not write main_arg5. -/
theorem keep1_arg5 (c : Dev nD) : W24 m ρ c (Proc.devRef .tc main_arg5) = W13 m ρ c (Proc.devRef .tc main_arg5) :=
  L1.keep_arg5 m ρ c
/-- Layer 1 does not write main_arg6. -/
theorem keep1_arg6 (c : Dev nD) : W24 m ρ c (Proc.devRef .tc main_arg6) = W13 m ρ c (Proc.devRef .tc main_arg6) :=
  L1.keep_arg6 m ρ c
/-- Layer 1 does not write main_arg7. -/
theorem keep1_arg7 (c : Dev nD) : W24 m ρ c (Proc.devRef .tc main_arg7) = W13 m ρ c (Proc.devRef .tc main_arg7) :=
  L1.keep_arg7 m ρ c
/-- Layer 1 does not write main_arg8. -/
theorem keep1_arg8 (c : Dev nD) : W24 m ρ c (Proc.devRef .tc main_arg8) = W13 m ρ c (Proc.devRef .tc main_arg8) :=
  L1.keep_arg8 m ρ c
/-- Layer 1 does not write main_arg9. -/
theorem keep1_arg9 (c : Dev nD) : W24 m ρ c (Proc.devRef .tc main_arg9) = W13 m ρ c (Proc.devRef .tc main_arg9) :=
  L1.keep_arg9 m ρ c
/-- Layer 1 does not write main_arg10. -/
theorem keep1_arg10 (c : Dev nD) : W24 m ρ c (Proc.devRef .tc main_arg10) = W13 m ρ c (Proc.devRef .tc main_arg10) :=
  L1.keep_arg10 m ρ c

/-- Layer 1's output. -/
theorem layer1 (c : Dev nD) :
    W24 m ρ c (Proc.devRef .tc main_v105)
      = Cert.Bridge.layerSorted (W13 m ρ c (Proc.devRef .tc main_v65)) (W13 m ρ c (Proc.devRef .tc main_v11)) (W13 m ρ c (Proc.devRef .tc main_v18)) (W13 m ρ c (Proc.devRef .tc main_v25))
        (shapeCast S32x128 (extractStridedSlice S1x32x128 ![1, 0, 0] (W13 m ρ c (Proc.devRef .tc main_arg3)) Facts₀.slices_S3x32x128_S1x32x128_1_0_0) Facts₀.shapeCasts_S1x32x128_S32x128)
        (shapeCast S128 (extractStridedSlice S1x128 ![1, 0] (W13 m ρ c (Proc.devRef .tc main_arg4)) Facts₀.slices_S3x128_S1x128_1_0) Facts₀.shapeCasts_S1x128_S128)
        (shapeCast S128x128 (extractStridedSlice S1x128x128 ![1, 0, 0] (W13 m ρ c (Proc.devRef .tc main_arg5)) Facts₀.slices_S3x128x128_S1x128x128_1_0_0) Facts₀.shapeCasts_S1x128x128_S128x128)
        (shapeCast S128 (extractStridedSlice S1x128 ![1, 0] (W13 m ρ c (Proc.devRef .tc main_arg6)) Facts₀.slices_S3x128_S1x128_1_0) Facts₀.shapeCasts_S1x128_S128)
        (shapeCast S128x128 (extractStridedSlice S1x128x128 ![1, 0, 0] (W13 m ρ c (Proc.devRef .tc main_arg7)) Facts₀.slices_S3x128x128_S1x128x128_1_0_0) Facts₀.shapeCasts_S1x128x128_S128x128)
        (shapeCast S128 (extractStridedSlice S1x128 ![1, 0] (W13 m ρ c (Proc.devRef .tc main_arg8)) Facts₀.slices_S3x128_S1x128_1_0) Facts₀.shapeCasts_S1x128_S128)
        (shapeCast S128 (extractStridedSlice S1x128 ![1, 0] (W13 m ρ c (Proc.devRef .tc main_arg9)) Facts₀.slices_S3x128_S1x128_1_0) Facts₀.shapeCasts_S1x128_S128)
        (shapeCast S128 (extractStridedSlice S1x128 ![1, 0] (W13 m ρ c (Proc.devRef .tc main_arg10)) Facts₀.slices_S3x128_S1x128_1_0) Facts₀.shapeCasts_S1x128_S128) :=
  L1.layer m ρ c

end Cert.KernelIdeal.KL

end
-- ==== Proof.KL2.lean ====
/-
  Layer 2 of the kernel, read off the run's boundary contents: its output at its end boundary is the kernel's layer function of what its start boundary holds (the previous layer's output, the sorted edge arrays, the stacked weights), and it writes none of the sorted arrays or arguments.

  The layer runs from the end of the previous layer's normalisation to the end of its own: the weight slices and the
  edge lift (one region), the take at the sorted sources, the sum with the widened lift, the clip at zero and the
  scatter-sum at the sorted destinations, the node network (one region), the column means, variances and inverse
  deviations, and the normalisation (one region). Each host stretch is read as a function of the contents it starts
  from, each region through what it leaves in its output array, and the pieces are joined boundary by boundary.
-/
import proofs.«418803_j51642686767905_2_alg».proof.Proof.Gen.KernelIdeal.Frame
import proofs.«418803_j51642686767905_2_alg».proof.Proof.Bridge
import proofs.«418803_j51642686767905_2_alg».proof.Proof.RegEdge
import proofs.«418803_j51642686767905_2_alg».proof.Proof.RegMlp
import proofs.«418803_j51642686767905_2_alg».proof.Proof.RegBn
import proofs.«418803_j51642686767905_2_alg».proof.Proof.Gen.ReferenceIdeal
import Idealize.ShloMosaic.Lib.StableHlo.Run

set_option maxRecDepth 16384

noncomputable section

namespace Cert.KernelIdeal.KL

open Idealize.ShloMosaic Idealize.ShloMosaic.TcCoe
open Cert.KernelIdeal Cert.KernelIdeal.Gen

variable (m : (ℓ : Loc nD τ sig) → Buf (Elt Ideal) ℓ) (ρ : Dev nD → PrngReg)

/-! ## What each host stretch of layer 2 writes: its operations' results, in order -/

abbrev res6 : List (Ref sig .tc) := [main_v106, main_v107, main_v108, main_v109, main_v110]
abbrev res7 : List (Ref sig .tc) :=
  [main_call7_c, main_call7_v0, main_call7_v1, main_call7_c_0, main_call7_v2, main_call7_v3, main_call7_v4, main_call7_v5,
   main_call7_c_1, main_call7_c_2, main_call7_v6, main_call7_v7, main_call7_v8, main_call7_v9, main_call7_v10, main_call7_v11,
   main_call7_c_3, main_call7_v12, main_call7_v13, main_call7_v14, main_call7_cst, main_call7_v15, main_v112]
abbrev res7_1 : List (Ref sig .tc) := [main_v113, main_v114]
abbrev res7_2 : List (Ref sig .tc) := [main_call8_cst, main_call8_v0, main_v115]
abbrev res7_3 : List (Ref sig .tc) :=
  [main_cst_14, main_v116, main_v117, main_v118, main_v119, main_v120, main_v121, main_v122, main_v123, main_v124, main_v125,
   main_v126, main_v127, main_v128]
abbrev res8 : List (Ref sig .tc) := [main_cst_15, main_v130, main_cst_16, main_v131, main_v132, main_c_17]
abbrev res8_1 : List (Ref sig .tc) :=
  [main_call9_cst, main_call9_v0, main_call9_v1, main_call9_cst_0, main_call9_v2, main_call9_v3, main_call9_v4, main_call9_v5,
   main_call9_v6, main_call9_v7, main_call9_cst_1, main_call9_v8, main_call9_cst_2, main_call9_v9, main_call9_v10, main_call9_v11,
   main_call9_cst_3, main_call9_v12, main_call9_cst_4, main_call9_call0_v0, main_call9_call0_v1, main_v133]
abbrev res8_2 : List (Ref sig .tc) :=
  [main_cst_18, main_v134, main_v135, main_v136, main_v137, main_v138, main_v139, main_v140, main_v141, main_v142, main_v143,
   main_v144]

/-- Every operation of a stretch writes one buffer of the stretch's list: the goal left once the stretch and the
    operations' written sets are spelled out. -/
macro "writes_in_list" : tactic =>
  `(tactic| (repeat' apply And.intro
             all_goals (rw [Finset.singleton_subset_iff, List.mem_toFinset]; exact List.mem_map.mpr ⟨_, by decide, rfl⟩)))

/-! ## A buffer outside a stretch's results is, after the stretch, what it was before -/

theorem keepH6 (V : Valuation τ sig (Elt Ideal)) (b : Ref sig .tc) (hb : b ∉ res6) :
    StableHlo.after hostOps6 V (Proc.devRef .tc b) = V (Proc.devRef .tc b) :=
  StableHlo.after_of_writes_sub (W := res6) hostOps6 V (by
    simp only [hostOps6, List.Forall, StableHlo.unary_writes, StableHlo.reshape_writes]
    writes_in_list) hb
theorem keepH7 (V : Valuation τ sig (Elt Ideal)) (b : Ref sig .tc) (hb : b ∉ res7) :
    StableHlo.after hostOps7 V (Proc.devRef .tc b) = V (Proc.devRef .tc b) :=
  StableHlo.after_of_writes_sub (W := res7) hostOps7 V (by
    simp only [hostOps7, List.Forall, StableHlo.nullary_writes, StableHlo.unary_writes, StableHlo.binary_writes, StableHlo.ternary_writes]
    writes_in_list) hb
theorem keepH7_1 (V : Valuation τ sig (Elt Ideal)) (b : Ref sig .tc) (hb : b ∉ res7_1) :
    StableHlo.after hostOps7_1 V (Proc.devRef .tc b) = V (Proc.devRef .tc b) :=
  StableHlo.after_of_writes_sub (W := res7_1) hostOps7_1 V (by
    simp only [hostOps7_1, List.Forall, StableHlo.unary_writes, StableHlo.binary_writes]
    writes_in_list) hb
theorem keepH7_2 (V : Valuation τ sig (Elt Ideal)) (b : Ref sig .tc) (hb : b ∉ res7_2) :
    StableHlo.after hostOps7_2 V (Proc.devRef .tc b) = V (Proc.devRef .tc b) :=
  StableHlo.after_of_writes_sub (W := res7_2) hostOps7_2 V (by
    simp only [hostOps7_2, List.Forall, StableHlo.nullary_writes, StableHlo.unary_writes, StableHlo.binary_writes]
    writes_in_list) hb
theorem keepH7_3 (V : Valuation τ sig (Elt Ideal)) (b : Ref sig .tc) (hb : b ∉ res7_3) :
    StableHlo.after hostOps7_3 V (Proc.devRef .tc b) = V (Proc.devRef .tc b) :=
  StableHlo.after_of_writes_sub (W := res7_3) hostOps7_3 V (by
    simp only [hostOps7_3, List.Forall, StableHlo.nullary_writes, StableHlo.unary_writes, StableHlo.ternary_writes, StableHlo.reshape_writes]
    writes_in_list) hb
theorem keepH8 (V : Valuation τ sig (Elt Ideal)) (b : Ref sig .tc) (hb : b ∉ res8) :
    StableHlo.after hostOps8 V (Proc.devRef .tc b) = V (Proc.devRef .tc b) :=
  StableHlo.after_of_writes_sub (W := res8) hostOps8 V (by
    simp only [hostOps8, List.Forall, StableHlo.nullary_writes, StableHlo.unary_writes, StableHlo.binary_writes]
    writes_in_list) hb
theorem keepH8_1 (V : Valuation τ sig (Elt Ideal)) (b : Ref sig .tc) (hb : b ∉ res8_1) :
    StableHlo.after hostOps8_1 V (Proc.devRef .tc b) = V (Proc.devRef .tc b) :=
  StableHlo.after_of_writes_sub (W := res8_1) hostOps8_1 V (by
    simp only [hostOps8_1, List.Forall, StableHlo.nullary_writes, StableHlo.unary_writes, StableHlo.binary_writes, StableHlo.ternary_writes]
    writes_in_list) hb
theorem keepH8_2 (V : Valuation τ sig (Elt Ideal)) (b : Ref sig .tc) (hb : b ∉ res8_2) :
    StableHlo.after hostOps8_2 V (Proc.devRef .tc b) = V (Proc.devRef .tc b) :=
  StableHlo.after_of_writes_sub (W := res8_2) hostOps8_2 V (by
    simp only [hostOps8_2, List.Forall, StableHlo.nullary_writes, StableHlo.unary_writes, StableHlo.binary_writes, StableHlo.reshape_writes]
    writes_in_list) hb

/-! ## From a later boundary of layer 2 back to its start, for a buffer nothing in between writes -/

theorem to24_25 (c : Dev nD) (b : Ref sig .tc) (h6 : b ∉ res6) :
    W25 m ρ c (Proc.devRef .tc b) = W24 m ρ c (Proc.devRef .tc b) := keepH6 _ b h6
theorem to24_26 (c : Dev nD) (b : Ref sig .tc) (h6 : b ∉ res6) (a6 : ∀ w, Pipeline.arrRef spec6 w ≠ b) :
    W26 m ρ c (Proc.devRef .tc b) = W24 m ρ c (Proc.devRef .tc b) :=
  (W26_of_ne m ρ c b a6).trans (to24_25 m ρ c b h6)
theorem to24_27 (c : Dev nD) (b : Ref sig .tc) (h6 : b ∉ res6) (a6 : ∀ w, Pipeline.arrRef spec6 w ≠ b) (h7 : b ∉ res7) :
    W27 m ρ c (Proc.devRef .tc b) = W24 m ρ c (Proc.devRef .tc b) :=
  (keepH7 _ b h7).trans (to24_26 m ρ c b h6 a6)
theorem to24_28 (c : Dev nD) (b : Ref sig .tc) (h6 : b ∉ res6) (a6 : ∀ w, Pipeline.arrRef spec6 w ≠ b) (h7 : b ∉ res7)
    (h7_1 : b ∉ res7_1) :
    W28 m ρ c (Proc.devRef .tc b) = W24 m ρ c (Proc.devRef .tc b) :=
  (keepH7_1 _ b h7_1).trans (to24_27 m ρ c b h6 a6 h7)
theorem to24_29 (c : Dev nD) (b : Ref sig .tc) (h6 : b ∉ res6) (a6 : ∀ w, Pipeline.arrRef spec6 w ≠ b) (h7 : b ∉ res7)
    (h7_1 : b ∉ res7_1) (h7_2 : b ∉ res7_2) :
    W29 m ρ c (Proc.devRef .tc b) = W24 m ρ c (Proc.devRef .tc b) :=
  (keepH7_2 _ b h7_2).trans (to24_28 m ρ c b h6 a6 h7 h7_1)
theorem to24_30 (c : Dev nD) (b : Ref sig .tc) (h6 : b ∉ res6) (a6 : ∀ w, Pipeline.arrRef spec6 w ≠ b) (h7 : b ∉ res7)
    (h7_1 : b ∉ res7_1) (h7_2 : b ∉ res7_2) (h7_3 : b ∉ res7_3) :
    W30 m ρ c (Proc.devRef .tc b) = W24 m ρ c (Proc.devRef .tc b) :=
  (keepH7_3 _ b h7_3).trans (to24_29 m ρ c b h6 a6 h7 h7_1 h7_2)
theorem to24_33 (c : Dev nD) (b : Ref sig .tc) (h6 : b ∉ res6) (a6 : ∀ w, Pipeline.arrRef spec6 w ≠ b) (h7 : b ∉ res7)
    (h7_1 : b ∉ res7_1) (h7_2 : b ∉ res7_2) (h7_3 : b ∉ res7_3) (a7 : ∀ w, Pipeline.arrRef spec7 w ≠ b) (h8 : b ∉ res8)
    (h8_1 : b ∉ res8_1) :
    W33 m ρ c (Proc.devRef .tc b) = W24 m ρ c (Proc.devRef .tc b) :=
  (keepH8_1 _ b h8_1).trans ((keepH8 _ b h8).trans ((W31_of_ne m ρ c b a7).trans (to24_30 m ρ c b h6 a6 h7 h7_1 h7_2 h7_3)))
theorem to24_35 (c : Dev nD) (b : Ref sig .tc) (h6 : b ∉ res6) (a6 : ∀ w, Pipeline.arrRef spec6 w ≠ b) (h7 : b ∉ res7)
    (h7_1 : b ∉ res7_1) (h7_2 : b ∉ res7_2) (h7_3 : b ∉ res7_3) (a7 : ∀ w, Pipeline.arrRef spec7 w ≠ b) (h8 : b ∉ res8)
    (h8_1 : b ∉ res8_1) (h8_2 : b ∉ res8_2) (a8 : ∀ w, Pipeline.arrRef spec8 w ≠ b) :
    W35 m ρ c (Proc.devRef .tc b) = W24 m ρ c (Proc.devRef .tc b) :=
  (W35_of_ne m ρ c b a8).trans ((keepH8_2 _ b h8_2).trans (to24_33 m ρ c b h6 a6 h7 h7_1 h7_2 h7_3 a7 h8 h8_1))

/-! ## The sorted arrays and the stacked weights pass through layer 2 -/

/-- Layer 2 does not write main_v11. -/
theorem keep2_v11 (c : Dev nD) : W35 m ρ c (Proc.devRef .tc main_v11) = W24 m ρ c (Proc.devRef .tc main_v11) :=
  to24_35 m ρ c main_v11 (by decide) (by decide) (by decide) (by decide) (by decide) (by decide) (by decide) (by decide)
    (by decide) (by decide) (by decide)
/-- Layer 2 does not write main_v18. -/
theorem keep2_v18 (c : Dev nD) : W35 m ρ c (Proc.devRef .tc main_v18) = W24 m ρ c (Proc.devRef .tc main_v18) :=
  to24_35 m ρ c main_v18 (by decide) (by decide) (by decide) (by decide) (by decide) (by decide) (by decide) (by decide)
    (by decide) (by decide) (by decide)
/-- Layer 2 does not write main_v25: region 6 reads it through an input window, whose array ends as it entered. -/
theorem keep2_v25 (c : Dev nD) : W35 m ρ c (Proc.devRef .tc main_v25) = W24 m ρ c (Proc.devRef .tc main_v25) :=
  calc W35 m ρ c (Proc.devRef .tc main_v25)
    _ = W34 m ρ c (Proc.devRef .tc main_v25) := W35_of_ne m ρ c main_v25 (by decide)
    _ = W33 m ρ c (Proc.devRef .tc main_v25) := keepH8_2 _ main_v25 (by decide)
    _ = W32 m ρ c (Proc.devRef .tc main_v25) := keepH8_1 _ main_v25 (by decide)
    _ = W31 m ρ c (Proc.devRef .tc main_v25) := keepH8 _ main_v25 (by decide)
    _ = W30 m ρ c (Proc.devRef .tc main_v25) := W31_of_ne m ρ c main_v25 (by decide)
    _ = W29 m ρ c (Proc.devRef .tc main_v25) := keepH7_3 _ main_v25 (by decide)
    _ = W28 m ρ c (Proc.devRef .tc main_v25) := keepH7_2 _ main_v25 (by decide)
    _ = W27 m ρ c (Proc.devRef .tc main_v25) := keepH7_1 _ main_v25 (by decide)
    _ = W26 m ρ c (Proc.devRef .tc main_v25) := keepH7 _ main_v25 (by decide)
    _ = W25 m ρ c (Proc.devRef .tc main_v25) :=
        (W26_arr m ρ c 0).trans (((dat6 (V25 m ρ) c).arrAt_in 0 rfl _).trans (A_eq6 (V25 m ρ) c 0))
    _ = W24 m ρ c (Proc.devRef .tc main_v25) := keepH6 _ main_v25 (by decide)
/-- Layer 2 does not write main_arg3. -/
theorem keep2_arg3 (c : Dev nD) : W35 m ρ c (Proc.devRef .tc main_arg3) = W24 m ρ c (Proc.devRef .tc main_arg3) :=
  to24_35 m ρ c main_arg3 (by decide) (by decide) (by decide) (by decide) (by decide) (by decide) (by decide) (by decide)
    (by decide) (by decide) (by decide)
/-- Layer 2 does not write main_arg4. -/
theorem keep2_arg4 (c : Dev nD) : W35 m ρ c (Proc.devRef .tc main_arg4) = W24 m ρ c (Proc.devRef .tc main_arg4) :=
  to24_35 m ρ c main_arg4 (by decide) (by decide) (by decide) (by decide) (by decide) (by decide) (by decide) (by decide)
    (by decide) (by decide) (by decide)
/-- Layer 2 does not write main_arg5. -/
theorem keep2_arg5 (c : Dev nD) : W35 m ρ c (Proc.devRef .tc main_arg5) = W24 m ρ c (Proc.devRef .tc main_arg5) :=
  to24_35 m ρ c main_arg5 (by decide) (by decide) (by decide) (by decide) (by decide) (by decide) (by decide) (by decide)
    (by decide) (by decide) (by decide)
/-- Layer 2 does not write main_arg6. -/
theorem keep2_arg6 (c : Dev nD) : W35 m ρ c (Proc.devRef .tc main_arg6) = W24 m ρ c (Proc.devRef .tc main_arg6) :=
  to24_35 m ρ c main_arg6 (by decide) (by decide) (by decide) (by decide) (by decide) (by decide) (by decide) (by decide)
    (by decide) (by decide) (by decide)
/-- Layer 2 does not write main_arg7. -/
theorem keep2_arg7 (c : Dev nD) : W35 m ρ c (Proc.devRef .tc main_arg7) = W24 m ρ c (Proc.devRef .tc main_arg7) :=
  to24_35 m ρ c main_arg7 (by decide) (by decide) (by decide) (by decide) (by decide) (by decide) (by decide) (by decide)
    (by decide) (by decide) (by decide)
/-- Layer 2 does not write main_arg8. -/
theorem keep2_arg8 (c : Dev nD) : W35 m ρ c (Proc.devRef .tc main_arg8) = W24 m ρ c (Proc.devRef .tc main_arg8) :=
  to24_35 m ρ c main_arg8 (by decide) (by decide) (by decide) (by decide) (by decide) (by decide) (by decide) (by decide)
    (by decide) (by decide) (by decide)
/-- Layer 2 does not write main_arg9. -/
theorem keep2_arg9 (c : Dev nD) : W35 m ρ c (Proc.devRef .tc main_arg9) = W24 m ρ c (Proc.devRef .tc main_arg9) :=
  to24_35 m ρ c main_arg9 (by decide) (by decide) (by decide) (by decide) (by decide) (by decide) (by decide) (by decide)
    (by decide) (by decide) (by decide)
/-- Layer 2 does not write main_arg10. -/
theorem keep2_arg10 (c : Dev nD) : W35 m ρ c (Proc.devRef .tc main_arg10) = W24 m ρ c (Proc.devRef .tc main_arg10) :=
  to24_35 m ρ c main_arg10 (by decide) (by decide) (by decide) (by decide) (by decide) (by decide) (by decide) (by decide)
    (by decide) (by decide) (by decide)

/-! ## What the start boundary holds, and the layer's values built from it -/

/-- The previous layer's output. -/
abbrev inX (c : Dev nD) : FVec Ideal S50000x128 .f32 := W24 m ρ c (Proc.devRef .tc main_v105)
/-- The source indices in sorted order. -/
abbrev inS (c : Dev nD) : IVec S600000 32 := W24 m ρ c (Proc.devRef .tc main_v11)
/-- The destination indices in sorted order. -/
abbrev inD (c : Dev nD) : IVec S600000 32 := W24 m ρ c (Proc.devRef .tc main_v18)
/-- The edge features' rows in sorted order. -/
abbrev inE (c : Dev nD) : FVec Ideal S600000x32 .f32 := W24 m ρ c (Proc.devRef .tc main_v25)
/-- Slice 2 of a stacked [3,128] weight, the unit axis dropped. -/
abbrev vec2 (a : FVec Ideal S3x128 .f32) : FVec Ideal S128 .f32 :=
  shapeCast S128 (extractStridedSlice S1x128 ![2, 0] a Facts₀.slices_S3x128_S1x128_2_0) Facts₀.shapeCasts_S1x128_S128
/-- Slice 2 of a stacked [3,128,128] weight, the unit axis dropped. -/
abbrev mat2 (a : FVec Ideal S3x128x128 .f32) : FVec Ideal S128x128 .f32 :=
  shapeCast S128x128 (extractStridedSlice S1x128x128 ![2, 0, 0] a Facts₀.slices_S3x128x128_S1x128x128_2_0_0) Facts₀.shapeCasts_S1x128x128_S128x128
/-- Slice 2 of the stacked [3,32,128] weight, the unit axis dropped. -/
abbrev lift2 (a : FVec Ideal S3x32x128 .f32) : FVec Ideal S32x128 .f32 :=
  shapeCast S32x128 (extractStridedSlice S1x32x128 ![2, 0, 0] a Facts₀.slices_S3x32x128_S1x32x128_2_0_0) Facts₀.shapeCasts_S1x32x128_S32x128
/-- The edge lift's weight and bias. -/
abbrev inWl (c : Dev nD) : FVec Ideal S32x128 .f32 := lift2 (W24 m ρ c (Proc.devRef .tc main_arg3))
abbrev inBl (c : Dev nD) : FVec Ideal S128 .f32 := vec2 (W24 m ρ c (Proc.devRef .tc main_arg4))
/-- The node network's first weight and bias, second weight and bias. -/
abbrev inW1 (c : Dev nD) : FVec Ideal S128x128 .f32 := mat2 (W24 m ρ c (Proc.devRef .tc main_arg5))
abbrev inB1 (c : Dev nD) : FVec Ideal S128 .f32 := vec2 (W24 m ρ c (Proc.devRef .tc main_arg6))
abbrev inW2 (c : Dev nD) : FVec Ideal S128x128 .f32 := mat2 (W24 m ρ c (Proc.devRef .tc main_arg7))
abbrev inB2 (c : Dev nD) : FVec Ideal S128 .f32 := vec2 (W24 m ρ c (Proc.devRef .tc main_arg8))
/-- The normalisation's scale and shift. -/
abbrev inG (c : Dev nD) : FVec Ideal S128 .f32 := vec2 (W24 m ρ c (Proc.devRef .tc main_arg9))
abbrev inBt (c : Dev nD) : FVec Ideal S128 .f32 := vec2 (W24 m ρ c (Proc.devRef .tc main_arg10))

/-- The lifted edge features, one row per sorted edge. -/
abbrev valE (c : Dev nD) : FVec Ideal S600000x128 .f32 :=
  Cert.Spec.edgeLin (inE m ρ c) (inWl m ρ c) (Cert.Spec.asRow (inBl m ρ c))
/-- The aggregate over the sorted edges. -/
abbrev valA (c : Dev nD) : FVec Ideal S50000x128 .f32 :=
  Cert.Bridge.aggSorted (inX m ρ c) (inS m ρ c) (inD m ρ c) (valE m ρ c)
/-- The node network's output. -/
abbrev valH (c : Dev nD) : FVec Ideal S50000x128 .f32 :=
  Cert.Spec.mlp (inX m ρ c) (valA m ρ c) (inW1 m ρ c) (Cert.Spec.asRow (inB1 m ρ c)) (inW2 m ρ c) (Cert.Spec.asRow (inB2 m ρ c))

/-- Widening is the identity on extended reals. -/
theorem extf_ideal {s : Shape} {φ : FTy} (ψ : FTy) (x : FVec Ideal s φ) (h : φ.bits < ψ.bits) : extf ψ x h = x := rfl

/-! ## Each host stretch as a function of what it starts from

For any contents `V` at a stretch's start: the stretch's result buffers as the specification's functions of `V` at the
stretch's operands. -/

section Stretch

variable (V : Valuation τ sig (Elt Ideal))

/-- The edge lift's weight: slice 2 of the stacked one. -/
theorem g107 : StableHlo.after hostOps6 V (Proc.devRef .tc main_v107) = lift2 (V (Proc.devRef .tc main_arg3)) := by
  simp only [hostOps6]
  after_results
  rfl

/-- The edge lift's bias row: slice 2 of the stacked bias, as a row. -/
theorem g110 : StableHlo.after hostOps6 V (Proc.devRef .tc main_v110) = Cert.Spec.asRow (vec2 (V (Proc.devRef .tc main_arg4))) := by
  simp only [hostOps6]
  after_results
  show shapeCast S1x128 (vec2 (V (Proc.devRef .tc main_arg4))) Facts₀.shapeCasts_S128_S1x128 = _
  exact Cert.Bridge.row_eq _ _

set_option maxHeartbeats 2000000 in
/-- The take: the rows of the node features at the given indices, out-of-range rows filled. -/
theorem g112 : StableHlo.after hostOps7 V (Proc.devRef .tc main_v112)
    = Cert.Bridge.takeRows (V (Proc.devRef .tc main_v105)) (V (Proc.devRef .tc main_v11)) := by
  simp only [hostOps7]
  after_results_simp
  simp only [StableHlo.TRef.ofBuf, StableHlo.TRef.toBuf, cast_eq]
  rfl

/-- The taken rows plus the lifted edge features (widening them changes nothing). -/
theorem g114 : StableHlo.after hostOps7_1 V (Proc.devRef .tc main_v114)
    = (addf (V (Proc.devRef .tc main_v112)) (V (Proc.devRef .tc main_v111)) : FVec Ideal S600000x128 .f32) := by
  simp only [hostOps7_1]
  after_results
  rw [extf_ideal]

/-- The clip at zero. -/
theorem g115 : StableHlo.after hostOps7_2 V (Proc.devRef .tc main_v115)
    = (maximumf (V (Proc.devRef .tc main_v114))
        (broadcastInDim S600000x128 ![] Facts₀.bcast_S_S600000x128 (constant S_ .f32 0x00000000#32)) : FVec Ideal S600000x128 .f32) := by
  simp only [hostOps7_2]
  after_results
  simp only [StableHlo.TRef.ofBuf, StableHlo.TRef.toBuf, cast_eq]

/-- The scatter-sum of the messages at the destinations, from zeros. -/
theorem g118 : StableHlo.after hostOps7_3 V (Proc.devRef .tc main_v118)
    = (Host.scatterAdd scatter_S50000x128_S600000x1_S600000x128_1_0_0_1
        (broadcastInDim S50000x128 ![] Facts₀.bcast_S_S50000x128 (constant S_ .f32 0x00000000#32))
        (broadcastInDim S600000x1 ![0] Facts₀.bcast_S600000_S600000x1_0 (V (Proc.devRef .tc main_v18)))
        (V (Proc.devRef .tc main_v115)) : FVec Ideal S50000x128 .f32) := by
  simp only [hostOps7_3]
  after_results

/-- The node network's weights and bias rows: slices 2 of the stacked ones. -/
theorem g120 : StableHlo.after hostOps7_3 V (Proc.devRef .tc main_v120) = mat2 (V (Proc.devRef .tc main_arg5)) := by
  simp only [hostOps7_3]
  after_results
  rfl
theorem g124 : StableHlo.after hostOps7_3 V (Proc.devRef .tc main_v124) = mat2 (V (Proc.devRef .tc main_arg7)) := by
  simp only [hostOps7_3]
  after_results
  rfl
theorem g127 : StableHlo.after hostOps7_3 V (Proc.devRef .tc main_v127) = Cert.Spec.asRow (vec2 (V (Proc.devRef .tc main_arg6))) := by
  simp only [hostOps7_3]
  after_results
  show shapeCast S1x128 (vec2 (V (Proc.devRef .tc main_arg6))) Facts₀.shapeCasts_S128_S1x128 = _
  exact Cert.Bridge.row_eq _ _
theorem g128 : StableHlo.after hostOps7_3 V (Proc.devRef .tc main_v128) = Cert.Spec.asRow (vec2 (V (Proc.devRef .tc main_arg8))) := by
  simp only [hostOps7_3]
  after_results
  show shapeCast S1x128 (vec2 (V (Proc.devRef .tc main_arg8))) Facts₀.shapeCasts_S128_S1x128 = _
  exact Cert.Bridge.row_eq _ _

/-- The column means. -/
theorem g132 : StableHlo.after hostOps8 V (Proc.devRef .tc main_v132) = Cert.Spec.meanOf (F := Ideal) (V (Proc.devRef .tc main_v129)) := by
  simp only [hostOps8]
  after_results
  rfl

/-- The degrees-of-freedom correction: none. -/
theorem gc17 : StableHlo.after hostOps8 V (Proc.devRef .tc main_c_17) = constantI S_ 32 0#32 := by
  simp only [hostOps8]
  after_results

set_option maxHeartbeats 2000000 in
/-- The column variances, with no degrees-of-freedom correction. -/
theorem g133 (hc : V (Proc.devRef .tc main_c_17) = constantI S_ 32 0#32) :
    StableHlo.after hostOps8_1 V (Proc.devRef .tc main_v133) = Cert.Spec.varOf (F := Ideal) (V (Proc.devRef .tc main_v129)) := by
  simp only [hostOps8_1]
  after_results_simp
  simp only [StableHlo.TRef.ofBuf, StableHlo.TRef.toBuf, cast_eq]
  rw [hc]
  rfl

/-- The inverse deviations' row, from the variances. -/
theorem g138 : StableHlo.after hostOps8_2 V (Proc.devRef .tc main_v138)
    = Cert.Spec.asRow (F := Ideal) (Host.rsqrt (addf (V (Proc.devRef .tc main_v133))
        (broadcastInDim S128 ![] Facts₀.bcast_S_S128 (constant S_ .f32 0x3727C5AC#32)))) := by
  simp only [hostOps8_2]
  after_results
  show shapeCast S1x128 (Host.rsqrt (F := Ideal) (addf (V (Proc.devRef .tc main_v133))
        (broadcastInDim S128 ![] Facts₀.bcast_S_S128 (constant S_ .f32 0x3727C5AC#32)))) Facts₀.shapeCasts_S128_S1x128 = _
  exact Cert.Bridge.row_eq _ _

/-- The means' row, the scale row and the shift row. -/
theorem g137 : StableHlo.after hostOps8_2 V (Proc.devRef .tc main_v137) = Cert.Spec.asRow (F := Ideal) (V (Proc.devRef .tc main_v132)) := by
  simp only [hostOps8_2]
  after_results
  show shapeCast S1x128 (V (Proc.devRef .tc main_v132) : FVec Ideal S128 .f32) Facts₀.shapeCasts_S128_S1x128 = _
  exact Cert.Bridge.row_eq _ _
theorem g141 : StableHlo.after hostOps8_2 V (Proc.devRef .tc main_v141) = Cert.Spec.asRow (vec2 (V (Proc.devRef .tc main_arg9))) := by
  simp only [hostOps8_2]
  after_results
  show shapeCast S1x128 (vec2 (V (Proc.devRef .tc main_arg9))) Facts₀.shapeCasts_S128_S1x128 = _
  exact Cert.Bridge.row_eq _ _
theorem g144 : StableHlo.after hostOps8_2 V (Proc.devRef .tc main_v144) = Cert.Spec.asRow (vec2 (V (Proc.devRef .tc main_arg10))) := by
  simp only [hostOps8_2]
  after_results
  show shapeCast S1x128 (vec2 (V (Proc.devRef .tc main_arg10))) Facts₀.shapeCasts_S128_S1x128 = _
  exact Cert.Bridge.row_eq _ _

end Stretch

/-! ## Layer 2, boundary by boundary -/

/-- Region 6's weight and bias row. -/
theorem v107 (c : Dev nD) : W25 m ρ c (Proc.devRef .tc main_v107) = inWl m ρ c := g107 (W24 m ρ c)
theorem v110 (c : Dev nD) : W25 m ρ c (Proc.devRef .tc main_v110) = Cert.Spec.asRow (inBl m ρ c) := g110 (W24 m ρ c)

/-- Region 6 leaves the lifted edge features. -/
theorem v111 (c : Dev nD) : W26 m ρ c (Proc.devRef .tc main_v111) = valE m ρ c := by
  refine (W26_arr m ρ c 3).trans ((Cert.KernelIdeal.RegVal.edge6 (V := V25 m ρ) c).trans ?_)
  show (fun i => Cert.Spec.edgeLin (F := Ideal) (W25 m ρ c (Proc.devRef .tc main_v25)) (W25 m ρ c (Proc.devRef .tc main_v107))
      (W25 m ρ c (Proc.devRef .tc main_v110)) i) = _
  rw [to24_25 m ρ c main_v25 (by decide), v107 m ρ c, v110 m ρ c]

/-- The rows of the previous layer's output at the sorted sources. -/
theorem v112 (c : Dev nD) : W27 m ρ c (Proc.devRef .tc main_v112) = Cert.Bridge.takeRows (inX m ρ c) (inS m ρ c) := by
  refine (g112 (W26 m ρ c)).trans ?_
  rw [to24_26 m ρ c main_v105 (by decide) (by decide), to24_26 m ρ c main_v11 (by decide) (by decide)]

/-- The lifted edge features are still there after the take. -/
theorem v111_27 (c : Dev nD) : W27 m ρ c (Proc.devRef .tc main_v111) = valE m ρ c :=
  (keepH7 _ main_v111 (by decide)).trans (v111 m ρ c)

/-- The taken rows plus the lifted edge features. -/
theorem v114 (c : Dev nD) :
    W28 m ρ c (Proc.devRef .tc main_v114) = addf (Cert.Bridge.takeRows (inX m ρ c) (inS m ρ c)) (valE m ρ c) := by
  refine (g114 (W27 m ρ c)).trans ?_
  rw [v112 m ρ c, v111_27 m ρ c]

/-- The messages: that sum clipped at zero. -/
theorem v115 (c : Dev nD) :
    W29 m ρ c (Proc.devRef .tc main_v115)
      = maximumf (addf (Cert.Bridge.takeRows (inX m ρ c) (inS m ρ c)) (valE m ρ c))
          (broadcastInDim S600000x128 ![] Facts₀.bcast_S_S600000x128 (constant S_ .f32 0x00000000#32)) := by
  refine (g115 (W28 m ρ c)).trans ?_
  rw [v114 m ρ c]

/-- The aggregate: the messages summed into the rows their sorted destinations name. -/
theorem v118 (c : Dev nD) : W30 m ρ c (Proc.devRef .tc main_v118) = valA m ρ c := by
  refine (g118 (W29 m ρ c)).trans ?_
  rw [v115 m ρ c, to24_29 m ρ c main_v18 (by decide) (by decide) (by decide) (by decide) (by decide)]
  rfl

/-- Region 7's weights and bias rows. -/
theorem v120 (c : Dev nD) : W30 m ρ c (Proc.devRef .tc main_v120) = inW1 m ρ c := by
  refine (g120 (W29 m ρ c)).trans ?_
  rw [to24_29 m ρ c main_arg5 (by decide) (by decide) (by decide) (by decide) (by decide)]
theorem v124 (c : Dev nD) : W30 m ρ c (Proc.devRef .tc main_v124) = inW2 m ρ c := by
  refine (g124 (W29 m ρ c)).trans ?_
  rw [to24_29 m ρ c main_arg7 (by decide) (by decide) (by decide) (by decide) (by decide)]
theorem v127 (c : Dev nD) : W30 m ρ c (Proc.devRef .tc main_v127) = Cert.Spec.asRow (inB1 m ρ c) := by
  refine (g127 (W29 m ρ c)).trans ?_
  rw [to24_29 m ρ c main_arg6 (by decide) (by decide) (by decide) (by decide) (by decide)]
theorem v128 (c : Dev nD) : W30 m ρ c (Proc.devRef .tc main_v128) = Cert.Spec.asRow (inB2 m ρ c) := by
  refine (g128 (W29 m ρ c)).trans ?_
  rw [to24_29 m ρ c main_arg8 (by decide) (by decide) (by decide) (by decide) (by decide)]

/-- Region 7 leaves the node network's output. -/
theorem v129 (c : Dev nD) : W31 m ρ c (Proc.devRef .tc main_v129) = valH m ρ c := by
  refine (W31_arr m ρ c 6).trans ((Cert.KernelIdeal.RegVal.mlp7 (V := V30 m ρ) c).trans ?_)
  show (fun i => Cert.Spec.mlp (F := Ideal) (W30 m ρ c (Proc.devRef .tc main_v105)) (W30 m ρ c (Proc.devRef .tc main_v118))
      (W30 m ρ c (Proc.devRef .tc main_v120)) (W30 m ρ c (Proc.devRef .tc main_v127))
      (W30 m ρ c (Proc.devRef .tc main_v124)) (W30 m ρ c (Proc.devRef .tc main_v128)) i) = _
  rw [to24_30 m ρ c main_v105 (by decide) (by decide) (by decide) (by decide) (by decide) (by decide), v118 m ρ c,
    v120 m ρ c, v127 m ρ c, v124 m ρ c, v128 m ρ c]

/-- The column means. -/
theorem v132 (c : Dev nD) : W32 m ρ c (Proc.devRef .tc main_v132) = Cert.Spec.meanOf (valH m ρ c) := by
  refine (g132 (W31 m ρ c)).trans ?_
  rw [v129 m ρ c]

/-- The node network's output is still there after the means. -/
theorem v129_32 (c : Dev nD) : W32 m ρ c (Proc.devRef .tc main_v129) = valH m ρ c :=
  (keepH8 _ main_v129 (by decide)).trans (v129 m ρ c)

/-- The column variances. -/
theorem v133 (c : Dev nD) : W33 m ρ c (Proc.devRef .tc main_v133) = Cert.Spec.varOf (valH m ρ c) := by
  refine (g133 (W32 m ρ c) (gc17 (W31 m ρ c))).trans ?_
  rw [v129_32 m ρ c]

/-- The means are still there after the variances. -/
theorem v132_33 (c : Dev nD) : W33 m ρ c (Proc.devRef .tc main_v132) = Cert.Spec.meanOf (valH m ρ c) :=
  (keepH8_1 _ main_v132 (by decide)).trans (v132 m ρ c)

/-- Region 8's four rows: the means, the inverse deviations, the scale, the shift. -/
theorem v137 (c : Dev nD) :
    W34 m ρ c (Proc.devRef .tc main_v137) = Cert.Spec.asRow (Cert.Spec.meanOf (valH m ρ c)) := by
  refine (g137 (W33 m ρ c)).trans ?_
  rw [v132_33 m ρ c]
theorem v138 (c : Dev nD) :
    W34 m ρ c (Proc.devRef .tc main_v138) = Cert.Spec.asRow (Cert.Spec.invStd (valH m ρ c)) := by
  refine (g138 (W33 m ρ c)).trans ?_
  rw [v133 m ρ c]
  rfl
theorem v141 (c : Dev nD) : W34 m ρ c (Proc.devRef .tc main_v141) = Cert.Spec.asRow (inG m ρ c) := by
  refine (g141 (W33 m ρ c)).trans ?_
  rw [to24_33 m ρ c main_arg9 (by decide) (by decide) (by decide) (by decide) (by decide) (by decide) (by decide) (by decide)
    (by decide)]
theorem v144 (c : Dev nD) : W34 m ρ c (Proc.devRef .tc main_v144) = Cert.Spec.asRow (inBt m ρ c) := by
  refine (g144 (W33 m ρ c)).trans ?_
  rw [to24_33 m ρ c main_arg10 (by decide) (by decide) (by decide) (by decide) (by decide) (by decide) (by decide) (by decide)
    (by decide)]

/-- The node network's output is still there at region 8's entry. -/
theorem v129_34 (c : Dev nD) : W34 m ρ c (Proc.devRef .tc main_v129) = valH m ρ c :=
  (keepH8_2 _ main_v129 (by decide)).trans ((keepH8_1 _ main_v129 (by decide)).trans (v129_32 m ρ c))

/-- Region 8 leaves the normalised, scaled, shifted and clipped activations. -/
theorem v145 (c : Dev nD) :
    W35 m ρ c (Proc.devRef .tc main_v145)
      = Cert.Spec.bnRelu (valH m ρ c) (Cert.Spec.asRow (Cert.Spec.meanOf (valH m ρ c)))
          (Cert.Spec.asRow (Cert.Spec.invStd (valH m ρ c))) (Cert.Spec.asRow (inG m ρ c)) (Cert.Spec.asRow (inBt m ρ c)) := by
  refine (W35_arr m ρ c 5).trans ((Cert.KernelIdeal.RegVal.bn8 (V := V34 m ρ) c).trans ?_)
  show (fun i => Cert.Spec.bnRelu (F := Ideal) (W34 m ρ c (Proc.devRef .tc main_v129)) (W34 m ρ c (Proc.devRef .tc main_v137))
      (W34 m ρ c (Proc.devRef .tc main_v138)) (W34 m ρ c (Proc.devRef .tc main_v141))
      (W34 m ρ c (Proc.devRef .tc main_v144)) i) = _
  rw [v129_34 m ρ c, v137 m ρ c, v138 m ρ c, v141 m ρ c, v144 m ρ c]

/-- Layer 2's output. -/
theorem layer2 (c : Dev nD) :
    W35 m ρ c (Proc.devRef .tc main_v145)
      = Cert.Bridge.layerSorted (W24 m ρ c (Proc.devRef .tc main_v105)) (W24 m ρ c (Proc.devRef .tc main_v11)) (W24 m ρ c (Proc.devRef .tc main_v18)) (W24 m ρ c (Proc.devRef .tc main_v25))
        (shapeCast S32x128 (extractStridedSlice S1x32x128 ![2, 0, 0] (W24 m ρ c (Proc.devRef .tc main_arg3)) Facts₀.slices_S3x32x128_S1x32x128_2_0_0) Facts₀.shapeCasts_S1x32x128_S32x128)
        (shapeCast S128 (extractStridedSlice S1x128 ![2, 0] (W24 m ρ c (Proc.devRef .tc main_arg4)) Facts₀.slices_S3x128_S1x128_2_0) Facts₀.shapeCasts_S1x128_S128)
        (shapeCast S128x128 (extractStridedSlice S1x128x128 ![2, 0, 0] (W24 m ρ c (Proc.devRef .tc main_arg5)) Facts₀.slices_S3x128x128_S1x128x128_2_0_0) Facts₀.shapeCasts_S1x128x128_S128x128)
        (shapeCast S128 (extractStridedSlice S1x128 ![2, 0] (W24 m ρ c (Proc.devRef .tc main_arg6)) Facts₀.slices_S3x128_S1x128_2_0) Facts₀.shapeCasts_S1x128_S128)
        (shapeCast S128x128 (extractStridedSlice S1x128x128 ![2, 0, 0] (W24 m ρ c (Proc.devRef .tc main_arg7)) Facts₀.slices_S3x128x128_S1x128x128_2_0_0) Facts₀.shapeCasts_S1x128x128_S128x128)
        (shapeCast S128 (extractStridedSlice S1x128 ![2, 0] (W24 m ρ c (Proc.devRef .tc main_arg8)) Facts₀.slices_S3x128_S1x128_2_0) Facts₀.shapeCasts_S1x128_S128)
        (shapeCast S128 (extractStridedSlice S1x128 ![2, 0] (W24 m ρ c (Proc.devRef .tc main_arg9)) Facts₀.slices_S3x128_S1x128_2_0) Facts₀.shapeCasts_S1x128_S128)
        (shapeCast S128 (extractStridedSlice S1x128 ![2, 0] (W24 m ρ c (Proc.devRef .tc main_arg10)) Facts₀.slices_S3x128_S1x128_2_0) Facts₀.shapeCasts_S1x128_S128) :=
  v145 m ρ c

end Cert.KernelIdeal.KL

end
-- ==== Proof.PreDecode.lean ====
/-
  The precondition read back at the source indices. The precondition is a conjunction of scalar bits: ten finiteness
  tests and, last, the bit "every entry v of row 0 of the edge-index array satisfies 0 ≤ v and v < 50000" (a signed
  comparison of each entry with the constants 0 and 50000, the two comparison masks and-ed entrywise, the result reduced
  by "and" over its one axis from the constant 1). If the whole conjunction is 1 then its last conjunct is 1; a reduction
  by "and" that came out 1 met a 1 at every entry; an entrywise "and" that is 1 has both comparison bits 1; and a signed
  comparison bit that is 1 is the inequality between the two words read as signed integers. The constants read signed are
  0 and 50000. Row 0 of the edge-index array, reshaped to a vector, is the source-index vector of the specification.
-/
import proofs.«418803_j51642686767905_2_alg».proof.Pre_finite_inputs
import proofs.«418803_j51642686767905_2_alg».proof.Proof.Spec
import Idealize.ShloMosaic.Lib.ReduceAll

noncomputable section

namespace Cert.Proof.PreDecode

open Idealize.ShloMosaic Cert.Pre_finite_inputs
open Cert.Pre_finite_inputs.Facts

/-- The scalar shape has exactly one index. -/
instance : Subsingleton S_.Idx := ⟨fun a b => funext fun d => d.elim0⟩

/-- The one index of the scalar shape. -/
def i0 : S_.Idx := fun a => a.elim0

section
variable [Cert.Pre_finite_inputs.Facts]

/-- Row 0 of the edge-index array as a vector of 600000 words. -/
def row0 (a1 : IVec S2x600000 32) : IVec S600000 32 :=
  shapeCast S600000 (extractStridedSlice S1x600000 ![0, 0] a1 slices_S2x600000_S1x600000_0_0) shapeCasts_S1x600000_S600000

/-- The entrywise range mask: (v ≥ 0) and (v < 50000), both signed. -/
def rangeMask (a1 : IVec S2x600000 32) : IVec S600000 1 :=
  andi (cmpi .sge (row0 a1) (broadcastInDim S600000 ![] bcast_S_S600000 (constantI S_ 32 0#32)))
    (cmpi .slt (row0 a1) (broadcastInDim S600000 ![] bcast_S_S600000 (constantI S_ 32 50000#32)))

/-- The last conjunct: the range mask reduced by "and" over its axis, from 1. -/
def rangeBit (a1 : IVec S2x600000 32) : IVec S_ 1 :=
  Host.reduce IntOp.andi (rangeMask a1) (constantI S_ 1 1#1) reducesTo_S600000_S_d0 h_S_

/-- The precondition is the "and" of some scalar bit (the ten finiteness tests) with the range bit. -/
theorem fn_eq_and (a0 : FVec Ideal S50000x128 .f32) (a1 : IVec S2x600000 32) (a2 : FVec Ideal S600000x32 .f32)
    (a3 : FVec Ideal S3x32x128 .f32) (a4 : FVec Ideal S3x128 .f32) (a5 : FVec Ideal S3x128x128 .f32)
    (a6 : FVec Ideal S3x128 .f32) (a7 : FVec Ideal S3x128x128 .f32) (a8 a9 a10 : FVec Ideal S3x128 .f32) :
    ∃ p : IVec S_ 1, fn (F := Ideal) a0 a1 a2 a3 a4 a5 a6 a7 a8 a9 a10 = andi p (rangeBit a1) :=
  ⟨_, rfl⟩

/-- If the precondition holds, the range bit is 1. -/
theorem rangeBit_eq_one (a0 : FVec Ideal S50000x128 .f32) (a1 : IVec S2x600000 32) (a2 : FVec Ideal S600000x32 .f32)
    (a3 : FVec Ideal S3x32x128 .f32) (a4 : FVec Ideal S3x128 .f32) (a5 : FVec Ideal S3x128x128 .f32)
    (a6 : FVec Ideal S3x128 .f32) (a7 : FVec Ideal S3x128x128 .f32) (a8 a9 a10 : FVec Ideal S3x128 .f32)
    (h : fn (F := Ideal) a0 a1 a2 a3 a4 a5 a6 a7 a8 a9 a10 = fun _ => 1#1) : rangeBit a1 i0 = 1#1 := by
  obtain ⟨p, hp⟩ := fn_eq_and a0 a1 a2 a3 a4 a5 a6 a7 a8 a9 a10
  have h0 : IntOp.andi (p i0) (rangeBit a1 i0) = 1#1 := by
    have := congrFun h i0
    rw [hp] at this
    exact this
  exact (IntOp.andi_eq_one.1 h0).2

/-- The constants of the two comparisons, read as signed integers. -/
theorem toInt_zero : (0#32 : BitVec 32).toInt = 0 := by decide
theorem toInt_bound : (50000#32 : BitVec 32).toInt = 50000 := by decide

/-- If the range bit is 1, every entry of row 0 lies in [0, 50000) as a signed integer. -/
theorem row0_in_range (a1 : IVec S2x600000 32) (h : rangeBit a1 i0 = 1#1) (e : S600000.Idx) :
    0 ≤ (row0 a1 e).toInt ∧ (row0 a1 e).toInt < 50000 := by
  have hm : rangeMask a1 e = 1#1 :=
    Host.reduce_andi_all (rangeMask a1) (constantI S_ 1 1#1) reducesTo_S600000_S_d0 h_S_ i0 h e
  have hc : IntOp.cmpi .sge (row0 a1 e) (0#32) = 1#1 ∧ IntOp.cmpi .slt (row0 a1 e) (50000#32) = 1#1 :=
    IntOp.andi_eq_one.1 hm
  have h1 := IntOp.cmpi_sge.1 hc.1
  have h2 := IntOp.cmpi_slt.1 hc.2
  rw [toInt_zero] at h1
  rw [toInt_bound] at h2
  exact ⟨h1, h2⟩

end

/-- THE SOURCE INDICES ARE IN RANGE. Under the precondition, every entry of the specification's source-index vector
    (row 0 of the edge-index array) is, read signed, at least 0 and below 50000. -/
theorem src_in_range [Cert.Pre_finite_inputs.Facts] [Cert.ReferenceIdeal.Facts]
    (a0 : FVec Ideal S50000x128 .f32) (a1 : IVec S2x600000 32) (a2 : FVec Ideal S600000x32 .f32)
    (a3 : FVec Ideal S3x32x128 .f32) (a4 : FVec Ideal S3x128 .f32) (a5 : FVec Ideal S3x128x128 .f32)
    (a6 : FVec Ideal S3x128 .f32) (a7 : FVec Ideal S3x128x128 .f32) (a8 a9 a10 : FVec Ideal S3x128 .f32)
    (h : Cert.Pre_finite_inputs.fn (F := Ideal) a0 a1 a2 a3 a4 a5 a6 a7 a8 a9 a10 = fun _ => 1#1) :
    ∀ e : Cert.ReferenceIdeal.S600000.Idx, 0 ≤ (Cert.Spec.srcOf a1 e).toInt ∧ (Cert.Spec.srcOf a1 e).toInt < 50000 :=
  fun e => row0_in_range a1 (rangeBit_eq_one a0 a1 a2 a3 a4 a5 a6 a7 a8 a9 a10 h) e

end Cert.Proof.PreDecode

end
-- ==== Proof.KVal.lean ====
/-
  The kernel's result as the specification's function of the arguments: each layer's output is the kernel's layer
  function of the previous output, the edges sorted by destination and the stacked weights' slices; the sorted arrays
  and the arguments are written nowhere after they are made; and with every source index in range the kernel's layer
  function of the sorted edges is the specification's layer of the edges as given. Three layers compose.
-/
import proofs.«418803_j51642686767905_2_alg».proof.Defs
import proofs.«418803_j51642686767905_2_alg».proof.Proof.KL0
import proofs.«418803_j51642686767905_2_alg».proof.Proof.KL1
import proofs.«418803_j51642686767905_2_alg».proof.Proof.KL2
import proofs.«418803_j51642686767905_2_alg».proof.Proof.PreDecode
import proofs.«418803_j51642686767905_2_alg».proof.Proof.Gen.Pre_finite_inputs

set_option maxRecDepth 16384

noncomputable section

namespace Cert.KernelIdeal.KVal

open Idealize.ShloMosaic Idealize.ShloMosaic.TcCoe
open Cert.KernelIdeal Cert.KernelIdeal.Gen

variable (m : (ℓ : Loc nD τ sig) → Buf (Elt Ideal) ℓ) (ρ : Dev nD → PrngReg)

/-- Layer 0's output is the specification's layer 0 of the arguments. -/
theorem out0 (hpre : Cert.Pre_KernelIdeal m) (c : Dev nD) :
    W13 m ρ c (Proc.devRef .tc main_v65) = Cert.Spec.layerAt0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hsrc := Cert.Proof.PreDecode.src_in_range _ _ _ _ _ _ _ _ _ _ _ (hpre c)
  refine (KL.layer0 m ρ c).trans ?_
  exact Cert.Bridge.layerSorted_eq _ _ _ _ _ _ _ _ _ _ _ _ hsrc

/-- Layer 1's output is the specification's layer 1 of layer 0's output and the arguments. -/
theorem out1 (hpre : Cert.Pre_KernelIdeal m) (c : Dev nD) :
    W24 m ρ c (Proc.devRef .tc main_v105)
      = Cert.Spec.layerAt1 (F := Ideal) (W13 m ρ c (Proc.devRef .tc main_v65)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hsrc := Cert.Proof.PreDecode.src_in_range _ _ _ _ _ _ _ _ _ _ _ (hpre c)
  refine (KL.layer1 m ρ c).trans ?_
  rw [KL.keep0_v11, KL.keep0_v18, KL.keep0_v25, KL.keep0_arg3, KL.keep0_arg4, KL.keep0_arg5, KL.keep0_arg6, KL.keep0_arg7,
    KL.keep0_arg8, KL.keep0_arg9, KL.keep0_arg10]
  exact Cert.Bridge.layerSorted_eq _ _ _ _ _ _ _ _ _ _ _ _ hsrc

/-- Layer 2's output is the specification's layer 2 of layer 1's output and the arguments. -/
theorem out2 (hpre : Cert.Pre_KernelIdeal m) (c : Dev nD) :
    W35 m ρ c (Proc.devRef .tc main_v145)
      = Cert.Spec.layerAt2 (F := Ideal) (W24 m ρ c (Proc.devRef .tc main_v105)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hsrc := Cert.Proof.PreDecode.src_in_range _ _ _ _ _ _ _ _ _ _ _ (hpre c)
  refine (KL.layer2 m ρ c).trans ?_
  rw [KL.keep1_v11, KL.keep1_v18, KL.keep1_v25, KL.keep1_arg3, KL.keep1_arg4, KL.keep1_arg5, KL.keep1_arg6, KL.keep1_arg7,
    KL.keep1_arg8, KL.keep1_arg9, KL.keep1_arg10,
    KL.keep0_v11, KL.keep0_v18, KL.keep0_v25, KL.keep0_arg3, KL.keep0_arg4, KL.keep0_arg5, KL.keep0_arg6, KL.keep0_arg7,
    KL.keep0_arg8, KL.keep0_arg9, KL.keep0_arg10]
  exact Cert.Bridge.layerSorted_eq _ _ _ _ _ _ _ _ _ _ _ _ hsrc

/-- The result buffer at the last boundary is the specification's network of the arguments. -/
theorem value (hpre : Cert.Pre_KernelIdeal m) (c : Dev nD) :
    W35 m ρ c (Proc.devRef .tc main_v145) = Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [out2 m ρ hpre c, out1 m ρ hpre c, out0 m ρ hpre c]
  rfl

end Cert.KernelIdeal.KVal

end
-- ==== Proof.RefOps.lean ====
/-
  The operations of the reference program's @main, in order, each call's body listed at the call site over that
  call's record (a literal argument at the parameter's type); 292 operations, in 7 consecutive pieces
  (statements 1–4, 5–60, 61–73, 74–120, 121–142, 143–180, 181–211 of @main), and their concatenation.
-/
import proofs.«418803_j51642686767905_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem
open Cert.ReferenceIdeal.Facts₀ Cert.ReferenceIdeal.Facts

variable {F : FTy → Type} [FloatOps F] [Cert.ReferenceIdeal.Facts]

/-- Piece 0: 4 operations. -/
abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

/-- Piece 1: 81 operations. -/
abbrev ops1 : List (HloOp τ sig (Elt F)) :=
  [ StableHlo.unary main_arg3 main_v4 ((extractStridedSlice S1x32x128 ![0, 0, 0] · slices_S3x32x128_S1x32x128_0_0_0) : (⟨S3x32x128, .f32⟩ : BufTy).Contents (Elt F) → (⟨S1x32x128, .f32⟩ : BufTy).Contents (Elt F)),
    StableHlo.reshape main_v4 main_v5 rfl shapeCasts_S1x32x128_S32x128,
    StableHlo.binary main_arg2 main_v5 main_v6 ((fun l r => Host.dotGeneral dot_S600000x32_S32x128_S600000x128_1_0_0_1_n_n none l r) : (⟨S600000x32, .f32⟩ : BufTy).Contents (Elt F) → (⟨S32x128, .f32⟩ : BufTy).Contents (Elt F) → (⟨S600000x128, .f32⟩ : BufTy).Contents (Elt F)),
    StableHlo.unary main_arg4 main_v7 ((extractStridedSlice S1x128 ![0, 0] · slices_S3x128_S1x128_0_0) : (⟨S3x128, .f32⟩ : BufTy).Contents (Elt F) → (⟨S1x128, .f32⟩ : BufTy).Contents (Elt F)),
    StableHlo.reshape main_v7 main_v8 rfl shapeCasts_S1x128_S128,
    StableHlo.unary main_v8 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S600000x128 ![0, 1] bcast_S1x128_S600000x128_0_1 : (⟨S1x128, .f32⟩ : BufTy).Contents (Elt F) → (⟨S600000x128, .f32⟩ : BufTy).Contents (Elt F)),
    StableHlo.binary main_v6 main_v10 main_v11 (addf : (⟨S600000x128, .f32⟩ : BufTy).Contents (Elt F) → (⟨S600000x128, .f32⟩ : BufTy).Contents (Elt F) → (⟨S600000x128, .f32⟩ : BufTy).Contents (Elt F)),
    StableHlo.nullary main_c (constantI S_ 32 0#32),
    StableHlo.unary main_c main_v12 (broadcastInDim S600000 ![] bcast_S_S600000 : (⟨S_, .i32⟩ : BufTy).Contents (Elt F) → (⟨S600000, .i32⟩ : BufTy).Contents (Elt F)),
    StableHlo.binary main_v1 main_v12 main_v13 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v14 (broadcastInDim S600000 ![] bcast_S_S600000 : (⟨S_, .i32⟩ : BufTy).Contents (Elt F) → (⟨S600000, .i32⟩ : BufTy).Contents (Elt F)),
    StableHlo.binary main_v1 main_v14 main_v15 (addi : (⟨S600000, .i32⟩ : BufTy).Contents (Elt F) → (⟨S600000, .i32⟩ : BufTy).Contents (Elt F) → (⟨S600000, .i32⟩ : BufTy).Contents (Elt F)),
    StableHlo.ternary main_v13 main_v15 main_v1 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v16 main_v17 (broadcastInDim S600000x1 ![0] bcast_S600000_S600000x1_0 : (⟨S600000, .i32⟩ : BufTy).Contents (Elt F) → (⟨S600000x1, .i32⟩ : BufTy).Contents (Elt F)),
    StableHlo.binary main_arg0 main_v17 main_v18 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v18 main_v11 main_v19 (addf : (⟨S600000x128, .f32⟩ : BufTy).Contents (Elt F) → (⟨S600000x128, .f32⟩ : BufTy).Contents (Elt F) → (⟨S600000x128, .f32⟩ : BufTy).Contents (Elt F)),
    StableHlo.TRef.nullary main_call0.cst (constant S_ .f32 0x00000000#32),
    StableHlo.TRef.unary main_call0.cst main_call0.v0 (broadcastInDim S600000x128 ![] bcast_S_S600000x128),
    StableHlo.TRef.binary (.of main_v19 : StableHlo.TRef sig ⟨S600000x128, .f32⟩) main_call0.v0 main_call0.v1 maximumf,
    StableHlo.nullary main_cst (constant S_ .f32 0x00000000#32),
    StableHlo.unary main_cst main_v21 (broadcastInDim S50000x128 ![] bcast_S_S50000x128 : (⟨S_, .f32⟩ : BufTy).Contents (Elt F) → (⟨S50000x128, .f32⟩ : BufTy).Contents (Elt F)),
    StableHlo.unary main_v3 main_v22 (broadcastInDim S600000x1 ![0] bcast_S600000_S600000x1_0 : (⟨S600000, .i32⟩ : BufTy).Contents (Elt F) → (⟨S600000x1, .i32⟩ : BufTy).Contents (Elt F)),
    StableHlo.ternary main_v21 main_v22 main_v20 main_v23 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v23 main_v24 (addf : (⟨S50000x128, .f32⟩ : BufTy).Contents (Elt F) → (⟨S50000x128, .f32⟩ : BufTy).Contents (Elt F) → (⟨S50000x128, .f32⟩ : BufTy).Contents (Elt F)),
    StableHlo.unary main_arg5 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v25 main_v26 rfl shapeCasts_S1x128x128_S128x128,
    StableHlo.binary main_v24 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v28 ((extractStridedSlice S1x128 ![0, 0] · slices_S3x128_S1x128_0_0) : (⟨S3x128, .f32⟩ : BufTy).Contents (Elt F) → (⟨S1x128, .f32⟩ : BufTy).Contents (Elt F)),
    StableHlo.reshape main_v28 main_v29 rfl shapeCasts_S1x128_S128,
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v31 main_v32 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v32 : StableHlo.TRef sig ⟨S50000x128, .f32⟩) main_call1.v0 main_call1.v1 maximumf,
    StableHlo.unary main_arg7 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v34 main_v35 rfl shapeCasts_S1x128x128_S128x128,
    StableHlo.binary main_v33 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v37 ((extractStridedSlice S1x128 ![0, 0] · slices_S3x128_S1x128_0_0) : (⟨S3x128, .f32⟩ : BufTy).Contents (Elt F) → (⟨S1x128, .f32⟩ : BufTy).Contents (Elt F)),
    StableHlo.reshape main_v37 main_v38 rfl shapeCasts_S1x128_S128,
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v40 main_v41 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v41 main_cst_1 main_v42 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v43 (broadcastInDim S128 ![] bcast_S_S128 : (⟨S_, .f32⟩ : BufTy).Contents (Elt F) → (⟨S128, .f32⟩ : BufTy).Contents (Elt F)),
    StableHlo.binary main_v42 main_v43 main_v44 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (.of main_v41 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v41 : StableHlo.TRef sig ⟨S50000x128, .f32⟩) main_call2.v4 main_call2.v5 subf,
    StableHlo.TRef.binary main_call2.v5 main_call2.v5 main_call2.v6 mulf,
    StableHlo.TRef.unary (.of main_c_3 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v44 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v47 main_v48 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v49 (broadcastInDim S128 ![] bcast_S_S128 : (⟨S_, .f32⟩ : BufTy).Contents (Elt F) → (⟨S128, .f32⟩ : BufTy).Contents (Elt F)),
    StableHlo.binary main_v45 main_v49 main_v50 (addf : (⟨S128, .f32⟩ : BufTy).Contents (Elt F) → (⟨S128, .f32⟩ : BufTy).Contents (Elt F) → (⟨S128, .f32⟩ : BufTy).Contents (Elt F)),
    StableHlo.unary main_v50 main_v51 (Host.rsqrt : (⟨S128, .f32⟩ : BufTy).Contents (Elt F) → (⟨S128, .f32⟩ : BufTy).Contents (Elt F)),
    StableHlo.unary main_v51 main_v52 (broadcastInDim S1x128 ![1] bcast_S128_S1x128_1 : (⟨S128, .f32⟩ : BufTy).Contents (Elt F) → (⟨S1x128, .f32⟩ : BufTy).Contents (Elt F)) ]

/-- Piece 2: 15 operations. -/
abbrev ops2 : List (HloOp τ sig (Elt F)) :=
  [ StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v53 main_v54 (mulf : (⟨S50000x128, .f32⟩ : BufTy).Contents (Elt F) → (⟨S50000x128, .f32⟩ : BufTy).Contents (Elt F) → (⟨S50000x128, .f32⟩ : BufTy).Contents (Elt F)),
    StableHlo.unary main_arg9 main_v55 ((extractStridedSlice S1x128 ![0, 0] · slices_S3x128_S1x128_0_0) : (⟨S3x128, .f32⟩ : BufTy).Contents (Elt F) → (⟨S1x128, .f32⟩ : BufTy).Contents (Elt F)),
    StableHlo.reshape main_v55 main_v56 rfl shapeCasts_S1x128_S128,
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v58 main_v59 (mulf : (⟨S50000x128, .f32⟩ : BufTy).Contents (Elt F) → (⟨S50000x128, .f32⟩ : BufTy).Contents (Elt F) → (⟨S50000x128, .f32⟩ : BufTy).Contents (Elt F)),
    StableHlo.unary main_arg10 main_v60 ((extractStridedSlice S1x128 ![0, 0] · slices_S3x128_S1x128_0_0) : (⟨S3x128, .f32⟩ : BufTy).Contents (Elt F) → (⟨S1x128, .f32⟩ : BufTy).Contents (Elt F)),
    StableHlo.reshape main_v60 main_v61 rfl shapeCasts_S1x128_S128,
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v63 main_v64 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v64 : StableHlo.TRef sig ⟨S50000x128, .f32⟩) main_call3.v0 main_call3.v1 maximumf ]

/-- Piece 3: 51 operations. -/
abbrev ops3 : List (HloOp τ sig (Elt F)) :=
  [ StableHlo.unary main_arg3 main_v66 ((extractStridedSlice S1x32x128 ![1, 0, 0] · slices_S3x32x128_S1x32x128_1_0_0) : (⟨S3x32x128, .f32⟩ : BufTy).Contents (Elt F) → (⟨S1x32x128, .f32⟩ : BufTy).Contents (Elt F)),
    StableHlo.reshape main_v66 main_v67 rfl shapeCasts_S1x32x128_S32x128,
    StableHlo.binary main_arg2 main_v67 main_v68 ((fun l r => Host.dotGeneral dot_S600000x32_S32x128_S600000x128_1_0_0_1_n_n none l r) : (⟨S600000x32, .f32⟩ : BufTy).Contents (Elt F) → (⟨S32x128, .f32⟩ : BufTy).Contents (Elt F) → (⟨S600000x128, .f32⟩ : BufTy).Contents (Elt F)),
    StableHlo.unary main_arg4 main_v69 ((extractStridedSlice S1x128 ![1, 0] · slices_S3x128_S1x128_1_0) : (⟨S3x128, .f32⟩ : BufTy).Contents (Elt F) → (⟨S1x128, .f32⟩ : BufTy).Contents (Elt F)),
    StableHlo.reshape main_v69 main_v70 rfl shapeCasts_S1x128_S128,
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S600000x128 ![0, 1] bcast_S1x128_S600000x128_0_1 : (⟨S1x128, .f32⟩ : BufTy).Contents (Elt F) → (⟨S600000x128, .f32⟩ : BufTy).Contents (Elt F)),
    StableHlo.binary main_v68 main_v72 main_v73 (addf : (⟨S600000x128, .f32⟩ : BufTy).Contents (Elt F) → (⟨S600000x128, .f32⟩ : BufTy).Contents (Elt F) → (⟨S600000x128, .f32⟩ : BufTy).Contents (Elt F)),
    StableHlo.nullary main_c_5 (constantI S_ 32 0#32),
    StableHlo.unary main_c_5 main_v74 (broadcastInDim S600000 ![] bcast_S_S600000 : (⟨S_, .i32⟩ : BufTy).Contents (Elt F) → (⟨S600000, .i32⟩ : BufTy).Contents (Elt F)),
    StableHlo.binary main_v1 main_v74 main_v75 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v76 (broadcastInDim S600000 ![] bcast_S_S600000 : (⟨S_, .i32⟩ : BufTy).Contents (Elt F) → (⟨S600000, .i32⟩ : BufTy).Contents (Elt F)),
    StableHlo.binary main_v1 main_v76 main_v77 (addi : (⟨S600000, .i32⟩ : BufTy).Contents (Elt F) → (⟨S600000, .i32⟩ : BufTy).Contents (Elt F) → (⟨S600000, .i32⟩ : BufTy).Contents (Elt F)),
    StableHlo.ternary main_v75 main_v77 main_v1 main_v78 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v78 main_v79 (broadcastInDim S600000x1 ![0] bcast_S600000_S600000x1_0 : (⟨S600000, .i32⟩ : BufTy).Contents (Elt F) → (⟨S600000x1, .i32⟩ : BufTy).Contents (Elt F)),
    StableHlo.binary main_v65 main_v79 main_v80 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v80 main_v73 main_v81 (addf : (⟨S600000x128, .f32⟩ : BufTy).Contents (Elt F) → (⟨S600000x128, .f32⟩ : BufTy).Contents (Elt F) → (⟨S600000x128, .f32⟩ : BufTy).Contents (Elt F)),
    StableHlo.TRef.nullary main_call4.cst (constant S_ .f32 0x00000000#32),
    StableHlo.TRef.unary main_call4.cst main_call4.v0 (broadcastInDim S600000x128 ![] bcast_S_S600000x128),
    StableHlo.TRef.binary (.of main_v81 : StableHlo.TRef sig ⟨S600000x128, .f32⟩) main_call4.v0 main_call4.v1 maximumf,
    StableHlo.nullary main_cst_7 (constant S_ .f32 0x00000000#32),
    StableHlo.unary main_cst_7 main_v83 (broadcastInDim S50000x128 ![] bcast_S_S50000x128 : (⟨S_, .f32⟩ : BufTy).Contents (Elt F) → (⟨S50000x128, .f32⟩ : BufTy).Contents (Elt F)),
    StableHlo.unary main_v3 main_v84 (broadcastInDim S600000x1 ![0] bcast_S600000_S600000x1_0 : (⟨S600000, .i32⟩ : BufTy).Contents (Elt F) → (⟨S600000x1, .i32⟩ : BufTy).Contents (Elt F)),
    StableHlo.ternary main_v83 main_v84 main_v82 main_v85 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v65 main_v85 main_v86 (addf : (⟨S50000x128, .f32⟩ : BufTy).Contents (Elt F) → (⟨S50000x128, .f32⟩ : BufTy).Contents (Elt F) → (⟨S50000x128, .f32⟩ : BufTy).Contents (Elt F)),
    StableHlo.unary main_arg5 main_v87 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v87 main_v88 rfl shapeCasts_S1x128x128_S128x128,
    StableHlo.binary main_v86 main_v88 main_v89 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v90 ((extractStridedSlice S1x128 ![1, 0] · slices_S3x128_S1x128_1_0) : (⟨S3x128, .f32⟩ : BufTy).Contents (Elt F) → (⟨S1x128, .f32⟩ : BufTy).Contents (Elt F)),
    StableHlo.reshape main_v90 main_v91 rfl shapeCasts_S1x128_S128,
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v93 main_v94 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v94 : StableHlo.TRef sig ⟨S50000x128, .f32⟩) main_call5.v0 main_call5.v1 maximumf,
    StableHlo.unary main_arg7 main_v96 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v96 main_v97 rfl shapeCasts_S1x128x128_S128x128,
    StableHlo.binary main_v95 main_v97 main_v98 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v99 ((extractStridedSlice S1x128 ![1, 0] · slices_S3x128_S1x128_1_0) : (⟨S3x128, .f32⟩ : BufTy).Contents (Elt F) → (⟨S1x128, .f32⟩ : BufTy).Contents (Elt F)),
    StableHlo.reshape main_v99 main_v100 rfl shapeCasts_S1x128_S128,
    StableHlo.unary main_v100 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v102 main_v103 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v103 main_cst_8 main_v104 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v105 (broadcastInDim S128 ![] bcast_S_S128 : (⟨S_, .f32⟩ : BufTy).Contents (Elt F) → (⟨S128, .f32⟩ : BufTy).Contents (Elt F)),
    StableHlo.binary main_v104 main_v105 main_v106 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32) ]

/-- Piece 4: 45 operations. -/
abbrev ops4 : List (HloOp τ sig (Elt F)) :=
  [ StableHlo.TRef.nullary main_call6.cst (constant S_ .f32 0x00000000#32),
    StableHlo.TRef.binary (.of main_v103 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v103 : StableHlo.TRef sig ⟨S50000x128, .f32⟩) main_call6.v4 main_call6.v5 subf,
    StableHlo.TRef.binary main_call6.v5 main_call6.v5 main_call6.v6 mulf,
    StableHlo.TRef.unary (.of main_c_10 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v106 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S50000x128 ![0, 1] bcast_S1x128_S50000x128_0_1 : (⟨S1x128, .f32⟩ : BufTy).Contents (Elt F) → (⟨S50000x128, .f32⟩ : BufTy).Contents (Elt F)),
    StableHlo.binary main_v103 main_v109 main_v110 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v111 (broadcastInDim S128 ![] bcast_S_S128 : (⟨S_, .f32⟩ : BufTy).Contents (Elt F) → (⟨S128, .f32⟩ : BufTy).Contents (Elt F)),
    StableHlo.binary main_v107 main_v111 main_v112 (addf : (⟨S128, .f32⟩ : BufTy).Contents (Elt F) → (⟨S128, .f32⟩ : BufTy).Contents (Elt F) → (⟨S128, .f32⟩ : BufTy).Contents (Elt F)),
    StableHlo.unary main_v112 main_v113 (Host.rsqrt : (⟨S128, .f32⟩ : BufTy).Contents (Elt F) → (⟨S128, .f32⟩ : BufTy).Contents (Elt F)),
    StableHlo.unary main_v113 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v115 main_v116 (mulf : (⟨S50000x128, .f32⟩ : BufTy).Contents (Elt F) → (⟨S50000x128, .f32⟩ : BufTy).Contents (Elt F) → (⟨S50000x128, .f32⟩ : BufTy).Contents (Elt F)),
    StableHlo.unary main_arg9 main_v117 ((extractStridedSlice S1x128 ![1, 0] · slices_S3x128_S1x128_1_0) : (⟨S3x128, .f32⟩ : BufTy).Contents (Elt F) → (⟨S1x128, .f32⟩ : BufTy).Contents (Elt F)),
    StableHlo.reshape main_v117 main_v118 rfl shapeCasts_S1x128_S128,
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S50000x128 ![0, 1] bcast_S1x128_S50000x128_0_1 : (⟨S1x128, .f32⟩ : BufTy).Contents (Elt F) → (⟨S50000x128, .f32⟩ : BufTy).Contents (Elt F)),
    StableHlo.binary main_v116 main_v120 main_v121 (mulf : (⟨S50000x128, .f32⟩ : BufTy).Contents (Elt F) → (⟨S50000x128, .f32⟩ : BufTy).Contents (Elt F) → (⟨S50000x128, .f32⟩ : BufTy).Contents (Elt F)),
    StableHlo.unary main_arg10 main_v122 ((extractStridedSlice S1x128 ![1, 0] · slices_S3x128_S1x128_1_0) : (⟨S3x128, .f32⟩ : BufTy).Contents (Elt F) → (⟨S1x128, .f32⟩ : BufTy).Contents (Elt F)),
    StableHlo.reshape main_v122 main_v123 rfl shapeCasts_S1x128_S128,
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v125 main_v126 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v126 : StableHlo.TRef sig ⟨S50000x128, .f32⟩) main_call7.v0 main_call7.v1 maximumf ]

/-- Piece 5: 42 operations. -/
abbrev ops5 : List (HloOp τ sig (Elt F)) :=
  [ StableHlo.unary main_arg3 main_v128 ((extractStridedSlice S1x32x128 ![2, 0, 0] · slices_S3x32x128_S1x32x128_2_0_0) : (⟨S3x32x128, .f32⟩ : BufTy).Contents (Elt F) → (⟨S1x32x128, .f32⟩ : BufTy).Contents (Elt F)),
    StableHlo.reshape main_v128 main_v129 rfl shapeCasts_S1x32x128_S32x128,
    StableHlo.binary main_arg2 main_v129 main_v130 ((fun l r => Host.dotGeneral dot_S600000x32_S32x128_S600000x128_1_0_0_1_n_n none l r) : (⟨S600000x32, .f32⟩ : BufTy).Contents (Elt F) → (⟨S32x128, .f32⟩ : BufTy).Contents (Elt F) → (⟨S600000x128, .f32⟩ : BufTy).Contents (Elt F)),
    StableHlo.unary main_arg4 main_v131 ((extractStridedSlice S1x128 ![2, 0] · slices_S3x128_S1x128_2_0) : (⟨S3x128, .f32⟩ : BufTy).Contents (Elt F) → (⟨S1x128, .f32⟩ : BufTy).Contents (Elt F)),
    StableHlo.reshape main_v131 main_v132 rfl shapeCasts_S1x128_S128,
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S600000x128 ![0, 1] bcast_S1x128_S600000x128_0_1 : (⟨S1x128, .f32⟩ : BufTy).Contents (Elt F) → (⟨S600000x128, .f32⟩ : BufTy).Contents (Elt F)),
    StableHlo.binary main_v130 main_v134 main_v135 (addf : (⟨S600000x128, .f32⟩ : BufTy).Contents (Elt F) → (⟨S600000x128, .f32⟩ : BufTy).Contents (Elt F) → (⟨S600000x128, .f32⟩ : BufTy).Contents (Elt F)),
    StableHlo.nullary main_c_12 (constantI S_ 32 0#32),
    StableHlo.unary main_c_12 main_v136 (broadcastInDim S600000 ![] bcast_S_S600000 : (⟨S_, .i32⟩ : BufTy).Contents (Elt F) → (⟨S600000, .i32⟩ : BufTy).Contents (Elt F)),
    StableHlo.binary main_v1 main_v136 main_v137 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 50000#32),
    StableHlo.unary main_c_13 main_v138 (broadcastInDim S600000 ![] bcast_S_S600000 : (⟨S_, .i32⟩ : BufTy).Contents (Elt F) → (⟨S600000, .i32⟩ : BufTy).Contents (Elt F)),
    StableHlo.binary main_v1 main_v138 main_v139 (addi : (⟨S600000, .i32⟩ : BufTy).Contents (Elt F) → (⟨S600000, .i32⟩ : BufTy).Contents (Elt F) → (⟨S600000, .i32⟩ : BufTy).Contents (Elt F)),
    StableHlo.ternary main_v137 main_v139 main_v1 main_v140 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v140 main_v141 (broadcastInDim S600000x1 ![0] bcast_S600000_S600000x1_0 : (⟨S600000, .i32⟩ : BufTy).Contents (Elt F) → (⟨S600000x1, .i32⟩ : BufTy).Contents (Elt F)),
    StableHlo.binary main_v127 main_v141 main_v142 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v142 main_v135 main_v143 (addf : (⟨S600000x128, .f32⟩ : BufTy).Contents (Elt F) → (⟨S600000x128, .f32⟩ : BufTy).Contents (Elt F) → (⟨S600000x128, .f32⟩ : BufTy).Contents (Elt F)),
    StableHlo.TRef.nullary main_call8.cst (constant S_ .f32 0x00000000#32),
    StableHlo.TRef.unary main_call8.cst main_call8.v0 (broadcastInDim S600000x128 ![] bcast_S_S600000x128),
    StableHlo.TRef.binary (.of main_v143 : StableHlo.TRef sig ⟨S600000x128, .f32⟩) main_call8.v0 main_call8.v1 maximumf,
    StableHlo.nullary main_cst_14 (constant S_ .f32 0x00000000#32),
    StableHlo.unary main_cst_14 main_v145 (broadcastInDim S50000x128 ![] bcast_S_S50000x128 : (⟨S_, .f32⟩ : BufTy).Contents (Elt F) → (⟨S50000x128, .f32⟩ : BufTy).Contents (Elt F)),
    StableHlo.unary main_v3 main_v146 (broadcastInDim S600000x1 ![0] bcast_S600000_S600000x1_0 : (⟨S600000, .i32⟩ : BufTy).Contents (Elt F) → (⟨S600000x1, .i32⟩ : BufTy).Contents (Elt F)),
    StableHlo.ternary main_v145 main_v146 main_v144 main_v147 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v127 main_v147 main_v148 (addf : (⟨S50000x128, .f32⟩ : BufTy).Contents (Elt F) → (⟨S50000x128, .f32⟩ : BufTy).Contents (Elt F) → (⟨S50000x128, .f32⟩ : BufTy).Contents (Elt F)),
    StableHlo.unary main_arg5 main_v149 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v149 main_v150 rfl shapeCasts_S1x128x128_S128x128,
    StableHlo.binary main_v148 main_v150 main_v151 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v152 ((extractStridedSlice S1x128 ![2, 0] · slices_S3x128_S1x128_2_0) : (⟨S3x128, .f32⟩ : BufTy).Contents (Elt F) → (⟨S1x128, .f32⟩ : BufTy).Contents (Elt F)),
    StableHlo.reshape main_v152 main_v153 rfl shapeCasts_S1x128_S128,
    StableHlo.unary main_v153 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S50000x128 ![0, 1] bcast_S1x128_S50000x128_0_1 : (⟨S1x128, .f32⟩ : BufTy).Contents (Elt F) → (⟨S50000x128, .f32⟩ : BufTy).Contents (Elt F)),
    StableHlo.binary main_v151 main_v155 main_v156 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v156 : StableHlo.TRef sig ⟨S50000x128, .f32⟩) main_call9.v0 main_call9.v1 maximumf,
    StableHlo.unary main_arg7 main_v158 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v158 main_v159 rfl shapeCasts_S1x128x128_S128x128,
    StableHlo.binary main_v157 main_v159 main_v160 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v161 ((extractStridedSlice S1x128 ![2, 0] · slices_S3x128_S1x128_2_0) : (⟨S3x128, .f32⟩ : BufTy).Contents (Elt F) → (⟨S1x128, .f32⟩ : BufTy).Contents (Elt F)),
    StableHlo.reshape main_v161 main_v162 rfl shapeCasts_S1x128_S128 ]

/-- Piece 6: 54 operations. -/
abbrev ops6 : List (HloOp τ sig (Elt F)) :=
  [ StableHlo.unary main_v162 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S50000x128 ![0, 1] bcast_S1x128_S50000x128_0_1 : (⟨S1x128, .f32⟩ : BufTy).Contents (Elt F) → (⟨S50000x128, .f32⟩ : BufTy).Contents (Elt F)),
    StableHlo.binary main_v160 main_v164 main_v165 (addf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x00000000#32),
    StableHlo.binary main_v165 main_cst_15 main_v166 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v167 (broadcastInDim S128 ![] bcast_S_S128 : (⟨S_, .f32⟩ : BufTy).Contents (Elt F) → (⟨S128, .f32⟩ : BufTy).Contents (Elt F)),
    StableHlo.binary main_v166 main_v167 main_v168 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call10.cst (constant S_ .f32 0x00000000#32),
    StableHlo.TRef.binary (.of main_v165 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v165 : StableHlo.TRef sig ⟨S50000x128, .f32⟩) main_call10.v4 main_call10.v5 subf,
    StableHlo.TRef.binary main_call10.v5 main_call10.v5 main_call10.v6 mulf,
    StableHlo.TRef.unary (.of main_c_17 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v168 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S50000x128 ![0, 1] bcast_S1x128_S50000x128_0_1 : (⟨S1x128, .f32⟩ : BufTy).Contents (Elt F) → (⟨S50000x128, .f32⟩ : BufTy).Contents (Elt F)),
    StableHlo.binary main_v165 main_v171 main_v172 (subf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v173 (broadcastInDim S128 ![] bcast_S_S128 : (⟨S_, .f32⟩ : BufTy).Contents (Elt F) → (⟨S128, .f32⟩ : BufTy).Contents (Elt F)),
    StableHlo.binary main_v169 main_v173 main_v174 (addf : (⟨S128, .f32⟩ : BufTy).Contents (Elt F) → (⟨S128, .f32⟩ : BufTy).Contents (Elt F) → (⟨S128, .f32⟩ : BufTy).Contents (Elt F)),
    StableHlo.unary main_v174 main_v175 (Host.rsqrt : (⟨S128, .f32⟩ : BufTy).Contents (Elt F) → (⟨S128, .f32⟩ : BufTy).Contents (Elt F)),
    StableHlo.unary main_v175 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S50000x128 ![0, 1] bcast_S1x128_S50000x128_0_1 : (⟨S1x128, .f32⟩ : BufTy).Contents (Elt F) → (⟨S50000x128, .f32⟩ : BufTy).Contents (Elt F)),
    StableHlo.binary main_v172 main_v177 main_v178 (mulf : (⟨S50000x128, .f32⟩ : BufTy).Contents (Elt F) → (⟨S50000x128, .f32⟩ : BufTy).Contents (Elt F) → (⟨S50000x128, .f32⟩ : BufTy).Contents (Elt F)),
    StableHlo.unary main_arg9 main_v179 ((extractStridedSlice S1x128 ![2, 0] · slices_S3x128_S1x128_2_0) : (⟨S3x128, .f32⟩ : BufTy).Contents (Elt F) → (⟨S1x128, .f32⟩ : BufTy).Contents (Elt F)),
    StableHlo.reshape main_v179 main_v180 rfl shapeCasts_S1x128_S128,
    StableHlo.unary main_v180 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v178 main_v182 main_v183 (mulf : (⟨S50000x128, .f32⟩ : BufTy).Contents (Elt F) → (⟨S50000x128, .f32⟩ : BufTy).Contents (Elt F) → (⟨S50000x128, .f32⟩ : BufTy).Contents (Elt F)),
    StableHlo.unary main_arg10 main_v184 ((extractStridedSlice S1x128 ![2, 0] · slices_S3x128_S1x128_2_0) : (⟨S3x128, .f32⟩ : BufTy).Contents (Elt F) → (⟨S1x128, .f32⟩ : BufTy).Contents (Elt F)),
    StableHlo.reshape main_v184 main_v185 rfl shapeCasts_S1x128_S128,
    StableHlo.unary main_v185 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v187 main_v188 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v188 : StableHlo.TRef sig ⟨S50000x128, .f32⟩) main_call11.v0 main_call11.v1 maximumf ]

/-- @main's 292 operations, in order. -/
abbrev ops : List (HloOp τ sig (Elt F)) :=
  ops0 ++ ops1 ++ ops2 ++ ops3 ++ ops4 ++ ops5 ++ ops6

end Cert.ReferenceIdeal.RefRun

end
-- ==== Proof.RefRun.lean ====
/-
  The run of the reference program. Its @main is host operations only — 212 statements, among them twelve calls of
  the module-local functions relu, relu_0 and _var (which calls _where) — so it is a straight line of single-operation
  steps once each callee's body stands at its call site over that call's record: the 292 operations of
  Proof/RefOps.lean, one per buffer other than the eleven arguments. From any memory with zero counters every weakly
  fair execution terminates with each TensorCore buffer at the fold of those operations' results over its launch
  contents.
-/
import proofs.«418803_j51642686767905_2_alg».proof.Proof.RefOps

noncomputable section

namespace Cert.ReferenceIdeal.RefRun

open Cert.ReferenceIdeal Idealize.ShloMosaic Idealize.ShloMosaic.TcCoe Idealize.SL.Sem
open Cert.ReferenceIdeal.Facts₀ Cert.ReferenceIdeal.Facts

variable {F : FTy → Type} [FloatOps F] [Cert.ReferenceIdeal.Facts]

open Idealize.ShloMosaic.StableHlo

/-! ## @main is the straight line of its operations

Each window of @main is a chain of single-operation steps once the called functions' bodies stand at their call
sites and sequencing is reassociated; that chain is the window's pieces run in order. -/

set_option maxRecDepth 8192 in
/-- Statements 1–60: pieces 0 and 1. -/
theorem main_part0_eq (c : Dev nD) : main_part0 (F := F) c = seq (ops0 ++ ops1) := by
  rw [seq_append]
  simp only [main_part0, fn_relu.body, fn_relu_0.body, fn_var.body, fn_where.body, ops0, ops1, seq, bind_assoc, pure_bind]
  rfl

set_option maxRecDepth 8192 in
/-- Statements 61–120: pieces 2 and 3. -/
theorem main_part1_eq (c : Dev nD) : main_part1 (F := F) c = seq (ops2 ++ ops3) := by
  rw [seq_append]
  simp only [main_part1, fn_relu.body, fn_relu_0.body, fn_var.body, fn_where.body, ops2, ops3, seq, bind_assoc, pure_bind]
  rfl

set_option maxRecDepth 8192 in
/-- Statements 121–180: pieces 4 and 5. -/
theorem main_part2_eq (c : Dev nD) : main_part2 (F := F) c = seq (ops4 ++ ops5) := by
  rw [seq_append]
  simp only [main_part2, fn_relu.body, fn_relu_0.body, fn_var.body, fn_where.body, ops4, ops5, seq, bind_assoc, pure_bind]
  rfl

set_option maxRecDepth 8192 in
/-- Statements 181–211 and the return: piece 6. -/
theorem main_part3_eq (c : Dev nD) : main_part3 (F := F) c = seq ops6 := by
  simp only [main_part3, fn_relu.body, fn_relu_0.body, fn_var.body, fn_where.body, ops6, seq, bind_assoc, pure_bind]

/-- @main is its operations run in order: the four windows one after the other are the seven pieces one after the
    other, sequencing reassociated. -/
theorem main_eq (c : Dev nD) : main (F := F) c = seq ops := by
  simp only [main, main_part0_eq, main_part1_eq, main_part2_eq, main_part3_eq, ops, seq_append, bind_assoc]

/-! ## The run -/

set_option maxRecDepth 8192 in
theorem scopedRefs_eq : (Finset.univ.filter fun b : Ref sig .tc => b.isScoped) = ∅ := by decide
set_option maxRecDepth 8192 in
theorem scopedSems_eq : (Finset.univ.filter fun sm : SemLoc sig => sm.isScoped .tc) = ∅ := by decide

/-! Every operation touches TensorCore references only, piece by piece. -/

theorem ops0_sub : (ops0 (F := F)).Forall fun op => op.bufs ⊆ tcRefs τ sig := by
  simp only [ops0, List.Forall, nullary_bufs_sub, unary_bufs_sub, binary_bufs_sub, ternary_bufs_sub, reshape_bufs_sub, and_self]
theorem ops1_sub : (ops1 (F := F)).Forall fun op => op.bufs ⊆ tcRefs τ sig := by
  simp only [ops1, List.Forall, nullary_bufs_sub, unary_bufs_sub, binary_bufs_sub, ternary_bufs_sub, reshape_bufs_sub, and_self]
theorem ops2_sub : (ops2 (F := F)).Forall fun op => op.bufs ⊆ tcRefs τ sig := by
  simp only [ops2, List.Forall, nullary_bufs_sub, unary_bufs_sub, binary_bufs_sub, ternary_bufs_sub, reshape_bufs_sub, and_self]
theorem ops3_sub : (ops3 (F := F)).Forall fun op => op.bufs ⊆ tcRefs τ sig := by
  simp only [ops3, List.Forall, nullary_bufs_sub, unary_bufs_sub, binary_bufs_sub, ternary_bufs_sub, reshape_bufs_sub, and_self]
theorem ops4_sub : (ops4 (F := F)).Forall fun op => op.bufs ⊆ tcRefs τ sig := by
  simp only [ops4, List.Forall, nullary_bufs_sub, unary_bufs_sub, binary_bufs_sub, ternary_bufs_sub, reshape_bufs_sub, and_self]
theorem ops5_sub : (ops5 (F := F)).Forall fun op => op.bufs ⊆ tcRefs τ sig := by
  simp only [ops5, List.Forall, nullary_bufs_sub, unary_bufs_sub, binary_bufs_sub, ternary_bufs_sub, reshape_bufs_sub, and_self]
theorem ops6_sub : (ops6 (F := F)).Forall fun op => op.bufs ⊆ tcRefs τ sig := by
  simp only [ops6, List.Forall, nullary_bufs_sub, unary_bufs_sub, binary_bufs_sub, ternary_bufs_sub, reshape_bufs_sub, and_self]

theorem ops_sub : (ops : List (HloOp τ sig (Elt F))).Forall fun op => op.bufs ⊆ tcRefs τ sig := by
  simp only [ops, List.forall_append]
  exact ⟨⟨⟨⟨⟨⟨ops0_sub, ops1_sub⟩, ops2_sub⟩, ops3_sub⟩, ops4_sub⟩, ops5_sub⟩, ops6_sub⟩

/-! Every operation determines its results (none leaves a buffer's contents unchosen), piece by piece. -/

theorem ops0_fresh : ∀ op ∈ (ops0 (F := F)), op.fresh = ∅ := by
  intro op h; (repeat (cases h with | head => rfl | tail _ h => ?_)); exact nomatch h
theorem ops1_fresh : ∀ op ∈ (ops1 (F := F)), op.fresh = ∅ := by
  intro op h; (repeat (cases h with | head => rfl | tail _ h => ?_)); exact nomatch h
theorem ops2_fresh : ∀ op ∈ (ops2 (F := F)), op.fresh = ∅ := by
  intro op h; (repeat (cases h with | head => rfl | tail _ h => ?_)); exact nomatch h
theorem ops3_fresh : ∀ op ∈ (ops3 (F := F)), op.fresh = ∅ := by
  intro op h; (repeat (cases h with | head => rfl | tail _ h => ?_)); exact nomatch h
theorem ops4_fresh : ∀ op ∈ (ops4 (F := F)), op.fresh = ∅ := by
  intro op h; (repeat (cases h with | head => rfl | tail _ h => ?_)); exact nomatch h
theorem ops5_fresh : ∀ op ∈ (ops5 (F := F)), op.fresh = ∅ := by
  intro op h; (repeat (cases h with | head => rfl | tail _ h => ?_)); exact nomatch h
theorem ops6_fresh : ∀ op ∈ (ops6 (F := F)), op.fresh = ∅ := by
  intro op h; (repeat (cases h with | head => rfl | tail _ h => ?_)); exact nomatch h

theorem ops_fresh : ∀ op ∈ (ops : List (HloOp τ sig (Elt F))), op.fresh = ∅ := by
  intro op h
  simp only [ops, List.mem_append] at h
  rcases h with ((((((h | h) | h) | h) | h) | h) | h)
  exacts [ops0_fresh op h, ops1_fresh op h, ops2_fresh op h, ops3_fresh op h, ops4_fresh op h, ops5_fresh op h, ops6_fresh op h]

/-- On every device, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefVal.lean ====
/-
  What the reference program computes. Its 292 operations (Proof/RefOps.lean) are a prelude of four — the two rows of
  the edge index as vectors, the edge endpoints — followed by three groups of 96, one per layer of the network. From
  any contents, a layer's group leaves in its output buffer one layer of the specification (Proof/Spec.lean) applied
  to what its input buffer, the endpoint buffers, the edge features and that layer's slice of each stacked weight
  hold: the group's operations are the specification's, term by term, at any float values (the matrix product is the
  float values' own; the gather, the scatter-sum, the column sum, the host quotient and reciprocal square root are
  kept folded, the equation never looks inside them). Each group leaves the arguments and the endpoint buffers as they
  were. So the three groups compose through the two intermediate output buffers, never through the three-layer term:
  the result buffer holds the specification's network of the arguments, and every argument is unchanged.
-/
import proofs.«418803_j51642686767905_2_alg».proof.Proof.RefOps
import proofs.«418803_j51642686767905_2_alg».proof.Proof.Spec
import Idealize.ShloMosaic.Lib.Pipeline.Frame

noncomputable section

namespace Cert.ReferenceIdeal.RefVal

open Cert.ReferenceIdeal Idealize.ShloMosaic Idealize.ShloMosaic.TcCoe Idealize.SL.Sem
open Cert.ReferenceIdeal.Facts₀ Cert.ReferenceIdeal.Facts

variable {F : FTy → Type} [FloatOps F] [Cert.ReferenceIdeal.Facts]

open Idealize.ShloMosaic.StableHlo Cert.ReferenceIdeal.RefRun

/-! ## The prelude: the edge endpoints -/

/-- After the prelude the first endpoint buffer holds row 0 of the edge index, as a vector. -/
theorem pre_src (V : Valuation τ sig (Elt F)) :
    after ops0 V (main_v1 : DevRef τ sig) = Cert.Spec.srcOf (V (main_arg1 : DevRef τ sig)) := by
  simp only [ops0]; after_results_simp; rfl

/-- After the prelude the second endpoint buffer holds row 1 of the edge index, as a vector. -/
theorem pre_dst (V : Valuation τ sig (Elt F)) :
    after ops0 V (main_v3 : DevRef τ sig) = Cert.Spec.dstOf (V (main_arg1 : DevRef τ sig)) := by
  simp only [ops0]; after_results_simp; rfl

set_option maxRecDepth 8192 in
/-- The prelude's operations leave the arguments as they were. -/
theorem pre_keep (W : Valuation τ sig (Elt F)) :
    ∀ r ∈ ([main_arg0, main_arg1, main_arg2, main_arg3, main_arg4, main_arg5, main_arg6, main_arg7, main_arg8, main_arg9, main_arg10] : List (Ref sig .tc)), after (ops0) W (r : DevRef τ sig) = W (r : DevRef τ sig) := by
  intro r hr
  simp only [List.mem_cons, List.not_mem_nil, or_false] at hr
  rcases hr with rfl | rfl | rfl | rfl | rfl | rfl | rfl | rfl | rfl | rfl | rfl
  all_goals (simp only [ops0]; after_results_simp)

/-! ## One layer at a time -/

attribute [local irreducible] Host.gather Host.scatterAdd Host.reduceAdd Host.divf Host.rsqrt in
set_option maxRecDepth 16384 in
set_option maxHeartbeats 1600000 in
/-- Layer 0's 96 operations, from any contents W: the output buffer holds one layer of the specification on W's
    input buffer, endpoint buffers, edge features and slice 0 of each stacked weight. -/
theorem layer0_raw (W : Valuation τ sig (Elt F)) :
    after (ops1 ++ ops2) W (main_v65 : DevRef τ sig)
      = Cert.Spec.layer (W (main_arg0 : DevRef τ sig)) (W (main_v1 : DevRef τ sig)) (W (main_v3 : DevRef τ sig)) (W (main_arg2 : DevRef τ sig))
          (shapeCast S32x128 (extractStridedSlice S1x32x128 ![0, 0, 0] (W (main_arg3 : DevRef τ sig)) slices_S3x32x128_S1x32x128_0_0_0) shapeCasts_S1x32x128_S32x128)
          (shapeCast S128 (extractStridedSlice S1x128 ![0, 0] (W (main_arg4 : DevRef τ sig)) slices_S3x128_S1x128_0_0) shapeCasts_S1x128_S128)
          (shapeCast S128x128 (extractStridedSlice S1x128x128 ![0, 0, 0] (W (main_arg5 : DevRef τ sig)) slices_S3x128x128_S1x128x128_0_0_0) shapeCasts_S1x128x128_S128x128)
          (shapeCast S128 (extractStridedSlice S1x128 ![0, 0] (W (main_arg6 : DevRef τ sig)) slices_S3x128_S1x128_0_0) shapeCasts_S1x128_S128)
          (shapeCast S128x128 (extractStridedSlice S1x128x128 ![0, 0, 0] (W (main_arg7 : DevRef τ sig)) slices_S3x128x128_S1x128x128_0_0_0) shapeCasts_S1x128x128_S128x128)
          (shapeCast S128 (extractStridedSlice S1x128 ![0, 0] (W (main_arg8 : DevRef τ sig)) slices_S3x128_S1x128_0_0) shapeCasts_S1x128_S128)
          (shapeCast S128 (extractStridedSlice S1x128 ![0, 0] (W (main_arg9 : DevRef τ sig)) slices_S3x128_S1x128_0_0) shapeCasts_S1x128_S128)
          (shapeCast S128 (extractStridedSlice S1x128 ![0, 0] (W (main_arg10 : DevRef τ sig)) slices_S3x128_S1x128_0_0) shapeCasts_S1x128_S128) := by
  simp only [ops1, ops2, List.cons_append, List.nil_append]
  after_results_simp
  rfl

attribute [local irreducible] Host.gather Host.scatterAdd Host.reduceAdd Host.divf Host.rsqrt in
set_option maxRecDepth 16384 in
set_option maxHeartbeats 1600000 in
/-- Layer 1's 96 operations, from any contents W: the output buffer holds one layer of the specification on W's
    input buffer, endpoint buffers, edge features and slice 1 of each stacked weight. -/
theorem layer1_raw (W : Valuation τ sig (Elt F)) :
    after (ops3 ++ ops4) W (main_v127 : DevRef τ sig)
      = Cert.Spec.layer (W (main_v65 : DevRef τ sig)) (W (main_v1 : DevRef τ sig)) (W (main_v3 : DevRef τ sig)) (W (main_arg2 : DevRef τ sig))
          (shapeCast S32x128 (extractStridedSlice S1x32x128 ![1, 0, 0] (W (main_arg3 : DevRef τ sig)) slices_S3x32x128_S1x32x128_1_0_0) shapeCasts_S1x32x128_S32x128)
          (shapeCast S128 (extractStridedSlice S1x128 ![1, 0] (W (main_arg4 : DevRef τ sig)) slices_S3x128_S1x128_1_0) shapeCasts_S1x128_S128)
          (shapeCast S128x128 (extractStridedSlice S1x128x128 ![1, 0, 0] (W (main_arg5 : DevRef τ sig)) slices_S3x128x128_S1x128x128_1_0_0) shapeCasts_S1x128x128_S128x128)
          (shapeCast S128 (extractStridedSlice S1x128 ![1, 0] (W (main_arg6 : DevRef τ sig)) slices_S3x128_S1x128_1_0) shapeCasts_S1x128_S128)
          (shapeCast S128x128 (extractStridedSlice S1x128x128 ![1, 0, 0] (W (main_arg7 : DevRef τ sig)) slices_S3x128x128_S1x128x128_1_0_0) shapeCasts_S1x128x128_S128x128)
          (shapeCast S128 (extractStridedSlice S1x128 ![1, 0] (W (main_arg8 : DevRef τ sig)) slices_S3x128_S1x128_1_0) shapeCasts_S1x128_S128)
          (shapeCast S128 (extractStridedSlice S1x128 ![1, 0] (W (main_arg9 : DevRef τ sig)) slices_S3x128_S1x128_1_0) shapeCasts_S1x128_S128)
          (shapeCast S128 (extractStridedSlice S1x128 ![1, 0] (W (main_arg10 : DevRef τ sig)) slices_S3x128_S1x128_1_0) shapeCasts_S1x128_S128) := by
  simp only [ops3, ops4, List.cons_append, List.nil_append]
  after_results_simp
  rfl

attribute [local irreducible] Host.gather Host.scatterAdd Host.reduceAdd Host.divf Host.rsqrt in
set_option maxRecDepth 16384 in
set_option maxHeartbeats 1600000 in
/-- Layer 2's 96 operations, from any contents W: the output buffer holds one layer of the specification on W's
    input buffer, endpoint buffers, edge features and slice 2 of each stacked weight. -/
theorem layer2_raw (W : Valuation τ sig (Elt F)) :
    after (ops5 ++ ops6) W (main_v189 : DevRef τ sig)
      = Cert.Spec.layer (W (main_v127 : DevRef τ sig)) (W (main_v1 : DevRef τ sig)) (W (main_v3 : DevRef τ sig)) (W (main_arg2 : DevRef τ sig))
          (shapeCast S32x128 (extractStridedSlice S1x32x128 ![2, 0, 0] (W (main_arg3 : DevRef τ sig)) slices_S3x32x128_S1x32x128_2_0_0) shapeCasts_S1x32x128_S32x128)
          (shapeCast S128 (extractStridedSlice S1x128 ![2, 0] (W (main_arg4 : DevRef τ sig)) slices_S3x128_S1x128_2_0) shapeCasts_S1x128_S128)
          (shapeCast S128x128 (extractStridedSlice S1x128x128 ![2, 0, 0] (W (main_arg5 : DevRef τ sig)) slices_S3x128x128_S1x128x128_2_0_0) shapeCasts_S1x128x128_S128x128)
          (shapeCast S128 (extractStridedSlice S1x128 ![2, 0] (W (main_arg6 : DevRef τ sig)) slices_S3x128_S1x128_2_0) shapeCasts_S1x128_S128)
          (shapeCast S128x128 (extractStridedSlice S1x128x128 ![2, 0, 0] (W (main_arg7 : DevRef τ sig)) slices_S3x128x128_S1x128x128_2_0_0) shapeCasts_S1x128x128_S128x128)
          (shapeCast S128 (extractStridedSlice S1x128 ![2, 0] (W (main_arg8 : DevRef τ sig)) slices_S3x128_S1x128_2_0) shapeCasts_S1x128_S128)
          (shapeCast S128 (extractStridedSlice S1x128 ![2, 0] (W (main_arg9 : DevRef τ sig)) slices_S3x128_S1x128_2_0) shapeCasts_S1x128_S128)
          (shapeCast S128 (extractStridedSlice S1x128 ![2, 0] (W (main_arg10 : DevRef τ sig)) slices_S3x128_S1x128_2_0) shapeCasts_S1x128_S128) := by
  simp only [ops5, ops6, List.cons_append, List.nil_append]
  after_results_simp
  rfl

set_option maxRecDepth 8192 in
set_option maxHeartbeats 8000000 in
/-- Layer 0's operations leave the arguments and the two endpoint buffers as they were. -/
theorem keep0 (W : Valuation τ sig (Elt F)) :
    ∀ r ∈ ([main_arg0, main_arg1, main_arg2, main_arg3, main_arg4, main_arg5, main_arg6, main_arg7, main_arg8, main_arg9, main_arg10, main_v1, main_v3] : List (Ref sig .tc)), after (ops1 ++ ops2) W (r : DevRef τ sig) = W (r : DevRef τ sig) := by
  intro r hr
  simp only [List.mem_cons, List.not_mem_nil, or_false] at hr
  rcases hr with rfl | rfl | rfl | rfl | rfl | rfl | rfl | rfl | rfl | rfl | rfl | rfl | rfl
  all_goals (simp only [ops1, ops2, List.cons_append, List.nil_append]; after_results_simp)

set_option maxRecDepth 8192 in
set_option maxHeartbeats 8000000 in
/-- Layer 1's operations leave the arguments and the two endpoint buffers as they were. -/
theorem keep1 (W : Valuation τ sig (Elt F)) :
    ∀ r ∈ ([main_arg0, main_arg1, main_arg2, main_arg3, main_arg4, main_arg5, main_arg6, main_arg7, main_arg8, main_arg9, main_arg10, main_v1, main_v3] : List (Ref sig .tc)), after (ops3 ++ ops4) W (r : DevRef τ sig) = W (r : DevRef τ sig) := by
  intro r hr
  simp only [List.mem_cons, List.not_mem_nil, or_false] at hr
  rcases hr with rfl | rfl | rfl | rfl | rfl | rfl | rfl | rfl | rfl | rfl | rfl | rfl | rfl
  all_goals (simp only [ops3, ops4, List.cons_append, List.nil_append]; after_results_simp)

set_option maxRecDepth 8192 in
set_option maxHeartbeats 8000000 in
/-- Layer 2's operations leave the arguments and the two endpoint buffers as they were. -/
theorem keep2 (W : Valuation τ sig (Elt F)) :
    ∀ r ∈ ([main_arg0, main_arg1, main_arg2, main_arg3, main_arg4, main_arg5, main_arg6, main_arg7, main_arg8, main_arg9, main_arg10, main_v1, main_v3] : List (Ref sig .tc)), after (ops5 ++ ops6) W (r : DevRef τ sig) = W (r : DevRef τ sig) := by
  intro r hr
  simp only [List.mem_cons, List.not_mem_nil, or_false] at hr
  rcases hr with rfl | rfl | rfl | rfl | rfl | rfl | rfl | rfl | rfl | rfl | rfl | rfl | rfl
  all_goals (simp only [ops5, ops6, List.cons_append, List.nil_append]; after_results_simp)

/-! ## The three layers composed -/

/-- Contents W hold the arguments of V and, in the endpoint buffers, the two rows of V's edge index. -/
def Carries (V W : Valuation τ sig (Elt F)) : Prop :=
  (∀ r ∈ ([main_arg0, main_arg1, main_arg2, main_arg3, main_arg4, main_arg5, main_arg6, main_arg7, main_arg8, main_arg9, main_arg10] : List (Ref sig .tc)), W (r : DevRef τ sig) = V (r : DevRef τ sig))
    ∧ W (main_v1 : DevRef τ sig) = Cert.Spec.srcOf (V (main_arg1 : DevRef τ sig))
    ∧ W (main_v3 : DevRef τ sig) = Cert.Spec.dstOf (V (main_arg1 : DevRef τ sig))

theorem carries_pre (V : Valuation τ sig (Elt F)) : Carries V (after ops0 V) :=
  ⟨pre_keep V, pre_src V, pre_dst V⟩

private theorem mem13 {r : Ref sig .tc} (h : r ∈ ([main_arg0, main_arg1, main_arg2, main_arg3, main_arg4, main_arg5, main_arg6, main_arg7, main_arg8, main_arg9, main_arg10] : List (Ref sig .tc))) :
    r ∈ ([main_arg0, main_arg1, main_arg2, main_arg3, main_arg4, main_arg5, main_arg6, main_arg7, main_arg8, main_arg9, main_arg10, main_v1, main_v3] : List (Ref sig .tc)) := by
  simp only [List.mem_cons, List.not_mem_nil, or_false] at h ⊢
  rcases h with rfl | rfl | rfl | rfl | rfl | rfl | rfl | rfl | rfl | rfl | rfl <;> simp

theorem carries0 {V W : Valuation τ sig (Elt F)} (h : Carries V W) : Carries V (after (ops1 ++ ops2) W) :=
  ⟨fun r hr => (keep0 W r (mem13 hr)).trans (h.1 r hr), (keep0 W main_v1 (by simp)).trans h.2.1, (keep0 W main_v3 (by simp)).trans h.2.2⟩
theorem carries1 {V W : Valuation τ sig (Elt F)} (h : Carries V W) : Carries V (after (ops3 ++ ops4) W) :=
  ⟨fun r hr => (keep1 W r (mem13 hr)).trans (h.1 r hr), (keep1 W main_v1 (by simp)).trans h.2.1, (keep1 W main_v3 (by simp)).trans h.2.2⟩
theorem carries2 {V W : Valuation τ sig (Elt F)} (h : Carries V W) : Carries V (after (ops5 ++ ops6) W) :=
  ⟨fun r hr => (keep2 W r (mem13 hr)).trans (h.1 r hr), (keep2 W main_v1 (by simp)).trans h.2.1, (keep2 W main_v3 (by simp)).trans h.2.2⟩

/-- Layer 0 from contents carrying V's arguments: the specification's layer 0 of V's arguments. -/
theorem layer0_at {V W : Valuation τ sig (Elt F)} (h : Carries V W) :
    after (ops1 ++ ops2) W (main_v65 : DevRef τ sig) = Cert.Spec.layerAt0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [layer0_raw, h.2.1, h.2.2, h.1 main_arg0 (by simp), h.1 main_arg2 (by simp), h.1 main_arg3 (by simp), h.1 main_arg4 (by simp), h.1 main_arg5 (by simp),
    h.1 main_arg6 (by simp), h.1 main_arg7 (by simp), h.1 main_arg8 (by simp), h.1 main_arg9 (by simp), h.1 main_arg10 (by simp)]
  rfl

/-- Layer 1 from contents carrying V's arguments: the specification's layer 1 on what layer 0's output buffer holds. -/
theorem layer1_at {V W : Valuation τ sig (Elt F)} (h : Carries V W) :
    after (ops3 ++ ops4) W (main_v127 : DevRef τ sig) = Cert.Spec.layerAt1 (W (main_v65 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [layer1_raw, h.2.1, h.2.2, h.1 main_arg2 (by simp), h.1 main_arg3 (by simp), h.1 main_arg4 (by simp), h.1 main_arg5 (by simp),
    h.1 main_arg6 (by simp), h.1 main_arg7 (by simp), h.1 main_arg8 (by simp), h.1 main_arg9 (by simp), h.1 main_arg10 (by simp)]
  rfl

/-- Layer 2 from contents carrying V's arguments: the specification's layer 2 on what layer 1's output buffer holds. -/
theorem layer2_at {V W : Valuation τ sig (Elt F)} (h : Carries V W) :
    after (ops5 ++ ops6) W (main_v189 : DevRef τ sig) = Cert.Spec.layerAt2 (W (main_v127 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [layer2_raw, h.2.1, h.2.2, h.1 main_arg2 (by simp), h.1 main_arg3 (by simp), h.1 main_arg4 (by simp), h.1 main_arg5 (by simp),
    h.1 main_arg6 (by simp), h.1 main_arg7 (by simp), h.1 main_arg8 (by simp), h.1 main_arg9 (by simp), h.1 main_arg10 (by simp)]
  rfl

/-- The operations grouped: the prelude, then the three layers. -/
theorem ops_split : (ops : List (HloOp τ sig (Elt F))) = ops0 ++ ((ops1 ++ ops2) ++ ((ops3 ++ ops4) ++ (ops5 ++ ops6))) := by
  simp only [ops, List.append_assoc]

/-- The result buffer after the whole line: the specification's network of the arguments. -/
theorem out_eq (V : Valuation τ sig (Elt F)) :
    after ops V (main_v189 : DevRef τ sig) = Cert.Spec.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [ops_split, after_append, after_append, after_append,
    layer2_at (carries1 (carries0 (carries_pre V))), layer1_at (carries0 (carries_pre V)), layer0_at (carries_pre V)]
  rfl

/-- The whole line leaves every argument as it was. -/
theorem args_eq (V : Valuation τ sig (Elt F)) :
    ∀ r ∈ ([main_arg0, main_arg1, main_arg2, main_arg3, main_arg4, main_arg5, main_arg6, main_arg7, main_arg8, main_arg9, main_arg10] : List (Ref sig .tc)), after ops V (r : DevRef τ sig) = V (r : DevRef τ sig) := by
  intro r hr
  rw [ops_split, after_append, after_append, after_append]
  exact (carries2 (carries1 (carries0 (carries_pre V)))).1 r hr

theorem arg0_eq (V : Valuation τ sig (Elt F)) : after ops V (main_arg0 : DevRef τ sig) = V (main_arg0 : DevRef τ sig) :=
  args_eq V main_arg0 (by simp)
theorem arg1_eq (V : Valuation τ sig (Elt F)) : after ops V (main_arg1 : DevRef τ sig) = V (main_arg1 : DevRef τ sig) :=
  args_eq V main_arg1 (by simp)
theorem arg2_eq (V : Valuation τ sig (Elt F)) : after ops V (main_arg2 : DevRef τ sig) = V (main_arg2 : DevRef τ sig) :=
  args_eq V main_arg2 (by simp)
theorem arg3_eq (V : Valuation τ sig (Elt F)) : after ops V (main_arg3 : DevRef τ sig) = V (main_arg3 : DevRef τ sig) :=
  args_eq V main_arg3 (by simp)
theorem arg4_eq (V : Valuation τ sig (Elt F)) : after ops V (main_arg4 : DevRef τ sig) = V (main_arg4 : DevRef τ sig) :=
  args_eq V main_arg4 (by simp)
theorem arg5_eq (V : Valuation τ sig (Elt F)) : after ops V (main_arg5 : DevRef τ sig) = V (main_arg5 : DevRef τ sig) :=
  args_eq V main_arg5 (by simp)
theorem arg6_eq (V : Valuation τ sig (Elt F)) : after ops V (main_arg6 : DevRef τ sig) = V (main_arg6 : DevRef τ sig) :=
  args_eq V main_arg6 (by simp)
theorem arg7_eq (V : Valuation τ sig (Elt F)) : after ops V (main_arg7 : DevRef τ sig) = V (main_arg7 : DevRef τ sig) :=
  args_eq V main_arg7 (by simp)
theorem arg8_eq (V : Valuation τ sig (Elt F)) : after ops V (main_arg8 : DevRef τ sig) = V (main_arg8 : DevRef τ sig) :=
  args_eq V main_arg8 (by simp)
theorem arg9_eq (V : Valuation τ sig (Elt F)) : after ops V (main_arg9 : DevRef τ sig) = V (main_arg9 : DevRef τ sig) :=
  args_eq V main_arg9 (by simp)
theorem arg10_eq (V : Valuation τ sig (Elt F)) : after ops V (main_arg10 : DevRef τ sig) = V (main_arg10 : DevRef τ sig) :=
  args_eq V main_arg10 (by simp)

end Cert.ReferenceIdeal.RefVal

end
-- ==== Proof.lean ====
/-
  The certificate: the three frames, the (empty) idealization ledger, and the algebraic claim.

  Both idealized programs compute, at the extended reals, three message-passing layers on the arguments: per layer the
  edge features are lifted by a linear map, added to the node features gathered at the edges' sources, clipped at zero
  and summed into the edges' destinations; the node features plus that aggregate go through a two-layer network and a
  batch normalisation (column mean and variance over all nodes) clipped at zero. The kernel program first sorts the
  edges by destination and computes the lift, the network and the normalisation in blocks of rows; a sum over edges
  does not depend on their order and a row block of a matrix product is the product of the row block, so its result is
  the same function of the arguments (Proof/KVal.lean over Proof/Bridge.lean and the region modules), which is also
  what the reference's operations compose to (Proof/RefVal.lean). The source indices are assumed in range: outside it
  the kernel's gather fills a row where the reference's clamps the index.
-/
import proofs.«418803_j51642686767905_2_alg».proof.Defs
import proofs.«418803_j51642686767905_2_alg».proof.Proof.Gen.Kernel
import proofs.«418803_j51642686767905_2_alg».proof.Proof.Gen.Kernel.Skeleton
import proofs.«418803_j51642686767905_2_alg».proof.Proof.Gen.Kernel.Launch
import proofs.«418803_j51642686767905_2_alg».proof.Proof.Gen.Kernel.Points
import proofs.«418803_j51642686767905_2_alg».proof.Proof.Gen.Kernel.Frame
import proofs.«418803_j51642686767905_2_alg».proof.Proof.Gen.KernelIdeal
import proofs.«418803_j51642686767905_2_alg».proof.Proof.Gen.KernelIdeal.Skeleton
import proofs.«418803_j51642686767905_2_alg».proof.Proof.Gen.KernelIdeal.Launch
import proofs.«418803_j51642686767905_2_alg».proof.Proof.Gen.KernelIdeal.Points
import proofs.«418803_j51642686767905_2_alg».proof.Proof.Gen.KernelIdeal.Frame
import proofs.«418803_j51642686767905_2_alg».proof.Proof.Gen.ReferenceIdeal
import proofs.«418803_j51642686767905_2_alg».proof.Proof.Gen.Pre_finite_inputs
import proofs.«418803_j51642686767905_2_alg».proof.Proof.KRun
import proofs.«418803_j51642686767905_2_alg».proof.Proof.KVal
import proofs.«418803_j51642686767905_2_alg».proof.Proof.RefRun
import proofs.«418803_j51642686767905_2_alg».proof.Proof.RefVal
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: every buffer ends at the operations' fold, and no operation writes an argument. -/
theorem frame_ri : Cert.frame_ReferenceIdeal := fun m ρ _ =>
  (θ_run Cert.ReferenceIdeal.defs _ _).mono
    (fun r h c => ⟨(h c _).trans (Cert.ReferenceIdeal.RefVal.arg0_eq _), (h c _).trans (Cert.ReferenceIdeal.RefVal.arg1_eq _),
      (h c _).trans (Cert.ReferenceIdeal.RefVal.arg2_eq _), (h c _).trans (Cert.ReferenceIdeal.RefVal.arg3_eq _),
      (h c _).trans (Cert.ReferenceIdeal.RefVal.arg4_eq _), (h c _).trans (Cert.ReferenceIdeal.RefVal.arg5_eq _),
      (h c _).trans (Cert.ReferenceIdeal.RefVal.arg6_eq _), (h c _).trans (Cert.ReferenceIdeal.RefVal.arg7_eq _),
      (h c _).trans (Cert.ReferenceIdeal.RefVal.arg8_eq _), (h c _).trans (Cert.ReferenceIdeal.RefVal.arg9_eq _),
      (h c _).trans (Cert.ReferenceIdeal.RefVal.arg10_eq _)⟩)
    (Cert.ReferenceIdeal.RefRun.run_main (F := Ideal) m ρ)

/-- The ideal pass rewrote nothing. -/
theorem preserves : Cert.preserves_Kernel_KernelIdeal := trivial

/-- Both runs end with the specification's network of the arguments in their result buffers. -/
theorem algebraic : Cert.algebraic_KernelIdeal_ReferenceIdeal := by
  intro m ρ m' ρ' hpre hagree
  refine ⟨fun c => Cert.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KVal.value m ρ hpre c), (h c).2⟩)
      (Cert.KernelIdeal.KRun.run_main (F := Ideal) m ρ)
  · refine (θ_run Cert.ReferenceIdeal.defs _ _).mono (fun r h c => ⟨?_, (h c _).trans (Cert.ReferenceIdeal.RefVal.arg0_eq _),
      (h c _).trans (Cert.ReferenceIdeal.RefVal.arg1_eq _), (h c _).trans (Cert.ReferenceIdeal.RefVal.arg2_eq _),
      (h c _).trans (Cert.ReferenceIdeal.RefVal.arg3_eq _), (h c _).trans (Cert.ReferenceIdeal.RefVal.arg4_eq _),
      (h c _).trans (Cert.ReferenceIdeal.RefVal.arg5_eq _), (h c _).trans (Cert.ReferenceIdeal.RefVal.arg6_eq _),
      (h c _).trans (Cert.ReferenceIdeal.RefVal.arg7_eq _), (h c _).trans (Cert.ReferenceIdeal.RefVal.arg8_eq _),
      (h c _).trans (Cert.ReferenceIdeal.RefVal.arg9_eq _), (h c _).trans (Cert.ReferenceIdeal.RefVal.arg10_eq _)⟩)
      (Cert.ReferenceIdeal.RefRun.run_main (F := Ideal) m' ρ')
    refine (h c _).trans ((Cert.ReferenceIdeal.RefVal.out_eq _).trans ?_)
    obtain ⟨e0, e1, e2, e3, e4, e5, e6, e7, e8, e9, e10⟩ := hagree c
    dsimp only
    rw [← e0, ← e1, ← e2, ← e3, ← e4, ← e5, ← e6, ← e7, ← e8, ← e9, ← e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
